-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S16384x1024 : Shape := ⟨2, ![16384, 1024]⟩
abbrev S32768x1024 : Shape := ⟨2, ![32768, 1024]⟩
abbrev S4x1024x1024 : Shape := ⟨3, ![4, 1024, 1024]⟩
abbrev S4 : Shape := ⟨1, ![4]⟩
abbrev S64 : Shape := ⟨1, ![64]⟩
abbrev S_ : Shape := ⟨0, ![]⟩
abbrev S1 : Shape := ⟨1, ![1]⟩
abbrev S128x1024 : Shape := ⟨2, ![128, 1024]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S4x1024x1024, .f32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 264 → Bool
  | ⟨i, _⟩ => dmaSemScopedAt i

abbrev sig : RefSig :=
  (ofTc nBuf bufTy 1 264 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_17 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v17 : BitVec 32 := Scalar.muli v2 c16384_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v18 : BitVec 32 := Scalar.muli v5 c8192_i32
  let v19 : BitVec 32 := Scalar.addi v17 v18
  let v26 : BitVec 32 := Scalar.addi v19 c0_i32_17
  let c0_i32_23 : BitVec 32 := 0#32
  ![v26.toNat, 0]
def k0_off2 (d0 : Dev nD) (c0_i32_16 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_15 : BitVec 32 := 8192#32
  let v24 : BitVec 32 := Scalar.muli v5 c8192_i32_15
  let v25 : BitVec 32 := Scalar.addi v24 c0_i32_16
  let c0_i32_24 : BitVec 32 := 0#32
  ![v25.toNat, 0]
def k0_dev3 (d0 : Dev nD) : Nat :=
  let c0_i32_21 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_20 : BitVec 32 := 2#32
  let v27 : BitVec 32 := Scalar.muli v6 c2_i32_20
  let v28 : BitVec 32 := Scalar.addi c0_i32_21 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v29 : BitVec 32 := Scalar.muli v5 c1_i32_22
  let v30 : BitVec 32 := Scalar.addi v28 v29
  v30.toNat
def k0_dev4 (d0 : Dev nD) : Nat :=
  let c0_i32_30 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_29 : BitVec 32 := 2#32
  let v40 : BitVec 32 := Scalar.muli v6 c2_i32_29
  let v41 : BitVec 32 := Scalar.addi c0_i32_30 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v42 : BitVec 32 := Scalar.muli v5 c1_i32_31
  let v43 : BitVec 32 := Scalar.addi v41 v42
  v43.toNat
def k0_dev5 (d0 : Dev nD) : Nat :=
  let c0_i32_39 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v53 : BitVec 32 := Scalar.muli v6 c2_i32_38
  let v54 : BitVec 32 := Scalar.addi c0_i32_39 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v55 : BitVec 32 := Scalar.muli v5 c1_i32_40
  let v56 : BitVec 32 := Scalar.addi v54 v55
  v56.toNat
def k0_dev6 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v66 : BitVec 32 := Scalar.muli v6 c2_i32_46
  let v67 : BitVec 32 := Scalar.addi c0_i32_47 v66
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v68 : BitVec 32 := Scalar.muli v5 c1_i32_48
  let v69 : BitVec 32 := Scalar.addi v67 v68
  v69.toNat
def k0_dev7 (d0 : Dev nD) : Nat :=
  let c0_i32_55 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_54 : BitVec 32 := 2#32
  let v79 : BitVec 32 := Scalar.muli v6 c2_i32_54
  let v80 : BitVec 32 := Scalar.addi c0_i32_55 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v81 : BitVec 32 := Scalar.muli v5 c1_i32_56
  let v82 : BitVec 32 := Scalar.addi v80 v81
  v82.toNat
def k0_dev8 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v92 : BitVec 32 := Scalar.muli v6 c2_i32_62
  let v93 : BitVec 32 := Scalar.addi c0_i32_63 v92
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v94 : BitVec 32 := Scalar.muli v5 c1_i32_64
  let v95 : BitVec 32 := Scalar.addi v93 v94
  v95.toNat
def k0_dev9 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v105 : BitVec 32 := Scalar.muli v6 c2_i32_70
  let v106 : BitVec 32 := Scalar.addi c0_i32_71 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v107 : BitVec 32 := Scalar.muli v5 c1_i32_72
  let v108 : BitVec 32 := Scalar.addi v106 v107
  v108.toNat
def k0_dev10 (d0 : Dev nD) : Nat :=
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_78 : BitVec 32 := 2#32
  let v118 : BitVec 32 := Scalar.muli v6 c2_i32_78
  let v119 : BitVec 32 := Scalar.addi c0_i32_79 v118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v120 : BitVec 32 := Scalar.muli v5 c1_i32_80
  let v121 : BitVec 32 := Scalar.addi v119 v120
  v121.toNat
def k0_dev11 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v131 : BitVec 32 := Scalar.muli v6 c2_i32_86
  let v132 : BitVec 32 := Scalar.addi c0_i32_87 v131
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v133 : BitVec 32 := Scalar.muli v5 c1_i32_88
  let v134 : BitVec 32 := Scalar.addi v132 v133
  v134.toNat
def k0_dev12 (d0 : Dev nD) : Nat :=
  let c0_i32_95 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_94 : BitVec 32 := 2#32
  let v144 : BitVec 32 := Scalar.muli v6 c2_i32_94
  let v145 : BitVec 32 := Scalar.addi c0_i32_95 v144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_96 : BitVec 32 := 1#32
  let v146 : BitVec 32 := Scalar.muli v5 c1_i32_96
  let v147 : BitVec 32 := Scalar.addi v145 v146
  v147.toNat
def k0_dev13 (d0 : Dev nD) : Nat :=
  let c0_i32_103 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_102 : BitVec 32 := 2#32
  let v157 : BitVec 32 := Scalar.muli v6 c2_i32_102
  let v158 : BitVec 32 := Scalar.addi c0_i32_103 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_104 : BitVec 32 := 1#32
  let v159 : BitVec 32 := Scalar.muli v5 c1_i32_104
  let v160 : BitVec 32 := Scalar.addi v158 v159
  v160.toNat
def k0_dev14 (d0 : Dev nD) : Nat :=
  let c0_i32_111 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_110 : BitVec 32 := 2#32
  let v170 : BitVec 32 := Scalar.muli v6 c2_i32_110
  let v171 : BitVec 32 := Scalar.addi c0_i32_111 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v172 : BitVec 32 := Scalar.muli v5 c1_i32_112
  let v173 : BitVec 32 := Scalar.addi v171 v172
  v173.toNat
def k0_dev15 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v183 : BitVec 32 := Scalar.muli v6 c2_i32_118
  let v184 : BitVec 32 := Scalar.addi c0_i32_119 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v185 : BitVec 32 := Scalar.muli v5 c1_i32_120
  let v186 : BitVec 32 := Scalar.addi v184 v185
  v186.toNat
def k0_dev16 (d0 : Dev nD) : Nat :=
  let c0_i32_127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_126 : BitVec 32 := 2#32
  let v196 : BitVec 32 := Scalar.muli v6 c2_i32_126
  let v197 : BitVec 32 := Scalar.addi c0_i32_127 v196
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v198 : BitVec 32 := Scalar.muli v5 c1_i32_128
  let v199 : BitVec 32 := Scalar.addi v197 v198
  v199.toNat
def k0_dev17 (d0 : Dev nD) : Nat :=
  let c0_i32_135 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_134 : BitVec 32 := 2#32
  let v209 : BitVec 32 := Scalar.muli v6 c2_i32_134
  let v210 : BitVec 32 := Scalar.addi c0_i32_135 v209
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v211 : BitVec 32 := Scalar.muli v5 c1_i32_136
  let v212 : BitVec 32 := Scalar.addi v210 v211
  v212.toNat
def k0_dev18 (d0 : Dev nD) : Nat :=
  let c0_i32_143 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_142 : BitVec 32 := 2#32
  let v222 : BitVec 32 := Scalar.muli v6 c2_i32_142
  let v223 : BitVec 32 := Scalar.addi c0_i32_143 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_144 : BitVec 32 := 1#32
  let v224 : BitVec 32 := Scalar.muli v5 c1_i32_144
  let v225 : BitVec 32 := Scalar.addi v223 v224
  v225.toNat
def k0_dev19 (d0 : Dev nD) : Nat :=
  let c0_i32_151 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_150 : BitVec 32 := 2#32
  let v235 : BitVec 32 := Scalar.muli v6 c2_i32_150
  let v236 : BitVec 32 := Scalar.addi c0_i32_151 v235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_152 : BitVec 32 := 1#32
  let v237 : BitVec 32 := Scalar.muli v5 c1_i32_152
  let v238 : BitVec 32 := Scalar.addi v236 v237
  v238.toNat
def k0_dev20 (d0 : Dev nD) : Nat :=
  let c0_i32_159 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_158 : BitVec 32 := 2#32
  let v248 : BitVec 32 := Scalar.muli v6 c2_i32_158
  let v249 : BitVec 32 := Scalar.addi c0_i32_159 v248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_160 : BitVec 32 := 1#32
  let v250 : BitVec 32 := Scalar.muli v5 c1_i32_160
  let v251 : BitVec 32 := Scalar.addi v249 v250
  v251.toNat
def k0_dev21 (d0 : Dev nD) : Nat :=
  let c0_i32_167 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_166 : BitVec 32 := 2#32
  let v261 : BitVec 32 := Scalar.muli v6 c2_i32_166
  let v262 : BitVec 32 := Scalar.addi c0_i32_167 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_168 : BitVec 32 := 1#32
  let v263 : BitVec 32 := Scalar.muli v5 c1_i32_168
  let v264 : BitVec 32 := Scalar.addi v262 v263
  v264.toNat
def k0_dev22 (d0 : Dev nD) : Nat :=
  let c0_i32_175 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_174 : BitVec 32 := 2#32
  let v274 : BitVec 32 := Scalar.muli v6 c2_i32_174
  let v275 : BitVec 32 := Scalar.addi c0_i32_175 v274
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_176 : BitVec 32 := 1#32
  let v276 : BitVec 32 := Scalar.muli v5 c1_i32_176
  let v277 : BitVec 32 := Scalar.addi v275 v276
  v277.toNat
def k0_dev23 (d0 : Dev nD) : Nat :=
  let c0_i32_183 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_182 : BitVec 32 := 2#32
  let v287 : BitVec 32 := Scalar.muli v6 c2_i32_182
  let v288 : BitVec 32 := Scalar.addi c0_i32_183 v287
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v289 : BitVec 32 := Scalar.muli v5 c1_i32_184
  let v290 : BitVec 32 := Scalar.addi v288 v289
  v290.toNat
def k0_dev24 (d0 : Dev nD) : Nat :=
  let c0_i32_191 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_190 : BitVec 32 := 2#32
  let v300 : BitVec 32 := Scalar.muli v6 c2_i32_190
  let v301 : BitVec 32 := Scalar.addi c0_i32_191 v300
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_192 : BitVec 32 := 1#32
  let v302 : BitVec 32 := Scalar.muli v5 c1_i32_192
  let v303 : BitVec 32 := Scalar.addi v301 v302
  v303.toNat
def k0_dev25 (d0 : Dev nD) : Nat :=
  let c0_i32_199 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_198 : BitVec 32 := 2#32
  let v313 : BitVec 32 := Scalar.muli v6 c2_i32_198
  let v314 : BitVec 32 := Scalar.addi c0_i32_199 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_200 : BitVec 32 := 1#32
  let v315 : BitVec 32 := Scalar.muli v5 c1_i32_200
  let v316 : BitVec 32 := Scalar.addi v314 v315
  v316.toNat
def k0_dev26 (d0 : Dev nD) : Nat :=
  let c0_i32_207 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_206 : BitVec 32 := 2#32
  let v326 : BitVec 32 := Scalar.muli v6 c2_i32_206
  let v327 : BitVec 32 := Scalar.addi c0_i32_207 v326
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_208 : BitVec 32 := 1#32
  let v328 : BitVec 32 := Scalar.muli v5 c1_i32_208
  let v329 : BitVec 32 := Scalar.addi v327 v328
  v329.toNat
def k0_dev27 (d0 : Dev nD) : Nat :=
  let c0_i32_215 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_214 : BitVec 32 := 2#32
  let v339 : BitVec 32 := Scalar.muli v6 c2_i32_214
  let v340 : BitVec 32 := Scalar.addi c0_i32_215 v339
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_216 : BitVec 32 := 1#32
  let v341 : BitVec 32 := Scalar.muli v5 c1_i32_216
  let v342 : BitVec 32 := Scalar.addi v340 v341
  v342.toNat
def k0_dev28 (d0 : Dev nD) : Nat :=
  let c0_i32_223 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_222 : BitVec 32 := 2#32
  let v352 : BitVec 32 := Scalar.muli v6 c2_i32_222
  let v353 : BitVec 32 := Scalar.addi c0_i32_223 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_224 : BitVec 32 := 1#32
  let v354 : BitVec 32 := Scalar.muli v5 c1_i32_224
  let v355 : BitVec 32 := Scalar.addi v353 v354
  v355.toNat
def k0_dev29 (d0 : Dev nD) : Nat :=
  let c0_i32_231 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_230 : BitVec 32 := 2#32
  let v365 : BitVec 32 := Scalar.muli v6 c2_i32_230
  let v366 : BitVec 32 := Scalar.addi c0_i32_231 v365
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v367 : BitVec 32 := Scalar.muli v5 c1_i32_232
  let v368 : BitVec 32 := Scalar.addi v366 v367
  v368.toNat
def k0_dev30 (d0 : Dev nD) : Nat :=
  let c0_i32_239 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_238 : BitVec 32 := 2#32
  let v378 : BitVec 32 := Scalar.muli v6 c2_i32_238
  let v379 : BitVec 32 := Scalar.addi c0_i32_239 v378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_240 : BitVec 32 := 1#32
  let v380 : BitVec 32 := Scalar.muli v5 c1_i32_240
  let v381 : BitVec 32 := Scalar.addi v379 v380
  v381.toNat
def k0_dev31 (d0 : Dev nD) : Nat :=
  let c0_i32_247 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_246 : BitVec 32 := 2#32
  let v391 : BitVec 32 := Scalar.muli v6 c2_i32_246
  let v392 : BitVec 32 := Scalar.addi c0_i32_247 v391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_248 : BitVec 32 := 1#32
  let v393 : BitVec 32 := Scalar.muli v5 c1_i32_248
  let v394 : BitVec 32 := Scalar.addi v392 v393
  v394.toNat
def k0_dev32 (d0 : Dev nD) : Nat :=
  let c0_i32_255 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_254 : BitVec 32 := 2#32
  let v404 : BitVec 32 := Scalar.muli v6 c2_i32_254
  let v405 : BitVec 32 := Scalar.addi c0_i32_255 v404
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v406 : BitVec 32 := Scalar.muli v5 c1_i32_256
  let v407 : BitVec 32 := Scalar.addi v405 v406
  v407.toNat
def k0_dev33 (d0 : Dev nD) : Nat :=
  let c0_i32_263 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_262 : BitVec 32 := 2#32
  let v417 : BitVec 32 := Scalar.muli v6 c2_i32_262
  let v418 : BitVec 32 := Scalar.addi c0_i32_263 v417
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_264 : BitVec 32 := 1#32
  let v419 : BitVec 32 := Scalar.muli v5 c1_i32_264
  let v420 : BitVec 32 := Scalar.addi v418 v419
  v420.toNat
def k0_dev34 (d0 : Dev nD) : Nat :=
  let c0_i32_271 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_270 : BitVec 32 := 2#32
  let v430 : BitVec 32 := Scalar.muli v6 c2_i32_270
  let v431 : BitVec 32 := Scalar.addi c0_i32_271 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_272 : BitVec 32 := 1#32
  let v432 : BitVec 32 := Scalar.muli v5 c1_i32_272
  let v433 : BitVec 32 := Scalar.addi v431 v432
  v433.toNat
def k0_dev35 (d0 : Dev nD) : Nat :=
  let c0_i32_279 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_278 : BitVec 32 := 2#32
  let v443 : BitVec 32 := Scalar.muli v6 c2_i32_278
  let v444 : BitVec 32 := Scalar.addi c0_i32_279 v443
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_280 : BitVec 32 := 1#32
  let v445 : BitVec 32 := Scalar.muli v5 c1_i32_280
  let v446 : BitVec 32 := Scalar.addi v444 v445
  v446.toNat
def k0_dev36 (d0 : Dev nD) : Nat :=
  let c0_i32_287 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_286 : BitVec 32 := 2#32
  let v456 : BitVec 32 := Scalar.muli v6 c2_i32_286
  let v457 : BitVec 32 := Scalar.addi c0_i32_287 v456
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_288 : BitVec 32 := 1#32
  let v458 : BitVec 32 := Scalar.muli v5 c1_i32_288
  let v459 : BitVec 32 := Scalar.addi v457 v458
  v459.toNat
def k0_dev37 (d0 : Dev nD) : Nat :=
  let c0_i32_295 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_294 : BitVec 32 := 2#32
  let v469 : BitVec 32 := Scalar.muli v6 c2_i32_294
  let v470 : BitVec 32 := Scalar.addi c0_i32_295 v469
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_296 : BitVec 32 := 1#32
  let v471 : BitVec 32 := Scalar.muli v5 c1_i32_296
  let v472 : BitVec 32 := Scalar.addi v470 v471
  v472.toNat
def k0_dev38 (d0 : Dev nD) : Nat :=
  let c0_i32_303 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_302 : BitVec 32 := 2#32
  let v482 : BitVec 32 := Scalar.muli v6 c2_i32_302
  let v483 : BitVec 32 := Scalar.addi c0_i32_303 v482
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_304 : BitVec 32 := 1#32
  let v484 : BitVec 32 := Scalar.muli v5 c1_i32_304
  let v485 : BitVec 32 := Scalar.addi v483 v484
  v485.toNat
def k0_dev39 (d0 : Dev nD) : Nat :=
  let c0_i32_311 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_310 : BitVec 32 := 2#32
  let v495 : BitVec 32 := Scalar.muli v6 c2_i32_310
  let v496 : BitVec 32 := Scalar.addi c0_i32_311 v495
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_312 : BitVec 32 := 1#32
  let v497 : BitVec 32 := Scalar.muli v5 c1_i32_312
  let v498 : BitVec 32 := Scalar.addi v496 v497
  v498.toNat
def k0_dev40 (d0 : Dev nD) : Nat :=
  let c0_i32_319 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_318 : BitVec 32 := 2#32
  let v508 : BitVec 32 := Scalar.muli v6 c2_i32_318
  let v509 : BitVec 32 := Scalar.addi c0_i32_319 v508
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_320 : BitVec 32 := 1#32
  let v510 : BitVec 32 := Scalar.muli v5 c1_i32_320
  let v511 : BitVec 32 := Scalar.addi v509 v510
  v511.toNat
def k0_dev41 (d0 : Dev nD) : Nat :=
  let c0_i32_327 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_326 : BitVec 32 := 2#32
  let v521 : BitVec 32 := Scalar.muli v6 c2_i32_326
  let v522 : BitVec 32 := Scalar.addi c0_i32_327 v521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_328 : BitVec 32 := 1#32
  let v523 : BitVec 32 := Scalar.muli v5 c1_i32_328
  let v524 : BitVec 32 := Scalar.addi v522 v523
  v524.toNat
def k0_dev42 (d0 : Dev nD) : Nat :=
  let c0_i32_335 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_334 : BitVec 32 := 2#32
  let v534 : BitVec 32 := Scalar.muli v6 c2_i32_334
  let v535 : BitVec 32 := Scalar.addi c0_i32_335 v534
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_336 : BitVec 32 := 1#32
  let v536 : BitVec 32 := Scalar.muli v5 c1_i32_336
  let v537 : BitVec 32 := Scalar.addi v535 v536
  v537.toNat
def k0_dev43 (d0 : Dev nD) : Nat :=
  let c0_i32_343 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_342 : BitVec 32 := 2#32
  let v547 : BitVec 32 := Scalar.muli v6 c2_i32_342
  let v548 : BitVec 32 := Scalar.addi c0_i32_343 v547
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_344 : BitVec 32 := 1#32
  let v549 : BitVec 32 := Scalar.muli v5 c1_i32_344
  let v550 : BitVec 32 := Scalar.addi v548 v549
  v550.toNat
def k0_dev44 (d0 : Dev nD) : Nat :=
  let c0_i32_351 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_350 : BitVec 32 := 2#32
  let v560 : BitVec 32 := Scalar.muli v6 c2_i32_350
  let v561 : BitVec 32 := Scalar.addi c0_i32_351 v560
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_352 : BitVec 32 := 1#32
  let v562 : BitVec 32 := Scalar.muli v5 c1_i32_352
  let v563 : BitVec 32 := Scalar.addi v561 v562
  v563.toNat
def k0_dev45 (d0 : Dev nD) : Nat :=
  let c0_i32_359 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_358 : BitVec 32 := 2#32
  let v573 : BitVec 32 := Scalar.muli v6 c2_i32_358
  let v574 : BitVec 32 := Scalar.addi c0_i32_359 v573
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_360 : BitVec 32 := 1#32
  let v575 : BitVec 32 := Scalar.muli v5 c1_i32_360
  let v576 : BitVec 32 := Scalar.addi v574 v575
  v576.toNat
def k0_dev46 (d0 : Dev nD) : Nat :=
  let c0_i32_367 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_366 : BitVec 32 := 2#32
  let v586 : BitVec 32 := Scalar.muli v6 c2_i32_366
  let v587 : BitVec 32 := Scalar.addi c0_i32_367 v586
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_368 : BitVec 32 := 1#32
  let v588 : BitVec 32 := Scalar.muli v5 c1_i32_368
  let v589 : BitVec 32 := Scalar.addi v587 v588
  v589.toNat
def k0_dev47 (d0 : Dev nD) : Nat :=
  let c0_i32_375 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_374 : BitVec 32 := 2#32
  let v599 : BitVec 32 := Scalar.muli v6 c2_i32_374
  let v600 : BitVec 32 := Scalar.addi c0_i32_375 v599
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_376 : BitVec 32 := 1#32
  let v601 : BitVec 32 := Scalar.muli v5 c1_i32_376
  let v602 : BitVec 32 := Scalar.addi v600 v601
  v602.toNat
def k0_dev48 (d0 : Dev nD) : Nat :=
  let c0_i32_383 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_382 : BitVec 32 := 2#32
  let v612 : BitVec 32 := Scalar.muli v6 c2_i32_382
  let v613 : BitVec 32 := Scalar.addi c0_i32_383 v612
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_384 : BitVec 32 := 1#32
  let v614 : BitVec 32 := Scalar.muli v5 c1_i32_384
  let v615 : BitVec 32 := Scalar.addi v613 v614
  v615.toNat
def k0_dev49 (d0 : Dev nD) : Nat :=
  let c0_i32_391 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_390 : BitVec 32 := 2#32
  let v625 : BitVec 32 := Scalar.muli v6 c2_i32_390
  let v626 : BitVec 32 := Scalar.addi c0_i32_391 v625
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_392 : BitVec 32 := 1#32
  let v627 : BitVec 32 := Scalar.muli v5 c1_i32_392
  let v628 : BitVec 32 := Scalar.addi v626 v627
  v628.toNat
def k0_dev50 (d0 : Dev nD) : Nat :=
  let c0_i32_399 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_398 : BitVec 32 := 2#32
  let v638 : BitVec 32 := Scalar.muli v6 c2_i32_398
  let v639 : BitVec 32 := Scalar.addi c0_i32_399 v638
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_400 : BitVec 32 := 1#32
  let v640 : BitVec 32 := Scalar.muli v5 c1_i32_400
  let v641 : BitVec 32 := Scalar.addi v639 v640
  v641.toNat
def k0_dev51 (d0 : Dev nD) : Nat :=
  let c0_i32_407 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_406 : BitVec 32 := 2#32
  let v651 : BitVec 32 := Scalar.muli v6 c2_i32_406
  let v652 : BitVec 32 := Scalar.addi c0_i32_407 v651
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_408 : BitVec 32 := 1#32
  let v653 : BitVec 32 := Scalar.muli v5 c1_i32_408
  let v654 : BitVec 32 := Scalar.addi v652 v653
  v654.toNat
def k0_dev52 (d0 : Dev nD) : Nat :=
  let c0_i32_415 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_414 : BitVec 32 := 2#32
  let v664 : BitVec 32 := Scalar.muli v6 c2_i32_414
  let v665 : BitVec 32 := Scalar.addi c0_i32_415 v664
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_416 : BitVec 32 := 1#32
  let v666 : BitVec 32 := Scalar.muli v5 c1_i32_416
  let v667 : BitVec 32 := Scalar.addi v665 v666
  v667.toNat
def k0_dev53 (d0 : Dev nD) : Nat :=
  let c0_i32_423 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_422 : BitVec 32 := 2#32
  let v677 : BitVec 32 := Scalar.muli v6 c2_i32_422
  let v678 : BitVec 32 := Scalar.addi c0_i32_423 v677
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_424 : BitVec 32 := 1#32
  let v679 : BitVec 32 := Scalar.muli v5 c1_i32_424
  let v680 : BitVec 32 := Scalar.addi v678 v679
  v680.toNat
def k0_dev54 (d0 : Dev nD) : Nat :=
  let c0_i32_431 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_430 : BitVec 32 := 2#32
  let v690 : BitVec 32 := Scalar.muli v6 c2_i32_430
  let v691 : BitVec 32 := Scalar.addi c0_i32_431 v690
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_432 : BitVec 32 := 1#32
  let v692 : BitVec 32 := Scalar.muli v5 c1_i32_432
  let v693 : BitVec 32 := Scalar.addi v691 v692
  v693.toNat
def k0_dev55 (d0 : Dev nD) : Nat :=
  let c0_i32_439 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_438 : BitVec 32 := 2#32
  let v703 : BitVec 32 := Scalar.muli v6 c2_i32_438
  let v704 : BitVec 32 := Scalar.addi c0_i32_439 v703
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_440 : BitVec 32 := 1#32
  let v705 : BitVec 32 := Scalar.muli v5 c1_i32_440
  let v706 : BitVec 32 := Scalar.addi v704 v705
  v706.toNat
def k0_dev56 (d0 : Dev nD) : Nat :=
  let c0_i32_447 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_446 : BitVec 32 := 2#32
  let v716 : BitVec 32 := Scalar.muli v6 c2_i32_446
  let v717 : BitVec 32 := Scalar.addi c0_i32_447 v716
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_448 : BitVec 32 := 1#32
  let v718 : BitVec 32 := Scalar.muli v5 c1_i32_448
  let v719 : BitVec 32 := Scalar.addi v717 v718
  v719.toNat
def k0_dev57 (d0 : Dev nD) : Nat :=
  let c0_i32_455 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_454 : BitVec 32 := 2#32
  let v729 : BitVec 32 := Scalar.muli v6 c2_i32_454
  let v730 : BitVec 32 := Scalar.addi c0_i32_455 v729
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_456 : BitVec 32 := 1#32
  let v731 : BitVec 32 := Scalar.muli v5 c1_i32_456
  let v732 : BitVec 32 := Scalar.addi v730 v731
  v732.toNat
def k0_dev58 (d0 : Dev nD) : Nat :=
  let c0_i32_463 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_462 : BitVec 32 := 2#32
  let v742 : BitVec 32 := Scalar.muli v6 c2_i32_462
  let v743 : BitVec 32 := Scalar.addi c0_i32_463 v742
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_464 : BitVec 32 := 1#32
  let v744 : BitVec 32 := Scalar.muli v5 c1_i32_464
  let v745 : BitVec 32 := Scalar.addi v743 v744
  v745.toNat
def k0_dev59 (d0 : Dev nD) : Nat :=
  let c0_i32_471 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_470 : BitVec 32 := 2#32
  let v755 : BitVec 32 := Scalar.muli v6 c2_i32_470
  let v756 : BitVec 32 := Scalar.addi c0_i32_471 v755
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_472 : BitVec 32 := 1#32
  let v757 : BitVec 32 := Scalar.muli v5 c1_i32_472
  let v758 : BitVec 32 := Scalar.addi v756 v757
  v758.toNat
def k0_dev60 (d0 : Dev nD) : Nat :=
  let c0_i32_479 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_478 : BitVec 32 := 2#32
  let v768 : BitVec 32 := Scalar.muli v6 c2_i32_478
  let v769 : BitVec 32 := Scalar.addi c0_i32_479 v768
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_480 : BitVec 32 := 1#32
  let v770 : BitVec 32 := Scalar.muli v5 c1_i32_480
  let v771 : BitVec 32 := Scalar.addi v769 v770
  v771.toNat
def k0_dev61 (d0 : Dev nD) : Nat :=
  let c0_i32_487 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_486 : BitVec 32 := 2#32
  let v781 : BitVec 32 := Scalar.muli v6 c2_i32_486
  let v782 : BitVec 32 := Scalar.addi c0_i32_487 v781
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_488 : BitVec 32 := 1#32
  let v783 : BitVec 32 := Scalar.muli v5 c1_i32_488
  let v784 : BitVec 32 := Scalar.addi v782 v783
  v784.toNat
def k0_dev62 (d0 : Dev nD) : Nat :=
  let c0_i32_495 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_494 : BitVec 32 := 2#32
  let v794 : BitVec 32 := Scalar.muli v6 c2_i32_494
  let v795 : BitVec 32 := Scalar.addi c0_i32_495 v794
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_496 : BitVec 32 := 1#32
  let v796 : BitVec 32 := Scalar.muli v5 c1_i32_496
  let v797 : BitVec 32 := Scalar.addi v795 v796
  v797.toNat
def k0_dev63 (d0 : Dev nD) : Nat :=
  let c0_i32_503 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_502 : BitVec 32 := 2#32
  let v807 : BitVec 32 := Scalar.muli v6 c2_i32_502
  let v808 : BitVec 32 := Scalar.addi c0_i32_503 v807
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_504 : BitVec 32 := 1#32
  let v809 : BitVec 32 := Scalar.muli v5 c1_i32_504
  let v810 : BitVec 32 := Scalar.addi v808 v809
  v810.toNat
def k0_dev64 (d0 : Dev nD) : Nat :=
  let c0_i32_511 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_510 : BitVec 32 := 2#32
  let v820 : BitVec 32 := Scalar.muli v6 c2_i32_510
  let v821 : BitVec 32 := Scalar.addi c0_i32_511 v820
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_512 : BitVec 32 := 1#32
  let v822 : BitVec 32 := Scalar.muli v5 c1_i32_512
  let v823 : BitVec 32 := Scalar.addi v821 v822
  v823.toNat
def k0_dev65 (d0 : Dev nD) : Nat :=
  let c0_i32_519 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_518 : BitVec 32 := 2#32
  let v833 : BitVec 32 := Scalar.muli v6 c2_i32_518
  let v834 : BitVec 32 := Scalar.addi c0_i32_519 v833
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_520 : BitVec 32 := 1#32
  let v835 : BitVec 32 := Scalar.muli v5 c1_i32_520
  let v836 : BitVec 32 := Scalar.addi v834 v835
  v836.toNat
def k0_dev66 (d0 : Dev nD) : Nat :=
  let c0_i32_527 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_526 : BitVec 32 := 2#32
  let v846 : BitVec 32 := Scalar.muli v6 c2_i32_526
  let v847 : BitVec 32 := Scalar.addi c0_i32_527 v846
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_528 : BitVec 32 := 1#32
  let v848 : BitVec 32 := Scalar.muli v5 c1_i32_528
  let v849 : BitVec 32 := Scalar.addi v847 v848
  v849.toNat
def k0_off3 (d0 : Dev nD) (c0_i32_563 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.subi c1_i32_12 v2
  let c16384_i32_13 : BitVec 32 := 16384#32
  let v21 : BitVec 32 := Scalar.muli v20 c16384_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_14 : BitVec 32 := 8192#32
  let v22 : BitVec 32 := Scalar.muli v5 c8192_i32_14
  let v23 : BitVec 32 := Scalar.addi v21 v22
  let v885 : BitVec 32 := Scalar.addi v23 c0_i32_563
  let c0_i32_569 : BitVec 32 := 0#32
  ![v885.toNat, 0]
def k0_dev67 (d0 : Dev nD) : Nat :=
  let c0_i32_567 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_566 : BitVec 32 := 2#32
  let v886 : BitVec 32 := Scalar.muli v2 c2_i32_566
  let v887 : BitVec 32 := Scalar.addi c0_i32_567 v886
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_568 : BitVec 32 := 1#32
  let v888 : BitVec 32 := Scalar.muli v7 c1_i32_568
  let v889 : BitVec 32 := Scalar.addi v887 v888
  v889.toNat
def k0_off4 (d0 : Dev nD) (c0_i32_578 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_577 : BitVec 32 := 16384#32
  let v901 : BitVec 32 := Scalar.muli v2 c16384_i32_577
  let v902 : BitVec 32 := Scalar.addi v901 c0_i32_578
  let c0_i32_581 : BitVec 32 := 0#32
  ![v902.toNat, 0]
def k0_dev68 (d0 : Dev nD) : Nat :=
  let c0_i32_607 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_606 : BitVec 32 := 2#32
  let v928 : BitVec 32 := Scalar.muli v2 c2_i32_606
  let v929 : BitVec 32 := Scalar.addi c0_i32_607 v928
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_608 : BitVec 32 := 1#32
  let v930 : BitVec 32 := Scalar.muli v7 c1_i32_608
  let v931 : BitVec 32 := Scalar.addi v929 v930
  v931.toNat
def k0_dev69 (d0 : Dev nD) : Nat :=
  let c0_i32_623 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_622 : BitVec 32 := 2#32
  let v948 : BitVec 32 := Scalar.muli v2 c2_i32_622
  let v949 : BitVec 32 := Scalar.addi c0_i32_623 v948
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_624 : BitVec 32 := 1#32
  let v950 : BitVec 32 := Scalar.muli v7 c1_i32_624
  let v951 : BitVec 32 := Scalar.addi v949 v950
  v951.toNat
def k0_dev70 (d0 : Dev nD) : Nat :=
  let c0_i32_639 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_638 : BitVec 32 := 2#32
  let v968 : BitVec 32 := Scalar.muli v2 c2_i32_638
  let v969 : BitVec 32 := Scalar.addi c0_i32_639 v968
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_640 : BitVec 32 := 1#32
  let v970 : BitVec 32 := Scalar.muli v7 c1_i32_640
  let v971 : BitVec 32 := Scalar.addi v969 v970
  v971.toNat
def k0_dev71 (d0 : Dev nD) : Nat :=
  let c0_i32_655 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_654 : BitVec 32 := 2#32
  let v988 : BitVec 32 := Scalar.muli v2 c2_i32_654
  let v989 : BitVec 32 := Scalar.addi c0_i32_655 v988
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_656 : BitVec 32 := 1#32
  let v990 : BitVec 32 := Scalar.muli v7 c1_i32_656
  let v991 : BitVec 32 := Scalar.addi v989 v990
  v991.toNat
def k0_dev72 (d0 : Dev nD) : Nat :=
  let c0_i32_695 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_694 : BitVec 32 := 2#32
  let v1030 : BitVec 32 := Scalar.muli v2 c2_i32_694
  let v1031 : BitVec 32 := Scalar.addi c0_i32_695 v1030
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_696 : BitVec 32 := 1#32
  let v1032 : BitVec 32 := Scalar.muli v7 c1_i32_696
  let v1033 : BitVec 32 := Scalar.addi v1031 v1032
  v1033.toNat
def k0_dev73 (d0 : Dev nD) : Nat :=
  let c0_i32_711 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_710 : BitVec 32 := 2#32
  let v1050 : BitVec 32 := Scalar.muli v2 c2_i32_710
  let v1051 : BitVec 32 := Scalar.addi c0_i32_711 v1050
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_712 : BitVec 32 := 1#32
  let v1052 : BitVec 32 := Scalar.muli v7 c1_i32_712
  let v1053 : BitVec 32 := Scalar.addi v1051 v1052
  v1053.toNat
def k0_dev74 (d0 : Dev nD) : Nat :=
  let c0_i32_727 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_726 : BitVec 32 := 2#32
  let v1070 : BitVec 32 := Scalar.muli v2 c2_i32_726
  let v1071 : BitVec 32 := Scalar.addi c0_i32_727 v1070
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_728 : BitVec 32 := 1#32
  let v1072 : BitVec 32 := Scalar.muli v7 c1_i32_728
  let v1073 : BitVec 32 := Scalar.addi v1071 v1072
  v1073.toNat
def k0_dev75 (d0 : Dev nD) : Nat :=
  let c0_i32_743 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_742 : BitVec 32 := 2#32
  let v1090 : BitVec 32 := Scalar.muli v2 c2_i32_742
  let v1091 : BitVec 32 := Scalar.addi c0_i32_743 v1090
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_744 : BitVec 32 := 1#32
  let v1092 : BitVec 32 := Scalar.muli v7 c1_i32_744
  let v1093 : BitVec 32 := Scalar.addi v1091 v1092
  v1093.toNat
def k0_dev76 (d0 : Dev nD) : Nat :=
  let c0_i32_783 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_782 : BitVec 32 := 2#32
  let v1132 : BitVec 32 := Scalar.muli v2 c2_i32_782
  let v1133 : BitVec 32 := Scalar.addi c0_i32_783 v1132
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_784 : BitVec 32 := 1#32
  let v1134 : BitVec 32 := Scalar.muli v7 c1_i32_784
  let v1135 : BitVec 32 := Scalar.addi v1133 v1134
  v1135.toNat
def k0_dev77 (d0 : Dev nD) : Nat :=
  let c0_i32_799 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_798 : BitVec 32 := 2#32
  let v1152 : BitVec 32 := Scalar.muli v2 c2_i32_798
  let v1153 : BitVec 32 := Scalar.addi c0_i32_799 v1152
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_800 : BitVec 32 := 1#32
  let v1154 : BitVec 32 := Scalar.muli v7 c1_i32_800
  let v1155 : BitVec 32 := Scalar.addi v1153 v1154
  v1155.toNat
def k0_dev78 (d0 : Dev nD) : Nat :=
  let c0_i32_815 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_814 : BitVec 32 := 2#32
  let v1172 : BitVec 32 := Scalar.muli v2 c2_i32_814
  let v1173 : BitVec 32 := Scalar.addi c0_i32_815 v1172
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_816 : BitVec 32 := 1#32
  let v1174 : BitVec 32 := Scalar.muli v7 c1_i32_816
  let v1175 : BitVec 32 := Scalar.addi v1173 v1174
  v1175.toNat
def k0_dev79 (d0 : Dev nD) : Nat :=
  let c0_i32_831 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_830 : BitVec 32 := 2#32
  let v1192 : BitVec 32 := Scalar.muli v2 c2_i32_830
  let v1193 : BitVec 32 := Scalar.addi c0_i32_831 v1192
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_832 : BitVec 32 := 1#32
  let v1194 : BitVec 32 := Scalar.muli v7 c1_i32_832
  let v1195 : BitVec 32 := Scalar.addi v1193 v1194
  v1195.toNat
def k0_dev80 (d0 : Dev nD) : Nat :=
  let c0_i32_871 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_870 : BitVec 32 := 2#32
  let v1234 : BitVec 32 := Scalar.muli v2 c2_i32_870
  let v1235 : BitVec 32 := Scalar.addi c0_i32_871 v1234
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_872 : BitVec 32 := 1#32
  let v1236 : BitVec 32 := Scalar.muli v7 c1_i32_872
  let v1237 : BitVec 32 := Scalar.addi v1235 v1236
  v1237.toNat
def k0_dev81 (d0 : Dev nD) : Nat :=
  let c0_i32_887 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_886 : BitVec 32 := 2#32
  let v1254 : BitVec 32 := Scalar.muli v2 c2_i32_886
  let v1255 : BitVec 32 := Scalar.addi c0_i32_887 v1254
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_888 : BitVec 32 := 1#32
  let v1256 : BitVec 32 := Scalar.muli v7 c1_i32_888
  let v1257 : BitVec 32 := Scalar.addi v1255 v1256
  v1257.toNat
def k0_dev82 (d0 : Dev nD) : Nat :=
  let c0_i32_903 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_902 : BitVec 32 := 2#32
  let v1274 : BitVec 32 := Scalar.muli v2 c2_i32_902
  let v1275 : BitVec 32 := Scalar.addi c0_i32_903 v1274
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_904 : BitVec 32 := 1#32
  let v1276 : BitVec 32 := Scalar.muli v7 c1_i32_904
  let v1277 : BitVec 32 := Scalar.addi v1275 v1276
  v1277.toNat
def k0_dev83 (d0 : Dev nD) : Nat :=
  let c0_i32_919 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_918 : BitVec 32 := 2#32
  let v1294 : BitVec 32 := Scalar.muli v2 c2_i32_918
  let v1295 : BitVec 32 := Scalar.addi c0_i32_919 v1294
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_920 : BitVec 32 := 1#32
  let v1296 : BitVec 32 := Scalar.muli v7 c1_i32_920
  let v1297 : BitVec 32 := Scalar.addi v1295 v1296
  v1297.toNat
def k0_dev84 (d0 : Dev nD) : Nat :=
  let c0_i32_959 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_958 : BitVec 32 := 2#32
  let v1336 : BitVec 32 := Scalar.muli v2 c2_i32_958
  let v1337 : BitVec 32 := Scalar.addi c0_i32_959 v1336
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_960 : BitVec 32 := 1#32
  let v1338 : BitVec 32 := Scalar.muli v7 c1_i32_960
  let v1339 : BitVec 32 := Scalar.addi v1337 v1338
  v1339.toNat
def k0_dev85 (d0 : Dev nD) : Nat :=
  let c0_i32_975 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_974 : BitVec 32 := 2#32
  let v1356 : BitVec 32 := Scalar.muli v2 c2_i32_974
  let v1357 : BitVec 32 := Scalar.addi c0_i32_975 v1356
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_976 : BitVec 32 := 1#32
  let v1358 : BitVec 32 := Scalar.muli v7 c1_i32_976
  let v1359 : BitVec 32 := Scalar.addi v1357 v1358
  v1359.toNat
def k0_dev86 (d0 : Dev nD) : Nat :=
  let c0_i32_991 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_990 : BitVec 32 := 2#32
  let v1376 : BitVec 32 := Scalar.muli v2 c2_i32_990
  let v1377 : BitVec 32 := Scalar.addi c0_i32_991 v1376
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_992 : BitVec 32 := 1#32
  let v1378 : BitVec 32 := Scalar.muli v7 c1_i32_992
  let v1379 : BitVec 32 := Scalar.addi v1377 v1378
  v1379.toNat
def k0_dev87 (d0 : Dev nD) : Nat :=
  let c0_i32_1007 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1006 : BitVec 32 := 2#32
  let v1396 : BitVec 32 := Scalar.muli v2 c2_i32_1006
  let v1397 : BitVec 32 := Scalar.addi c0_i32_1007 v1396
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1008 : BitVec 32 := 1#32
  let v1398 : BitVec 32 := Scalar.muli v7 c1_i32_1008
  let v1399 : BitVec 32 := Scalar.addi v1397 v1398
  v1399.toNat
def k0_dev88 (d0 : Dev nD) : Nat :=
  let c0_i32_1046 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1045 : BitVec 32 := 2#32
  let v1438 : BitVec 32 := Scalar.muli v2 c2_i32_1045
  let v1439 : BitVec 32 := Scalar.addi c0_i32_1046 v1438
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1047 : BitVec 32 := 1#32
  let v1440 : BitVec 32 := Scalar.muli v7 c1_i32_1047
  let v1441 : BitVec 32 := Scalar.addi v1439 v1440
  v1441.toNat
def k0_dev89 (d0 : Dev nD) : Nat :=
  let c0_i32_1062 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1061 : BitVec 32 := 2#32
  let v1458 : BitVec 32 := Scalar.muli v2 c2_i32_1061
  let v1459 : BitVec 32 := Scalar.addi c0_i32_1062 v1458
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1063 : BitVec 32 := 1#32
  let v1460 : BitVec 32 := Scalar.muli v7 c1_i32_1063
  let v1461 : BitVec 32 := Scalar.addi v1459 v1460
  v1461.toNat
def k0_dev90 (d0 : Dev nD) : Nat :=
  let c0_i32_1078 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1077 : BitVec 32 := 2#32
  let v1478 : BitVec 32 := Scalar.muli v2 c2_i32_1077
  let v1479 : BitVec 32 := Scalar.addi c0_i32_1078 v1478
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1079 : BitVec 32 := 1#32
  let v1480 : BitVec 32 := Scalar.muli v7 c1_i32_1079
  let v1481 : BitVec 32 := Scalar.addi v1479 v1480
  v1481.toNat
def k0_dev91 (d0 : Dev nD) : Nat :=
  let c0_i32_1094 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1093 : BitVec 32 := 2#32
  let v1498 : BitVec 32 := Scalar.muli v2 c2_i32_1093
  let v1499 : BitVec 32 := Scalar.addi c0_i32_1094 v1498
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1095 : BitVec 32 := 1#32
  let v1500 : BitVec 32 := Scalar.muli v7 c1_i32_1095
  let v1501 : BitVec 32 := Scalar.addi v1499 v1500
  v1501.toNat
def k0_dev92 (d0 : Dev nD) : Nat :=
  let c0_i32_1133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1132 : BitVec 32 := 2#32
  let v1540 : BitVec 32 := Scalar.muli v2 c2_i32_1132
  let v1541 : BitVec 32 := Scalar.addi c0_i32_1133 v1540
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1134 : BitVec 32 := 1#32
  let v1542 : BitVec 32 := Scalar.muli v7 c1_i32_1134
  let v1543 : BitVec 32 := Scalar.addi v1541 v1542
  v1543.toNat
def k0_dev93 (d0 : Dev nD) : Nat :=
  let c0_i32_1149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1148 : BitVec 32 := 2#32
  let v1560 : BitVec 32 := Scalar.muli v2 c2_i32_1148
  let v1561 : BitVec 32 := Scalar.addi c0_i32_1149 v1560
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1150 : BitVec 32 := 1#32
  let v1562 : BitVec 32 := Scalar.muli v7 c1_i32_1150
  let v1563 : BitVec 32 := Scalar.addi v1561 v1562
  v1563.toNat
def k0_dev94 (d0 : Dev nD) : Nat :=
  let c0_i32_1165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1164 : BitVec 32 := 2#32
  let v1580 : BitVec 32 := Scalar.muli v2 c2_i32_1164
  let v1581 : BitVec 32 := Scalar.addi c0_i32_1165 v1580
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1166 : BitVec 32 := 1#32
  let v1582 : BitVec 32 := Scalar.muli v7 c1_i32_1166
  let v1583 : BitVec 32 := Scalar.addi v1581 v1582
  v1583.toNat
def k0_dev95 (d0 : Dev nD) : Nat :=
  let c0_i32_1181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1180 : BitVec 32 := 2#32
  let v1600 : BitVec 32 := Scalar.muli v2 c2_i32_1180
  let v1601 : BitVec 32 := Scalar.addi c0_i32_1181 v1600
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1182 : BitVec 32 := 1#32
  let v1602 : BitVec 32 := Scalar.muli v7 c1_i32_1182
  let v1603 : BitVec 32 := Scalar.addi v1601 v1602
  v1603.toNat
def k0_dev96 (d0 : Dev nD) : Nat :=
  let c0_i32_1220 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1219 : BitVec 32 := 2#32
  let v1642 : BitVec 32 := Scalar.muli v2 c2_i32_1219
  let v1643 : BitVec 32 := Scalar.addi c0_i32_1220 v1642
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1221 : BitVec 32 := 1#32
  let v1644 : BitVec 32 := Scalar.muli v7 c1_i32_1221
  let v1645 : BitVec 32 := Scalar.addi v1643 v1644
  v1645.toNat
def k0_dev97 (d0 : Dev nD) : Nat :=
  let c0_i32_1236 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1235 : BitVec 32 := 2#32
  let v1662 : BitVec 32 := Scalar.muli v2 c2_i32_1235
  let v1663 : BitVec 32 := Scalar.addi c0_i32_1236 v1662
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1237 : BitVec 32 := 1#32
  let v1664 : BitVec 32 := Scalar.muli v7 c1_i32_1237
  let v1665 : BitVec 32 := Scalar.addi v1663 v1664
  v1665.toNat
def k0_dev98 (d0 : Dev nD) : Nat :=
  let c0_i32_1252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1251 : BitVec 32 := 2#32
  let v1682 : BitVec 32 := Scalar.muli v2 c2_i32_1251
  let v1683 : BitVec 32 := Scalar.addi c0_i32_1252 v1682
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1253 : BitVec 32 := 1#32
  let v1684 : BitVec 32 := Scalar.muli v7 c1_i32_1253
  let v1685 : BitVec 32 := Scalar.addi v1683 v1684
  v1685.toNat
def k0_dev99 (d0 : Dev nD) : Nat :=
  let c0_i32_1268 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1267 : BitVec 32 := 2#32
  let v1702 : BitVec 32 := Scalar.muli v2 c2_i32_1267
  let v1703 : BitVec 32 := Scalar.addi c0_i32_1268 v1702
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1269 : BitVec 32 := 1#32
  let v1704 : BitVec 32 := Scalar.muli v7 c1_i32_1269
  let v1705 : BitVec 32 := Scalar.addi v1703 v1704
  v1705.toNat
def k0_dev100 (d0 : Dev nD) : Nat :=
  let c0_i32_1307 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1306 : BitVec 32 := 2#32
  let v1744 : BitVec 32 := Scalar.muli v2 c2_i32_1306
  let v1745 : BitVec 32 := Scalar.addi c0_i32_1307 v1744
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1308 : BitVec 32 := 1#32
  let v1746 : BitVec 32 := Scalar.muli v7 c1_i32_1308
  let v1747 : BitVec 32 := Scalar.addi v1745 v1746
  v1747.toNat
def k0_dev101 (d0 : Dev nD) : Nat :=
  let c0_i32_1323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1322 : BitVec 32 := 2#32
  let v1764 : BitVec 32 := Scalar.muli v2 c2_i32_1322
  let v1765 : BitVec 32 := Scalar.addi c0_i32_1323 v1764
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1324 : BitVec 32 := 1#32
  let v1766 : BitVec 32 := Scalar.muli v7 c1_i32_1324
  let v1767 : BitVec 32 := Scalar.addi v1765 v1766
  v1767.toNat
def k0_dev102 (d0 : Dev nD) : Nat :=
  let c0_i32_1339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1338 : BitVec 32 := 2#32
  let v1784 : BitVec 32 := Scalar.muli v2 c2_i32_1338
  let v1785 : BitVec 32 := Scalar.addi c0_i32_1339 v1784
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1340 : BitVec 32 := 1#32
  let v1786 : BitVec 32 := Scalar.muli v7 c1_i32_1340
  let v1787 : BitVec 32 := Scalar.addi v1785 v1786
  v1787.toNat
def k0_dev103 (d0 : Dev nD) : Nat :=
  let c0_i32_1355 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1354 : BitVec 32 := 2#32
  let v1804 : BitVec 32 := Scalar.muli v2 c2_i32_1354
  let v1805 : BitVec 32 := Scalar.addi c0_i32_1355 v1804
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1356 : BitVec 32 := 1#32
  let v1806 : BitVec 32 := Scalar.muli v7 c1_i32_1356
  let v1807 : BitVec 32 := Scalar.addi v1805 v1806
  v1807.toNat
def k0_dev104 (d0 : Dev nD) : Nat :=
  let c0_i32_1394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1393 : BitVec 32 := 2#32
  let v1846 : BitVec 32 := Scalar.muli v2 c2_i32_1393
  let v1847 : BitVec 32 := Scalar.addi c0_i32_1394 v1846
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1395 : BitVec 32 := 1#32
  let v1848 : BitVec 32 := Scalar.muli v7 c1_i32_1395
  let v1849 : BitVec 32 := Scalar.addi v1847 v1848
  v1849.toNat
def k0_dev105 (d0 : Dev nD) : Nat :=
  let c0_i32_1410 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1409 : BitVec 32 := 2#32
  let v1866 : BitVec 32 := Scalar.muli v2 c2_i32_1409
  let v1867 : BitVec 32 := Scalar.addi c0_i32_1410 v1866
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1411 : BitVec 32 := 1#32
  let v1868 : BitVec 32 := Scalar.muli v7 c1_i32_1411
  let v1869 : BitVec 32 := Scalar.addi v1867 v1868
  v1869.toNat
def k0_dev106 (d0 : Dev nD) : Nat :=
  let c0_i32_1426 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1425 : BitVec 32 := 2#32
  let v1886 : BitVec 32 := Scalar.muli v2 c2_i32_1425
  let v1887 : BitVec 32 := Scalar.addi c0_i32_1426 v1886
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1427 : BitVec 32 := 1#32
  let v1888 : BitVec 32 := Scalar.muli v7 c1_i32_1427
  let v1889 : BitVec 32 := Scalar.addi v1887 v1888
  v1889.toNat
def k0_dev107 (d0 : Dev nD) : Nat :=
  let c0_i32_1442 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1441 : BitVec 32 := 2#32
  let v1906 : BitVec 32 := Scalar.muli v2 c2_i32_1441
  let v1907 : BitVec 32 := Scalar.addi c0_i32_1442 v1906
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1443 : BitVec 32 := 1#32
  let v1908 : BitVec 32 := Scalar.muli v7 c1_i32_1443
  let v1909 : BitVec 32 := Scalar.addi v1907 v1908
  v1909.toNat
def k0_dev108 (d0 : Dev nD) : Nat :=
  let c0_i32_1481 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1480 : BitVec 32 := 2#32
  let v1948 : BitVec 32 := Scalar.muli v2 c2_i32_1480
  let v1949 : BitVec 32 := Scalar.addi c0_i32_1481 v1948
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1482 : BitVec 32 := 1#32
  let v1950 : BitVec 32 := Scalar.muli v7 c1_i32_1482
  let v1951 : BitVec 32 := Scalar.addi v1949 v1950
  v1951.toNat
def k0_dev109 (d0 : Dev nD) : Nat :=
  let c0_i32_1497 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1496 : BitVec 32 := 2#32
  let v1968 : BitVec 32 := Scalar.muli v2 c2_i32_1496
  let v1969 : BitVec 32 := Scalar.addi c0_i32_1497 v1968
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1498 : BitVec 32 := 1#32
  let v1970 : BitVec 32 := Scalar.muli v7 c1_i32_1498
  let v1971 : BitVec 32 := Scalar.addi v1969 v1970
  v1971.toNat
def k0_dev110 (d0 : Dev nD) : Nat :=
  let c0_i32_1513 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1512 : BitVec 32 := 2#32
  let v1988 : BitVec 32 := Scalar.muli v2 c2_i32_1512
  let v1989 : BitVec 32 := Scalar.addi c0_i32_1513 v1988
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1514 : BitVec 32 := 1#32
  let v1990 : BitVec 32 := Scalar.muli v7 c1_i32_1514
  let v1991 : BitVec 32 := Scalar.addi v1989 v1990
  v1991.toNat
def k0_dev111 (d0 : Dev nD) : Nat :=
  let c0_i32_1529 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1528 : BitVec 32 := 2#32
  let v2008 : BitVec 32 := Scalar.muli v2 c2_i32_1528
  let v2009 : BitVec 32 := Scalar.addi c0_i32_1529 v2008
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1530 : BitVec 32 := 1#32
  let v2010 : BitVec 32 := Scalar.muli v7 c1_i32_1530
  let v2011 : BitVec 32 := Scalar.addi v2009 v2010
  v2011.toNat
def k0_dev112 (d0 : Dev nD) : Nat :=
  let c0_i32_1568 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1567 : BitVec 32 := 2#32
  let v2050 : BitVec 32 := Scalar.muli v2 c2_i32_1567
  let v2051 : BitVec 32 := Scalar.addi c0_i32_1568 v2050
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1569 : BitVec 32 := 1#32
  let v2052 : BitVec 32 := Scalar.muli v7 c1_i32_1569
  let v2053 : BitVec 32 := Scalar.addi v2051 v2052
  v2053.toNat
def k0_dev113 (d0 : Dev nD) : Nat :=
  let c0_i32_1584 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1583 : BitVec 32 := 2#32
  let v2070 : BitVec 32 := Scalar.muli v2 c2_i32_1583
  let v2071 : BitVec 32 := Scalar.addi c0_i32_1584 v2070
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1585 : BitVec 32 := 1#32
  let v2072 : BitVec 32 := Scalar.muli v7 c1_i32_1585
  let v2073 : BitVec 32 := Scalar.addi v2071 v2072
  v2073.toNat
def k0_dev114 (d0 : Dev nD) : Nat :=
  let c0_i32_1600 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1599 : BitVec 32 := 2#32
  let v2090 : BitVec 32 := Scalar.muli v2 c2_i32_1599
  let v2091 : BitVec 32 := Scalar.addi c0_i32_1600 v2090
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1601 : BitVec 32 := 1#32
  let v2092 : BitVec 32 := Scalar.muli v7 c1_i32_1601
  let v2093 : BitVec 32 := Scalar.addi v2091 v2092
  v2093.toNat
def k0_dev115 (d0 : Dev nD) : Nat :=
  let c0_i32_1616 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1615 : BitVec 32 := 2#32
  let v2110 : BitVec 32 := Scalar.muli v2 c2_i32_1615
  let v2111 : BitVec 32 := Scalar.addi c0_i32_1616 v2110
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1617 : BitVec 32 := 1#32
  let v2112 : BitVec 32 := Scalar.muli v7 c1_i32_1617
  let v2113 : BitVec 32 := Scalar.addi v2111 v2112
  v2113.toNat
def k0_dev116 (d0 : Dev nD) : Nat :=
  let c0_i32_1645 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1644 : BitVec 32 := 2#32
  let v2142 : BitVec 32 := Scalar.muli v2 c2_i32_1644
  let v2143 : BitVec 32 := Scalar.addi c0_i32_1645 v2142
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1646 : BitVec 32 := 1#32
  let v2144 : BitVec 32 := Scalar.muli v7 c1_i32_1646
  let v2145 : BitVec 32 := Scalar.addi v2143 v2144
  v2145.toNat
def k0_dev117 (d0 : Dev nD) : Nat :=
  let c0_i32_1661 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1660 : BitVec 32 := 2#32
  let v2162 : BitVec 32 := Scalar.muli v2 c2_i32_1660
  let v2163 : BitVec 32 := Scalar.addi c0_i32_1661 v2162
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1662 : BitVec 32 := 1#32
  let v2164 : BitVec 32 := Scalar.muli v7 c1_i32_1662
  let v2165 : BitVec 32 := Scalar.addi v2163 v2164
  v2165.toNat
def k0_dev118 (d0 : Dev nD) : Nat :=
  let c0_i32_1677 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1676 : BitVec 32 := 2#32
  let v2182 : BitVec 32 := Scalar.muli v2 c2_i32_1676
  let v2183 : BitVec 32 := Scalar.addi c0_i32_1677 v2182
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1678 : BitVec 32 := 1#32
  let v2184 : BitVec 32 := Scalar.muli v7 c1_i32_1678
  let v2185 : BitVec 32 := Scalar.addi v2183 v2184
  v2185.toNat
def k0_dev119 (d0 : Dev nD) : Nat :=
  let c0_i32_1693 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1692 : BitVec 32 := 2#32
  let v2202 : BitVec 32 := Scalar.muli v2 c2_i32_1692
  let v2203 : BitVec 32 := Scalar.addi c0_i32_1693 v2202
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1694 : BitVec 32 := 1#32
  let v2204 : BitVec 32 := Scalar.muli v7 c1_i32_1694
  let v2205 : BitVec 32 := Scalar.addi v2203 v2204
  v2205.toNat
def k0_dev120 (d0 : Dev nD) : Nat :=
  let c0_i32_1722 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1721 : BitVec 32 := 2#32
  let v2234 : BitVec 32 := Scalar.muli v2 c2_i32_1721
  let v2235 : BitVec 32 := Scalar.addi c0_i32_1722 v2234
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1723 : BitVec 32 := 1#32
  let v2236 : BitVec 32 := Scalar.muli v7 c1_i32_1723
  let v2237 : BitVec 32 := Scalar.addi v2235 v2236
  v2237.toNat
def k0_dev121 (d0 : Dev nD) : Nat :=
  let c0_i32_1738 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1737 : BitVec 32 := 2#32
  let v2254 : BitVec 32 := Scalar.muli v2 c2_i32_1737
  let v2255 : BitVec 32 := Scalar.addi c0_i32_1738 v2254
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1739 : BitVec 32 := 1#32
  let v2256 : BitVec 32 := Scalar.muli v7 c1_i32_1739
  let v2257 : BitVec 32 := Scalar.addi v2255 v2256
  v2257.toNat
def k0_dev122 (d0 : Dev nD) : Nat :=
  let c0_i32_1754 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1753 : BitVec 32 := 2#32
  let v2274 : BitVec 32 := Scalar.muli v2 c2_i32_1753
  let v2275 : BitVec 32 := Scalar.addi c0_i32_1754 v2274
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1755 : BitVec 32 := 1#32
  let v2276 : BitVec 32 := Scalar.muli v7 c1_i32_1755
  let v2277 : BitVec 32 := Scalar.addi v2275 v2276
  v2277.toNat
def k0_dev123 (d0 : Dev nD) : Nat :=
  let c0_i32_1770 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1769 : BitVec 32 := 2#32
  let v2294 : BitVec 32 := Scalar.muli v2 c2_i32_1769
  let v2295 : BitVec 32 := Scalar.addi c0_i32_1770 v2294
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1771 : BitVec 32 := 1#32
  let v2296 : BitVec 32 := Scalar.muli v7 c1_i32_1771
  let v2297 : BitVec 32 := Scalar.addi v2295 v2296
  v2297.toNat
def k0_dev124 (d0 : Dev nD) : Nat :=
  let c0_i32_1799 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1798 : BitVec 32 := 2#32
  let v2326 : BitVec 32 := Scalar.muli v2 c2_i32_1798
  let v2327 : BitVec 32 := Scalar.addi c0_i32_1799 v2326
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1800 : BitVec 32 := 1#32
  let v2328 : BitVec 32 := Scalar.muli v7 c1_i32_1800
  let v2329 : BitVec 32 := Scalar.addi v2327 v2328
  v2329.toNat
def k0_dev125 (d0 : Dev nD) : Nat :=
  let c0_i32_1815 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1814 : BitVec 32 := 2#32
  let v2346 : BitVec 32 := Scalar.muli v2 c2_i32_1814
  let v2347 : BitVec 32 := Scalar.addi c0_i32_1815 v2346
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1816 : BitVec 32 := 1#32
  let v2348 : BitVec 32 := Scalar.muli v7 c1_i32_1816
  let v2349 : BitVec 32 := Scalar.addi v2347 v2348
  v2349.toNat
def k0_dev126 (d0 : Dev nD) : Nat :=
  let c0_i32_1831 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1830 : BitVec 32 := 2#32
  let v2366 : BitVec 32 := Scalar.muli v2 c2_i32_1830
  let v2367 : BitVec 32 := Scalar.addi c0_i32_1831 v2366
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1832 : BitVec 32 := 1#32
  let v2368 : BitVec 32 := Scalar.muli v7 c1_i32_1832
  let v2369 : BitVec 32 := Scalar.addi v2367 v2368
  v2369.toNat
def k0_dev127 (d0 : Dev nD) : Nat :=
  let c0_i32_1847 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1846 : BitVec 32 := 2#32
  let v2386 : BitVec 32 := Scalar.muli v2 c2_i32_1846
  let v2387 : BitVec 32 := Scalar.addi c0_i32_1847 v2386
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1848 : BitVec 32 := 1#32
  let v2388 : BitVec 32 := Scalar.muli v7 c1_i32_1848
  let v2389 : BitVec 32 := Scalar.addi v2387 v2388
  v2389.toNat
def k0_dev128 (d0 : Dev nD) : Nat :=
  let c0_i32_1876 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1875 : BitVec 32 := 2#32
  let v2418 : BitVec 32 := Scalar.muli v2 c2_i32_1875
  let v2419 : BitVec 32 := Scalar.addi c0_i32_1876 v2418
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1877 : BitVec 32 := 1#32
  let v2420 : BitVec 32 := Scalar.muli v7 c1_i32_1877
  let v2421 : BitVec 32 := Scalar.addi v2419 v2420
  v2421.toNat
def k0_dev129 (d0 : Dev nD) : Nat :=
  let c0_i32_1892 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1891 : BitVec 32 := 2#32
  let v2438 : BitVec 32 := Scalar.muli v2 c2_i32_1891
  let v2439 : BitVec 32 := Scalar.addi c0_i32_1892 v2438
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1893 : BitVec 32 := 1#32
  let v2440 : BitVec 32 := Scalar.muli v7 c1_i32_1893
  let v2441 : BitVec 32 := Scalar.addi v2439 v2440
  v2441.toNat
def k0_dev130 (d0 : Dev nD) : Nat :=
  let c0_i32_1908 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1907 : BitVec 32 := 2#32
  let v2458 : BitVec 32 := Scalar.muli v2 c2_i32_1907
  let v2459 : BitVec 32 := Scalar.addi c0_i32_1908 v2458
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1909 : BitVec 32 := 1#32
  let v2460 : BitVec 32 := Scalar.muli v7 c1_i32_1909
  let v2461 : BitVec 32 := Scalar.addi v2459 v2460
  v2461.toNat

class Facts₀ : Prop where
  hamt_1 : (1#32 : BitVec 32).msb = false
  hamt_2 : (2#32 : BitVec 32).msb = false
  inb_S64_S1_0 : ∀ a, (![0] : Fin 1 → Nat) a + S1.size a ≤ S64.size a
  squeezes_S1_S_ : S1.Squeezes S_
  inb_S64_S1_1 : ∀ a, (![1] : Fin 1 → Nat) a + S1.size a ≤ S64.size a
  inb_S64_S1_2 : ∀ a, (![2] : Fin 1 → Nat) a + S1.size a ≤ S64.size a
  inb_S64_S1_3 : ∀ a, (![3] : Fin 1 → Nat) a + S1.size a ≤ S64.size a
  inb_S64_S1_4 : ∀ a, (![4] : Fin 1 → Nat) a + S1.size a ≤ S64.size a
  inb_S64_S1_5 : ∀ a, (![5] : Fin 1 → Nat) a + S1.size a ≤ S64.size a
  inb_S64_S1_6 : ∀ a, (![6] : Fin 1 → Nat) a + S1.size a ≤ S64.size a
  inb_S64_S1_7 : ∀ a, (![7] : Fin 1 → Nat) a + S1.size a ≤ S64.size a
  inb_S64_S1_8 : ∀ a, (![8] : Fin 1 → Nat) a + S1.size a ≤ S64.size a
  inb_S64_S1_9 : ∀ a, (![9] : Fin 1 → Nat) a + S1.size a ≤ S64.size a
  inb_S64_S1_10 : ∀ a, (![10] : Fin 1 → Nat) a + S1.size a ≤ S64.size a
  inb_S64_S1_11 : ∀ a, (![11] : Fin 1 → Nat) a + S1.size a ≤ S64.size a
  inb_S64_S1_12 : ∀ a, (![12] : Fin 1 → Nat) a + S1.size a ≤ S64.size a
  inb_S64_S1_13 : ∀ a, (![13] : Fin 1 → Nat) a + S1.size a ≤ S64.size a
  inb_S64_S1_14 : ∀ a, (![14] : Fin 1 → Nat) a + S1.size a ≤ S64.size a
  inb_S64_S1_15 : ∀ a, (![15] : Fin 1 → Nat) a + S1.size a ≤ S64.size a
  inb_S64_S1_16 : ∀ a, (![16] : Fin 1 → Nat) a + S1.size a ≤ S64.size a
  inb_S64_S1_17 : ∀ a, (![17] : Fin 1 → Nat) a + S1.size a ≤ S64.size a
  inb_S64_S1_18 : ∀ a, (![18] : Fin 1 → Nat) a + S1.size a ≤ S64.size a
  inb_S64_S1_19 : ∀ a, (![19] : Fin 1 → Nat) a + S1.size a ≤ S64.size a
  inb_S64_S1_20 : ∀ a, (![20] : Fin 1 → Nat) a + S1.size a ≤ S64.size a
  inb_S64_S1_21 : ∀ a, (![21] : Fin 1 → Nat) a + S1.size a ≤ S64.size a
  inb_S64_S1_22 : ∀ a, (![22] : Fin 1 → Nat) a + S1.size a ≤ S64.size a
  inb_S64_S1_23 : ∀ a, (![23] : Fin 1 → Nat) a + S1.size a ≤ S64.size a
  inb_S64_S1_24 : ∀ a, (![24] : Fin 1 → Nat) a + S1.size a ≤ S64.size a
  inb_S64_S1_25 : ∀ a, (![25] : Fin 1 → Nat) a + S1.size a ≤ S64.size a
  inb_S64_S1_26 : ∀ a, (![26] : Fin 1 → Nat) a + S1.size a ≤ S64.size a
  inb_S64_S1_27 : ∀ a, (![27] : Fin 1 → Nat) a + S1.size a ≤ S64.size a
  inb_S64_S1_28 : ∀ a, (![28] : Fin 1 → Nat) a + S1.size a ≤ S64.size a
  inb_S64_S1_29 : ∀ a, (![29] : Fin 1 → Nat) a + S1.size a ≤ S64.size a
  inb_S64_S1_30 : ∀ a, (![30] : Fin 1 → Nat) a + S1.size a ≤ S64.size a
  inb_S64_S1_31 : ∀ a, (![31] : Fin 1 → Nat) a + S1.size a ≤ S64.size a
  inb_S64_S1_32 : ∀ a, (![32] : Fin 1 → Nat) a + S1.size a ≤ S64.size a
  inb_S64_S1_33 : ∀ a, (![33] : Fin 1 → Nat) a + S1.size a ≤ S64.size a
  inb_S64_S1_34 : ∀ a, (![34] : Fin 1 → Nat) a + S1.size a ≤ S64.size a
  inb_S64_S1_35 : ∀ a, (![35] : Fin 1 → Nat) a + S1.size a ≤ S64.size a
  inb_S64_S1_36 : ∀ a, (![36] : Fin 1 → Nat) a + S1.size a ≤ S64.size a
  inb_S64_S1_37 : ∀ a, (![37] : Fin 1 → Nat) a + S1.size a ≤ S64.size a
  inb_S64_S1_38 : ∀ a, (![38] : Fin 1 → Nat) a + S1.size a ≤ S64.size a
  inb_S64_S1_39 : ∀ a, (![39] : Fin 1 → Nat) a + S1.size a ≤ S64.size a
  inb_S64_S1_40 : ∀ a, (![40] : Fin 1 → Nat) a + S1.size a ≤ S64.size a
  inb_S64_S1_41 : ∀ a, (![41] : Fin 1 → Nat) a + S1.size a ≤ S64.size a
  inb_S64_S1_42 : ∀ a, (![42] : Fin 1 → Nat) a + S1.size a ≤ S64.size a
  inb_S64_S1_43 : ∀ a, (![43] : Fin 1 → Nat) a + S1.size a ≤ S64.size a
  inb_S64_S1_44 : ∀ a, (![44] : Fin 1 → Nat) a + S1.size a ≤ S64.size a
  inb_S64_S1_45 : ∀ a, (![45] : Fin 1 → Nat) a + S1.size a ≤ S64.size a
  inb_S64_S1_46 : ∀ a, (![46] : Fin 1 → Nat) a + S1.size a ≤ S64.size a
  inb_S64_S1_47 : ∀ a, (![47] : Fin 1 → Nat) a + S1.size a ≤ S64.size a
  inb_S64_S1_48 : ∀ a, (![48] : Fin 1 → Nat) a + S1.size a ≤ S64.size a
  inb_S64_S1_49 : ∀ a, (![49] : Fin 1 → Nat) a + S1.size a ≤ S64.size a
  inb_S64_S1_50 : ∀ a, (![50] : Fin 1 → Nat) a + S1.size a ≤ S64.size a
  inb_S64_S1_51 : ∀ a, (![51] : Fin 1 → Nat) a + S1.size a ≤ S64.size a
  inb_S64_S1_52 : ∀ a, (![52] : Fin 1 → Nat) a + S1.size a ≤ S64.size a
  inb_S64_S1_53 : ∀ a, (![53] : Fin 1 → Nat) a + S1.size a ≤ S64.size a
  inb_S64_S1_54 : ∀ a, (![54] : Fin 1 → Nat) a + S1.size a ≤ S64.size a
  inb_S64_S1_55 : ∀ a, (![55] : Fin 1 → Nat) a + S1.size a ≤ S64.size a
  inb_S64_S1_56 : ∀ a, (![56] : Fin 1 → Nat) a + S1.size a ≤ S64.size a
  inb_S64_S1_57 : ∀ a, (![57] : Fin 1 → Nat) a + S1.size a ≤ S64.size a
  inb_S64_S1_58 : ∀ a, (![58] : Fin 1 → Nat) a + S1.size a ≤ S64.size a
  inb_S64_S1_59 : ∀ a, (![59] : Fin 1 → Nat) a + S1.size a ≤ S64.size a
  inb_S64_S1_60 : ∀ a, (![60] : Fin 1 → Nat) a + S1.size a ≤ S64.size a
  inb_S64_S1_61 : ∀ a, (![61] : Fin 1 → Nat) a + S1.size a ≤ S64.size a
  inb_S64_S1_62 : ∀ a, (![62] : Fin 1 → Nat) a + S1.size a ≤ S64.size a
  inb_S64_S1_63 : ∀ a, (![63] : Fin 1 → Nat) a + S1.size a ≤ S64.size a
  inb_S4_S1_0 : ∀ a, (![0] : Fin 1 → Nat) a + S1.size a ≤ S4.size a
  inb_S4x1024x1024_S1x1024x1024_0_0_0 : ∀ a, (![0, 0, 0] : Fin 3 → Nat) a + S1x1024x1024.size a ≤ S4x1024x1024.size a
  squeezes_S1x1024x1024_S1024x1024 : S1x1024x1024.Squeezes S1024x1024
  inb_S16384x1024_S1024x1024_0_0 : ∀ a, (![0, 0] : Fin 2 → Nat) a + S1024x1024.size a ≤ S16384x1024.size a
  inb_S4_S1_1 : ∀ a, (![1] : Fin 1 → Nat) a + S1.size a ≤ S4.size a
  inb_S4x1024x1024_S1x1024x1024_1_0_0 : ∀ a, (![1, 0, 0] : Fin 3 → Nat) a + S1x1024x1024.size a ≤ S4x1024x1024.size a
  inb_S16384x1024_S1024x1024_1024_0 : ∀ a, (![1024, 0] : Fin 2 → Nat) a + S1024x1024.size a ≤ S16384x1024.size a
  inb_S4_S1_2 : ∀ a, (![2] : Fin 1 → Nat) a + S1.size a ≤ S4.size a
  inb_S4x1024x1024_S1x1024x1024_2_0_0 : ∀ a, (![2, 0, 0] : Fin 3 → Nat) a + S1x1024x1024.size a ≤ S4x1024x1024.size a
  inb_S16384x1024_S1024x1024_2048_0 : ∀ a, (![2048, 0] : Fin 2 → Nat) a + S1024x1024.size a ≤ S16384x1024.size a
  inb_S4_S1_3 : ∀ a, (![3] : Fin 1 → Nat) a + S1.size a ≤ S4.size a
  inb_S4x1024x1024_S1x1024x1024_3_0_0 : ∀ a, (![3, 0, 0] : Fin 3 → Nat) a + S1x1024x1024.size a ≤ S4x1024x1024.size a
  inb_S16384x1024_S1024x1024_3072_0 : ∀ a, (![3072, 0] : Fin 2 → Nat) a + S1024x1024.size a ≤ S16384x1024.size a
  inb_S16384x1024_S1024x1024_4096_0 : ∀ a, (![4096, 0] : Fin 2 → Nat) a + S1024x1024.size a ≤ S16384x1024.size a
  inb_S16384x1024_S1024x1024_5120_0 : ∀ a, (![5120, 0] : Fin 2 → Nat) a + S1024x1024.size a ≤ S16384x1024.size a
  inb_S16384x1024_S1024x1024_6144_0 : ∀ a, (![6144, 0] : Fin 2 → Nat) a + S1024x1024.size a ≤ S16384x1024.size a
  inb_S16384x1024_S1024x1024_7168_0 : ∀ a, (![7168, 0] : Fin 2 → Nat) a + S1024x1024.size a ≤ S16384x1024.size a
  inb_S16384x1024_S1024x1024_8192_0 : ∀ a, (![8192, 0] : Fin 2 → Nat) a + S1024x1024.size a ≤ S16384x1024.size a
  inb_S16384x1024_S1024x1024_9216_0 : ∀ a, (![9216, 0] : Fin 2 → Nat) a + S1024x1024.size a ≤ S16384x1024.size a
  inb_S16384x1024_S1024x1024_10240_0 : ∀ a, (![10240, 0] : Fin 2 → Nat) a + S1024x1024.size a ≤ S16384x1024.size a
  inb_S16384x1024_S1024x1024_11264_0 : ∀ a, (![11264, 0] : Fin 2 → Nat) a + S1024x1024.size a ≤ S16384x1024.size a
  inb_S16384x1024_S1024x1024_12288_0 : ∀ a, (![12288, 0] : Fin 2 → Nat) a + S1024x1024.size a ≤ S16384x1024.size a
  inb_S16384x1024_S1024x1024_13312_0 : ∀ a, (![13312, 0] : Fin 2 → Nat) a + S1024x1024.size a ≤ S16384x1024.size a
  inb_S16384x1024_S1024x1024_14336_0 : ∀ a, (![14336, 0] : Fin 2 → Nat) a + S1024x1024.size a ≤ S16384x1024.size a
  inb_S16384x1024_S1024x1024_15360_0 : ∀ a, (![15360, 0] : Fin 2 → Nat) a + S1024x1024.size a ≤ S16384x1024.size a
  hcc0_scratch1 : 0 + S4.numel ≤ 264
  hcc0_scratch2 : 4 + S4.numel ≤ 264
  hcc0_scratch3 : 8 + S64.numel ≤ 264
  hcc0_scratch4 : 72 + S64.numel ≤ 264
  hcc0_scratch5 : 136 + S64.numel ≤ 264
  hcc0_scratch6 : 200 + S64.numel ≤ 264
  k0_dev1_lt : ∀ d0 : Dev nD, (k0_dev1 d0) < nD
  k0_dev2_lt : ∀ d0 : Dev nD, (k0_dev2 d0) < nD
  k0_off1_inb : ∀ d0 : Dev nD, ∀ (r : Fin 64), ∀ a, (k0_off1 d0 (BitVec.ofNat 32 (128 * r.val))) a + S128x1024.size a ≤ S32768x1024.size a
  k0_off2_inb : ∀ d0 : Dev nD, ∀ (r : Fin 64), ∀ a, (k0_off2 d0 (BitVec.ofNat 32 (128 * r.val))) a + S128x1024.size a ≤ S16384x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off3_inb : ∀ d0 : Dev nD, ∀ (r : Fin 64), ∀ a, (k0_off3 d0 (BitVec.ofNat 32 (128 * r.val))) a + S128x1024.size a ≤ S32768x1024.size a
  k0_dev67_lt : ∀ d0 : Dev nD, (k0_dev67 d0) < nD
  k0_off4_inb : ∀ d0 : Dev nD, ∀ (r : Fin 16), ∀ a, (k0_off4 d0 (BitVec.ofNat 32 (1024 * r.val))) a + S1024x1024.size a ≤ S32768x1024.size a
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD

variable [Facts₀]

abbrev cc0_scratch1 : DmaSems sig S4 := SemArray.consecutive 0 S4 hcc0_scratch1
abbrev cc0_scratch2 : DmaSems sig S4 := SemArray.consecutive 4 S4 hcc0_scratch2
abbrev cc0_scratch3 : DmaSems sig S64 := SemArray.consecutive 8 S64 hcc0_scratch3
abbrev cc0_scratch4 : DmaSems sig S64 := SemArray.consecutive 72 S64 hcc0_scratch4
abbrev cc0_scratch5 : DmaSems sig S64 := SemArray.consecutive 136 S64 hcc0_scratch5
abbrev cc0_scratch6 : DmaSems sig S64 := SemArray.consecutive 200 S64 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
/- The 2 × 2 mesh: a device's two neighbours, and the device the kernel's printed
   address chains name. Device `c` sits at row `c / 2` and column `c % 2`; its row
   neighbour `xn c` differs in the row, its column neighbour `yn c` in the column. -/
import proofs.«900079_g7700000000000080_dist_ag_v7x_xy2x2_x_m16384_n1024_f32_1_alg».proof.Proof.Gen.KernelIdeal

noncomputable section

namespace Cert.KernelIdeal.AG

open Cert.KernelIdeal Cert.KernelIdeal.Gen
open Idealize.ShloMosaic

/-- The neighbour across the first mesh axis: same column, other row. -/
def xn (c : Dev nD) : Dev nD := ![2, 3, 0, 1] c
/-- The neighbour across the second mesh axis: same row, other column. -/
def yn (c : Dev nD) : Dev nD := ![1, 0, 3, 2] c

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide
theorem xn_row (c : Dev nD) : (xn c).val / 2 = 1 - c.val / 2 := by revert c; decide
theorem xn_col (c : Dev nD) : (xn c).val % 2 = c.val % 2 := by revert c; decide
theorem yn_row (c : Dev nD) : (yn c).val / 2 = c.val / 2 := by revert c; decide
theorem yn_col (c : Dev nD) : (yn c).val % 2 = 1 - c.val % 2 := by revert c; decide

def xnE : Dev nD ≃ Dev nD := ⟨xn, xn, xn_xn, xn_xn⟩
def ynE : Dev nD ≃ Dev nD := ⟨yn, yn, yn_yn, yn_yn⟩

/-- The two barrier signals go to the row neighbour and to the column neighbour; every copy of the
    first phase is addressed to the row neighbour, every copy of the second to the column neighbour. -/
theorem dev1_eq (c : Dev nD) : (⟨k0_dev1 c, k0_dev1_lt c⟩ : Dev nD) = xn c := Fin.ext (by show k0_dev1 c = _; rw [k0_dev1_eq]; revert c; decide)
theorem dev2_eq (c : Dev nD) : (⟨k0_dev2 c, k0_dev2_lt c⟩ : Dev nD) = yn c := Fin.ext (by show k0_dev2 c = _; rw [k0_dev2_eq]; revert c; decide)
theorem dev3_eq (c : Dev nD) : (⟨k0_dev3 c, k0_dev3_lt c⟩ : Dev nD) = xn c := Fin.ext (by show k0_dev3 c = _; rw [k0_dev3_eq]; revert c; decide)
theorem dev67_eq (c : Dev nD) : (⟨k0_dev67 c, k0_dev67_lt c⟩ : Dev nD) = yn c := Fin.ext (by show k0_dev67 c = _; rw [k0_dev67_eq]; revert c; decide)

end Cert.KernelIdeal.AG

end
-- ==== Proof.Program.lean ====
/- The kernel's body as a short program: the printed body is a straight line of some four hundred
   memory operations, each of one of a dozen shapes that differ only in a chunk number. Here each
   shape is ONE function of the chunk number and the body is the sequence of those functions over
   their ranges; the printed body IS this program, by unfolding both. -/
import proofs.«900079_g7700000000000080_dist_ag_v7x_xy2x2_x_m16384_n1024_f32_1_alg».proof.Proof.Mesh
import Idealize.ShloMosaic.Lib.Pipeline.Regions

noncomputable section

namespace Cert.KernelIdeal.AG

open Cert.KernelIdeal Cert.KernelIdeal.Gen
open Idealize.ShloMosaic Idealize.SL.Sem

variable {F : FTy → Type} [FloatOps F]

/-- `f i`, `f (i + 1)`, …: `n` of them in a row. -/
def seqR {E : Type → Type} (f : Nat → Prog E PUnit) : Nat → Nat → Prog E PUnit
  | _, 0 => pure ⟨⟩
  | i, n + 1 => f i >>= fun _ => seqR f (i + 1) n

theorem seqR_zero {E : Type → Type} (f : Nat → Prog E PUnit) (i : Nat) : seqR f i 0 = pure ⟨⟩ := rfl
theorem seqR_succ {E : Type → Type} (f : Nat → Prog E PUnit) (i n : Nat) :
    seqR f i (n + 1) = (f i >>= fun _ => seqR f (i + 1) n) := rfl

theorem inb64 (i : Fin 64) : ∀ a, (![i.val] : Fin 1 → Nat) a + S1.size a ≤ S64.size a := by
  intro a; fin_cases a; show i.val + 1 ≤ 64; omega
theorem inb4 (b : Fin 4) : ∀ a, (![b.val] : Fin 1 → Nat) a + S1.size a ≤ S4.size a := by
  intro a; fin_cases a; show b.val + 1 ≤ 4; omega
theorem inbRow (k : Fin 16) : ∀ a, (![1024 * k.val, 0] : Fin 2 → Nat) a + S1024x1024.size a ≤ S16384x1024.size a := by
  intro a; fin_cases a
  · show 1024 * k.val + 1024 ≤ 16384; omega
  · show 0 + 1024 ≤ 1024; omega
theorem inbSlot (b : Fin 4) : ∀ a, (![b.val, 0, 0] : Fin 3 → Nat) a + S1x1024x1024.size a ≤ S4x1024x1024.size a := by
  intro a; fin_cases a
  · show b.val + 1 ≤ 4; omega
  · show 0 + 1024 ≤ 1024; omega
  · show 0 + 1024 ≤ 1024; omega

/-- Semaphore `i` of an array of sixty-four, of four. -/
def s64 (A : DmaSems sig S64) (i : Fin 64) : DmaSem sig :=
  ((A.slice (Rect.unit (s := S64) ![i.val] S1.size (inb64 i))).squeeze S_ squeezes_S1_S_).sem
def s4 (A : DmaSems sig S4) (b : Fin 4) : DmaSem sig :=
  ((A.slice (Rect.unit (s := S4) ![b.val] S1.size (inb4 b))).squeeze S_ squeezes_S1_S_).sem

/-- The runtime's barrier semaphore. -/
abbrev barS : Sem sig := (SemArray.scalar (sig.barrier 0 rfl) : Sems sig S_).sem

section Pieces
variable (arg0 : Memref sig .tc .hbm S16384x1024 .f32) (arg1 : Memref sig .tc .hbm S32768x1024 .f32)
  (arg2 : Memref sig .tc .vmem S4x1024x1024 .f32)

/-- Rows `[8192 · col + 128 i, + 128)` of the device's block: what it sends its row neighbour. -/
def xsrc (d : Dev nD) (i : Fin 64) : Memref sig .tc .hbm S128x1024 .f32 :=
  arg0.slice (Rect.unit (s := S16384x1024) (k0_off2 d (BitVec.ofNat 32 (128 * i.val))) S128x1024.size (Gen.k0_off2_inb d i)) (fun _ => rfl)
/-- Rows `[16384 · row + 8192 · col + 128 i, + 128)` of the result: where that chunk lands on the row neighbour. -/
def xdst (d : Dev nD) (i : Fin 64) : Memref sig .tc .hbm S128x1024 .f32 :=
  arg1.slice (Rect.unit (s := S32768x1024) (k0_off1 d (BitVec.ofNat 32 (128 * i.val))) S128x1024.size (Gen.k0_off1_inb d i)) (fun _ => rfl)
/-- Rows `[16384 · (1 - row) + 8192 · col + 128 i, + 128)` of the result: the chunk received from the row
    neighbour, forwarded to the same rows of the column neighbour. -/
def ypc (d : Dev nD) (i : Fin 64) : Memref sig .tc .hbm S128x1024 .f32 :=
  arg1.slice (Rect.unit (s := S32768x1024) (k0_off3 d (BitVec.ofNat 32 (128 * i.val))) S128x1024.size (Gen.k0_off3_inb d i)) (fun _ => rfl)
/-- Rows `[1024 k, + 1024)` of the device's block. -/
def lsrc (k : Fin 16) : Memref sig .tc .hbm S1024x1024 .f32 :=
  arg0.slice (Rect.unit (s := S16384x1024) ![1024 * k.val, 0] S1024x1024.size (inbRow k)) (fun _ => rfl)
/-- Rows `[16384 · row + 1024 k, + 1024)` of the result: the device's own block, copied through the staging slots. -/
def ldst (d : Dev nD) (k : Fin 16) : Memref sig .tc .hbm S1024x1024 .f32 :=
  arg1.slice (Rect.unit (s := S32768x1024) (k0_off4 d (BitVec.ofNat 32 (1024 * k.val))) S1024x1024.size (Gen.k0_off4_inb d k)) (fun _ => rfl)
/-- Staging slot `b`. -/
def slot (b : Fin 4) : Memref sig .tc .vmem S1024x1024 .f32 :=
  (arg2.slice (Rect.unit (s := S4x1024x1024) ![b.val, 0, 0] S1x1024x1024.size (inbSlot b)) (fun _ => rfl)).squeeze S1024x1024 squeezes_S1x1024x1024_S1024x1024

end Pieces

/-- The slot of chunk `k`. -/
def slotOf (k : Fin 16) : Fin 4 := ⟨k.val % 4, Nat.mod_lt _ (by decide)⟩

section Ops
variable (arg0 : Memref sig .tc .hbm S16384x1024 .f32) (arg1 : Memref sig .tc .hbm S32768x1024 .f32)
  (arg2 : Memref sig .tc .vmem S4x1024x1024 .f32) (arg3 arg4 : DmaSems sig S4) (arg5 arg6 arg7 arg8 : DmaSems sig S64)

def xSend (d : Dev nD) (i : Fin 64) : Prog (TpuEff nD τ sig (Elt F) Λ₀ .tc) PUnit :=
  Prog.lift (.enqueueDma (xsrc arg0 d i) (.remote (Dev.tc (⟨k0_dev3 d, Gen.k0_dev3_lt d⟩ : Dev nD)) (xdst arg1 d i) (.dma (s64 arg5 i))) (.dma (s64 arg6 i))
    (View.wordExact_bits rfl) (View.wordExact_bits rfl) ⟨⟨rfl, Or.inl rfl⟩, trivial⟩)
def ySend (d : Dev nD) (i : Fin 64) : Prog (TpuEff nD τ sig (Elt F) Λ₀ .tc) PUnit :=
  Prog.lift (.enqueueDma (ypc arg1 d i) (.remote (Dev.tc (⟨k0_dev67 d, Gen.k0_dev67_lt d⟩ : Dev nD)) (ypc arg1 d i) (.dma (s64 arg7 i))) (.dma (s64 arg8 i))
    (View.wordExact_bits rfl) (View.wordExact_bits rfl) ⟨⟨rfl, Or.inl rfl⟩, trivial⟩)
def enqRd (k : Fin 16) : Prog (TpuEff nD τ sig (Elt F) Λ₀ .tc) PUnit :=
  Prog.lift (.enqueueDma (lsrc arg0 k) (.here (slot arg2 (slotOf k))) (.dma (s4 arg3 (slotOf k)))
    (View.wordExact_bits rfl) ((View.wordExact_bits rfl).reshape _ _) ⟨Or.inl rfl, trivial⟩)
def enqWr (d : Dev nD) (k : Fin 16) : Prog (TpuEff nD τ sig (Elt F) Λ₀ .tc) PUnit :=
  Prog.lift (.enqueueDma (slot arg2 (slotOf k)) (.here (ldst arg1 d k)) (.dma (s4 arg4 (slotOf k)))
    ((View.wordExact_bits rfl).reshape _ _) (View.wordExact_bits rfl) ⟨Or.inl rfl, trivial⟩)
def waitXr (d : Dev nD) (i : Fin 64) : Prog (TpuEff nD τ sig (Elt F) Λ₀ .tc) PUnit :=
  Prog.lift (.waitDma2 (s64 arg6 i) (xsrc arg0 d i) (xdst arg1 d i) (View.wordExact_bits rfl) (View.wordExact_bits rfl))
def waitXs (d : Dev nD) (i : Fin 64) : Prog (TpuEff nD τ sig (Elt F) Λ₀ .tc) PUnit :=
  Prog.lift (.waitDma2 (s64 arg5 i) (xdst arg1 d i) (xsrc arg0 d i) (View.wordExact_bits rfl) (View.wordExact_bits rfl))
def waitYr (d : Dev nD) (i : Fin 64) : Prog (TpuEff nD τ sig (Elt F) Λ₀ .tc) PUnit :=
  Prog.lift (.waitDma2 (s64 arg8 i) (ypc arg1 d i) (ypc arg1 d i) (View.wordExact_bits rfl) (View.wordExact_bits rfl))
def waitYs (d : Dev nD) (i : Fin 64) : Prog (TpuEff nD τ sig (Elt F) Λ₀ .tc) PUnit :=
  Prog.lift (.waitDma2 (s64 arg7 i) (ypc arg1 d i) (ypc arg1 d i) (View.wordExact_bits rfl) (View.wordExact_bits rfl))
def waitRd (k : Fin 16) : Prog (TpuEff nD τ sig (Elt F) Λ₀ .tc) PUnit :=
  Prog.lift (.waitDma2 (s4 arg3 (slotOf k)) (lsrc arg0 k) (slot arg2 (slotOf k)) (View.wordExact_bits rfl) ((View.wordExact_bits rfl).reshape _ _))
def waitWr (d : Dev nD) (k : Fin 16) : Prog (TpuEff nD τ sig (Elt F) Λ₀ .tc) PUnit :=
  Prog.lift (.waitDma2 (s4 arg4 (slotOf k)) (slot arg2 (slotOf k)) (ldst arg1 d k) ((View.wordExact_bits rfl).reshape _ _) (View.wordExact_bits rfl))

/-- Chunk `k` of the device's own block moves on: its read is awaited and its write started; while a
    later chunk still wants the slot, the write is awaited and that chunk's read started. -/
def advance (d : Dev nD) (k : Fin 16) : Prog (TpuEff nD τ sig (Elt F) Λ₀ .tc) PUnit :=
  waitRd (F := F) arg0 arg2 arg3 k >>= fun _ => enqWr (F := F) arg1 arg2 arg4 d k >>= fun _ =>
    if h : k.val + 4 < 16 then
      waitWr (F := F) arg1 arg2 arg4 d k >>= fun _ => enqRd (F := F) arg0 arg2 arg3 ⟨k.val + 4, h⟩
    else pure ⟨⟩

/-- Step `i` of the second phase: chunk `i` has arrived from the row neighbour and is forwarded to the
    column neighbour; every fourth step also moves the device's own block on. -/
def mainStep (d : Dev nD) (i : Fin 64) : Prog (TpuEff nD τ sig (Elt F) Λ₀ .tc) PUnit :=
  waitXr (F := F) arg0 arg1 arg6 d i >>= fun _ => ySend (F := F) arg1 arg7 arg8 d i >>= fun _ =>
    if h : i.val % 4 = 0 then advance (F := F) arg0 arg1 arg2 arg3 arg4 d ⟨i.val / 4, by have := i.isLt; omega⟩ else pure ⟨⟩

/-- A family over `Fin n` as a family over the naturals, nothing past `n`. -/
def upTo {E : Type → Type} (n : Nat) (f : Fin n → Prog E PUnit) (i : Nat) : Prog E PUnit :=
  if h : i < n then f ⟨i, h⟩ else pure ⟨⟩

/-- The whole body. -/
def kbody : Prog (TpuEff nD τ sig (Elt F) Λ₀ .tc) PUnit := do
  let d ← Prog.lift .deviceId
  semSignalWord (⟨k0_dev1 d, Gen.k0_dev1_lt d⟩ : Dev nD) barS 1#32 Gen.hamt_1
  semSignalWord (⟨k0_dev2 d, Gen.k0_dev2_lt d⟩ : Dev nD) barS 1#32 Gen.hamt_1
  semWaitWord barS 2#32 Gen.hamt_2
  seqR (upTo 64 (xSend (F := F) arg0 arg1 arg5 arg6 d)) 0 64
  seqR (upTo 16 (enqRd (F := F) arg0 arg2 arg3)) 0 4
  seqR (upTo 64 (mainStep (F := F) arg0 arg1 arg2 arg3 arg4 arg6 arg7 arg8 d)) 0 64
  seqR (upTo 16 (waitWr (F := F) arg1 arg2 arg4 d)) 12 4
  seqR (upTo 64 (waitYr (F := F) arg1 arg8 d)) 0 64
  seqR (upTo 64 (fun i => waitXs (F := F) arg0 arg1 arg5 d i >>= fun _ => waitYs (F := F) arg1 arg7 d i)) 0 64

end Ops

/-- The printed body is that program. -/
theorem body_eq (arg0 : Memref sig .tc .hbm S16384x1024 .f32) (harg0 : arg0.IsWhole) (arg1 : Memref sig .tc .hbm S32768x1024 .f32) (harg1 : arg1.IsWhole)
    (arg2 : Memref sig .tc .vmem S4x1024x1024 .f32) (harg2 : arg2.IsWhole) (arg3 arg4 : DmaSems sig S4) (arg5 arg6 arg7 arg8 : DmaSems sig S64) :
    cc0_body (F := F) arg0 harg0 arg1 harg1 arg2 harg2 arg3 arg4 arg5 arg6 arg7 arg8
      = kbody (F := F) arg0 arg1 arg2 arg3 arg4 arg5 arg6 arg7 arg8 := by
  chain_rfl

end Cert.KernelIdeal.AG

end
-- ==== Proof.Contents.lean ====
/- What each buffer is expected to hold. Device `c` holds block `X c` of the input. Its result must
   end as the whole gathered array: its own block in its own half; in the other half, the rows of its
   column come straight from the row neighbour, the rows of the other column come from the column
   neighbour, which had them from ITS row neighbour. A staging slot that carries chunk `k` holds rows
   `[1024 k, 1024 k + 1024)` of the device's block. -/
import proofs.«900079_g7700000000000080_dist_ag_v7x_xy2x2_x_m16384_n1024_f32_1_alg».proof.Proof.Program

noncomputable section

namespace Cert.KernelIdeal.AG

open Cert.KernelIdeal Cert.KernelIdeal.Gen
open Idealize.ShloMosaic Idealize.ShloMosaic.TcCoe Idealize.SL.Sem

variable {F : FTy → Type} [FloatOps F]

abbrev xM : Memref sig .tc .hbm S16384x1024 .f32 := Memref.whole main_arg0
abbrev oM : Memref sig .tc .hbm S32768x1024 .f32 := Memref.whole main_v1
abbrev sM : Memref sig .tc .vmem S4x1024x1024 .f32 := Memref.whole cc0_scratch0

variable (m : (ℓ : Loc nD τ sig) → Buf (Elt F) ℓ)

/-- Device `c`'s block of the input, as launched. -/
def X (c : Dev nD) : Buf (Elt F) ((c : Thread nD τ).loc main_arg0) := m ((c : Thread nD τ).loc main_arg0)

/-- A row of the block and a column, as an index of the block. -/
def blkIdx (r : Nat) (hr : r < 16384) (j : Fin 1024) : S16384x1024.Idx := Shape.pair ⟨r, hr⟩ j

/-- The device whose block row `R` of device `c`'s result comes from. -/
def srcDev (c : Dev nD) (R : Nat) : Dev nD :=
  if R / 16384 = c.val / 2 then c else if (R % 16384) / 8192 = c.val % 2 then xn c else xn (yn c)

/-- The result device `c` must end with. -/
def Gout (c : Dev nD) : Buf (Elt F) ((c : Thread nD τ).loc main_v1) :=
  fun (idx : S32768x1024.Idx) => X m (srcDev c (idx 0).val) (blkIdx ((idx 0).val % 16384) (Nat.mod_lt _ (by decide)) (idx 1))

/-- A staging buffer all of whose slots carry chunk `k`. -/
def Sat (c : Dev nD) (k : Fin 16) : Buf (Elt F) ((c : Thread nD τ).loc cc0_scratch0) :=
  fun (idx : S4x1024x1024.Idx) => X m c (blkIdx (1024 * k.val + (idx 1).val) (by have := (idx 1).isLt; have := k.isLt; change (idx 1).val < 1024 at *; omega) (idx 2))

end Cert.KernelIdeal.AG

end
-- ==== Proof.Schedule.lean ====
/- The protocol, cell by cell. A cell is a semaphore of a device; its units come in rounds of duties.
   * The barrier cell of `c`: one round, two duties of one unit: `false`, paid by the row neighbour,
     hands `c` the sixty-four row chunks of the NEIGHBOUR's result that `c` will write; `true`, paid by
     the column neighbour, the sixty-four chunks of that neighbour's result that `c` will forward into.
   * The receive cell `xr i` of `c`: one round, one duty paid by the row neighbour's copy `i`: the
     chunk of `c`'s result it lands in, at the expected contents. `yr i`: the same from the column neighbour.
   * The send cells `xs i`, `ys i`: one round, one duty paid by the device's own copy; `xs i` hands
     back nothing, `ys i` the forwarded chunk of the device's own result.
   * The read cell of slot `b`: four rounds, round `r` paid by the read of chunk `b + 4 r`: the slot holding
     that chunk. The write cell of slot `b`: four rounds: the chunk's rows of the result, and the slot. -/
import proofs.«900079_g7700000000000080_dist_ag_v7x_xy2x2_x_m16384_n1024_f32_1_alg».proof.Proof.Contents
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev rdS (b : Fin 4) : DmaSem sig := s4 cc0_scratch1 b
abbrev wrS (b : Fin 4) : DmaSem sig := s4 cc0_scratch2 b
abbrev xsS (i : Fin 64) : DmaSem sig := s64 cc0_scratch3 i
abbrev xrS (i : Fin 64) : DmaSem sig := s64 cc0_scratch4 i
abbrev ysS (i : Fin 64) : DmaSem sig := s64 cc0_scratch5 i
abbrev yrS (i : Fin 64) : DmaSem sig := s64 cc0_scratch6 i

theorem rdS_val (b : Fin 4) : (rdS b).val = b.val := by revert b; decide
theorem wrS_val (b : Fin 4) : (wrS b).val = 4 + b.val := by revert b; decide
theorem xsS_val (i : Fin 64) : (xsS i).val = 8 + i.val := by revert i; decide
theorem xrS_val (i : Fin 64) : (xrS i).val = 72 + i.val := by revert i; decide
theorem ysS_val (i : Fin 64) : (ysS i).val = 136 + i.val := by revert i; decide
theorem yrS_val (i : Fin 64) : (yrS i).val = 200 + i.val := by revert i; decide

abbrev barC (c : Dev nD) : GSem nD τ sig := ((c : Thread nD τ), .reg barS)
abbrev dmaC (c : Dev nD) (q : DmaSem sig) : GSem nD τ sig := ((c : Thread nD τ), .dma q)

/-- The units a chunk of 128 rows credits, and a chunk of 1024 rows. -/
abbrev N : ℕ := (ypc oM (0 : Dev nD) (0 : Fin 64)).view.dmaCredit
abbrev NL : ℕ := (lsrc xM (0 : Fin 16)).view.dmaCredit
theorem N_pos : 0 < N := View.dmaCredit_pos _ (by decide)
theorem NL_pos : 0 < NL := View.dmaCredit_pos _ (by decide)

/-! ## Payloads -/

variable (m : (ℓ : Loc nD τ sig) → Buf (Elt F) ℓ)

/-- The elements under a memref on device `c'`, held outright at contents `f`. -/
abbrev held {sp : Space} {s : Shape} {e : EltTy} (c' : Dev nD) (M : Memref sig .tc sp s e) (f : Buf (Elt F) (M.view.loc (c' : Thread nD τ))) : sProp 𝕄 :=
  M.view.loc (c' : Thread nD τ) ↦[M.view.set]{fullShare} f

/-- What the row neighbour's barrier signal hands `c`: the neighbour's chunks `c` will write. -/
def barPayX (c : Dev nD) : sProp 𝕄 :=
  bigSep Finset.univ fun i : Fin 64 => iprop(∃ f, held (F := F) (xn c) (ypc oM (xn c) i) f)
/-- What the column neighbour's hands `c`: the neighbour's chunks `c` will forward into. -/
def barPayY (c : Dev nD) : sProp 𝕄 :=
  bigSep Finset.univ fun i : Fin 64 => iprop(∃ f, held (F := F) (yn c) (ypc oM c i) f)
/-- Chunk `i` from the row neighbour, landed. -/
def xrPay (c : Dev nD) (i : Fin 64) : sProp 𝕄 := held c (ypc oM c i) (Gout m c)
/-- Chunk `i` from the column neighbour, landed. -/
def yrPay (c : Dev nD) (i : Fin 64) : sProp 𝕄 := held c (ypc oM (yn c) i) (Gout m c)
/-- Slot of chunk `k`, holding it. -/
def rdPay (c : Dev nD) (k : Fin 16) : sProp 𝕄 := held c (slot sM (slotOf k)) (Sat m c k)
/-- Chunk `k`'s rows of the result, written, and its slot back. -/
def wrPay (c : Dev nD) (k : Fin 16) : sProp 𝕄 := iprop(held c (ldst oM c k) (Gout m c) ∗ held c (slot sM (slotOf k)) (Sat m c k))

/-- Chunk `b + 4 r`. -/
def chunkOf (b r : ℕ) : Fin 16 := ⟨(b + 4 * r) % 16, Nat.mod_lt _ (by decide)⟩

/-! ## The schedule -/

/-- The payload of the DMA cell numbered `q` of device `c` at round `r`. -/
def dmaPay (c : Dev nD) (q r : ℕ) : sProp 𝕄 :=
  if q < 4 then rdPay m c (chunkOf q r)
  else if q < 8 then wrPay m c (chunkOf (q - 4) r)
  else if q < 72 then iprop(emp)
  else if h : q < 136 then xrPay m c ⟨q - 72, by omega⟩
  else if h : q < 200 then xrPay m c ⟨q - 136, by omega⟩
  else if h : q < 264 then yrPay m c ⟨q - 200, by omega⟩
  else iprop(emp)

def sched : Rounds.Schedule (GSem nD τ sig) Bool 𝕄 where
  duties g r := match g.2 with
    | .reg _ => if r = 0 then Finset.univ else ∅
    | .dma q => if q.val < 8 then (if r < 4 then {false} else ∅) else (if r = 0 then {false} else ∅)
  unitless _ := False
  amount g _ _ := match g.2 with
    | .reg _ => 1
    | .dma q => if q.val < 8 then NL else N
  payload g r d := match g.2 with
    | .reg _ => if d then barPayY g.1.1 else barPayX g.1.1
    | .dma q => dmaPay m g.1.1 q.val r
  amount_pos g _ _ _ := by
    cases g.2 with
    | reg _ => exact Nat.one_pos
    | dma q => show 0 < (if q.val < 8 then NL else N); split; exact NL_pos; exact N_pos

omit [FloatOps F] in
theorem pointsTo_storable (ℓ : Loc nD τ sig) (I : Finset (Idx ℓ)) (q : PosShare TreeShare) (f : Buf (Elt F) ℓ) :
    BI.Storable (upEmb : UEmb _ 𝕄) (ℓ ↦[I]{q} f : sProp 𝕄) := inferInstance

instance rdPay_storable (c : Dev nD) (k : Fin 16) : BI.Storable (upEmb : UEmb _ 𝕄) (rdPay (F := F) m c k) := by
  unfold rdPay held; exact pointsTo_storable _ _ _ _
instance xrPay_storable (c : Dev nD) (i : Fin 64) : BI.Storable (upEmb : UEmb _ 𝕄) (xrPay (F := F) m c i) := by
  unfold xrPay held; exact pointsTo_storable _ _ _ _
instance yrPay_storable (c : Dev nD) (i : Fin 64) : BI.Storable (upEmb : UEmb _ 𝕄) (yrPay (F := F) m c i) := by
  unfold yrPay held; exact pointsTo_storable _ _ _ _
instance wrPay_storable (c : Dev nD) (k : Fin 16) : BI.Storable (upEmb : UEmb _ 𝕄) (wrPay (F := F) m c k) := by
  unfold wrPay held
  letI h1 := pointsTo_storable (F := F) ((ldst oM c k).view.loc (c : Thread nD τ)) (ldst oM c k).view.set fullShare (Gout m c)
  letI h2 := pointsTo_storable (F := F) ((slot sM (slotOf k)).view.loc (c : Thread nD τ)) (slot sM (slotOf k)).view.set fullShare (Sat m c k)
  infer_instance

instance sched_payload_storable (g : GSem nD τ sig) (r : ℕ) (d : Bool) :
    BI.Storable (upEmb : UEmb _ 𝕄) ((sched (F := F) m).payload g r d) := by
  show BI.Storable upEmb (match g.2 with
    | .reg _ => if d then barPayY g.1.1 else barPayX g.1.1
    | .dma q => dmaPay m g.1.1 q.val r)
  cases g.2 with
  | reg _ => show BI.Storable upEmb (if d then barPayY g.1.1 else barPayX g.1.1); unfold barPayY barPayX; split <;> infer_instance
  | dma q =>
    show BI.Storable upEmb (dmaPay m g.1.1 q.val r)
    unfold dmaPay
    (repeat' split) <;> infer_instance

/-! ## What each device owes at launch; the levels -/

/-- Device `c` owes both neighbours' barrier cells a unit, the row neighbour's receive cells the
    first phase's chunks, the column neighbour's the second's. -/
def O₀ (c : Dev nD) : CellTallies nD τ sig Unit :=
  tallyAt (barC (xn c)) () 1 + tallyAt (barC (yn c)) () 1
    + (∑ i : Fin 64, tallyAt (dmaC (xn c) (xrS i)) () N) + (∑ i : Fin 64, tallyAt (dmaC (yn c) (yrS i)) () N)

def L (g : GSem nD τ sig) : Finset Unit := if g.1.2 = .tc then {()} else ∅
/-- Barrier cells at 1, the first phase's receive cells at 2, the second's at 3, all else at 0. -/
def lv (g : GSem nD τ sig) (_ : Unit) : ℕ := match g.2 with
  | .reg _ => 1
  | .dma q => if 72 ≤ q.val ∧ q.val < 136 then 2 else if 200 ≤ q.val then 3 else 0

end Cert.KernelIdeal.AG

end
-- ==== Proof.Ghost.lean ====
/- What each device holds when its body starts and when it ends. Every device knows every cell's
   invariant and that every cell is at its first round; it holds its own cells' positions, the tokens
   of the duties IT pays (on its neighbours' barrier and receive cells, on its own send, read and write
   cells), the credit for what its neighbours owe it, its block of the input, its result array and its
   staging buffer. At the end: the result at the expected contents, a share of the input, the staging
   buffer, and every DMA semaphore of its own back at zero. -/
import proofs.«900079_g7700000000000080_dist_ag_v7x_xy2x2_x_m16384_n1024_f32_1_alg».proof.Proof.Schedule

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## All the cells: per device the barrier cell and the 264 DMA cells -/

def cellIx (co : Dev nD × Option (DmaSem sig)) : GSem nD τ sig :=
  match co.2 with
  | none => barC co.1
  | some q => dmaC co.1 q

theorem cellIx_injective : Function.Injective cellIx := by
  rintro ⟨c, o⟩ ⟨c', o'⟩ h
  have h1 : c = c' := by
    cases o <;> cases o' <;> exact congrArg (fun g : GSem nD τ sig => g.1.1) h
  subst h1
  cases o <;> cases o'
  · rfl
  · exact absurd (congrArg Prod.snd h) (fun h' => by cases h')
  · exact absurd (congrArg Prod.snd h) (fun h' => by cases h')
  · have h2 := congrArg Prod.snd h
    simp only [cellIx] at h2
    cases h2; rfl

def allCells : Finset (GSem nD τ sig) := Finset.univ.map ⟨cellIx, cellIx_injective⟩

/-- Every cell's invariant, under the names `K`, and that every cell is at its first round. -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

/-- Device `c`'s positions: every cell of its own at the start of its first round. -/
def positions (c : Dev nD) : sProp 𝕄 :=
  iprop(atPos ER (barC c) 0 ∅ 0 ∗ bigSep Finset.univ fun q : DmaSem sig => atPos ER (dmaC c q) 0 ∅ 0)

/-- The round of chunk `k` on its slot's cells. -/
def roundOf (k : Fin 16) : ℕ := k.val / 4

/-- The tokens of the duties device `c` pays. -/
def payToks (c : Dev nD) : sProp 𝕄 :=
  iprop(dutyTok ER (barC (xn c)) 0 false ∗ dutyTok ER (barC (yn c)) 0 true
    ∗ (bigSep Finset.univ fun i : Fin 64 => dutyTok ER (dmaC (xn c) (xrS i)) 0 false)
    ∗ (bigSep Finset.univ fun i : Fin 64 => dutyTok ER (dmaC (yn c) (yrS i)) 0 false)
    ∗ (bigSep Finset.univ fun i : Fin 64 => dutyTok ER (dmaC c (xsS i)) 0 false)
    ∗ (bigSep Finset.univ fun i : Fin 64 => dutyTok ER (dmaC c (ysS i)) 0 false)
    ∗ (bigSep Finset.univ fun k : Fin 16 => dutyTok ER (dmaC c (rdS (slotOf k))) (roundOf k) false)
    ∗ (bigSep Finset.univ fun k : Fin 16 => dutyTok ER (dmaC c (wrS (slotOf k))) (roundOf k) false))

/-- The credit for what the neighbours owe device `c`'s cells. -/
def creds (c : Dev nD) : sProp 𝕄 :=
  iprop(cred (tallyAt (barC c) () 2)
    ∗ (bigSep Finset.univ fun i : Fin 64 => cred (tallyAt (dmaC c (xrS i)) () N))
    ∗ (bigSep Finset.univ fun i : Fin 64 => cred (tallyAt (dmaC c (yrS i)) () N)))

def ghost (K : GSem nD τ sig → ℕ) (c : Dev nD) : sProp 𝕄 :=
  iprop(records m K ∗ positions c ∗ payToks c)

/-- What device `c`'s body starts from, the staging buffer apart. -/
def start (c : Dev nD) : sProp 𝕄 :=
  iprop((∃ K, ghost m K c) ∗ creds c ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- What it ends with. -/
def Φ₁ (c : Dev nD) : sProp 𝕄 :=
  iprop((((c : Thread nD τ).loc main_v1) ↦{fullShare} Gout m c)
    ∗ (∃ q : PosShare TreeShare, ((c : Thread nD τ).loc main_arg0) ↦{q} X m c)
    ∗ (∃ f : Buf (Elt F) ((c : Thread nD τ).loc cc0_scratch0), ((c : Thread nD τ).loc cc0_scratch0) ↦{fullShare} f)
    ∗ bigSep Finset.univ fun q : DmaSem sig => semVal (dmaC c q) 0)

/-- The pipeline's proof data: no window; the invariant before and after the one point. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

abbrev 𝒱₀ : Variants := Variants.none

end Cert.KernelIdeal.AG

end
-- ==== Proof.Credit.lean ====
/- The credit dealt at launch. Every device owes each neighbour's barrier cell one unit and each
   neighbour's receive cells a chunk's units. The launch deals the owner of a cell one credit for every
   unit any device owes that cell; since the neighbour maps are their own inverses, each summand of what
   the devices owe puts exactly one device's due on each cell of `c`. -/
import proofs.«900079_g7700000000000080_dist_ag_v7x_xy2x2_x_m16384_n1024_f32_1_alg».proof.Proof.Ghost
import proofs.«900079_g7700000000000080_dist_ag_v7x_xy2x2_x_m16384_n1024_f32_1_alg».proof.Proof.Gen.KernelIdeal.Launch
import proofs.«900079_g7700000000000080_dist_ag_v7x_xy2x2_x_m16384_n1024_f32_1_alg».proof.Proof.Gen.KernelIdeal.Frame

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
/-- The four protocols' dues apart: the launch credit under the sum of the tallies is the launch credit
    under each summand, and under a sum over the chunks it is the chunks' launch credits one by one. -/
theorem launchCred_split (c : Dev nD) :
    (Pipeline.launchCred O₀ c : sProp 𝕄) = iprop(
      ((Pipeline.launchCred (fun d : Dev nD => (tallyAt (barC (xn d)) () 1 : CellTallies nD τ sig Unit)) c
          ∗ Pipeline.launchCred (fun d : Dev nD => (tallyAt (barC (yn d)) () 1 : CellTallies nD τ sig Unit)) c)
        ∗ bigSep Finset.univ fun i : Fin 64 => Pipeline.launchCred (fun d : Dev nD => (tallyAt (dmaC (xn d) (xrS i)) () N : CellTallies nD τ sig Unit)) c)
      ∗ bigSep Finset.univ fun i : Fin 64 => Pipeline.launchCred (fun d : Dev nD => (tallyAt (dmaC (yn d) (yrS i)) () N : CellTallies nD τ sig Unit)) c) := by
  show (Pipeline.launchCred (fun d : Dev nD =>
      (tallyAt (barC (xn d)) () 1 + tallyAt (barC (yn d)) () 1 + (∑ i : Fin 64, tallyAt (dmaC (xn d) (xrS i)) () N)
        + (∑ i : Fin 64, tallyAt (dmaC (yn d) (yrS i)) () N) : CellTallies nD τ sig Unit)) c : sProp 𝕄) = _
  rw [Pipeline.launchCred_add
      (fun d : Dev nD => (tallyAt (barC (xn d)) () 1 + tallyAt (barC (yn d)) () 1 + (∑ i : Fin 64, tallyAt (dmaC (xn d) (xrS i)) () N) : CellTallies nD τ sig Unit))
      (fun d : Dev nD => (∑ i : Fin 64, tallyAt (dmaC (yn d) (yrS i)) () N : CellTallies nD τ sig Unit)) c,
    Pipeline.launchCred_add
      (fun d : Dev nD => (tallyAt (barC (xn d)) () 1 + tallyAt (barC (yn d)) () 1 : CellTallies nD τ sig Unit))
      (fun d : Dev nD => (∑ i : Fin 64, tallyAt (dmaC (xn d) (xrS i)) () N : CellTallies nD τ sig Unit)) c,
    Pipeline.launchCred_add
      (fun d : Dev nD => (tallyAt (barC (xn d)) () 1 : CellTallies nD τ sig Unit))
      (fun d : Dev nD => (tallyAt (barC (yn d)) () 1 : CellTallies nD τ sig Unit)) c,
    Pipeline.launchCred_sum Finset.univ (fun (i : Fin 64) (d : Dev nD) => (tallyAt (dmaC (xn d) (xrS i)) () N : CellTallies nD τ sig Unit)) c,
    Pipeline.launchCred_sum Finset.univ (fun (i : Fin 64) (d : Dev nD) => (tallyAt (dmaC (yn d) (yrS i)) () N : CellTallies nD τ sig Unit)) c]

/-- The barrier cell of `c` is owed one unit by its row neighbour and one by its column neighbour: each
    neighbour map is its own inverse, so each summand deals `c` one unit, two in all. -/
theorem barrier_credit (c : Dev nD) :
    iprop(Pipeline.launchCred (fun d : Dev nD => (tallyAt (barC (xn d)) () 1 : CellTallies nD τ sig Unit)) c
        ∗ Pipeline.launchCred (fun d : Dev nD => (tallyAt (barC (yn d)) () 1 : CellTallies nD τ sig Unit)) c : sProp 𝕄)
      ⊢ cred (tallyAt (barC c) () 2) := by
  refine (BIClass.sep_mono (Pipeline.launchCred_tallyAt (.reg barS) xn xn xn_xn xn_xn () 1 c)
    (Pipeline.launchCred_tallyAt (.reg barS) yn yn yn_yn yn_yn () 1 c)).trans ?_
  rw [← tallyAt_add (barC c) () 1 1]
  exact (cred_add _ _).2

/-- A receive cell of `c` is owed a chunk's units by the one device whose neighbour `c` is. -/
theorem recv_credit (f : Dev nD → Dev nD) (hf : ∀ d, f (f d) = d) (q : DmaSem sig) (c : Dev nD) :
    (Pipeline.launchCred (fun d : Dev nD => (tallyAt (dmaC (f d) q) () N : CellTallies nD τ sig Unit)) c : sProp 𝕄)
      ⊢ cred (tallyAt (dmaC c q) () N) :=
  Pipeline.launchCred_tallyAt (.dma q) f f hf hf () N c

/-- The credit dealt at launch for what the neighbours owe device `c`: two units on its barrier cell,
    a chunk's credit on each of its receive cells. -/
theorem creds_of_launch' (c : Dev nD) : (Pipeline.launchCred O₀ c : sProp 𝕄) ⊢ creds c := by
  rw [launchCred_split]
  unfold creds
  refine Laws.sep_assoc.1.trans ?_
  exact BIClass.sep_mono (barrier_credit c)
    (BIClass.sep_mono (bigSep_mono fun i _ => recv_credit xn xn_xn (xrS i) c) (bigSep_mono fun i _ => recv_credit yn yn_yn (yrS i) c))

end Cert.KernelIdeal.AG

end
-- ==== Proof.Launch.lean ====
/- The launch: every cell's invariant is allocated for all four devices at once, each device is dealt
   its positions, the tokens of the duties it pays and the credit for what its neighbours owe it, and
   the launch theorem turns the four bodies' proofs into the run of the program.
   In order: families over the cells, device by device; the tokens of every duty of the schedule, indexed
   by the device that PAYS them; what the funding step deals each device; every cell's invariant
   allocated under one update, with the records, positions and tokens dealt to each device; the launch
   theorem's side conditions; the launch theorem applied, given each device's body. -/
import proofs.«900079_g7700000000000080_dist_ag_v7x_xy2x2_x_m16384_n1024_f32_1_alg».proof.Proof.Ghost
import proofs.«900079_g7700000000000080_dist_ag_v7x_xy2x2_x_m16384_n1024_f32_1_alg».proof.Proof.Credit
import proofs.«900079_g7700000000000080_dist_ag_v7x_xy2x2_x_m16384_n1024_f32_1_alg».proof.Proof.Gen.KernelIdeal.Launch
import proofs.«900079_g7700000000000080_dist_ag_v7x_xy2x2_x_m16384_n1024_f32_1_alg».proof.Proof.Gen.KernelIdeal.Frame

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Families over the cells -/

/-- A family over an optional index: the member at no index, and the members at the indices. -/
theorem bigSep_univ_option {M : Type} [URA M] {α : Type} [Fintype α] [DecidableEq α] (Φ : Option α → sProp M) :
    bigSep Finset.univ Φ = iprop(Φ none ∗ bigSep Finset.univ fun a => Φ (some a)) := by
  have h : (Finset.univ.erase (none : Option α)) = Finset.univ.map Function.Embedding.some := by
    ext o; cases o <;> simp
  rw [bigSep_univ_at Φ none, h, bigSep_map]; rfl

theorem bigSep_bool {M : Type} [URA M] (Φ : Bool → sProp M) : bigSep Finset.univ Φ = iprop(Φ false ∗ Φ true) :=
  bigSep_univ_eq_bigSepL [false, true] (by decide) (by decide) Φ

/-- A family over device `c`'s cells: its barrier cell's member and its DMA cells' members. -/
def cellsOf (c : Dev nD) (Φ : GSem nD τ sig → sProp 𝕄) : sProp 𝕄 :=
  iprop(Φ (barC c) ∗ bigSep Finset.univ fun q : DmaSem sig => Φ (dmaC c q))

/-- A family over all the cells is, device by device, the family over the device's cells. -/
theorem bigSep_allCells (Φ : GSem nD τ sig → sProp 𝕄) :
    bigSep allCells Φ = bigSep Finset.univ fun c : Dev nD => cellsOf c Φ := by
  unfold allCells; rw [bigSep_map, bigSep_univ_prod]
  exact bigSep_congr fun c _ => by rw [bigSep_univ_option]; rfl

theorem positions_eq (c : Dev nD) : (positions c : sProp 𝕄) = cellsOf c (fun g => atPos ER g 0 ∅ 0) := rfl

/-! ## The tokens, by the device that pays them -/

/-- The duties a device pays: the two barrier signals (`false`: to the row neighbour, `true`: to the column
    neighbour), the sixty-four landings on the row neighbour's receive cells, the sixty-four on the column
    neighbour's, its own sixty-four send cells of each phase, and its sixteen reads and sixteen writes. -/
abbrev TokIx : Type := Bool ⊕ Fin 64 ⊕ Fin 64 ⊕ Fin 64 ⊕ Fin 64 ⊕ Fin 16 ⊕ Fin 16

/-- The device whose cell the duty is on, for payer `c`. -/
def tokDev : TokIx → Dev nD → Dev nD
  | .inl false, c => xn c
  | .inl true, c => yn c
  | .inr (.inl _), c => xn c
  | .inr (.inr (.inl _)), c => yn c
  | .inr (.inr (.inr (.inl _))), c => c
  | .inr (.inr (.inr (.inr (.inl _)))), c => c
  | .inr (.inr (.inr (.inr (.inr (.inl _))))), c => c
  | .inr (.inr (.inr (.inr (.inr (.inr _))))), c => c

/-- The semaphore of the duty's cell. -/
def tokSem : TokIx → SemLoc sig
  | .inl _ => .reg barS
  | .inr (.inl i) => .dma (xrS i)
  | .inr (.inr (.inl i)) => .dma (yrS i)
  | .inr (.inr (.inr (.inl i))) => .dma (xsS i)
  | .inr (.inr (.inr (.inr (.inl i)))) => .dma (ysS i)
  | .inr (.inr (.inr (.inr (.inr (.inl k))))) => .dma (rdS (slotOf k))
  | .inr (.inr (.inr (.inr (.inr (.inr k))))) => .dma (wrS (slotOf k))

/-- Its round. -/
def tokRound : TokIx → ℕ
  | .inl _ => 0
  | .inr (.inl _) => 0
  | .inr (.inr (.inl _)) => 0
  | .inr (.inr (.inr (.inl _))) => 0
  | .inr (.inr (.inr (.inr (.inl _)))) => 0
  | .inr (.inr (.inr (.inr (.inr (.inl k))))) => roundOf k
  | .inr (.inr (.inr (.inr (.inr (.inr k))))) => roundOf k

/-- Its name in the round. -/
def tokDuty : TokIx → Bool
  | .inl b => b
  | .inr _ => false

/-- The token of duty `j` paid by device `c`. -/
def tokOf (cj : Dev nD × TokIx) : GSem nD τ sig × ℕ × Bool :=
  ((((tokDev cj.2 cj.1 : Dev nD) : Thread nD τ), tokSem cj.2), tokRound cj.2, tokDuty cj.2)

/-- A cell's semaphore as a number: the DMA semaphore's, or one above them all for the barrier. -/
def semNat : SemLoc sig → ℕ
  | .reg _ => 1000
  | .dma q => q.val

def tokKey (j : TokIx) : ℕ × ℕ × Bool := (semNat (tokSem j), tokRound j, tokDuty j)

/-- Semaphore, round and name tell the duties apart. -/
theorem tokKey_injective : Function.Injective tokKey := by
  intro j j' h
  have h1 : semNat (tokSem j) = semNat (tokSem j') := congrArg (fun x : ℕ × ℕ × Bool => x.1) h
  have h2 : tokRound j = tokRound j' := congrArg (fun x : ℕ × ℕ × Bool => x.2.1) h
  have h3 : tokDuty j = tokDuty j' := congrArg (fun x : ℕ × ℕ × Bool => x.2.2) h
  rcases j with b | i | i | i | i | i | i <;> rcases j' with b' | i' | i' | i' | i' | i' | i' <;>
    simp only [tokSem, tokRound, tokDuty, semNat, xrS_val, yrS_val, xsS_val, ysS_val, rdS_val, wrS_val, slotOf, roundOf] at h1 h2 h3 <;>
    first
      | (exfalso; omega)
      | rw [h3]
      | (have e : i = i' := Fin.ext (by omega); rw [e])

theorem tokDev_injective (j : TokIx) : Function.Injective (tokDev j) := by
  rcases j with (_ | _) | i | i | i | i | i | i <;> intro c c' h
  · exact xnE.injective h
  · exact ynE.injective h
  · exact xnE.injective h
  · exact ynE.injective h
  · exact h
  · exact h
  · exact h
  · exact h

theorem tokOf_injective : Function.Injective tokOf := by
  rintro ⟨c, j⟩ ⟨c', j'⟩ h
  have hj : j = j' := tokKey_injective
    (congrArg (fun x : GSem nD τ sig × ℕ × Bool => (semNat x.1.2, x.2.1, x.2.2)) h)
  subst hj
  have hc : c = c' := tokDev_injective j (congrArg (fun x : GSem nD τ sig × ℕ × Bool => x.1.1.1) h)
  subst hc; rfl

/-- Every duty's token. -/
def allToks : Finset (GSem nD τ sig × ℕ × Bool) := Finset.univ.map ⟨tokOf, tokOf_injective⟩

/-- The tokens, dealt: each device gets those of the duties it pays. -/
theorem toks_deal :
    (bigSep allToks fun x => (dutyTok ER x.1 x.2.1 x.2.2 : sProp 𝕄)) ⊢ bigSep Finset.univ fun c : Dev nD => payToks c := by
  unfold allToks; rw [bigSep_map, bigSep_univ_prod]
  refine bigSep_mono fun c _ => ?_
  rw [bigSep_univ_sum, bigSep_univ_sum, bigSep_univ_sum, bigSep_univ_sum, bigSep_univ_sum, bigSep_univ_sum, bigSep_bool]
  unfold payToks
  simp only [Function.Embedding.coeFn_mk, tokOf, tokDev, tokSem, tokRound, tokDuty]
  exact BI.sep_assoc

/-! ## What the funding step deals each device -/

/-- Device `c`'s share of the launch element: the round state of each of its cells at counter zero, that each
    is at its first round, its positions, and the tokens of the duties it pays. -/
def G (c : Dev nD) : sProp 𝕄 :=
  iprop(cellsOf c (fun g => roundState ER (sched m) g 0) ∗ cellsOf c (fun g => reached ER g 0) ∗ positions c ∗ payToks c)

/-- What the global step makes of it: every cell's invariant under some names, and the rest. -/
def G' (c : Dev nD) : sProp 𝕄 := iprop(∃ K, ghost m K c)

/-- The launch element: the pipeline library's (no staging cell) and the protocol's. -/
def u₀ : UU := (initOf (Pipeline.cells cfgs cellOf_inj) (Pipeline.launchToks cfgs cellOf_inj), initOf allCells allToks)

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (bigSep_allCells fun g => roundState ER (sched m) g 0)) $$ Hst
  ihave Hr' := (Entails.of_eq (bigSep_allCells (F := F) fun g => reached ER g 0)) $$ Hr
  ihave Hat' := (Entails.of_eq (bigSep_allCells (F := F) fun g => atPos ER g 0 ∅ 0)) $$ Hat
  ihave Htok' := (toks_deal (F := F)) $$ Htok
  unfold G; simp only [bigSep_sep']
  isplitl [Hst']; · iexact Hst'
  isplitl [Hr']; · iexact Hr'
  isplitl [Hat']; · iexact Hat'
  iexact Htok'

/-! ## The global step: every cell's invariant, for all devices at once -/

/-- The kernel's own semaphores: every DMA semaphore. -/
abbrev osem : DmaSem sig → SemLoc sig := fun q => .dma q

theorem ownSemFacts : Pipeline.OwnSemFacts cfg0.spec osem :=
  ⟨by decide, fun a b h => by cases h; rfl, fun k w s => w.elim0⟩

theorem ownSems0_eq (c : Dev nD) :
    (Pipeline.ownSems0 (Ix := Unit) (Name := ℕ) (U := UU) (Lvl := ℕ) (Val := Elt F) (τ := τ) osem c : sProp 𝕄)
      = bigSep Finset.univ fun q : DmaSem sig => semVal (dmaC c q) 0 := rfl

/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem ghost_intro (K : GSem nD τ sig → ℕ) (c : Dev nD) : iprop(records m K ∗ (positions c ∗ payToks c)) ⊢ G' m c := by
  unfold G' ghost
  iintro ⟨#HR, Hp, Ht⟩
  iexists K
  isplitr; · iexact HR
  isplitl [Hp] <;> iassumption

theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) := by
  have hcore (c : Dev nD) :
      iprop(Pipeline.ownSems0 (Ix := Unit) (Name := ℕ) (U := UU) (Lvl := ℕ) (Val := Elt F) (τ := τ) osem c ∗ unscopedSems0 c ∗ G m c)
        ⊢ iprop(cellsOf c (fun g => iprop(semVal g 0 ∗ roundState ER (sched m) g 0)) ∗ cellsOf c (fun g => reached ER g 0)
            ∗ positions c ∗ payToks c) := by
    rw [ownSems0_eq, unscopedSems0_eq]; unfold G cellsOf
    rw [bigSep_sep']
    iintro ⟨Hq, Hb, ⟨Hsb, Hsq⟩, Hr, Hp, Ht⟩
    isplitl [Hq Hb Hsb Hsq]
    · isplitl [Hb Hsb]
      · isplitl [Hb] <;> iassumption
      · isplitl [Hq] <;> iassumption
    isplitl [Hr]; · iexact Hr
    isplitl [Hp] <;> iassumption
  have hsplit : (bigSep Finset.univ fun c : Dev nD => iprop(cellsOf c (fun g => iprop(semVal g 0 ∗ roundState ER (sched m) g 0))
        ∗ cellsOf c (fun g => reached ER g 0) ∗ positions c ∗ payToks c) : sProp 𝕄)
      = iprop((bigSep allCells fun g => iprop(semVal g 0 ∗ roundState ER (sched m) g 0)) ∗ (bigSep allCells fun g => reached ER g 0)
          ∗ (bigSep Finset.univ fun c : Dev nD => positions c) ∗ bigSep Finset.univ fun c : Dev nD => payToks c) := by
    rw [bigSep_sep', bigSep_sep', bigSep_sep',
      ← bigSep_allCells (fun g => iprop(semVal g 0 ∗ roundState ER (sched m) g 0)),
      ← bigSep_allCells (F := F) (fun g => reached ER g 0)]
  refine (bigSep_mono fun c _ => hcore c).trans ((Entails.of_eq hsplit).trans ?_)
  show iprop((bigSep allCells fun g => iprop(semVal g 0 ∗ roundState ER (sched m) g 0)) ∗ (bigSep allCells fun g => reached ER g 0)
          ∗ (bigSep Finset.univ fun c : Dev nD => positions c) ∗ bigSep Finset.univ fun c : Dev nD => payToks c)
      ⊢ (|={Set.univ}=> bigSep Finset.univ (G' m) : sProp 𝕄)
  iintro ⟨Hcells, #Hr, Hpos, Htok⟩
  imod (show (bigSep allCells fun g => iprop(semVal g 0 ∗ roundState ER (sched m) g 0))
      ⊢ (|={Set.univ}=> bigSep allCells fun g => iprop(∃ κ : ℕ, cellInv ER (sched m) κ g) : sProp 𝕄) from
        (bigSep_mono fun g _ => (Rounds.body_intro ER (sched m) g).trans inv_alloc).trans (bigSep_fupd _ _)) $$ Hcells with HI
  ihave HK := (BI.bigSep_exists_pi allCells (fun (g : GSem nD τ sig) (κ : ℕ) => (cellInv ER (sched m) κ g : sProp 𝕄))) $$ HI
  icases HK with ⟨%K, #HI⟩
  imodintro
  iapply (bigSep_with_persistent (R := records m K) fun c _ => ghost_intro m K c)
  isplitr
  · unfold records; isplitl; · iexact HI
    iexact Hr
  · iapply (Entails.of_eq (bigSep_sep' Finset.univ (fun c : Dev nD => (positions c : sProp 𝕄)) payToks).symm)
    isplitl [Hpos] <;> iassumption

/-! ## The launch theorem's side conditions -/

theorem L_of_ne (g : GSem nD τ sig) (h : g.1.2 ≠ .tc) : L g = ∅ := if_neg h

/-- What the launch hands a device becomes what its body starts from, the staging buffer apart. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_of_launch' (F := F) c) $$ Hcr
  imodintro
  unfold start G' X
  isplitl
  · isplitl [HG]; · iexact HG
    isplitl [Hc]; · iexact Hc
    isplitl [Hlev]; · iexact Hlev
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- What a device keeps for the final read: its result at the expected contents and a share of its block. -/
def Yf (c : Dev nD) : sProp 𝕄 :=
  iprop((((c : Thread nD τ).loc main_v1) ↦{fullShare} Gout m c)
    ∗ ∃ q : PosShare TreeShare, ((c : Thread nD τ).loc main_arg0) ↦{q} X m c)

theorem phi1_exit (c : Dev nD) :
    (dats m 0 c).Φ (Fin.last cfg0.N) ⊢ iprop(Yf m c ∗ Pipeline.ownSems0 osem c ∗ Pipeline.scopedRest cfg0.spec c) := by
  rw [show (dats m 0 c).Φ (Fin.last cfg0.N) = Φ₁ m c from rfl, scopedRest0_eq, ownSems0_eq]
  unfold Φ₁ Yf
  iintro ⟨Hv, Hx, Hs, Hq⟩
  isplitl [Hv Hx]
  · isplitl [Hv] <;> iassumption
  isplitl [Hq] <;> iassumption

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 100000 in
/-- From any memory with zero counters, given each device's body from `Φ₀` to `Φ₁`: every weakly fair
    execution terminates, every device's result ends at the expected contents and its block unchanged. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c : Thread nD τ).loc main_v1) = Gout m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := Yf m) (Z := fun _ => iprop(emp))
    (hX := start_intro m ρ) (hin := phi0_intro m) (hout := phi1_exit m)
    (QY := fun c s => s.mem ((c : Thread nD τ).loc main_v1) = Gout m c ∧ s.mem ((c : Thread nD τ).loc main_arg0) = X m c)
    (hY := fun c s' => by
      unfold Yf
      iintro ⟨⟨Hv, %q, Hx⟩, -, HSI⟩
      icombine HSI Hv gives %hv
      icombine HSI Hx gives %hx
      imodintro
      isplitr; · ipureintro; exact ⟨Buf.eq_of_forall_mem_univ hv, Buf.eq_of_forall_mem_univ hx⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.Value.lean ====
/- The value: when every device's block is its block of one whole array, the expected result of every
   device IS that whole array; and the reference program, which returns its argument, runs. -/
import proofs.«900079_g7700000000000080_dist_ag_v7x_xy2x2_x_m16384_n1024_f32_1_alg».proof.Proof.Contents
import proofs.«900079_g7700000000000080_dist_ag_v7x_xy2x2_x_m16384_n1024_f32_1_alg».proof.Proof.Gen.ReferenceIdeal
import Idealize.ShloMosaic.Lib.Layout
import Idealize.ShloMosaic.Lib.StableHlo.Run

noncomputable section

namespace Cert.KernelIdeal.AG

open Cert.KernelIdeal
open Idealize.ShloMosaic Idealize.ShloMosaic.TcCoe Idealize.SL.Sem

variable {F : FTy → Type} [FloatOps F]

/-- The device a row of the result comes from sits in the mesh row that row's half names. -/
theorem srcDev_row (c : Dev nD) (R : Nat) (hR : R < 32768) : (srcDev c R).val / 2 = R / 16384 := by
  have hc : c.val < 4 := c.isLt
  unfold srcDev
  split
  · next h => exact h.symm
  · next h =>
    split
    · rw [xn_row]; omega
    · rw [xn_row, yn_row]; omega

/-- Every device's block being block (row of the device) of the whole array `w`, the gathered array is `w`. -/
theorem Gout_whole (m : (ℓ : Loc nD τ sig) → Buf (Elt F) ℓ) (w : S32768x1024.Idx → Elt F .f32)
    (hagree : ∀ c : Dev nD, m ((c : Thread nD τ).loc main_arg0)
      = Layout.blockN ⟨2, ![16384, 1024]⟩ ⟨2, ![32768, 1024]⟩ (Layout.meshBlock [2, 2] ![[0], []] c) w)
    (c : Dev nD) : Gout m c = w := by
  funext idx
  unfold Gout X
  rw [hagree (srcDev c (idx 0).val), Layout.blockN_apply]
  congr 1
  funext b
  apply Fin.ext
  rw [Layout.TilesN.idx_val]
  have h0 : (idx 0).val < 32768 := (idx 0).isLt
  have hrow := srcDev_row c (idx 0).val h0
  have hd : (srcDev c (idx 0).val).val < 4 := (srcDev c (idx 0).val).isLt
  rcases b with ⟨_ | _ | n, hb⟩
  · show Layout.meshLin [2, 2] (srcDev c (idx 0).val).val [0] * 16384 + (idx 0).val % 16384 = (idx 0).val
    have e : Layout.meshLin [2, 2] (srcDev c (idx 0).val).val [0] = (srcDev c (idx 0).val).val / 2 % 2 * 1 + 0 := rfl
    rw [e]; omega
  · show Layout.meshLin [2, 2] (srcDev c (idx 0).val).val [] * 1024 + (idx 1).val = (idx 1).val
    have e : Layout.meshLin [2, 2] (srcDev c (idx 0).val).val [] = 0 := rfl
    rw [e]; omega
  · exact absurd hb (by simp)

end Cert.KernelIdeal.AG

namespace Cert.ReferenceIdeal.AG

open Cert.ReferenceIdeal
open Idealize.ShloMosaic Idealize.ShloMosaic.TcCoe Idealize.ShloMosaic.StableHlo Idealize.SL.Sem

variable {F : FTy → Type} [FloatOps F]

/-- Nothing is scoped on the reference's signature. -/
theorem scopedRefs_eq : (Finset.univ.filter fun b : Ref sig .tc => b.isScoped) = ∅ := by decide
theorem scopedSems_eq : (Finset.univ.filter fun sm : SemLoc sig => sm.isScoped .tc) = ∅ := by decide

/-- The reference returns its argument: it runs, and leaves every buffer as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq scopedRefs_eq scopedSems_eq defs main (fun _ => []) (fun _ => rfl) (fun _ => trivial) m ρ)

end Cert.ReferenceIdeal.AG

end
-- ==== Proof.Tables.lean ====
/- The schedule's tables, cell by cell: the duties, amounts and payloads of each kind of cell. -/
import proofs.«900079_g7700000000000080_dist_ag_v7x_xy2x2_x_m16384_n1024_f32_1_alg».proof.Proof.Ghost

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem duties_bar (c : Dev nD) : (sched (F := F) m).duties (barC c) 0 = Finset.univ := by
  show (if (0 : ℕ) = 0 then (Finset.univ : Finset Bool) else ∅) = Finset.univ
  exact if_pos rfl
theorem duties_small (c : Dev nD) (q : DmaSem sig) (r : ℕ) (hq : q.val < 8) (hr : r < 4) : (sched (F := F) m).duties (dmaC c q) r = {false} := by
  show (if q.val < 8 then (if r < 4 then ({false} : Finset Bool) else ∅) else (if r = 0 then {false} else ∅)) = {false}
  rw [if_pos hq, if_pos hr]
theorem duties_big (c : Dev nD) (q : DmaSem sig) (hq : 8 ≤ q.val) : (sched (F := F) m).duties (dmaC c q) 0 = {false} := by
  show (if q.val < 8 then (if (0 : ℕ) < 4 then ({false} : Finset Bool) else ∅) else (if (0 : ℕ) = 0 then {false} else ∅)) = {false}
  rw [if_neg (by omega), if_pos rfl]
theorem duties_later_small (c : Dev nD) (q : DmaSem sig) (hq : q.val < 8) : ∀ r, 4 ≤ r → (sched (F := F) m).duties (dmaC c q) r = ∅ := by
  intro r hr
  show (if q.val < 8 then (if r < 4 then ({false} : Finset Bool) else ∅) else (if r = 0 then {false} else ∅)) = ∅
  rw [if_pos hq, if_neg (by omega)]
theorem duties_later_big (c : Dev nD) (q : DmaSem sig) (hq : 8 ≤ q.val) : ∀ r, 1 ≤ r → (sched (F := F) m).duties (dmaC c q) r = ∅ := by
  intro r hr
  show (if q.val < 8 then (if r < 4 then ({false} : Finset Bool) else ∅) else (if r = 0 then {false} else ∅)) = ∅
  rw [if_neg (by omega), if_neg (by omega)]

theorem amount_bar (c : Dev nD) (r : ℕ) (d : Bool) : (sched (F := F) m).amount (barC c) r d = 1 := rfl
theorem amount_small (c : Dev nD) (q : DmaSem sig) (r : ℕ) (d : Bool) (hq : q.val < 8) : (sched (F := F) m).amount (dmaC c q) r d = NL := by
  show (if q.val < 8 then NL else N) = NL
  exact if_pos hq
theorem amount_big (c : Dev nD) (q : DmaSem sig) (r : ℕ) (d : Bool) (hq : 8 ≤ q.val) : (sched (F := F) m).amount (dmaC c q) r d = N := by
  show (if q.val < 8 then NL else N) = N
  exact if_neg (by omega)

theorem expect_bar (c : Dev nD) : (sched (F := F) m).expect (barC c) 0 = 2 := by
  unfold Schedule.expect Schedule.amountOf
  rw [duties_bar, Finset.sum_congr rfl fun d _ => amount_bar m c 0 d, Finset.sum_const, Finset.card_univ, Fintype.card_bool, smul_eq_mul]
theorem expect_small (c : Dev nD) (q : DmaSem sig) (r : ℕ) (hq : q.val < 8) (hr : r < 4) : (sched (F := F) m).expect (dmaC c q) r = NL := by
  unfold Schedule.expect Schedule.amountOf
  rw [duties_small m c q r hq hr, Finset.sum_singleton, amount_small m c q r false hq]
theorem expect_big (c : Dev nD) (q : DmaSem sig) (hq : 8 ≤ q.val) : (sched (F := F) m).expect (dmaC c q) 0 = N := by
  unfold Schedule.expect Schedule.amountOf
  rw [duties_big m c q hq, Finset.sum_singleton, amount_big m c q 0 false hq]

/-- Slot `k % 4` at round `k / 4` carries chunk `k`. -/
theorem chunkOf_slot (k : Fin 16) : chunkOf (slotOf k).val (roundOf k) = k := by
  apply Fin.ext
  show (k.val % 4 + 4 * (k.val / 4)) % 16 = k.val
  have := k.isLt
  omega

theorem payload_bar_false (c : Dev nD) : (sched (F := F) m).payload (barC c) 0 false = barPayX c := by
  show (if false = true then barPayY (F := F) c else barPayX c) = barPayX c
  exact if_neg Bool.false_ne_true
theorem payload_bar_true (c : Dev nD) : (sched (F := F) m).payload (barC c) 0 true = barPayY c := by
  show (if true = true then barPayY (F := F) c else barPayX c) = barPayY c
  exact if_pos rfl
theorem payload_rd (c : Dev nD) (k : Fin 16) : (sched (F := F) m).payload (dmaC c (rdS (slotOf k))) (roundOf k) false = rdPay m c k := by
  show dmaPay m c (rdS (slotOf k)).val (roundOf k) = rdPay m c k
  rw [rdS_val]; unfold dmaPay
  rw [if_pos (slotOf k).isLt, chunkOf_slot]
theorem payload_wr (c : Dev nD) (k : Fin 16) : (sched (F := F) m).payload (dmaC c (wrS (slotOf k))) (roundOf k) false = wrPay m c k := by
  show dmaPay m c (wrS (slotOf k)).val (roundOf k) = wrPay m c k
  rw [wrS_val]; unfold dmaPay
  have hb := (slotOf k).isLt
  rw [if_neg (by omega), if_pos (by omega), Nat.add_sub_cancel_left, chunkOf_slot]
theorem payload_xs (c : Dev nD) (i : Fin 64) : (sched (F := F) m).payload (dmaC c (xsS i)) 0 false = iprop(emp) := by
  show dmaPay m c (xsS i).val 0 = iprop(emp)
  rw [xsS_val]; unfold dmaPay
  have hi := i.isLt
  rw [if_neg (by omega), if_neg (by omega), if_pos (by omega)]
theorem payload_xr (c : Dev nD) (i : Fin 64) : (sched (F := F) m).payload (dmaC c (xrS i)) 0 false = xrPay m c i := by
  show dmaPay m c (xrS i).val 0 = xrPay m c i
  rw [xrS_val]; unfold dmaPay
  have hi := i.isLt
  rw [if_neg (by omega), if_neg (by omega), if_neg (by omega), dif_pos (by omega)]
  congr 1
  exact Fin.ext (Nat.add_sub_cancel_left ..)
theorem payload_ys (c : Dev nD) (i : Fin 64) : (sched (F := F) m).payload (dmaC c (ysS i)) 0 false = xrPay m c i := by
  show dmaPay m c (ysS i).val 0 = xrPay m c i
  rw [ysS_val]; unfold dmaPay
  have hi := i.isLt
  rw [if_neg (by omega), if_neg (by omega), if_neg (by omega), dif_neg (by omega), dif_pos (by omega)]
  congr 1
  exact Fin.ext (Nat.add_sub_cancel_left ..)
theorem payload_yr (c : Dev nD) (i : Fin 64) : (sched (F := F) m).payload (dmaC c (yrS i)) 0 false = yrPay m c i := by
  show dmaPay m c (yrS i).val 0 = yrPay m c i
  rw [yrS_val]; unfold dmaPay
  have hi := i.isLt
  rw [if_neg (by omega), if_neg (by omega), if_neg (by omega), dif_neg (by omega), dif_neg (by omega), dif_pos (by omega)]
  congr 1
  exact Fin.ext (Nat.add_sub_cancel_left ..)

end Cert.KernelIdeal.AG

end
-- ==== Proof.Landing.lean ====
/- What each copy leaves where it lands: on the destination slice's own elements, the destination
   rewritten with the source slice's values is the expected contents — whatever the destination held.

   Every slice here is a block of consecutive rows of a whole array (or one staging slot with its unit
   axis dropped), so the element a slice's index names is the slice's offset plus that index. With the
   offsets in closed form, each claim is an equation between two rows of one device's block. -/
import proofs.«900079_g7700000000000080_dist_ag_v7x_xy2x2_x_m16384_n1024_f32_1_alg».proof.Proof.Contents
import Idealize.ShloMosaic.Lib.Pipeline.Value

noncomputable section

namespace Cert.KernelIdeal.AG

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## Blocks and expected contents at an index -/

/-- A block read at equal devices and equal indices. -/
theorem X_congr (d d' : Dev nD) (h : d = d') (a a' : S16384x1024.Idx) (ha : a = a') : X m d a = X m d' a' := by
  subst h; subst ha; rfl

/-- A rank-2 index is its two coordinates. -/
theorem idx2_ext {d : Fin 2 → Nat} (a b : (⟨2, d⟩ : Shape).Idx) (h0 : (a 0).val = (b 0).val) (h1 : (a 1).val = (b 1).val) : a = b := by
  funext x; apply Fin.ext
  rcases x with ⟨_ | _ | n, hx⟩
  · exact h0
  · exact h1
  · exact absurd hx (by simp)

/-- The expected result at an index, from where its row comes from. -/
theorem Gout_eq (c d : Dev nD) (idx : S32768x1024.Idx) (a : S16384x1024.Idx)
    (hd : srcDev c (idx 0).val = d) (h0 : (a 0).val = (idx 0).val % 16384) (h1 : (a 1).val = (idx 1).val) :
    Gout m c idx = X m d a := by
  unfold Gout
  exact X_congr m _ _ hd _ _ (idx2_ext _ _ h0.symm h1.symm)

/-! ## Where a slice's elements sit -/

/-- An element of a unit-stride slice of the result sits at the slice's offset plus its own index. -/
theorem oM_emb (off size : Fin 2 → Nat) (inb : ∀ a, off a + size a ≤ S32768x1024.size a)
    (y : (Rect.unit (s := S32768x1024) off size inb).shape.Idx) (idx : S32768x1024.Idx)
    (h : (oM.slice (Rect.unit (s := S32768x1024) off size inb) (fun _ => rfl)).view.emb y = idx) (a : Fin 2) :
    (idx a).val = off a + (y a).val := by
  subst h; show off a + 1 * (y a).val = _; omega

/-- The same for the device's block. -/
theorem xM_emb (off size : Fin 2 → Nat) (inb : ∀ a, off a + size a ≤ S16384x1024.size a)
    (y : (Rect.unit (s := S16384x1024) off size inb).shape.Idx) (idx : S16384x1024.Idx)
    (h : (xM.slice (Rect.unit (s := S16384x1024) off size inb) (fun _ => rfl)).view.emb y = idx) (a : Fin 2) :
    (idx a).val = off a + (y a).val := by
  subst h; show off a + 1 * (y a).val = _; omega

/-- Row and column of an element of the rows a device sends into, on its row neighbour. -/
theorem xdst_emb0 (s : Dev nD) (i : Fin 64) (y : S128x1024.Idx) (idx : S32768x1024.Idx) (h : (xdst oM s i).view.emb y = idx) :
    (idx 0).val = 16384 * (s.val / 2) + 8192 * (s.val % 2) + 128 * i.val + (y 0).val := by
  exact (oM_emb _ _ _ y idx h 0).trans (congrArg (· + (y 0).val) (congrFun (Gen.k0_off1_eq s i) 0))

theorem xdst_emb1 (s : Dev nD) (i : Fin 64) (y : S128x1024.Idx) (idx : S32768x1024.Idx) (h : (xdst oM s i).view.emb y = idx) :
    (idx 1).val = (y 1).val := by
  exact ((oM_emb _ _ _ y idx h 1).trans (congrArg (· + (y 1).val) (congrFun (Gen.k0_off1_eq s i) 1))).trans (Nat.zero_add _)

/-- Row and column of an element of the rows a device sends from. -/
theorem xsrc_emb0 (s : Dev nD) (i : Fin 64) (y : S128x1024.Idx) (idx : S16384x1024.Idx) (h : (xsrc xM s i).view.emb y = idx) :
    (idx 0).val = 8192 * (s.val % 2) + 128 * i.val + (y 0).val := by
  exact (xM_emb _ _ _ y idx h 0).trans (congrArg (· + (y 0).val) (congrFun (Gen.k0_off2_eq s i) 0))

theorem xsrc_emb1 (s : Dev nD) (i : Fin 64) (y : S128x1024.Idx) (idx : S16384x1024.Idx) (h : (xsrc xM s i).view.emb y = idx) :
    (idx 1).val = (y 1).val := by
  exact ((xM_emb _ _ _ y idx h 1).trans (congrArg (· + (y 1).val) (congrFun (Gen.k0_off2_eq s i) 1))).trans (Nat.zero_add _)

/-! ## The four landings -/

/-- The row neighbour's chunk `i`, sent by `s`, lands on `xn s` as the expected contents there: row
    `16384 · row s + 8192 · col s + 128 i + p` lies in the half that is not `xn s`'s own and in `xn s`'s
    column, so it is expected from `xn (xn s) = s`, at row `8192 · col s + 128 i + p` of its block. -/
theorem land_x (s : Dev nD) (i : Fin 64) (fd : Buf (Elt F) ((xdst oM s i).view.loc (xn s : Thread nD τ))) :
    ∀ idx ∈ (xdst oM s i).view.set,
      (xdst oM s i).view.write (Elt F) fd ((xsrc xM s i).view.read (Elt F) (X m s)) Finset.univ idx = Gout m (xn s) idx := by
  intro idx hidx
  obtain ⟨y, rfl⟩ := View.exists_emb_of_mem_set _ hidx
  rw [View.write_emb_of_mem _ _ (Finset.mem_univ y)]
  have hs : s.val < 4 := s.isLt
  have hi := i.isLt
  have hy0 : (y 0).val < 128 := (y 0).isLt
  have d0 := xdst_emb0 s i y _ rfl
  have d1 := xdst_emb1 s i y _ rfl
  have s0 := xsrc_emb0 s i y _ rfl
  have s1 := xsrc_emb1 s i y _ rfl
  have hr := xn_row s
  have hc := xn_col s
  show X m s ((xsrc xM s i).view.emb y) = Gout m (xn s) ((xdst oM s i).view.emb y)
  refine (Gout_eq m (xn s) s _ _ ?_ ?_ ?_).symm
  · unfold srcDev
    rw [if_neg (by omega), if_pos (by omega), xn_xn]
  · omega
  · omega

/-- Row and column of an element of the rows a device forwards. -/
theorem ypc_emb0 (c : Dev nD) (i : Fin 64) (y : S128x1024.Idx) (idx : S32768x1024.Idx) (h : (ypc oM c i).view.emb y = idx) :
    (idx 0).val = (8192 * (c.val % 2) + 128 * i.val + 16384) - 16384 * (c.val / 2) + (y 0).val :=
  (oM_emb _ _ _ y idx h 0).trans (congrArg (· + (y 0).val) (congrFun (Gen.k0_off3_eq c i) 0))

theorem ypc_emb1 (c : Dev nD) (i : Fin 64) (y : S128x1024.Idx) (idx : S32768x1024.Idx) (h : (ypc oM c i).view.emb y = idx) :
    (idx 1).val = (y 1).val :=
  ((oM_emb _ _ _ y idx h 1).trans (congrArg (· + (y 1).val) (congrFun (Gen.k0_off3_eq c i) 1))).trans (Nat.zero_add _)

/-- Row and column of an element of the rows chunk `k` of the device's own block goes to. -/
theorem ldst_emb0 (c : Dev nD) (k : Fin 16) (y : S1024x1024.Idx) (idx : S32768x1024.Idx) (h : (ldst oM c k).view.emb y = idx) :
    (idx 0).val = 16384 * (c.val / 2) + 1024 * k.val + (y 0).val :=
  (oM_emb _ _ _ y idx h 0).trans (congrArg (· + (y 0).val) (congrFun (Gen.k0_off4_eq c k) 0))

theorem ldst_emb1 (c : Dev nD) (k : Fin 16) (y : S1024x1024.Idx) (idx : S32768x1024.Idx) (h : (ldst oM c k).view.emb y = idx) :
    (idx 1).val = (y 1).val :=
  ((oM_emb _ _ _ y idx h 1).trans (congrArg (· + (y 1).val) (congrFun (Gen.k0_off4_eq c k) 1))).trans (Nat.zero_add _)

/-- Row and column of an element of chunk `k` of the device's block. -/
theorem lsrc_emb0 (k : Fin 16) (y : S1024x1024.Idx) (idx : S16384x1024.Idx) (h : (lsrc xM k).view.emb y = idx) :
    (idx 0).val = 1024 * k.val + (y 0).val :=
  xM_emb _ _ _ y idx h 0

theorem lsrc_emb1 (k : Fin 16) (y : S1024x1024.Idx) (idx : S16384x1024.Idx) (h : (lsrc xM k).view.emb y = idx) :
    (idx 1).val = (y 1).val :=
  (xM_emb _ _ _ y idx h 1).trans (Nat.zero_add _)

/-- A staging slot is the staging buffer's rows at one leading coordinate, the unit axis dropped: its
    index `(p, j)` names the buffer's `(b, p, j)`. -/
theorem slot_emb (b : Fin 4) (y : S1024x1024.Idx) (idx : S4x1024x1024.Idx) (h : (slot sM b).view.emb y = idx) (a : Fin 3) :
    (idx a).val = (![b.val, 0, 0] : Fin 3 → Nat) a
      + ((Fin.cons (⟨0, Nat.one_pos⟩ : Fin 1) y : (a : Fin 3) → Fin ((Matrix.vecCons 1 ![1024, 1024] : Fin 3 → Nat) a)) a).val := by
  subst h
  have e := Shape.reshapeEquiv_cons_one (n := 2) (d := ![1024, 1024]) squeezes_S1x1024x1024_S1024x1024.numel_eq y
  show (![b.val, 0, 0] : Fin 3 → Nat) a + 1 * ((Shape.reshapeEquiv squeezes_S1x1024x1024_S1024x1024.numel_eq y) a).val = _
  rw [e, Nat.one_mul]; rfl

theorem slot_emb0 (b : Fin 4) (y : S1024x1024.Idx) (idx : S4x1024x1024.Idx) (h : (slot sM b).view.emb y = idx) :
    (idx 0).val = b.val := (slot_emb b y idx h 0).trans (Nat.add_zero _)
theorem slot_emb1 (b : Fin 4) (y : S1024x1024.Idx) (idx : S4x1024x1024.Idx) (h : (slot sM b).view.emb y = idx) :
    (idx 1).val = (y 0).val := (slot_emb b y idx h 1).trans (Nat.zero_add _)
theorem slot_emb2 (b : Fin 4) (y : S1024x1024.Idx) (idx : S4x1024x1024.Idx) (h : (slot sM b).view.emb y = idx) :
    (idx 2).val = (y 1).val := (slot_emb b y idx h 2).trans (Nat.zero_add _)

/-- A row of the other half of the result, in the device's own column: on the device it comes from the row
    neighbour, and on the column neighbour it comes from that same device. -/
theorem srcDev_fwd (c : Dev nD) (R : Nat) (h1 : R / 16384 = 1 - c.val / 2) (h2 : (R % 16384) / 8192 = c.val % 2) :
    srcDev c R = srcDev (yn c) R := by
  have hc : c.val < 4 := c.isLt
  have hr := yn_row c
  have hl := yn_col c
  unfold srcDev
  rw [if_neg (by omega), if_pos (by omega), if_neg (by omega), if_neg (by omega), yn_yn]

/-- The expected results of two devices agree at an index whose row both expect from one device. -/
theorem Gout_congr (c c' : Dev nD) (idx : S32768x1024.Idx) (h : srcDev c (idx 0).val = srcDev c' (idx 0).val) :
    Gout m c idx = Gout m c' idx := by
  unfold Gout; exact X_congr m _ _ h _ _ rfl

/-- The staging buffer's expected contents at an index, as an element of the device's block. -/
theorem Sat_eq (c : Dev nD) (k : Fin 16) (idx : S4x1024x1024.Idx) (a : S16384x1024.Idx)
    (h0 : (a 0).val = 1024 * k.val + (idx 1).val) (h1 : (a 1).val = (idx 2).val) : Sat m c k idx = X m c a := by
  unfold Sat; exact X_congr m _ _ rfl _ _ (idx2_ext _ _ h0.symm h1.symm)

/-- The chunk `c` forwards lands on `yn c` as the expected contents there: both devices expect those rows
    from `xn c`. -/
theorem land_y (c : Dev nD) (i : Fin 64) (fd : Buf (Elt F) ((ypc oM c i).view.loc (yn c : Thread nD τ))) :
    ∀ idx ∈ (ypc oM c i).view.set,
      (ypc oM c i).view.write (Elt F) fd ((ypc oM c i).view.read (Elt F) (Gout m c)) Finset.univ idx = Gout m (yn c) idx := by
  intro idx hidx
  obtain ⟨y, rfl⟩ := View.exists_emb_of_mem_set _ hidx
  rw [View.write_emb_of_mem _ _ (Finset.mem_univ y)]
  have hc : c.val < 4 := c.isLt
  have hi := i.isLt
  have hy0 : (y 0).val < 128 := (y 0).isLt
  have d0 := ypc_emb0 c i y _ rfl
  show Gout m c ((ypc oM c i).view.emb y) = Gout m (yn c) ((ypc oM c i).view.emb y)
  refine Gout_congr m c (yn c) _ (srcDev_fwd c _ ?_ ?_) <;> omega

/-- Chunk `k` of the device's block, read into its slot. -/
theorem land_rd (c : Dev nD) (k : Fin 16) (fd : Buf (Elt F) ((slot sM (slotOf k)).view.loc (c : Thread nD τ))) :
    ∀ idx ∈ (slot sM (slotOf k)).view.set,
      (slot sM (slotOf k)).view.write (Elt F) fd ((lsrc xM k).view.read (Elt F) (X m c)) Finset.univ idx = Sat m c k idx := by
  intro idx hidx
  obtain ⟨y, rfl⟩ := View.exists_emb_of_mem_set _ hidx
  rw [View.write_emb_of_mem _ _ (Finset.mem_univ y)]
  show X m c ((lsrc xM k).view.emb y) = Sat m c k ((slot sM (slotOf k)).view.emb y)
  refine (Sat_eq m c k _ _ ?_ ?_).symm
  · exact (lsrc_emb0 k y _ rfl).trans (congrArg (1024 * k.val + ·) (slot_emb1 _ y _ rfl).symm)
  · exact (lsrc_emb1 k y _ rfl).trans (slot_emb2 _ y _ rfl).symm

/-- The slot's chunk `k`, written to its rows of the result: rows of the device's own half, expected
    from the device itself. -/
theorem land_wr (c : Dev nD) (k : Fin 16) (fd : Buf (Elt F) ((ldst oM c k).view.loc (c : Thread nD τ))) :
    ∀ idx ∈ (ldst oM c k).view.set,
      (ldst oM c k).view.write (Elt F) fd ((slot sM (slotOf k)).view.read (Elt F) (Sat m c k)) Finset.univ idx = Gout m c idx := by
  intro idx hidx
  obtain ⟨y, rfl⟩ := View.exists_emb_of_mem_set _ hidx
  rw [View.write_emb_of_mem _ _ (Finset.mem_univ y)]
  have hc : c.val < 4 := c.isLt
  have hk := k.isLt
  have hy0 : (y 0).val < 1024 := (y 0).isLt
  have d0 := ldst_emb0 c k y _ rfl
  show Sat m c k ((slot sM (slotOf k)).view.emb y) = Gout m c ((ldst oM c k).view.emb y)
  refine (Sat_eq m c k _ (blkIdx (1024 * k.val + (y 0).val) (by omega) (y 1)) ?_ ?_).trans
    (Gout_eq m c c _ (blkIdx (1024 * k.val + (y 0).val) (by omega) (y 1)) ?_ ?_ ?_).symm
  · exact congrArg (1024 * k.val + ·) (slot_emb1 _ y _ rfl).symm
  · exact (slot_emb2 _ y _ rfl).symm
  · unfold srcDev; rw [if_pos (by omega)]
  · show 1024 * k.val + (y 0).val = _; omega
  · exact (ldst_emb1 c k y _ rfl).symm

/-- Slices of one array at equal offsets are one slice. -/
theorem slice_congr_off {sp : Space} {S : Shape} {e : EltTy} (arg : Memref sig .tc sp S e) (off off' size : Fin S.rank → Nat)
    (h : off = off') (p : ∀ a, off a + size a ≤ S.size a) (p' : ∀ a, off' a + size a ≤ S.size a) :
    arg.slice (Rect.unit off size p) (fun _ => rfl) = arg.slice (Rect.unit off' size p') (fun _ => rfl) := by
  subst h; rfl

/-- The rows the row neighbour's copy `i` writes on `xn s` are the rows `xn s` forwards as its chunk `i`. -/
theorem xdst_eq (s : Dev nD) (i : Fin 64) : xdst oM s i = ypc oM (xn s) i := by
  have hAB : 16384 * (s.val / 2) + 8192 * (s.val % 2) + 128 * i.val
      = (8192 * ((xn s).val % 2) + 128 * i.val + 16384) - 16384 * ((xn s).val / 2) := by
    have := xn_row s; have := xn_col s; have : s.val < 4 := s.isLt; omega
  exact slice_congr_off oM _ _ _
    ((Gen.k0_off1_eq s i).trans ((congrArg (fun t : Nat => (![t, 0] : Fin 2 → Nat)) hAB).trans (Gen.k0_off3_eq (xn s) i).symm)) _ _

/-- info: 'Cert.KernelIdeal.AG.land_x' depends on axioms: [propext, Classical.choice, Quot.sound] -/
#guard_msgs in #print axioms land_x
/-- info: 'Cert.KernelIdeal.AG.land_y' depends on axioms: [propext, Classical.choice, Quot.sound] -/
#guard_msgs in #print axioms land_y
/-- info: 'Cert.KernelIdeal.AG.land_rd' depends on axioms: [propext, Classical.choice, Quot.sound] -/
#guard_msgs in #print axioms land_rd
/-- info: 'Cert.KernelIdeal.AG.land_wr' depends on axioms: [propext, Classical.choice, Quot.sound] -/
#guard_msgs in #print axioms land_wr
/-- info: 'Cert.KernelIdeal.AG.xdst_eq' depends on axioms: [propext, Classical.choice, Quot.sound] -/
#guard_msgs in #print axioms xdst_eq

end Cert.KernelIdeal.AG
end
-- ==== Proof.Steps.lean ====
/- One rule per kind of operation of the body, at a symbolic device and chunk: what the operation
   takes from the device's hands and what it gives back. -/
import proofs.«900079_g7700000000000080_dist_ag_v7x_xy2x2_x_m16384_n1024_f32_1_alg».proof.Proof.Tables
import proofs.«900079_g7700000000000080_dist_ag_v7x_xy2x2_x_m16384_n1024_f32_1_alg».proof.Proof.Landing

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The levels' word -/

/-- A device may wait on a cell of its own below everything it still owes. -/
theorem mayWait_lv (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O := by
  refine Pipeline.mayWait_of_levAts (L := L) (lev := lv)
    (by unfold L; rw [if_pos rfl]; exact Finset.mem_singleton_self _) (fun g u hg => ⟨?_, (h g u hg).2⟩)
  unfold L; rw [if_pos (h g u hg).1]; exact Finset.mem_singleton_self _

/-! ## The barrier -/

/-- The signal to the row neighbour hands it the chunks of `c`'s result it will write. -/
theorem step_signal_x (c : Dev nD) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (barC (xn c)) ∗ owes (c : Thread nD τ) (O + tallyAt (barC (xn c)) () 1) W
        ∗ dutyTok ER (barC (xn c)) 0 false ∗ barPayX (F := F) (xn c) ∗ reached ER (barC (xn c)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (semSignalWord (xn c) barS 1#32 Gen.hamt_1 >>= kont) Q) := by
  simp only [semSignalWord, Prog.bind_op, Prog.bind_ret]
  rw [← payload_bar_false m (xn c)]
  exact Rounds.wp_signal 𝒱₀ ER (sched m) (c : Thread nD τ) none (dst := (xn c : Thread nD τ)) (κ := κ) (r := 0) (d := false)
    (by rw [duties_bar]; exact Finset.mem_univ _) ((amount_bar m (xn c) 0 false).trans (by decide)) () O rfl

/-- The signal to the column neighbour hands it the chunks of `c`'s result it will forward into. -/
theorem step_signal_y (c : Dev nD) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (barC (yn c)) ∗ owes (c : Thread nD τ) (O + tallyAt (barC (yn c)) () 1) W
        ∗ dutyTok ER (barC (yn c)) 0 true ∗ barPayY (F := F) (yn c) ∗ reached ER (barC (yn c)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (semSignalWord (yn c) barS 1#32 Gen.hamt_1 >>= kont) Q) := by
  simp only [semSignalWord, Prog.bind_op, Prog.bind_ret]
  rw [← payload_bar_true m (yn c)]
  exact Rounds.wp_signal 𝒱₀ ER (sched m) (c : Thread nD τ) none (dst := (yn c : Thread nD τ)) (κ := κ) (r := 0) (d := true)
    (by rw [duties_bar]; exact Finset.mem_univ _) ((amount_bar m (yn c) 0 true).trans (by decide)) () O rfl

/-- The rest of the barrier cell's round, no duty taken: both neighbours' chunks. -/
theorem rest_bar (c : Dev nD) :
    bigSep ((sched (F := F) m).duties (barC c) 0 \ ∅) (fun d => (sched (F := F) m).payload (barC c) 0 d) = iprop(barPayX (F := F) c ∗ barPayY (F := F) c) := by
  rw [Finset.sdiff_empty, duties_bar, bigSep_univ_eq_bigSepL [false, true] (by decide) (by decide), bigSepL_cons_cons, bigSepL_singleton,
    payload_bar_false, payload_bar_true]
  rfl

/-- The wait for both neighbours: their chunks come with it. -/
theorem step_wait_bar (c : Dev nD) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (barC c) ∗ cred (tallyAt (barC c) () 2) ∗ owes (c : Thread nD τ) O W
        ∗ MayWait (c : Thread nD τ) (.reg barS) () O ∗ atPos ER (barC c) 0 ∅ 0)
      ⊢ iprop(((owes (c : Thread nD τ) O (insert (SemLoc.reg barS, ()) W) ∗ atPos ER (barC c) 1 ∅ 0
              ∗ barPayX (F := F) c ∗ barPayY (F := F) c) -∗ wp frame (wpE (defs₀ (F := F)) 𝒱₀ (c : Thread nD τ) none) Set.univ (kont ⟨⟩) Q)
          -∗ wp frame (wpE (defs₀ (F := F)) 𝒱₀ (c : Thread nD τ) none) Set.univ (semWaitWord barS 2#32 Gen.hamt_2 >>= kont) Q) := by
  simp only [semWaitWord, Prog.bind_op, Prog.bind_ret]
  iintro ⟨Hg, Hc, HO, Hlev, Hat⟩ Hk
  iapply (Rounds.wp_wait_rest_token 𝒱₀ ER (sched m) (c : Thread nD τ) none (κ := κ)
      (wpE_semWait_eq 𝒱₀ (c : Thread nD τ) none Set.univ) (Set.mem_univ _) () (O := O) (W := W) (R := 0) (m := 0) (T := ∅)
      (by rw [expect_bar]; decide)) $$ [Hg Hc HO Hlev Hat]
  · isplitl [Hg]; · iexact Hg
    isplitl [Hc]; · iexact Hc
    isplitl [HO]; · iexact HO
    isplitl [Hlev]; · iexact Hlev
    iexact Hat
  iintro ⟨HO, HatB, -, Hpay⟩
  ihave Hp := (Entails.of_eq (rest_bar m c)) $$ Hpay
  icases Hp with ⟨HX, HY⟩
  iapply Hk
  isplitl [HO]; · iexact HO
  isplitl [HatB]; · iexact HatB
  isplitl [HX]; · iexact HX
  iexact HY

/-! ## The copies -/

/-- Chunk `k` sits at a round below four. -/
theorem roundOf_lt (k : Fin 16) : roundOf k < 4 := by
  unfold roundOf; have := k.isLt; omega

/-- Equal memrefs hold the same elements. -/
theorem held_memref_eq {sp : Space} {s : Shape} {e : EltTy} (c' : Dev nD) (M M' : Memref sig .tc sp s e) (h : M = M')
    (f : Buf (Elt F) (M.view.loc (c' : Thread nD τ))) (g : Buf (Elt F) (M'.view.loc (c' : Thread nD τ))) (hfg : HEq f g) :
    held (F := F) c' M f = held (F := F) c' M' g := by
  subst h; rw [eq_of_heq hfg]

/-- The addressed-transfer rule at the first phase's cells, the copy addressed to `n = xn c`. -/
theorem send_x (c n : Dev nD) (hn : n = xn c) (i : Fin 64) (κ₁ κ₂ : ℕ) (q : PosShare TreeShare)
    (fd : Buf (Elt F) ((xdst oM c i).view.loc (xn c : Thread nD τ)))
    (O : CellTallies nD τ sig Unit) (W : Waits sig Unit)
    {hsc : (xdst oM c i : Memref sig (Dev.tc n : Thread nD τ).2.kind .hbm S128x1024 .f32).view.ref.isScScratch = false}
    {hsrc : (xsrc xM c i).view.WordExact} {hdst : (xdst oM c i).view.WordExact}
    {hsem : DmaTarget.Typed .hbm (.dma (xrS i)) (.remote (Dev.tc n : Thread nD τ) (xdst oM c i) (.dma (xsS i)) hsc)}
    {α : Type} {Q : α → sProp 𝕄} (kont : PUnit → Prog (TpuEff nD τ sig (Elt F) Λ₀ .tc) α) :
    iprop(cellInv ER (sched m) κ₁ (dmaC c (xsS i)) ∗ cellInv ER (sched m) κ₂ (dmaC (xn c) (xrS i))
        ∗ ((xsrc xM c i).view.loc (c : Thread nD τ) ↦[(xsrc xM c i).view.set]{q} X m c)
        ∗ held (F := F) (xn c) (xdst oM c i) fd
        ∗ owes (c : Thread nD τ) (O + tallyAt (dmaC (xn c) (xrS i)) () N) W
        ∗ dutyTok ER (dmaC c (xsS i)) 0 false ∗ reached ER (dmaC c (xsS i)) 0
        ∗ dutyTok ER (dmaC (xn c) (xrS i)) 0 false ∗ reached ER (dmaC (xn c) (xrS i)) 0)
      ⊢ iprop(((cred (tallyAt (dmaC c (xsS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xsrc xM c i) (.remote (Dev.tc n : Thread nD τ) (xdst oM c i) (.dma (xsS i)) hsc) (.dma (xrS i)) hsrc hdst hsem) kont) Q) := by
  subst hn
  have hs : 8 ≤ (xsS i).val := by rw [xsS_val]; omega
  have hr : 8 ≤ (xrS i).val := by rw [xrS_val]; omega
  exact Rounds.wp_send_pointsTo 𝒱₀ ER (sched m) (c : Thread nD τ) none (c' := (xn c : Thread nD τ)) (src := xsrc xM c i) (dst := xdst oM c i)
    (sS := .dma (xsS i)) (sem := .dma (xrS i)) (q := q) (fs := X m c) (fd := fd) (κ₁ := κ₁) (κ₂ := κ₂) (r₁ := 0) (r₂ := 0) (d₁ := false) (d₂ := false)
    (by rw [duties_big m c _ hs]; exact Finset.mem_singleton_self _) (by rw [duties_big m (xn c) _ hr]; exact Finset.mem_singleton_self _)
    () () N rfl (amount_big m c _ 0 false hs) (amount_big m (xn c) _ 0 false hr) O rfl
    (by rw [payload_xs]; iintro -; iempintro)
    (by
      rw [payload_xr]; unfold xrPay
      rw [← held_memref_eq (F := F) (xn c) (xdst oM c i) (ypc oM (xn c) i) (xdst_eq c i) (Gout m (xn c)) (Gout m (xn c)) HEq.rfl]
      unfold held
      rw [pointsTo_congr (land_x m c i fd)])

/-- Chunk `i` to the row neighbour: a share of its rows of the block, and the neighbour's chunk it lands in. -/
theorem step_xSend (c : Dev nD) (i : Fin 64) (κ₁ κ₂ : ℕ) (q : PosShare TreeShare)
    (fd : Buf (Elt F) ((ypc oM (xn c) i).view.loc (xn c : Thread nD τ)))
    (O : CellTallies nD τ sig Unit) (W : Waits sig Unit)
    {α : Type} {Q : α → sProp 𝕄} (kont : PUnit → Prog (TpuEff nD τ sig (Elt F) Λ₀ .tc) α) :
    iprop(cellInv ER (sched m) κ₁ (dmaC c (xsS i)) ∗ cellInv ER (sched m) κ₂ (dmaC (xn c) (xrS i))
        ∗ ((xsrc xM c i).view.loc (c : Thread nD τ) ↦[(xsrc xM c i).view.set]{q} X m c)
        ∗ held (F := F) (xn c) (ypc oM (xn c) i) fd
        ∗ owes (c : Thread nD τ) (O + tallyAt (dmaC (xn c) (xrS i)) () N) W
        ∗ dutyTok ER (dmaC c (xsS i)) 0 false ∗ reached ER (dmaC c (xsS i)) 0
        ∗ dutyTok ER (dmaC (xn c) (xrS i)) 0 false ∗ reached ER (dmaC (xn c) (xrS i)) 0)
      ⊢ iprop(((cred (tallyAt (dmaC c (xsS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (xSend (F := F) xM oM cc0_scratch3 cc0_scratch4 c i >>= kont) Q) := by
  simp only [xSend, Prog.lift, Prog.bind_op, Prog.bind_ret]
  revert fd
  rw [← xdst_eq c i]
  intro fd
  exact send_x m c _ (dev3_eq c) i κ₁ κ₂ q fd O W kont

/-- The addressed-transfer rule at the second phase's cells, the copy addressed to `n = yn c`. -/
theorem send_y (c n : Dev nD) (hn : n = yn c) (i : Fin 64) (κ₁ κ₂ : ℕ)
    (fd : Buf (Elt F) ((ypc oM c i).view.loc (yn c : Thread nD τ)))
    (O : CellTallies nD τ sig Unit) (W : Waits sig Unit)
    {hsc : (ypc oM c i : Memref sig (Dev.tc n : Thread nD τ).2.kind .hbm S128x1024 .f32).view.ref.isScScratch = false}
    {hsrc : (ypc oM c i).view.WordExact} {hdst : (ypc oM c i).view.WordExact}
    {hsem : DmaTarget.Typed .hbm (.dma (yrS i)) (.remote (Dev.tc n : Thread nD τ) (ypc oM c i) (.dma (ysS i)) hsc)}
    {α : Type} {Q : α → sProp 𝕄} (kont : PUnit → Prog (TpuEff nD τ sig (Elt F) Λ₀ .tc) α) :
    iprop(cellInv ER (sched m) κ₁ (dmaC c (ysS i)) ∗ cellInv ER (sched m) κ₂ (dmaC (yn c) (yrS i))
        ∗ held (F := F) c (ypc oM c i) (Gout m c)
        ∗ held (F := F) (yn c) (ypc oM c i) fd
        ∗ owes (c : Thread nD τ) (O + tallyAt (dmaC (yn c) (yrS i)) () N) W
        ∗ dutyTok ER (dmaC c (ysS i)) 0 false ∗ reached ER (dmaC c (ysS i)) 0
        ∗ dutyTok ER (dmaC (yn c) (yrS i)) 0 false ∗ reached ER (dmaC (yn c) (yrS i)) 0)
      ⊢ iprop(((cred (tallyAt (dmaC c (ysS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ypc oM c i) (.remote (Dev.tc n : Thread nD τ) (ypc oM c i) (.dma (ysS i)) hsc) (.dma (yrS i)) hsrc hdst hsem) kont) Q) := by
  subst hn
  have hs : 8 ≤ (ysS i).val := by rw [ysS_val]; omega
  have hr : 8 ≤ (yrS i).val := by rw [yrS_val]; omega
  exact Rounds.wp_send_pointsTo 𝒱₀ ER (sched m) (c : Thread nD τ) none (c' := (yn c : Thread nD τ)) (src := ypc oM c i) (dst := ypc oM c i)
    (sS := .dma (ysS i)) (sem := .dma (yrS i)) (q := fullShare) (fs := Gout m c) (fd := fd) (κ₁ := κ₁) (κ₂ := κ₂) (r₁ := 0) (r₂ := 0) (d₁ := false) (d₂ := false)
    (by rw [duties_big m c _ hs]; exact Finset.mem_singleton_self _) (by rw [duties_big m (yn c) _ hr]; exact Finset.mem_singleton_self _)
    () () N rfl (amount_big m c _ 0 false hs) (amount_big m (yn c) _ 0 false hr) O rfl
    (by rw [payload_ys]; unfold xrPay held; exact BI.Entails.refl _)
    (by
      rw [payload_yr]; unfold yrPay held
      rw [yn_yn, pointsTo_congr (land_y m c i fd)])

/-- Chunk `i` forwarded to the column neighbour: the chunk itself, and the neighbour's chunk it lands in. -/
theorem step_ySend (c : Dev nD) (i : Fin 64) (κ₁ κ₂ : ℕ)
    (fd : Buf (Elt F) ((ypc oM c i).view.loc (yn c : Thread nD τ)))
    (O : CellTallies nD τ sig Unit) (W : Waits sig Unit)
    {α : Type} {Q : α → sProp 𝕄} (kont : PUnit → Prog (TpuEff nD τ sig (Elt F) Λ₀ .tc) α) :
    iprop(cellInv ER (sched m) κ₁ (dmaC c (ysS i)) ∗ cellInv ER (sched m) κ₂ (dmaC (yn c) (yrS i))
        ∗ held (F := F) c (ypc oM c i) (Gout m c)
        ∗ held (F := F) (yn c) (ypc oM c i) fd
        ∗ owes (c : Thread nD τ) (O + tallyAt (dmaC (yn c) (yrS i)) () N) W
        ∗ dutyTok ER (dmaC c (ysS i)) 0 false ∗ reached ER (dmaC c (ysS i)) 0
        ∗ dutyTok ER (dmaC (yn c) (yrS i)) 0 false ∗ reached ER (dmaC (yn c) (yrS i)) 0)
      ⊢ iprop(((cred (tallyAt (dmaC c (ysS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (ySend (F := F) oM cc0_scratch5 cc0_scratch6 c i >>= kont) Q) := by
  simp only [ySend, Prog.lift, Prog.bind_op, Prog.bind_ret]
  exact send_y m c _ (dev67_eq c) i κ₁ κ₂ fd O W kont

/-- Chunk `k` of the block read into its slot. -/
theorem step_enqRd (c : Dev nD) (k : Fin 16) (κ : ℕ) (q : PosShare TreeShare)
    (fd : Buf (Elt F) ((slot sM (slotOf k)).view.loc (c : Thread nD τ)))
    {α : Type} {Q : α → sProp 𝕄} (kont : PUnit → Prog (TpuEff nD τ sig (Elt F) Λ₀ .tc) α) :
    iprop(cellInv ER (sched m) κ (dmaC c (rdS (slotOf k)))
        ∗ ((lsrc xM k).view.loc (c : Thread nD τ) ↦[(lsrc xM k).view.set]{q} X m c)
        ∗ held (F := F) c (slot sM (slotOf k)) fd
        ∗ dutyTok ER (dmaC c (rdS (slotOf k))) (roundOf k) false ∗ reached ER (dmaC c (rdS (slotOf k))) (roundOf k))
      ⊢ iprop((cred (tallyAt (dmaC c (rdS (slotOf k))) () NL) -∗ wp frame (wpE (defs₀ (F := F)) 𝒱₀ (c : Thread nD τ) none) Set.univ (kont ⟨⟩) Q)
          -∗ wp frame (wpE (defs₀ (F := F)) 𝒱₀ (c : Thread nD τ) none) Set.univ (enqRd (F := F) xM sM cc0_scratch1 k >>= kont) Q) := by
  simp only [enqRd, Prog.lift, Prog.bind_op, Prog.bind_ret]
  have hq : (rdS (slotOf k)).val < 8 := by rw [rdS_val]; have := (slotOf k).isLt; omega
  exact Rounds.wp_copy_pointsTo 𝒱₀ ER (sched m) (c : Thread nD τ) none (src := lsrc xM k) (dst := slot sM (slotOf k)) (sem := .dma (rdS (slotOf k)))
    (q := q) (fs := X m c) (fd := fd) (r := roundOf k) (d := false) (κ := κ)
    (by rw [duties_small m c _ _ hq (roundOf_lt k)]; exact Finset.mem_singleton_self _) () NL rfl
    (amount_small m c _ _ false hq)
    (by
      rw [payload_rd]; unfold rdPay held
      rw [pointsTo_congr (land_rd m c k fd)]
      iintro ⟨H, -⟩; iexact H)

/-- The slot's chunk `k` written to its rows of the result. -/
theorem step_enqWr (c : Dev nD) (k : Fin 16) (κ : ℕ)
    (fd : Buf (Elt F) ((ldst oM c k).view.loc (c : Thread nD τ)))
    {α : Type} {Q : α → sProp 𝕄} (kont : PUnit → Prog (TpuEff nD τ sig (Elt F) Λ₀ .tc) α) :
    iprop(cellInv ER (sched m) κ (dmaC c (wrS (slotOf k)))
        ∗ held (F := F) c (slot sM (slotOf k)) (Sat m c k)
        ∗ held (F := F) c (ldst oM c k) fd
        ∗ dutyTok ER (dmaC c (wrS (slotOf k))) (roundOf k) false ∗ reached ER (dmaC c (wrS (slotOf k))) (roundOf k))
      ⊢ iprop((cred (tallyAt (dmaC c (wrS (slotOf k))) () NL) -∗ wp frame (wpE (defs₀ (F := F)) 𝒱₀ (c : Thread nD τ) none) Set.univ (kont ⟨⟩) Q)
          -∗ wp frame (wpE (defs₀ (F := F)) 𝒱₀ (c : Thread nD τ) none) Set.univ (enqWr (F := F) oM sM cc0_scratch2 c k >>= kont) Q) := by
  simp only [enqWr, Prog.lift, Prog.bind_op, Prog.bind_ret]
  have hq : (wrS (slotOf k)).val < 8 := by rw [wrS_val]; have := (slotOf k).isLt; omega
  exact Rounds.wp_copy_pointsTo 𝒱₀ ER (sched m) (c : Thread nD τ) none (src := slot sM (slotOf k)) (dst := ldst oM c k) (sem := .dma (wrS (slotOf k)))
    (q := fullShare) (fs := Sat m c k) (fd := fd) (r := roundOf k) (d := false) (κ := κ)
    (by rw [duties_small m c _ _ hq (roundOf_lt k)]; exact Finset.mem_singleton_self _) () NL rfl
    (amount_small m c _ _ false hq)
    (by
      rw [payload_wr]; unfold wrPay held
      rw [pointsTo_congr (land_wr m c k fd)])

/-! ## The waits -/

/-- A wait for the whole of a round whose one duty is `false`, on a DMA cell of the device's own: the
    round's payload comes back and the cell stands at the next round. -/
theorem wait_one (c : Dev nD) (q : DmaSem sig) (R n : ℕ) (κ : ℕ) (O : CellTallies nD τ sig Unit) (W : Waits sig Unit) (P : sProp 𝕄)
    (hd : (sched (F := F) m).duties (dmaC c q) R = {false}) (he : (sched (F := F) m).expect (dmaC c q) R = n)
    (hp : (sched (F := F) m).payload (dmaC c q) R false = P)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma q) n K)
    {α : Type} {Q : α → sProp 𝕄} (kont : PUnit → Prog (TpuEff nD τ sig (Elt F) Λ₀ .tc) α) :
    iprop(cellInv ER (sched m) κ (dmaC c q) ∗ cred (tallyAt (dmaC c q) () n) ∗ owes (c : Thread nD τ) O W
        ∗ MayWait (c : Thread nD τ) (.dma q) () O ∗ atPos ER (dmaC c q) R ∅ 0)
      ⊢ iprop(((owes (c : Thread nD τ) O (insert (SemLoc.dma q, ()) W) ∗ atPos ER (dmaC c q) (R + 1) ∅ 0
              ∗ reached ER (dmaC c q) (R + 1) ∗ P) -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  have hrest : bigSep ((sched (F := F) m).duties (dmaC c q) R \ ∅) (fun d => (sched (F := F) m).payload (dmaC c q) R d) = P := by
    rw [Finset.sdiff_empty, hd, bigSep_singleton, hp]
  rw [← hrest]
  exact Rounds.wp_wait_rest_token 𝒱₀ ER (sched m) (c : Thread nD τ) none (κ := κ) hw (Set.mem_univ _) () (O := O) (W := W) (R := R) (m := 0) (T := ∅)
    (by rw [Nat.zero_add, he])

/-- Chunk `i` from the row neighbour has landed. -/
theorem step_waitXr (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (xrS i)) ∗ cred (tallyAt (dmaC c (xrS i)) () N) ∗ owes (c : Thread nD τ) O W
        ∗ MayWait (c : Thread nD τ) (.dma (xrS i)) () O ∗ atPos ER (dmaC c (xrS i)) (0) ∅ 0)
      ⊢ iprop(((owes (c : Thread nD τ) O (insert (SemLoc.dma (xrS i), ()) W) ∗ atPos ER (dmaC c (xrS i)) (0 + 1) ∅ 0
              ∗ reached ER (dmaC c (xrS i)) (0 + 1) ∗ xrPay m c i) -∗ wp frame (wpE (defs₀ (F := F)) 𝒱₀ (c : Thread nD τ) none) Set.univ (kont ⟨⟩) Q)
          -∗ wp frame (wpE (defs₀ (F := F)) 𝒱₀ (c : Thread nD τ) none) Set.univ (waitXr (F := F) xM oM cc0_scratch4 c i >>= kont) Q) := by
  simp only [waitXr, Prog.lift, Prog.bind_op, Prog.bind_ret]
  have hq : 8 ≤ (xrS i).val := by rw [xrS_val]; omega
  have hw : ∀ K : PUnit → sProp 𝕄, wpE (defs₀ (F := F)) 𝒱₀ (c : Thread nD τ) none Set.univ (.waitDma2 (xrS i) (xsrc xM c i) (xdst oM c i) (View.wordExact_bits rfl) (View.wordExact_bits rfl)) K
      = waitSpec (c : Thread nD τ) Set.univ (.dma (xrS i)) N K :=
    wpE_waitDma2_eq 𝒱₀ (c : Thread nD τ) none Set.univ
  exact wait_one m c (xrS i) 0 N κ O W (xrPay m c i) (duties_big m c _ hq) (expect_big m c _ hq) (payload_xr m c i)
    hw kont

/-- Chunk `i` from the column neighbour has landed. -/
theorem step_waitYr (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (yrS i)) ∗ cred (tallyAt (dmaC c (yrS i)) () N) ∗ owes (c : Thread nD τ) O W
        ∗ MayWait (c : Thread nD τ) (.dma (yrS i)) () O ∗ atPos ER (dmaC c (yrS i)) (0) ∅ 0)
      ⊢ iprop(((owes (c : Thread nD τ) O (insert (SemLoc.dma (yrS i), ()) W) ∗ atPos ER (dmaC c (yrS i)) (0 + 1) ∅ 0
              ∗ reached ER (dmaC c (yrS i)) (0 + 1) ∗ yrPay m c i) -∗ wp frame (wpE (defs₀ (F := F)) 𝒱₀ (c : Thread nD τ) none) Set.univ (kont ⟨⟩) Q)
          -∗ wp frame (wpE (defs₀ (F := F)) 𝒱₀ (c : Thread nD τ) none) Set.univ (waitYr (F := F) oM cc0_scratch6 c i >>= kont) Q) := by
  simp only [waitYr, Prog.lift, Prog.bind_op, Prog.bind_ret]
  have hq : 8 ≤ (yrS i).val := by rw [yrS_val]; omega
  have hw : ∀ K : PUnit → sProp 𝕄, wpE (defs₀ (F := F)) 𝒱₀ (c : Thread nD τ) none Set.univ (.waitDma2 (yrS i) (ypc oM c i) (ypc oM c i) (View.wordExact_bits rfl) (View.wordExact_bits rfl)) K
      = waitSpec (c : Thread nD τ) Set.univ (.dma (yrS i)) N K :=
    wpE_waitDma2_eq 𝒱₀ (c : Thread nD τ) none Set.univ
  exact wait_one m c (yrS i) 0 N κ O W (yrPay m c i) (duties_big m c _ hq) (expect_big m c _ hq) (payload_yr m c i)
    hw kont

/-- Chunk `i` has left for the row neighbour. -/
theorem step_waitXs (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (xsS i)) ∗ cred (tallyAt (dmaC c (xsS i)) () N) ∗ owes (c : Thread nD τ) O W
        ∗ MayWait (c : Thread nD τ) (.dma (xsS i)) () O ∗ atPos ER (dmaC c (xsS i)) (0) ∅ 0)
      ⊢ iprop(((owes (c : Thread nD τ) O (insert (SemLoc.dma (xsS i), ()) W) ∗ atPos ER (dmaC c (xsS i)) (0 + 1) ∅ 0
              ∗ reached ER (dmaC c (xsS i)) (0 + 1)) -∗ wp frame (wpE (defs₀ (F := F)) 𝒱₀ (c : Thread nD τ) none) Set.univ (kont ⟨⟩) Q)
          -∗ wp frame (wpE (defs₀ (F := F)) 𝒱₀ (c : Thread nD τ) none) Set.univ (waitXs (F := F) xM oM cc0_scratch3 c i >>= kont) Q) := by
  simp only [waitXs, Prog.lift, Prog.bind_op, Prog.bind_ret]
  have hq : 8 ≤ (xsS i).val := by rw [xsS_val]; omega
  have hw : ∀ K : PUnit → sProp 𝕄, wpE (defs₀ (F := F)) 𝒱₀ (c : Thread nD τ) none Set.univ (.waitDma2 (xsS i) (xdst oM c i) (xsrc xM c i) (View.wordExact_bits rfl) (View.wordExact_bits rfl)) K
      = waitSpec (c : Thread nD τ) Set.univ (.dma (xsS i)) N K :=
    wpE_waitDma2_eq 𝒱₀ (c : Thread nD τ) none Set.univ
  iintro H Hk
  iapply (wait_one m c (xsS i) 0 N κ O W iprop(emp) (duties_big m c _ hq) (expect_big m c _ hq) (payload_xs m c i)
    hw kont) $$ H
  iintro ⟨HO, Hat, Hr, -⟩
  iapply Hk
  isplitl [HO]; · iexact HO
  isplitl [Hat]; · iexact Hat
  iexact Hr

/-- Chunk `i` has left for the column neighbour: the chunk is the device's again. -/
theorem step_waitYs (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (ysS i)) ∗ cred (tallyAt (dmaC c (ysS i)) () N) ∗ owes (c : Thread nD τ) O W
        ∗ MayWait (c : Thread nD τ) (.dma (ysS i)) () O ∗ atPos ER (dmaC c (ysS i)) (0) ∅ 0)
      ⊢ iprop(((owes (c : Thread nD τ) O (insert (SemLoc.dma (ysS i), ()) W) ∗ atPos ER (dmaC c (ysS i)) (0 + 1) ∅ 0
              ∗ reached ER (dmaC c (ysS i)) (0 + 1) ∗ xrPay m c i) -∗ wp frame (wpE (defs₀ (F := F)) 𝒱₀ (c : Thread nD τ) none) Set.univ (kont ⟨⟩) Q)
          -∗ wp frame (wpE (defs₀ (F := F)) 𝒱₀ (c : Thread nD τ) none) Set.univ (waitYs (F := F) oM cc0_scratch5 c i >>= kont) Q) := by
  simp only [waitYs, Prog.lift, Prog.bind_op, Prog.bind_ret]
  have hq : 8 ≤ (ysS i).val := by rw [ysS_val]; omega
  have hw : ∀ K : PUnit → sProp 𝕄, wpE (defs₀ (F := F)) 𝒱₀ (c : Thread nD τ) none Set.univ (.waitDma2 (ysS i) (ypc oM c i) (ypc oM c i) (View.wordExact_bits rfl) (View.wordExact_bits rfl)) K
      = waitSpec (c : Thread nD τ) Set.univ (.dma (ysS i)) N K :=
    wpE_waitDma2_eq 𝒱₀ (c : Thread nD τ) none Set.univ
  exact wait_one m c (ysS i) 0 N κ O W (xrPay m c i) (duties_big m c _ hq) (expect_big m c _ hq) (payload_ys m c i)
    hw kont

/-- Chunk `k` of the block is in its slot. -/
theorem step_waitRd (c : Dev nD) (k : Fin 16) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (rdS (slotOf k))) ∗ cred (tallyAt (dmaC c (rdS (slotOf k))) () NL) ∗ owes (c : Thread nD τ) O W
        ∗ MayWait (c : Thread nD τ) (.dma (rdS (slotOf k))) () O ∗ atPos ER (dmaC c (rdS (slotOf k))) (roundOf k) ∅ 0)
      ⊢ iprop(((owes (c : Thread nD τ) O (insert (SemLoc.dma (rdS (slotOf k)), ()) W) ∗ atPos ER (dmaC c (rdS (slotOf k))) (roundOf k + 1) ∅ 0
              ∗ reached ER (dmaC c (rdS (slotOf k))) (roundOf k + 1) ∗ rdPay m c k) -∗ wp frame (wpE (defs₀ (F := F)) 𝒱₀ (c : Thread nD τ) none) Set.univ (kont ⟨⟩) Q)
          -∗ wp frame (wpE (defs₀ (F := F)) 𝒱₀ (c : Thread nD τ) none) Set.univ (waitRd (F := F) xM sM cc0_scratch1 k >>= kont) Q) := by
  simp only [waitRd, Prog.lift, Prog.bind_op, Prog.bind_ret]
  have hq : (rdS (slotOf k)).val < 8 := by rw [rdS_val]; have := (slotOf k).isLt; omega
  have hw : ∀ K : PUnit → sProp 𝕄, wpE (defs₀ (F := F)) 𝒱₀ (c : Thread nD τ) none Set.univ (.waitDma2 (rdS (slotOf k)) (lsrc xM k) (slot sM (slotOf k)) (View.wordExact_bits rfl) ((View.wordExact_bits rfl).reshape _ _)) K
      = waitSpec (c : Thread nD τ) Set.univ (.dma (rdS (slotOf k))) NL K :=
    wpE_waitDma2_eq 𝒱₀ (c : Thread nD τ) none Set.univ
  exact wait_one m c (rdS (slotOf k)) (roundOf k) NL κ O W (rdPay m c k) (duties_small m c _ _ hq (roundOf_lt k)) (expect_small m c _ _ hq (roundOf_lt k)) (payload_rd m c k)
    hw kont

/-- Chunk `k` is written: its rows of the result and the slot are the device's again. -/
theorem step_waitWr (c : Dev nD) (k : Fin 16) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (wrS (slotOf k))) ∗ cred (tallyAt (dmaC c (wrS (slotOf k))) () NL) ∗ owes (c : Thread nD τ) O W
        ∗ MayWait (c : Thread nD τ) (.dma (wrS (slotOf k))) () O ∗ atPos ER (dmaC c (wrS (slotOf k))) (roundOf k) ∅ 0)
      ⊢ iprop(((owes (c : Thread nD τ) O (insert (SemLoc.dma (wrS (slotOf k)), ()) W) ∗ atPos ER (dmaC c (wrS (slotOf k))) (roundOf k + 1) ∅ 0
              ∗ reached ER (dmaC c (wrS (slotOf k))) (roundOf k + 1) ∗ wrPay m c k) -∗ wp frame (wpE (defs₀ (F := F)) 𝒱₀ (c : Thread nD τ) none) Set.univ (kont ⟨⟩) Q)
          -∗ wp frame (wpE (defs₀ (F := F)) 𝒱₀ (c : Thread nD τ) none) Set.univ (waitWr (F := F) oM sM cc0_scratch2 c k >>= kont) Q) := by
  simp only [waitWr, Prog.lift, Prog.bind_op, Prog.bind_ret]
  have hq : (wrS (slotOf k)).val < 8 := by rw [wrS_val]; have := (slotOf k).isLt; omega
  have hw : ∀ K : PUnit → sProp 𝕄, wpE (defs₀ (F := F)) 𝒱₀ (c : Thread nD τ) none Set.univ (.waitDma2 (wrS (slotOf k)) (slot sM (slotOf k)) (ldst oM c k) ((View.wordExact_bits rfl).reshape _ _) (View.wordExact_bits rfl)) K
      = waitSpec (c : Thread nD τ) Set.univ (.dma (wrS (slotOf k))) NL K :=
    wpE_waitDma2_eq 𝒱₀ (c : Thread nD τ) none Set.univ
  exact wait_one m c (wrS (slotOf k)) (roundOf k) NL κ O W (wrPay m c k) (duties_small m c _ _ hq (roundOf_lt k)) (expect_small m c _ _ hq (roundOf_lt k)) (payload_wr m c k)
    hw kont

/-! ## Closing a cell: its counter, at zero, is the device's again -/

theorem close_big (c : Dev nD) (q : DmaSem sig) (κ : ℕ) (hq : 8 ≤ q.val) :
    iprop(cellInv ER (sched m) κ (dmaC c q) ∗ atPos ER (dmaC c q) 1 ∅ 0) ⊢ (|={Set.univ}=> semVal (dmaC c q) 0 : sProp 𝕄) := by
  exact Rounds.cell_close ER (sched m) (Set.mem_univ κ) (fun h => h) (R := 1) (duties_later_big m c q hq)

theorem close_small (c : Dev nD) (q : DmaSem sig) (κ : ℕ) (hq : q.val < 8) :
    iprop(cellInv ER (sched m) κ (dmaC c q) ∗ atPos ER (dmaC c q) 4 ∅ 0) ⊢ (|={Set.univ}=> semVal (dmaC c q) 0 : sProp 𝕄) := by
  exact Rounds.cell_close ER (sched m) (Set.mem_univ κ) (fun h => h) (R := 4) (duties_later_small m c q hq)

end Cert.KernelIdeal.AG

end
-- ==== Proof.Partition.lean ====
/- Cutting the three buffers along the pieces the copies use, and putting them together again.
   The result array is the disjoint union of sixteen chunks of 1024 rows (the device's own block) and
   twice sixty-four chunks of 128 rows (the other block: the half the row neighbour writes, the half
   the column neighbour writes); the staging buffer of its four slots. -/
import proofs.«900079_g7700000000000080_dist_ag_v7x_xy2x2_x_m16384_n1024_f32_1_alg».proof.Proof.Schedule
import Idealize.ShloMosaic.Lib.Pipeline.Value

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-! ## Which rows a piece holds -/

/-- The elements of the result under chunk `k` of the device's own block, and under chunk `i` of the
    rows device `d` forwards, as sets of indices of device `c`'s result. -/
abbrev oSetL (c : Dev nD) (k : Fin 16) : Finset (Idx ((c : Thread nD τ).loc main_v1)) := (ldst oM c k).view.set
abbrev oSetY (c d : Dev nD) (i : Fin 64) : Finset (Idx ((c : Thread nD τ).loc main_v1)) := (ypc oM d i).view.set

theorem mem_ldst (c : Dev nD) (k : Fin 16) (x : Idx ((c : Thread nD τ).loc main_v1)) :
    x ∈ oSetL c k ↔ 16384 * (c.val / 2) + 1024 * k.val ≤ (x 0).val ∧ (x 0).val < 16384 * (c.val / 2) + 1024 * k.val + 1024 := by
  have e : oSetL c k = (Rect.unit (s := S32768x1024) (k0_off4 c (BitVec.ofNat 32 (1024 * k.val))) S1024x1024.size (Gen.k0_off4_inb c k)).set :=
    View.set_slice_whole _ _
  rw [e]
  refine (Rect.mem_set_unit (s := S32768x1024)).trans ?_
  rw [k0_off4_eq, Fin.forall_fin_two]
  have h1 : (x 1).val < 1024 := (x 1).isLt
  simp only [Matrix.cons_val_zero, Matrix.cons_val_one]
  omega

theorem mem_ypc (c d : Dev nD) (i : Fin 64) (x : Idx ((c : Thread nD τ).loc main_v1)) :
    x ∈ oSetY c d i ↔ (8192 * (d.val % 2) + 128 * i.val + 16384) - 16384 * (d.val / 2) ≤ (x 0).val
      ∧ (x 0).val < (8192 * (d.val % 2) + 128 * i.val + 16384) - 16384 * (d.val / 2) + 128 := by
  have e : oSetY c d i = (Rect.unit (s := S32768x1024) (k0_off3 d (BitVec.ofNat 32 (128 * i.val))) S128x1024.size (Gen.k0_off3_inb d i)).set :=
    View.set_slice_whole _ _
  rw [e]
  refine (Rect.mem_set_unit (s := S32768x1024)).trans ?_
  rw [k0_off3_eq, Fin.forall_fin_two]
  have h1 : (x 1).val < 1024 := (x 1).isLt
  simp only [Matrix.cons_val_zero, Matrix.cons_val_one]
  omega

/-! ## The result array -/

theorem ldst_disjoint (c : Dev nD) (k k' : Fin 16) (h : k ≠ k') :
    Disjoint (oSetL c k) (oSetL c k') := by
  refine Finset.disjoint_left.mpr fun x hx hx' => ?_
  have h1 := (mem_ldst c k x).mp hx
  have h2 := (mem_ldst c k' x).mp hx'
  have : k.val ≠ k'.val := fun e => h (Fin.ext e)
  omega

theorem ypc_disjoint (c d : Dev nD) (i i' : Fin 64) (h : i ≠ i') :
    Disjoint (oSetY c d i) (oSetY c d i') := by
  refine Finset.disjoint_left.mpr fun x hx hx' => ?_
  have h1 := (mem_ypc c d i x).mp hx
  have h2 := (mem_ypc c d i' x).mp hx'
  have : i.val ≠ i'.val := fun e => h (Fin.ext e)
  have hd : d.val < 4 := d.isLt
  omega

theorem ldst_ypc_disjoint (c d : Dev nD) (hd : d.val / 2 = c.val / 2) (k : Fin 16) (i : Fin 64) :
    Disjoint (oSetL c k) (oSetY c d i) := by
  refine Finset.disjoint_left.mpr fun x hx hx' => ?_
  have h1 := (mem_ldst c k x).mp hx
  have h2 := (mem_ypc c d i x).mp hx'
  have hc4 : c.val < 4 := c.isLt
  have hd4 : d.val < 4 := d.isLt
  omega

theorem ypc_yn_disjoint (c : Dev nD) (i i' : Fin 64) :
    Disjoint (oSetY c c i) (oSetY c (yn c) i') := by
  refine Finset.disjoint_left.mpr fun x hx hx' => ?_
  have h1 := (mem_ypc c c i x).mp hx
  have h2 := (mem_ypc c (yn c) i' x).mp hx'
  rw [yn_row, yn_col] at h2
  have hc4 : c.val < 4 := c.isLt
  omega

/-- Every row of the result lies in a piece. -/
theorem out_cover (c : Dev nD) (x : Idx ((c : Thread nD τ).loc main_v1)) :
    (∃ k, x ∈ oSetL c k) ∨ (∃ i, x ∈ oSetY c c i) ∨ ∃ i, x ∈ oSetY c (yn c) i := by
  have hr : (x 0).val < 32768 := (x 0).isLt
  have hc : c.val < 4 := c.isLt
  by_cases h1 : (x 0).val / 16384 = c.val / 2
  · refine Or.inl ⟨⟨((x 0).val % 16384) / 1024, by omega⟩, (mem_ldst c _ x).mpr ?_⟩
    show 16384 * (c.val / 2) + 1024 * (((x 0).val % 16384) / 1024) ≤ (x 0).val ∧ (x 0).val < 16384 * (c.val / 2) + 1024 * (((x 0).val % 16384) / 1024) + 1024
    omega
  · by_cases h2 : ((x 0).val % 16384) / 8192 = c.val % 2
    · refine Or.inr (Or.inl ⟨⟨((x 0).val % 8192) / 128, by omega⟩, (mem_ypc c c _ x).mpr ?_⟩)
      show (8192 * (c.val % 2) + 128 * (((x 0).val % 8192) / 128) + 16384) - 16384 * (c.val / 2) ≤ (x 0).val
        ∧ (x 0).val < (8192 * (c.val % 2) + 128 * (((x 0).val % 8192) / 128) + 16384) - 16384 * (c.val / 2) + 128
      omega
    · refine Or.inr (Or.inr ⟨⟨((x 0).val % 8192) / 128, by omega⟩, (mem_ypc c (yn c) _ x).mpr ?_⟩)
      rw [yn_row, yn_col]
      show (8192 * (1 - c.val % 2) + 128 * (((x 0).val % 8192) / 128) + 16384) - 16384 * (c.val / 2) ≤ (x 0).val
        ∧ (x 0).val < (8192 * (1 - c.val % 2) + 128 * (((x 0).val % 8192) / 128) + 16384) - 16384 * (c.val / 2) + 128
      omega

/-- The result array held whole and its 16 + 64 + 64 pieces held one by one are the same assertion. -/
theorem out_eq (c : Dev nD) (f : Buf (Elt F) ((c : Thread nD τ).loc main_v1)) :
    ((((c : Thread nD τ).loc main_v1) ↦{fullShare} f : sProp 𝕄))
      = iprop((bigSep Finset.univ fun k : Fin 16 => held (F := F) c (ldst oM c k) f)
          ∗ (bigSep Finset.univ fun i : Fin 64 => held (F := F) c (ypc oM c i) f)
          ∗ (bigSep Finset.univ fun i : Fin 64 => held (F := F) c (ypc oM (yn c) i) f)) := by
  classical
  have hA := pointsTo_biUnion (Ix := Unit) (Name := ℕ) (U := UU) (Lvl := ℕ) (ℓ := (c : Thread nD τ).loc main_v1) (q := fullShare) (f := f)
    (Finset.univ : Finset (Fin 16)) (oSetL c) (fun k _ k' _ h => ldst_disjoint c k k' h)
  have hB := pointsTo_biUnion (Ix := Unit) (Name := ℕ) (U := UU) (Lvl := ℕ) (ℓ := (c : Thread nD τ).loc main_v1) (q := fullShare) (f := f)
    (Finset.univ : Finset (Fin 64)) (oSetY c c) (fun i _ i' _ h => ypc_disjoint c c i i' h)
  have hC := pointsTo_biUnion (Ix := Unit) (Name := ℕ) (U := UU) (Lvl := ℕ) (ℓ := (c : Thread nD τ).loc main_v1) (q := fullShare) (f := f)
    (Finset.univ : Finset (Fin 64)) (oSetY c (yn c)) (fun i _ i' _ h => ypc_disjoint c (yn c) i i' h)
  have hBC : Disjoint (Finset.univ.biUnion (oSetY c c))
      (Finset.univ.biUnion (oSetY c (yn c))) :=
    (Finset.disjoint_biUnion_left _ _ _).mpr fun i _ => (Finset.disjoint_biUnion_right _ _ _).mpr fun i' _ =>
      ypc_yn_disjoint c i i'
  have hABC : Disjoint (Finset.univ.biUnion (oSetL c))
      ((Finset.univ.biUnion (oSetY c c))
        ∪ (Finset.univ.biUnion (oSetY c (yn c)))) :=
    Finset.disjoint_union_right.mpr
      ⟨(Finset.disjoint_biUnion_left _ _ _).mpr fun k _ => (Finset.disjoint_biUnion_right _ _ _).mpr fun i _ =>
          ldst_ypc_disjoint c c rfl k i,
        (Finset.disjoint_biUnion_left _ _ _).mpr fun k _ => (Finset.disjoint_biUnion_right _ _ _).mpr fun i _ =>
          ldst_ypc_disjoint c (yn c) (yn_row c) k i⟩
  have hU : (Finset.univ.biUnion (oSetL c))
      ∪ ((Finset.univ.biUnion (oSetY c c))
        ∪ (Finset.univ.biUnion (oSetY c (yn c)))) = Finset.univ := by
    refine Finset.eq_univ_iff_forall.mpr fun x => ?_
    rcases out_cover c x with ⟨k, h⟩ | ⟨i, h⟩ | ⟨i, h⟩
    · exact Finset.mem_union_left _ (Finset.mem_biUnion.mpr ⟨k, Finset.mem_univ _, h⟩)
    · exact Finset.mem_union_right _ (Finset.mem_union_left _ (Finset.mem_biUnion.mpr ⟨i, Finset.mem_univ _, h⟩))
    · exact Finset.mem_union_right _ (Finset.mem_union_right _ (Finset.mem_biUnion.mpr ⟨i, Finset.mem_univ _, h⟩))
  have e1 := pointsTo_union (Ix := Unit) (Name := ℕ) (U := UU) (Lvl := ℕ) (ℓ := (c : Thread nD τ).loc main_v1) (q := fullShare) (f := f) hABC
  have e2 := pointsTo_union (Ix := Unit) (Name := ℕ) (U := UU) (Lvl := ℕ) (ℓ := (c : Thread nD τ).loc main_v1) (q := fullShare) (f := f) hBC
  show pointsTo _ Finset.univ fullShare f = _
  rw [← hU, BI.equiv_iff.mp ⟨e1.1, e1.2⟩, BI.equiv_iff.mp ⟨e2.1, e2.2⟩, hA, hB, hC]
  rfl

/-- The result array, whole, is its 16 + 64 + 64 pieces. -/
theorem out_split (c : Dev nD) (f : Buf (Elt F) ((c : Thread nD τ).loc main_v1)) :
    ((((c : Thread nD τ).loc main_v1) ↦{fullShare} f : sProp 𝕄))
      ⊢ iprop((bigSep Finset.univ fun k : Fin 16 => held (F := F) c (ldst oM c k) f)
          ∗ (bigSep Finset.univ fun i : Fin 64 => held (F := F) c (ypc oM c i) f)
          ∗ (bigSep Finset.univ fun i : Fin 64 => held (F := F) c (ypc oM (yn c) i) f)) :=
  Entails.of_eq (out_eq c f)

theorem out_join (c : Dev nD) (f : Buf (Elt F) ((c : Thread nD τ).loc main_v1)) :
    iprop((bigSep Finset.univ fun k : Fin 16 => held (F := F) c (ldst oM c k) f)
          ∗ (bigSep Finset.univ fun i : Fin 64 => held (F := F) c (ypc oM c i) f)
          ∗ (bigSep Finset.univ fun i : Fin 64 => held (F := F) c (ypc oM (yn c) i) f))
      ⊢ ((((c : Thread nD τ).loc main_v1) ↦{fullShare} f : sProp 𝕄)) :=
  Entails.of_eq (out_eq c f).symm

/-! ## The staging buffer -/

/-- The elements of the staging buffer under slot `b`. -/
abbrev sSet (c : Dev nD) (b : Fin 4) : Finset (Idx ((c : Thread nD τ).loc cc0_scratch0)) := (slot sM b).view.set

theorem mem_slot (c : Dev nD) (b : Fin 4) (x : Idx ((c : Thread nD τ).loc cc0_scratch0)) :
    x ∈ sSet c b ↔ (x 0).val = b.val := by
  have e : sSet c b = (Rect.unit (s := S4x1024x1024) ![b.val, 0, 0] S1x1024x1024.size (inbSlot b)).set :=
    (View.set_reshape _ _).trans (View.set_slice_whole _ _)
  rw [e]
  refine (Rect.mem_set_unit (s := S4x1024x1024)).trans ⟨fun h => ?_, fun h a => ?_⟩
  · have h0 : b.val ≤ (x 0).val ∧ (x 0).val < b.val + 1 := h 0
    omega
  · have h1 : (x 1).val < 1024 := (x 1).isLt
    have h2 : (x 2).val < 1024 := (x 2).isLt
    fin_cases a
    · show b.val ≤ (x 0).val ∧ (x 0).val < b.val + 1
      omega
    · show 0 ≤ (x 1).val ∧ (x 1).val < 0 + 1024
      omega
    · show 0 ≤ (x 2).val ∧ (x 2).val < 0 + 1024
      omega

theorem slot_disjoint (c : Dev nD) (b b' : Fin 4) (h : b ≠ b') : Disjoint (sSet c b) (sSet c b') := by
  refine Finset.disjoint_left.mpr fun x hx hx' => ?_
  have h1 := (mem_slot c b x).mp hx
  have h2 := (mem_slot c b' x).mp hx'
  exact h (Fin.ext (h1.symm.trans h2))

theorem slot_cover (c : Dev nD) : Finset.univ.biUnion (sSet c) = Finset.univ := by
  refine Finset.eq_univ_iff_forall.mpr fun x => ?_
  have h0 : (x 0).val < 4 := (x 0).isLt
  exact Finset.mem_biUnion.mpr ⟨⟨(x 0).val, h0⟩, Finset.mem_univ _, (mem_slot c _ x).mpr rfl⟩

/-- The staging buffer is its four slots. -/
theorem stage_split (c : Dev nD) (f : Buf (Elt F) ((c : Thread nD τ).loc cc0_scratch0)) :
    ((((c : Thread nD τ).loc cc0_scratch0) ↦{fullShare} f : sProp 𝕄))
      ⊢ bigSep Finset.univ fun b : Fin 4 => held (F := F) c (slot sM b) f := by
  classical
  have hS := pointsTo_biUnion (Ix := Unit) (Name := ℕ) (U := UU) (Lvl := ℕ) (ℓ := (c : Thread nD τ).loc cc0_scratch0) (q := fullShare) (f := f)
    (Finset.univ : Finset (Fin 4)) (sSet c) (fun b _ b' _ h => slot_disjoint c b b' h)
  rw [slot_cover c] at hS
  exact Entails.of_eq hS

/-- Four slots at whatever contents are the staging buffer at some contents. -/
theorem stage_join (c : Dev nD) :
    (bigSep Finset.univ fun b : Fin 4 => iprop(∃ f, held (F := F) c (slot sM b) f) : sProp 𝕄)
      ⊢ iprop(∃ f : Buf (Elt F) ((c : Thread nD τ).loc cc0_scratch0), ((c : Thread nD τ).loc cc0_scratch0) ↦{fullShare} f) := by
  classical
  have main : ∀ f₀ : Buf (Elt F) ((c : Thread nD τ).loc cc0_scratch0),
      (bigSep Finset.univ fun b : Fin 4 => iprop(∃ f, held (F := F) c (slot sM b) f) : sProp 𝕄)
        ⊢ iprop(∃ f : Buf (Elt F) ((c : Thread nD τ).loc cc0_scratch0), ((c : Thread nD τ).loc cc0_scratch0) ↦{fullShare} f) := by
    intro f₀
    haveI : Nonempty (Buf (Elt F) ((c : Thread nD τ).loc cc0_scratch0)) := ⟨f₀⟩
    refine (bigSep_exists_pi (Y := fun _ : Fin 4 => Buf (Elt F) ((c : Thread nD τ).loc cc0_scratch0)) Finset.univ
      (fun b f => held (F := F) c (slot sM b) f)).trans (exists_elim fun y => ?_)
    refine (pointsTo_biUnion_join (Ix := Unit) (Name := ℕ) (U := UU) (Lvl := ℕ) (ℓ := (c : Thread nD τ).loc cc0_scratch0) (q := fullShare)
      (Finset.univ : Finset (Fin 4)) (sSet c) y f₀ (fun b _ b' _ h => slot_disjoint c b b' h)).trans ?_
    rw [slot_cover c]
    iintro ⟨%g, -, H⟩
    iexists g
    iexact H
  have e : (bigSep Finset.univ fun b : Fin 4 => iprop(∃ f, held (F := F) c (slot sM b) f) : sProp 𝕄)
      = iprop((∃ f, held (F := F) c (slot sM 0) f)
          ∗ bigSep (Finset.univ.erase (0 : Fin 4)) fun b : Fin 4 => iprop(∃ f, held (F := F) c (slot sM b) f)) :=
    bigSep_univ_split (0 : Fin 4)
  refine (Entails.of_eq e).trans ?_
  iintro ⟨⟨%f₀, H0⟩, Hr⟩
  iapply (main f₀)
  iapply (Entails.of_eq e.symm)
  isplitl [H0]
  · iexists f₀; iexact H0
  · iexact Hr

/-! ## The device's block of the input -/

/-- The elements of the block under chunk `i` of what the first phase sends, and under chunk `k` of
    what the local copies read. -/
abbrev xSetS (c : Dev nD) (i : Fin 64) : Finset (Idx ((c : Thread nD τ).loc main_arg0)) := (xsrc xM c i).view.set
abbrev xSetL (c : Dev nD) (k : Fin 16) : Finset (Idx ((c : Thread nD τ).loc main_arg0)) := (lsrc xM k).view.set

theorem mem_xsrc (c : Dev nD) (i : Fin 64) (x : Idx ((c : Thread nD τ).loc main_arg0)) :
    x ∈ xSetS c i ↔ 8192 * (c.val % 2) + 128 * i.val ≤ (x 0).val ∧ (x 0).val < 8192 * (c.val % 2) + 128 * i.val + 128 := by
  have e : xSetS c i = (Rect.unit (s := S16384x1024) (k0_off2 c (BitVec.ofNat 32 (128 * i.val))) S128x1024.size (Gen.k0_off2_inb c i)).set :=
    View.set_slice_whole _ _
  rw [e]
  refine (Rect.mem_set_unit (s := S16384x1024)).trans ?_
  rw [k0_off2_eq, Fin.forall_fin_two]
  have h1 : (x 1).val < 1024 := (x 1).isLt
  simp only [Matrix.cons_val_zero, Matrix.cons_val_one]
  omega

theorem mem_lsrc (c : Dev nD) (k : Fin 16) (x : Idx ((c : Thread nD τ).loc main_arg0)) :
    x ∈ xSetL c k ↔ 1024 * k.val ≤ (x 0).val ∧ (x 0).val < 1024 * k.val + 1024 := by
  have e : xSetL c k = (Rect.unit (s := S16384x1024) ![1024 * k.val, 0] S1024x1024.size (inbRow k)).set :=
    View.set_slice_whole _ _
  rw [e]
  refine (Rect.mem_set_unit (s := S16384x1024)).trans ?_
  rw [Fin.forall_fin_two]
  have h1 : (x 1).val < 1024 := (x 1).isLt
  simp only [Matrix.cons_val_zero, Matrix.cons_val_one]
  omega

theorem xsrc_disjoint (c : Dev nD) (i i' : Fin 64) (h : i ≠ i') : Disjoint (xSetS c i) (xSetS c i') := by
  refine Finset.disjoint_left.mpr fun x hx hx' => ?_
  have h1 := (mem_xsrc c i x).mp hx
  have h2 := (mem_xsrc c i' x).mp hx'
  have : i.val ≠ i'.val := fun e => h (Fin.ext e)
  omega

theorem lsrc_disjoint (c : Dev nD) (k k' : Fin 16) (h : k ≠ k') : Disjoint (xSetL c k) (xSetL c k') := by
  refine Finset.disjoint_left.mpr fun x hx hx' => ?_
  have h1 := (mem_lsrc c k x).mp hx
  have h2 := (mem_lsrc c k' x).mp hx'
  have : k.val ≠ k'.val := fun e => h (Fin.ext e)
  omega

/-- The device's block, read-only: a share kept, a share of each chunk the first phase sends, a share of
    each chunk the local copies read. -/
theorem x_split (c : Dev nD) :
    ((((c : Thread nD τ).loc main_arg0) ↦{fullShare} X m c : sProp 𝕄))
      ⊢ iprop((∃ q : PosShare TreeShare, ((c : Thread nD τ).loc main_arg0) ↦{q} X m c)
          ∗ (bigSep Finset.univ fun i : Fin 64 => iprop(∃ q : PosShare TreeShare,
              (xsrc xM c i).view.loc (c : Thread nD τ) ↦[(xsrc xM c i).view.set]{q} X m c))
          ∗ (bigSep Finset.univ fun k : Fin 16 => iprop(∃ q : PosShare TreeShare,
              (lsrc xM k).view.loc (c : Thread nD τ) ↦[(lsrc xM k).view.set]{q} X m c))) := by
  classical
  have hS := pointsTo_biUnion (Ix := Unit) (Name := ℕ) (U := UU) (Lvl := ℕ) (ℓ := (c : Thread nD τ).loc main_arg0) (q := fullShare.right.left) (f := X m c)
    (Finset.univ : Finset (Fin 64)) (xSetS c) (fun i _ i' _ h => xsrc_disjoint c i i' h)
  have hL := pointsTo_biUnion (Ix := Unit) (Name := ℕ) (U := UU) (Lvl := ℕ) (ℓ := (c : Thread nD τ).loc main_arg0) (q := fullShare.right.right) (f := X m c)
    (Finset.univ : Finset (Fin 16)) (xSetL c) (fun k _ k' _ h => lsrc_disjoint c k k' h)
  have hSm : (bigSep Finset.univ fun i : Fin 64 => ((c : Thread nD τ).loc main_arg0 ↦[xSetS c i]{fullShare.right.left} X m c : sProp 𝕄))
      ⊢ bigSep Finset.univ fun i : Fin 64 => iprop(∃ q : PosShare TreeShare,
              (xsrc xM c i).view.loc (c : Thread nD τ) ↦[(xsrc xM c i).view.set]{q} X m c) :=
    bigSep_mono fun i _ => exists_intro (Φ := fun q : PosShare TreeShare =>
      ((xsrc xM c i).view.loc (c : Thread nD τ) ↦[(xsrc xM c i).view.set]{q} X m c : sProp 𝕄)) fullShare.right.left
  have hLm : (bigSep Finset.univ fun k : Fin 16 => ((c : Thread nD τ).loc main_arg0 ↦[xSetL c k]{fullShare.right.right} X m c : sProp 𝕄))
      ⊢ bigSep Finset.univ fun k : Fin 16 => iprop(∃ q : PosShare TreeShare,
              (lsrc xM k).view.loc (c : Thread nD τ) ↦[(lsrc xM k).view.set]{q} X m c) :=
    bigSep_mono fun k _ => exists_intro (Φ := fun q : PosShare TreeShare =>
      ((lsrc xM k).view.loc (c : Thread nD τ) ↦[(lsrc xM k).view.set]{q} X m c : sProp 𝕄)) fullShare.right.right
  iintro H
  ihave H := (pointsTo_share (PosShare.mem_left_op_right fullShare)).1 $$ H
  icases H with ⟨Hl, Hr⟩
  ihave Hr := (pointsTo_share (PosShare.mem_left_op_right fullShare.right)).1 $$ Hr
  icases Hr with ⟨Hrl, Hrr⟩
  ihave Hrl := (pointsTo_split_subset (Finset.subset_univ (Finset.univ.biUnion (xSetS c)))).1 $$ Hrl
  icases Hrl with ⟨HS, -⟩
  ihave Hrr := (pointsTo_split_subset (Finset.subset_univ (Finset.univ.biUnion (xSetL c)))).1 $$ Hrr
  icases Hrr with ⟨HL, -⟩
  isplitl [Hl]
  · iexists fullShare.left; iexact Hl
  isplitl [HS]
  · iapply hSm; iapply (Entails.of_eq hS); iexact HS
  · iapply hLm; iapply (Entails.of_eq hL); iexact HL

end Cert.KernelIdeal.AG

end
-- ==== Proof.Reindex.lean ====
/- The 264 DMA semaphores of a device are its six families: the read and write semaphores of the four
   slots, and the send and receive semaphores of the sixty-four chunks of each phase. -/
import proofs.«900079_g7700000000000080_dist_ag_v7x_xy2x2_x_m16384_n1024_f32_1_alg».proof.Proof.Schedule

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {M : Type} [URA M]

/-! ## The six families enumerate the semaphores -/

/-- The six families side by side. -/
def famMap : Fin 4 ⊕ Fin 4 ⊕ Fin 64 ⊕ Fin 64 ⊕ Fin 64 ⊕ Fin 64 → DmaSem sig :=
  Sum.elim rdS (Sum.elim wrS (Sum.elim xsS (Sum.elim xrS (Sum.elim ysS yrS))))

/-- Each family is a run of consecutive numbers: from 0, 4, 8, 72, 136 and 200. -/
theorem famMap_val (x : Fin 4 ⊕ Fin 4 ⊕ Fin 64 ⊕ Fin 64 ⊕ Fin 64 ⊕ Fin 64) :
    (famMap x).val = Sum.elim (fun a => a.val) (Sum.elim (fun a => 4 + a.val) (Sum.elim (fun a => 8 + a.val)
      (Sum.elim (fun a => 72 + a.val) (Sum.elim (fun a => 136 + a.val) (fun a => 200 + a.val))))) x := by
  rcases x with a | a | a | a | a | a
  exacts [rdS_val a, wrS_val a, xsS_val a, xrS_val a, ysS_val a, yrS_val a]

/-- The runs do not overlap, -/
theorem famMap_injective : Function.Injective famMap := by
  intro x y h
  have hv := congrArg Fin.val h
  rw [famMap_val, famMap_val] at hv
  rcases x with a | a | a | a | a | a <;> rcases y with a' | a' | a' | a' | a' | a' <;>
    simp only [Sum.elim_inl, Sum.elim_inr] at hv <;>
    first
    | (exfalso; have := a.isLt; have := a'.isLt; omega)
    | (obtain rfl : a = a' := Fin.ext (by omega); rfl)

/-- and there are as many of them as semaphores. -/
theorem famMap_bijective : Function.Bijective famMap :=
  (Fintype.bijective_iff_injective_and_card famMap).mpr ⟨famMap_injective, by
    simp only [Fintype.card_sum, Fintype.card_fin]⟩

def famE : Fin 4 ⊕ Fin 4 ⊕ Fin 64 ⊕ Fin 64 ⊕ Fin 64 ⊕ Fin 64 ≃ DmaSem sig := Equiv.ofBijective famMap famMap_bijective

/-- An assertion per DMA semaphore, all of them: the six families' in turn. -/
theorem dma_family_split (Φ : DmaSem sig → sProp M) :
    bigSep Finset.univ Φ
      = iprop((bigSep Finset.univ fun b : Fin 4 => Φ (rdS b)) ∗ (bigSep Finset.univ fun b : Fin 4 => Φ (wrS b))
          ∗ (bigSep Finset.univ fun i : Fin 64 => Φ (xsS i)) ∗ (bigSep Finset.univ fun i : Fin 64 => Φ (xrS i))
          ∗ (bigSep Finset.univ fun i : Fin 64 => Φ (ysS i)) ∗ (bigSep Finset.univ fun i : Fin 64 => Φ (yrS i))) := by
  rw [bigSep_univ_equiv famE Φ, bigSep_univ_sum, bigSep_univ_sum, bigSep_univ_sum, bigSep_univ_sum, bigSep_univ_sum]
  rfl

/-! ## Chunks by slot and round -/

/-- Chunk `b + 4 r` is the one slot `b` carries in round `r`: slot `k % 4`, round `k / 4`. -/
def chunkE : Fin 4 × Fin 4 ≃ Fin 16 where
  toFun p := ⟨p.1.val + 4 * p.2.val, by omega⟩
  invFun k := (⟨k.val % 4, by omega⟩, ⟨k.val / 4, by omega⟩)
  left_inv p := by
    have := p.1.isLt; have := p.2.isLt
    exact Prod.ext (Fin.ext (by show (p.1.val + 4 * p.2.val) % 4 = p.1.val; omega))
      (Fin.ext (by show (p.1.val + 4 * p.2.val) / 4 = p.2.val; omega))
  right_inv k := Fin.ext (by show k.val % 4 + 4 * (k.val / 4) = k.val; omega)

/-- An assertion per chunk of the device's block is one per slot and round. -/
theorem chunk_family_split (Φ : Fin 16 → sProp M) :
    bigSep Finset.univ Φ
      = bigSep Finset.univ fun b : Fin 4 => bigSep Finset.univ fun r : Fin 4 => Φ ⟨b.val + 4 * r.val, by omega⟩ := by
  rw [bigSep_univ_equiv chunkE Φ, bigSep_univ_prod]
  rfl

/-- info: 'Cert.KernelIdeal.AG.dma_family_split' depends on axioms: [propext, Classical.choice, Quot.sound] -/
#guard_msgs in #print axioms dma_family_split
/-- info: 'Cert.KernelIdeal.AG.chunk_family_split' depends on axioms: [propext, Classical.choice, Quot.sound] -/
#guard_msgs in #print axioms chunk_family_split

end Cert.KernelIdeal.AG

end
-- ==== Proof.Loop.lean ====
/- Two general lemmas for a body that is a sequence of like steps: a sequence of `n` steps keeps an
   invariant indexed by the step number if each step takes it to the next; and a family of assertions,
   one per index, of which a step changes only one (or two) members. -/
import proofs.«900079_g7700000000000080_dist_ag_v7x_xy2x2_x_m16384_n1024_f32_1_alg».proof.Proof.Program
import Idealize.ShloMosaic.Lib.Tactic

noncomputable section

namespace Cert.KernelIdeal.AG

open Idealize.SL Idealize.SL.RA Idealize.SL.BI
open scoped Idealize.SL.BI
open Idealize.SL.BI.BIBase Idealize.SL.BI.Laws Idealize.SL.ProofMode Idealize.SL.Sem

section Loop

variable {Ef : Type → Type} {M : Type} [URA M] {Mask : Type}
variable (Fr : Mask → sProp M) (wpE : Mask → ∀ ⦃β : Type⦄, Ef β → sWPT M β) (E : Mask)

/-- `n` steps from step `i`: the invariant moves from `i` to `i + n`. -/
theorem wp_seqR (f : ℕ → Prog Ef PUnit) (Inv : ℕ → sProp M) (n : ℕ) :
    ∀ i, (∀ j, i ≤ j → j < i + n → Inv j ⊢ wp Fr wpE E (f j) (fun _ => Inv (j + 1))) →
      Inv i ⊢ wp Fr wpE E (seqR f i n) (fun _ => Inv (i + n)) := by
  induction n with
  | zero =>
    intro i _
    rw [seqR_zero]
    exact le_wp_ret Fr wpE E PUnit.unit (fun _ => Inv (i + 0))
  | succ n ih =>
    intro i h
    rw [seqR_succ, wp_bind]
    refine (h i le_rfl (by omega)).trans (wp_mono Fr wpE E fun _ => ?_)
    have h' := ih (i + 1) (fun j h1 h2 => h j (by omega) (by omega))
    rw [show i + (n + 1) = i + 1 + n by omega]
    exact h'

/-- The same with the rest of the program after the steps, each step given with ITS rest. -/
theorem wp_seqR_then {α : Type} (f : ℕ → Prog Ef PUnit) (Inv : ℕ → sProp M) (Q : α → sProp M) (n : ℕ) :
    ∀ (i : ℕ) (k : PUnit → Prog Ef α),
      (∀ j, i ≤ j → j < i + n → ∀ k' : PUnit → Prog Ef α,
        iprop(Inv j ∗ (Inv (j + 1) -∗ wp Fr wpE E (k' ⟨⟩) Q)) ⊢ wp Fr wpE E (f j >>= k') Q) →
      iprop(Inv i ∗ (Inv (i + n) -∗ wp Fr wpE E (k ⟨⟩) Q)) ⊢ wp Fr wpE E (seqR f i n >>= k) Q := by
  induction n with
  | zero =>
    intro i k _
    rw [seqR_zero]
    show iprop(Inv i ∗ (Inv (i + 0) -∗ wp Fr wpE E (k ⟨⟩) Q)) ⊢ wp Fr wpE E (k ⟨⟩) Q
    iintro ⟨HI, Hk⟩
    iapply Hk; iexact HI
  | succ n ih =>
    intro i k h
    rw [seqR_succ, Prog.bind_assoc]
    iintro ⟨HI, Hk⟩
    iapply (h i le_rfl (by omega) (fun _ => seqR f (i + 1) n >>= k))
    isplitl [HI]; · iexact HI
    iintro HI'
    iapply (ih (i + 1) k (fun j h1 h2 k' => h j (by omega) (by omega) k'))
    isplitl [HI']; · iexact HI'
    rw [show i + 1 + n = i + (n + 1) by omega]
    iexact Hk

end Loop

section Family

variable {M : Type} [URA M] {I : Type} [Fintype I] [DecidableEq I]

/-- One member of a family changes: take it out, put the new one in. -/
theorem bigSep_update (St St' : I → sProp M) (j : I) (h : ∀ j', j' ≠ j → St j' = St' j') :
    bigSep Finset.univ St ⊢ iprop(St j ∗ (St' j -∗ bigSep Finset.univ St')) := by
  rw [bigSep_univ_at St j, bigSep_univ_at St' j,
    bigSep_congr (s := Finset.univ.erase j) (Φ := St) (Ψ := St') fun j' hj' => h j' (Finset.ne_of_mem_erase hj')]
  iintro ⟨Hj, Hr⟩
  isplitl [Hj]; · iexact Hj
  iintro Hj'
  isplitl [Hj']; · iexact Hj'
  iexact Hr

/-- Two members change. -/
theorem bigSep_update2 (St St' : I → sProp M) (j₁ j₂ : I) (hne : j₁ ≠ j₂)
    (h : ∀ j', j' ≠ j₁ → j' ≠ j₂ → St j' = St' j') :
    bigSep Finset.univ St ⊢ iprop(St j₁ ∗ St j₂ ∗ ((St' j₁ ∗ St' j₂) -∗ bigSep Finset.univ St')) := by
  have m2 : j₂ ∈ Finset.univ.erase j₁ := Finset.mem_erase.mpr ⟨hne.symm, Finset.mem_univ _⟩
  rw [bigSep_univ_at St j₁, bigSep_univ_at St' j₁, bigSep_erase m2 (Φ := St), bigSep_erase m2 (Φ := St'),
    bigSep_congr (s := (Finset.univ.erase j₁).erase j₂) (Φ := St) (Ψ := St') fun j' hj' =>
      h j' (Finset.ne_of_mem_erase (Finset.mem_of_mem_erase hj')) (Finset.ne_of_mem_erase hj')]
  show iprop(St j₁ ∗ St j₂ ∗ bigSep ((Finset.univ.erase j₁).erase j₂) St') ⊢ iprop(St j₁ ∗ St j₂ ∗ ((St' j₁ ∗ St' j₂) -∗ (St' j₁ ∗ St' j₂ ∗ bigSep ((Finset.univ.erase j₁).erase j₂) St')))
  iintro ⟨H1, H2, Hr⟩
  isplitl [H1]; · iexact H1
  isplitl [H2]; · iexact H2
  iintro ⟨H1', H2'⟩
  isplitl [H1']; · iexact H1'
  isplitl [H2']; · iexact H2'
  iexact Hr

end Family

end Cert.KernelIdeal.AG

end
-- ==== Proof.Owed.lean ====
/- What a device still owes its neighbours' receive cells, by how many chunks it has sent. -/
import proofs.«900079_g7700000000000080_dist_ag_v7x_xy2x2_x_m16384_n1024_f32_1_alg».proof.Proof.Schedule

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## What is still owed, by chunk number -/

/-- The first phase's chunks from `i` on, owed to the row neighbour's receive cells. -/
def OX (c : Dev nD) (i : ℕ) : CellTallies nD τ sig Unit :=
  ∑ j : Fin 64, if i ≤ j.val then tallyAt (dmaC (xn c) (xrS j)) () N else 0
/-- The second phase's, to the column neighbour's. -/
def OY (c : Dev nD) (i : ℕ) : CellTallies nD τ sig Unit :=
  ∑ j : Fin 64, if i ≤ j.val then tallyAt (dmaC (yn c) (yrS j)) () N else 0

theorem OX_succ (c : Dev nD) (i : Fin 64) : OX c i.val = OX c (i.val + 1) + tallyAt (dmaC (xn c) (xrS i)) () N := by
  unfold OX
  rw [← Finset.add_sum_erase _ _ (Finset.mem_univ i), ← Finset.add_sum_erase (a := i) _ _ (Finset.mem_univ i),
    if_pos le_rfl, if_neg (by omega), zero_add, add_comm]
  congr 1
  refine Finset.sum_congr rfl fun j hj => ?_
  have hne : j.val ≠ i.val := fun h => Finset.ne_of_mem_erase hj (Fin.ext h)
  by_cases h : i.val ≤ j.val
  · rw [if_pos h, if_pos (by omega)]
  · rw [if_neg h, if_neg (by omega)]
theorem OY_succ (c : Dev nD) (i : Fin 64) : OY c i.val = OY c (i.val + 1) + tallyAt (dmaC (yn c) (yrS i)) () N := by
  unfold OY
  rw [← Finset.add_sum_erase _ _ (Finset.mem_univ i), ← Finset.add_sum_erase (a := i) _ _ (Finset.mem_univ i),
    if_pos le_rfl, if_neg (by omega), zero_add, add_comm]
  congr 1
  refine Finset.sum_congr rfl fun j hj => ?_
  have hne : j.val ≠ i.val := fun h => Finset.ne_of_mem_erase hj (Fin.ext h)
  by_cases h : i.val ≤ j.val
  · rw [if_pos h, if_pos (by omega)]
  · rw [if_neg h, if_neg (by omega)]
theorem OX_zero (c : Dev nD) : OX c 0 = ∑ j : Fin 64, tallyAt (dmaC (xn c) (xrS j)) () N := by
  unfold OX; exact Finset.sum_congr rfl fun j _ => if_pos (Nat.zero_le _)
theorem OY_zero (c : Dev nD) : OY c 0 = ∑ j : Fin 64, tallyAt (dmaC (yn c) (yrS j)) () N := by
  unfold OY; exact Finset.sum_congr rfl fun j _ => if_pos (Nat.zero_le _)
theorem OX_end (c : Dev nD) : OX c 64 = 0 := by
  unfold OX; exact Finset.sum_eq_zero fun j _ => if_neg (by have := j.isLt; omega)
theorem OY_end (c : Dev nD) : OY c 64 = 0 := by
  unfold OY; exact Finset.sum_eq_zero fun j _ => if_neg (by have := j.isLt; omega)

end Cert.KernelIdeal.AG

end
-- ==== Proof.Levels.lean ====
/- The levels' word at each wait: a device waits on a cell only below everything it still owes. -/
import proofs.«900079_g7700000000000080_dist_ag_v7x_xy2x2_x_m16384_n1024_f32_1_alg».proof.Proof.Steps
import proofs.«900079_g7700000000000080_dist_ag_v7x_xy2x2_x_m16384_n1024_f32_1_alg».proof.Proof.Owed

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The level of each cell -/

theorem lv_bar (c : Dev nD) : lv (barC c) () = 1 := rfl
theorem lv_rd (c : Dev nD) (b : Fin 4) : lv (dmaC c (rdS b)) () = 0 := by
  show (if 72 ≤ (rdS b).val ∧ (rdS b).val < 136 then 2 else if 200 ≤ (rdS b).val then 3 else 0) = 0
  have := rdS_val b; have := b.isLt
  rw [if_neg (by omega), if_neg (by omega)]
theorem lv_wr (c : Dev nD) (b : Fin 4) : lv (dmaC c (wrS b)) () = 0 := by
  show (if 72 ≤ (wrS b).val ∧ (wrS b).val < 136 then 2 else if 200 ≤ (wrS b).val then 3 else 0) = 0
  have := wrS_val b; have := b.isLt
  rw [if_neg (by omega), if_neg (by omega)]
theorem lv_xs (c : Dev nD) (i : Fin 64) : lv (dmaC c (xsS i)) () = 0 := by
  show (if 72 ≤ (xsS i).val ∧ (xsS i).val < 136 then 2 else if 200 ≤ (xsS i).val then 3 else 0) = 0
  have := xsS_val i; have := i.isLt
  rw [if_neg (by omega), if_neg (by omega)]
theorem lv_xr (c : Dev nD) (i : Fin 64) : lv (dmaC c (xrS i)) () = 2 := by
  show (if 72 ≤ (xrS i).val ∧ (xrS i).val < 136 then 2 else if 200 ≤ (xrS i).val then 3 else 0) = 2
  have := xrS_val i; have := i.isLt
  rw [if_pos (by omega)]
theorem lv_ys (c : Dev nD) (i : Fin 64) : lv (dmaC c (ysS i)) () = 0 := by
  show (if 72 ≤ (ysS i).val ∧ (ysS i).val < 136 then 2 else if 200 ≤ (ysS i).val then 3 else 0) = 0
  have := ysS_val i; have := i.isLt
  rw [if_neg (by omega), if_neg (by omega)]
theorem lv_yr (c : Dev nD) (i : Fin 64) : lv (dmaC c (yrS i)) () = 3 := by
  show (if 72 ≤ (yrS i).val ∧ (yrS i).val < 136 then 2 else if 200 ≤ (yrS i).val then 3 else 0) = 3
  have := yrS_val i; have := i.isLt
  rw [if_neg (by omega), if_pos (by omega)]

/-! ## Where something is owed -/

/-- A tally of one cell is positive only at that cell. -/
theorem pos_tallyAt {g g' : GSem nD τ sig} {u : Unit} {k : ℕ} (h : 0 < tallyAt g' () k g u) : g = g' := by
  rw [tallyAt_apply] at h
  by_cases hg : g = g' ∧ u = ()
  · exact hg.1
  · rw [if_neg hg] at h; exact absurd h (lt_irrefl 0)

/-- What is owed of the first phase is owed to a receive cell of the row neighbour, -/
theorem pos_OX {c : Dev nD} {i : ℕ} {g : GSem nD τ sig} {u : Unit} (h : 0 < OX c i g u) :
    ∃ j : Fin 64, g = dmaC (xn c) (xrS j) := by
  unfold OX at h
  obtain ⟨j, -, hj⟩ := Pipeline.sum_pos_exists h
  by_cases hij : i ≤ j.val
  · rw [if_pos hij] at hj; exact ⟨j, pos_tallyAt hj⟩
  · rw [if_neg hij] at hj; exact absurd hj (lt_irrefl 0)

/-- and of the second phase to one of the column neighbour. -/
theorem pos_OY {c : Dev nD} {i : ℕ} {g : GSem nD τ sig} {u : Unit} (h : 0 < OY c i g u) :
    ∃ j : Fin 64, g = dmaC (yn c) (yrS j) := by
  unfold OY at h
  obtain ⟨j, -, hj⟩ := Pipeline.sum_pos_exists h
  by_cases hij : i ≤ j.val
  · rw [if_pos hij] at hj; exact ⟨j, pos_tallyAt hj⟩
  · rw [if_neg hij] at hj; exact absurd hj (lt_irrefl 0)

/-! ## The waits -/

/-- While the second phase's chunks from `i` on are all a device owes, it may wait on any cell of its own below level 3. -/
theorem mayWait_OY (c : Dev nD) (sm : SemLoc sig) (i : ℕ) (h : lv ((c : Thread nD τ), sm) () < 3) :
    (levAts L lv : sProp 𝕄) ⊢ MayWait (c : Thread nD τ) sm () (OY c i) := by
  refine mayWait_lv (F := F) c sm (OY c i) fun g u hg => ?_
  obtain ⟨j, rfl⟩ := pos_OY hg
  exact ⟨rfl, by rw [lv_yr]; exact h⟩

/-- At its barrier wait a device owes both phases' chunks: receive cells, all above the barrier's level. -/
theorem mayWait_bar (c : Dev nD) :
    (levAts L lv : sProp 𝕄) ⊢ MayWait (c : Thread nD τ) (.reg barS) () (OX c 0 + OY c 0) := by
  refine mayWait_lv (F := F) c (.reg barS) (OX c 0 + OY c 0) fun g u hg => ?_
  rcases Pipeline.add_pos_cases hg with hg | hg
  · obtain ⟨j, rfl⟩ := pos_OX hg
    exact ⟨rfl, by rw [lv_xr]; exact (lv_bar c).trans_lt (by decide)⟩
  · obtain ⟨j, rfl⟩ := pos_OY hg
    exact ⟨rfl, by rw [lv_yr]; exact (lv_bar c).trans_lt (by decide)⟩

/-- info: 'Cert.KernelIdeal.AG.mayWait_OY' depends on axioms: [propext, Classical.choice, Quot.sound] -/
#guard_msgs in #print axioms mayWait_OY
/-- info: 'Cert.KernelIdeal.AG.mayWait_bar' depends on axioms: [propext, Classical.choice, Quot.sound] -/
#guard_msgs in #print axioms mayWait_bar

end Cert.KernelIdeal.AG

end
-- ==== Proof.Families.lean ====
/- The assertions of one device's body, phase by phase. Each phase is a sequence of like steps over a family of
   assertions indexed by the chunk number: the member of a chunk not yet reached holds what its step
   will take, the member of a chunk already done what its step gave back; a step changes one member. -/
import proofs.«900079_g7700000000000080_dist_ag_v7x_xy2x2_x_m16384_n1024_f32_1_alg».proof.Proof.Steps
import proofs.«900079_g7700000000000080_dist_ag_v7x_xy2x2_x_m16384_n1024_f32_1_alg».proof.Proof.Partition
import proofs.«900079_g7700000000000080_dist_ag_v7x_xy2x2_x_m16384_n1024_f32_1_alg».proof.Proof.Reindex
import proofs.«900079_g7700000000000080_dist_ag_v7x_xy2x2_x_m16384_n1024_f32_1_alg».proof.Proof.Loop
import proofs.«900079_g7700000000000080_dist_ag_v7x_xy2x2_x_m16384_n1024_f32_1_alg».proof.Proof.Owed
import proofs.«900079_g7700000000000080_dist_ag_v7x_xy2x2_x_m16384_n1024_f32_1_alg».proof.Proof.Levels

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The records, cell by cell -/

theorem mem_allCells_dma (c : Dev nD) (q : DmaSem sig) : dmaC c q ∈ allCells :=
  Finset.mem_map.mpr ⟨(c, some q), Finset.mem_univ _, rfl⟩
theorem mem_allCells_bar (c : Dev nD) : barC c ∈ allCells :=
  Finset.mem_map.mpr ⟨(c, none), Finset.mem_univ _, rfl⟩

theorem inv_dma (K : GSem nD τ sig → ℕ) (c : Dev nD) (q : DmaSem sig) :
    records (F := F) m K ⊢ cellInv ER (sched m) (K (dmaC c q)) (dmaC c q) := by
  have h : (bigSep allCells fun g => (cellInv ER (sched (F := F) m) (K g) g : sProp 𝕄)) ⊢ cellInv ER (sched m) (K (dmaC c q)) (dmaC c q) :=
    bigSep_elim (mem_allCells_dma c q)
  unfold records; iintro ⟨H, -⟩; iapply h; iexact H
theorem inv_bar (K : GSem nD τ sig → ℕ) (c : Dev nD) :
    records (F := F) m K ⊢ cellInv ER (sched m) (K (barC c)) (barC c) := by
  have h : (bigSep allCells fun g => (cellInv ER (sched (F := F) m) (K g) g : sProp 𝕄)) ⊢ cellInv ER (sched m) (K (barC c)) (barC c) :=
    bigSep_elim (mem_allCells_bar c)
  unfold records; iintro ⟨H, -⟩; iapply h; iexact H
theorem reached_dma (K : GSem nD τ sig → ℕ) (c : Dev nD) (q : DmaSem sig) :
    records (F := F) m K ⊢ reached ER (dmaC c q) 0 := by
  have h : (bigSep allCells fun g => (reached ER g 0 : sProp 𝕄)) ⊢ reached ER (dmaC c q) 0 := bigSep_elim (mem_allCells_dma c q)
  unfold records; iintro ⟨-, H⟩; iapply h; iexact H
theorem reached_bar (K : GSem nD τ sig → ℕ) (c : Dev nD) :
    records (F := F) m K ⊢ reached ER (barC c) 0 := by
  have h : (bigSep allCells fun g => (reached ER g 0 : sProp 𝕄)) ⊢ reached ER (barC c) 0 := bigSep_elim (mem_allCells_bar c)
  unfold records; iintro ⟨-, H⟩; iapply h; iexact H

/-! ## The families -/

section Families
variable (K : GSem nD τ sig → ℕ) (c : Dev nD)

/-- What every step may use again and again: the cells' invariants and first rounds, and the levels. -/
def Rp : sProp 𝕄 := iprop(records m K ∗ levAts L lv)
instance Rp_persistent : BI.Persistent (Rp (F := F) m K) := by unfold Rp; infer_instance

/-! ### The first phase: chunk `j` goes to the row neighbour -/

/-- Chunk `j` before its copy: a share of its rows of the block, the neighbour's chunk it lands in, the two
    tokens; after: the credit for the copy's departure. -/
def XS (i : ℕ) (j : Fin 64) : sProp 𝕄 :=
  if j.val < i then cred (tallyAt (dmaC c (xsS j)) () N)
  else iprop((∃ q : PosShare TreeShare, (xsrc xM c j).view.loc (c : Thread nD τ) ↦[(xsrc xM c j).view.set]{q} X m c)
      ∗ (∃ f, held (F := F) (xn c) (ypc oM (xn c) j) f)
      ∗ dutyTok ER (dmaC c (xsS j)) 0 false ∗ dutyTok ER (dmaC (xn c) (xrS j)) 0 false)

def Inv1 (O' : CellTallies nD τ sig Unit) (i : ℕ) : sProp 𝕄 :=
  iprop(Rp m K ∗ bigSep Finset.univ (XS m c i) ∗ ∃ W, owes (c : Thread nD τ) (OX c i + O') W)

/-! ### The device's own block, chunk by chunk through the slots -/

/-- What the device's result holds at launch. -/
def f0 : Buf (Elt F) ((c : Thread nD τ).loc main_v1) := m ((c : Thread nD τ).loc main_v1)

/-- Chunk `k` not yet started: a share of its rows of the block, its two tokens, its rows of the result as
    launched; the first four chunks also hold their slot and the slot's two cells at their first round. -/
def Fresh (k : Fin 16) : sProp 𝕄 :=
  iprop((∃ q : PosShare TreeShare, (lsrc xM k).view.loc (c : Thread nD τ) ↦[(lsrc xM k).view.set]{q} X m c)
    ∗ dutyTok ER (dmaC c (rdS (slotOf k))) (roundOf k) false ∗ dutyTok ER (dmaC c (wrS (slotOf k))) (roundOf k) false
    ∗ held (F := F) c (ldst oM c k) (f0 m c)
    ∗ (if k.val < 4 then iprop((∃ f, held (F := F) c (slot sM (slotOf k)) f)
        ∗ atPos ER (dmaC c (rdS (slotOf k))) 0 ∅ 0 ∗ atPos ER (dmaC c (wrS (slotOf k))) 0 ∅ 0) else iprop(emp)))
/-- Its read in flight. -/
def InRead (k : Fin 16) : sProp 𝕄 :=
  iprop(cred (tallyAt (dmaC c (rdS (slotOf k))) () NL)
    ∗ atPos ER (dmaC c (rdS (slotOf k))) (roundOf k) ∅ 0 ∗ atPos ER (dmaC c (wrS (slotOf k))) (roundOf k) ∅ 0
    ∗ reached ER (dmaC c (wrS (slotOf k))) (roundOf k)
    ∗ dutyTok ER (dmaC c (wrS (slotOf k))) (roundOf k) false ∗ held (F := F) c (ldst oM c k) (f0 m c))
/-- Its write in flight (the last four chunks, whose slot no later chunk wants). -/
def InWrite (k : Fin 16) : sProp 𝕄 :=
  iprop(cred (tallyAt (dmaC c (wrS (slotOf k))) () NL)
    ∗ atPos ER (dmaC c (wrS (slotOf k))) (roundOf k) ∅ 0 ∗ atPos ER (dmaC c (rdS (slotOf k))) (roundOf k + 1) ∅ 0)
/-- Written, its slot passed on to a later chunk. -/
def DoneL (k : Fin 16) : sProp 𝕄 := held (F := F) c (ldst oM c k) (Gout m c)
/-- Written, its slot and the slot's cells back in hand. -/
def DoneW (k : Fin 16) : sProp 𝕄 :=
  iprop(held (F := F) c (ldst oM c k) (Gout m c) ∗ held (F := F) c (slot sM (slotOf k)) (Sat m c k)
    ∗ atPos ER (dmaC c (wrS (slotOf k))) (roundOf k + 1) ∅ 0 ∗ atPos ER (dmaC c (rdS (slotOf k))) (roundOf k + 1) ∅ 0)

/-- After the first `i` reads are started (`i ≤ 4`). -/
def LC2 (i : ℕ) (k : Fin 16) : sProp 𝕄 := if k.val < i then InRead m c k else Fresh m c k
/-- After `A` chunks have moved on: chunks below `A` are written (the last four: being written), the next four are
    being read, the rest not started. -/
def LC (A : ℕ) (k : Fin 16) : sProp 𝕄 :=
  if k.val < A then (if k.val < 12 then DoneL m c k else InWrite c k) else if k.val < A + 4 then InRead m c k else Fresh m c k
/-- After the last writes below `i` are awaited (`12 ≤ i ≤ 16`). -/
def LC4 (i : ℕ) (k : Fin 16) : sProp 𝕄 :=
  if k.val < 12 then DoneL m c k else if k.val < i then DoneW m c k else InWrite c k

def Inv2 (O : CellTallies nD τ sig Unit) (i : ℕ) : sProp 𝕄 :=
  iprop(Rp m K ∗ bigSep Finset.univ (LC2 m c i) ∗ ∃ W, owes (c : Thread nD τ) O W)
def Inv4 (i : ℕ) : sProp 𝕄 :=
  iprop(Rp m K ∗ bigSep Finset.univ (LC4 m c i) ∗ ∃ W, owes (c : Thread nD τ) 0 W)

/-! ### The second phase: chunk `j` arrives from the row neighbour and goes on to the column neighbour -/

def YS (i : ℕ) (j : Fin 64) : sProp 𝕄 :=
  if j.val < i then iprop(cred (tallyAt (dmaC c (ysS j)) () N) ∗ atPos ER (dmaC c (xrS j)) 1 ∅ 0)
  else iprop(cred (tallyAt (dmaC c (xrS j)) () N) ∗ atPos ER (dmaC c (xrS j)) 0 ∅ 0
      ∗ (∃ f, held (F := F) (yn c) (ypc oM c j) f)
      ∗ dutyTok ER (dmaC c (ysS j)) 0 false ∗ dutyTok ER (dmaC (yn c) (yrS j)) 0 false)

/-- Before step `i`: `(i + 3) / 4` chunks of the own block have moved on. -/
def Inv3 (i : ℕ) : sProp 𝕄 :=
  iprop(Rp m K ∗ bigSep Finset.univ (YS c i) ∗ bigSep Finset.univ (LC m c ((i + 3) / 4)) ∗ ∃ W, owes (c : Thread nD τ) (OY c i) W)

/-! ### The last waits -/

/-- Chunk `j` from the column neighbour: awaited, it is the device's at the expected contents. -/
def RS (i : ℕ) (j : Fin 64) : sProp 𝕄 :=
  if j.val < i then iprop(atPos ER (dmaC c (yrS j)) 1 ∅ 0 ∗ yrPay m c j)
  else iprop(cred (tallyAt (dmaC c (yrS j)) () N) ∗ atPos ER (dmaC c (yrS j)) 0 ∅ 0)
def Inv5 (i : ℕ) : sProp 𝕄 :=
  iprop(Rp m K ∗ bigSep Finset.univ (RS m c i) ∗ ∃ W, owes (c : Thread nD τ) 0 W)

/-- The two departures of chunk `j`: awaited, the forwarded chunk is the device's again. -/
def FS (i : ℕ) (j : Fin 64) : sProp 𝕄 :=
  if j.val < i then iprop(atPos ER (dmaC c (xsS j)) 1 ∅ 0 ∗ atPos ER (dmaC c (ysS j)) 1 ∅ 0 ∗ xrPay m c j)
  else iprop(cred (tallyAt (dmaC c (xsS j)) () N) ∗ atPos ER (dmaC c (xsS j)) 0 ∅ 0
      ∗ cred (tallyAt (dmaC c (ysS j)) () N) ∗ atPos ER (dmaC c (ysS j)) 0 ∅ 0)
def Inv6 (i : ℕ) : sProp 𝕄 :=
  iprop(Rp m K ∗ bigSep Finset.univ (FS m c i) ∗ ∃ W, owes (c : Thread nD τ) 0 W)

end Families

end Cert.KernelIdeal.AG

end
-- ==== Proof.Phase0.lean ====
/- The entry handshake: a device hands each neighbour the chunks of its result that neighbour will write,
   then waits for both neighbours' chunks. -/
import proofs.«900079_g7700000000000080_dist_ag_v7x_xy2x2_x_m16384_n1024_f32_1_alg».proof.Proof.Families

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

theorem phase0 {α : Type} (Q : α → sProp 𝕄) (k : PUnit → Prog (TpuEff nD τ sig (Elt F) Λ₀ .tc) α) :
    iprop(Rp m K ∗ atPos ER (barC c) 0 ∅ 0 ∗ cred (tallyAt (barC c) () 2)
        ∗ dutyTok ER (barC (xn c)) 0 false ∗ dutyTok ER (barC (yn c)) 0 true
        ∗ barPayX (F := F) (xn c) ∗ barPayY (F := F) (yn c)
        ∗ (∃ W, owes (c : Thread nD τ) (O₀ c) W)
        ∗ ((barPayX (F := F) c ∗ barPayY (F := F) c ∗ ∃ W, owes (c : Thread nD τ) (OX c 0 + OY c 0) W) -∗ WP (k ⟨⟩) Q))
      ⊢ WP (semSignalWord (xn c) barS 1#32 Gen.hamt_1 >>= fun _ =>
              semSignalWord (yn c) barS 1#32 Gen.hamt_1 >>= fun _ => semWaitWord barS 2#32 Gen.hamt_2 >>= k) Q := by
  have hO1 : O₀ c = (OX c 0 + OY c 0 + tallyAt (barC (yn c)) () 1) + tallyAt (barC (xn c)) () 1 := by
    unfold O₀; rw [OX_zero, OY_zero]; ac_rfl
  unfold Rp
  rw [hO1]
  iintro ⟨⟨#Hrec, #Hlev⟩, Hat, Hcr, Htx, Hty, Hpx, Hpy, ⟨%W, HO⟩, Hk⟩
  iapply (step_signal_x m c (K (barC (xn c))) (OX c 0 + OY c 0 + tallyAt (barC (yn c)) () 1) W _) $$ [HO Htx Hpx]
  · isplitr; · iapply (inv_bar m K (xn c)); iexact Hrec
    isplitl [HO]; · iexact HO
    isplitl [Htx]; · iexact Htx
    isplitl [Hpx]; · iexact Hpx
    iapply (reached_bar m K (xn c)); iexact Hrec
  iintro HO
  iapply (step_signal_y m c (K (barC (yn c))) (OX c 0 + OY c 0) W _) $$ [HO Hty Hpy]
  · isplitr; · iapply (inv_bar m K (yn c)); iexact Hrec
    isplitl [HO]; · iexact HO
    isplitl [Hty]; · iexact Hty
    isplitl [Hpy]; · iexact Hpy
    iapply (reached_bar m K (yn c)); iexact Hrec
  iintro HO
  iapply (step_wait_bar m c (K (barC c)) (OX c 0 + OY c 0) W k) $$ [Hcr HO Hat]
  · isplitr; · iapply (inv_bar m K c); iexact Hrec
    isplitl [Hcr]; · iexact Hcr
    isplitl [HO]; · iexact HO
    isplitr; · iapply (mayWait_bar (F := F) c); iexact Hlev
    iexact Hat
  iintro ⟨HO, -, Hx, Hy⟩
  iapply Hk
  isplitl [Hx]; · iexact Hx
  isplitl [Hy]; · iexact Hy
  iexists _; iexact HO

end Cert.KernelIdeal.AG

end
-- ==== Proof.Phase1.lean ====
/- The first phase: the sixty-four chunks of the device's half-block go to the row neighbour. -/
import proofs.«900079_g7700000000000080_dist_ag_v7x_xy2x2_x_m16384_n1024_f32_1_alg».proof.Proof.Families

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- Step `j`: chunk `j` leaves; what is owed shrinks by its arrival. -/
theorem step1 (O' : CellTallies nD τ sig Unit) (j : ℕ) (hj : j < 64) {α : Type} (Q : α → sProp 𝕄)
    (k' : PUnit → Prog (TpuEff nD τ sig (Elt F) Λ₀ .tc) α) :
    iprop(Inv1 m K c O' j ∗ (Inv1 m K c O' (j + 1) -∗ WP (k' ⟨⟩) Q))
      ⊢ WP (upTo 64 (xSend (F := F) xM oM cc0_scratch3 cc0_scratch4 c) j >>= k') Q := by
  unfold upTo; rw [dif_pos hj]
  have hO : OX c j + O' = OX c (j + 1) + O' + tallyAt (dmaC (xn c) (xrS ⟨j, hj⟩)) () N := by
    rw [OX_succ c ⟨j, hj⟩]; exact add_right_comm _ _ _
  unfold Inv1 Rp
  rw [hO]
  iintro ⟨⟨⟨#Hrec, #Hlev⟩, HS, ⟨%W, HO⟩⟩, Hk⟩
  have hfam : ∀ j' : Fin 64, j' ≠ ⟨j, hj⟩ → XS m c j j' = XS m c (j + 1) j' := fun j' hne => by
    have : j'.val ≠ j := fun h => hne (Fin.ext h)
    unfold XS
    by_cases h : j'.val < j
    · rw [if_pos h, if_pos (by omega)]
    · rw [if_neg h, if_neg (by omega)]
  ihave HS' := (bigSep_update (XS m c j) (XS m c (j + 1)) ⟨j, hj⟩ hfam) $$ HS
  icases HS' with ⟨Hj, Hback⟩
  ihave Hj := (Entails.of_eq (show XS m c j ⟨j, hj⟩ = _ from if_neg (Nat.lt_irrefl j))) $$ Hj
  icases Hj with ⟨⟨%q, Hsrc⟩, ⟨%fd, Hdst⟩, Ht1, Ht2⟩
  iapply (step_xSend m c ⟨j, hj⟩ (K (dmaC c (xsS ⟨j, hj⟩))) (K (dmaC (xn c) (xrS ⟨j, hj⟩))) q fd (OX c (j + 1) + O') W k')
    $$ [Hsrc Hdst HO Ht1 Ht2]
  · isplitr; · iapply (inv_dma m K c (xsS ⟨j, hj⟩)); iexact Hrec
    isplitr; · iapply (inv_dma m K (xn c) (xrS ⟨j, hj⟩)); iexact Hrec
    isplitl [Hsrc]; · iexact Hsrc
    isplitl [Hdst]; · iexact Hdst
    isplitl [HO]; · iexact HO
    isplitl [Ht1]; · iexact Ht1
    isplitr; · iapply (reached_dma m K c (xsS ⟨j, hj⟩)); iexact Hrec
    isplitl [Ht2]; · iexact Ht2
    iapply (reached_dma m K (xn c) (xrS ⟨j, hj⟩)); iexact Hrec
  iintro ⟨Hcr, HO⟩
  iapply Hk
  isplitr
  · isplitr; · iexact Hrec
    iexact Hlev
  isplitl [Hback Hcr]
  · iapply Hback
    iapply (Entails.of_eq (show cred (tallyAt (dmaC c (xsS ⟨j, hj⟩)) () N) = XS m c (j + 1) ⟨j, hj⟩ from (if_pos (Nat.lt_succ_self j)).symm))
    iexact Hcr
  iexists W; iexact HO

/-- The whole phase. -/
theorem phase1 (O' : CellTallies nD τ sig Unit) {α : Type} (Q : α → sProp 𝕄)
    (k : PUnit → Prog (TpuEff nD τ sig (Elt F) Λ₀ .tc) α) :
    iprop(Inv1 m K c O' 0 ∗ (Inv1 m K c O' 64 -∗ WP (k ⟨⟩) Q))
      ⊢ WP (seqR (upTo 64 (xSend (F := F) xM oM cc0_scratch3 cc0_scratch4 c)) 0 64 >>= k) Q :=
  wp_seqR_then frame (wpE (defs₀ (F := F)) 𝒱₀ (c : Thread nD τ) none) Set.univ _ (Inv1 m K c O') Q 64 0 k
    (fun j _ hj k' => step1 m K c O' j (by omega) Q k')

end Cert.KernelIdeal.AG

end
-- ==== Proof.Phase2.lean ====
/- The first four reads of the own block are started. -/
import proofs.«900079_g7700000000000080_dist_ag_v7x_xy2x2_x_m16384_n1024_f32_1_alg».proof.Proof.Families

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-! ## One of the first four chunks: first round, its slot in hand since launch -/

theorem roundOf_first (k : Fin 16) (h : k.val < 4) : roundOf k = 0 := by
  show k.val / 4 = 0; omega

theorem Fresh_first (k : Fin 16) (h : k.val < 4) :
    Fresh m c k
      = iprop((∃ q : PosShare TreeShare, (lsrc xM k).view.loc (c : Thread nD τ) ↦[(lsrc xM k).view.set]{q} X m c)
        ∗ dutyTok ER (dmaC c (rdS (slotOf k))) 0 false ∗ dutyTok ER (dmaC c (wrS (slotOf k))) 0 false
        ∗ held (F := F) c (ldst oM c k) (f0 m c)
        ∗ ((∃ f, held (F := F) c (slot sM (slotOf k)) f)
          ∗ atPos ER (dmaC c (rdS (slotOf k))) 0 ∅ 0 ∗ atPos ER (dmaC c (wrS (slotOf k))) 0 ∅ 0)) := by
  unfold Fresh
  rw [roundOf_first k h, if_pos h]

theorem InRead_first (k : Fin 16) (h : k.val < 4) :
    InRead m c k
      = iprop(cred (tallyAt (dmaC c (rdS (slotOf k))) () NL)
        ∗ atPos ER (dmaC c (rdS (slotOf k))) 0 ∅ 0 ∗ atPos ER (dmaC c (wrS (slotOf k))) 0 ∅ 0
        ∗ reached ER (dmaC c (wrS (slotOf k))) 0
        ∗ dutyTok ER (dmaC c (wrS (slotOf k))) 0 false ∗ held (F := F) c (ldst oM c k) (f0 m c)) := by
  unfold InRead
  rw [roundOf_first k h]

/-- The read of one of the first four chunks, its round spelt out. -/
theorem step_enqRd_first (k : Fin 16) (h : k.val < 4) (κ : ℕ) (q : PosShare TreeShare)
    (fd : Buf (Elt F) ((slot sM (slotOf k)).view.loc (c : Thread nD τ)))
    {α : Type} {Q : α → sProp 𝕄} (kont : PUnit → Prog (TpuEff nD τ sig (Elt F) Λ₀ .tc) α) :
    iprop(cellInv ER (sched m) κ (dmaC c (rdS (slotOf k)))
        ∗ ((lsrc xM k).view.loc (c : Thread nD τ) ↦[(lsrc xM k).view.set]{q} X m c)
        ∗ held (F := F) c (slot sM (slotOf k)) fd
        ∗ dutyTok ER (dmaC c (rdS (slotOf k))) 0 false ∗ reached ER (dmaC c (rdS (slotOf k))) 0)
      ⊢ iprop((cred (tallyAt (dmaC c (rdS (slotOf k))) () NL) -∗ WP (kont ⟨⟩) Q)
          -∗ WP (enqRd (F := F) xM sM cc0_scratch1 k >>= kont) Q) := by
  have key := step_enqRd m c k κ q fd (Q := Q) kont
  rw [roundOf_first k h] at key
  exact key

/-- The read of chunk `j` (one of the first four) is started: its slot, held since launch, is lent to it. -/
theorem step2 (O : CellTallies nD τ sig Unit) (j : ℕ) (hj : j < 4) {α : Type} (Q : α → sProp 𝕄)
    (k' : PUnit → Prog (TpuEff nD τ sig (Elt F) Λ₀ .tc) α) :
    iprop(Inv2 m K c O j ∗ (Inv2 m K c O (j + 1) -∗ WP (k' ⟨⟩) Q))
      ⊢ WP (upTo 16 (enqRd (F := F) xM sM cc0_scratch1) j >>= k') Q := by
  have hj16 : j < 16 := by omega
  unfold upTo; rw [dif_pos hj16]
  unfold Inv2 Rp
  iintro ⟨⟨⟨#Hrec, #Hlev⟩, HS, ⟨%W, HO⟩⟩, Hk⟩
  have hfam : ∀ k : Fin 16, k ≠ ⟨j, hj16⟩ → LC2 m c j k = LC2 m c (j + 1) k := fun k hne => by
    have : k.val ≠ j := fun h => hne (Fin.ext h)
    unfold LC2
    by_cases h : k.val < j
    · rw [if_pos h, if_pos (by omega)]
    · rw [if_neg h, if_neg (by omega)]
  ihave HS' := (bigSep_update (LC2 m c j) (LC2 m c (j + 1)) ⟨j, hj16⟩ hfam) $$ HS
  icases HS' with ⟨Hj, Hback⟩
  ihave Hj := (Entails.of_eq (show LC2 m c j ⟨j, hj16⟩ = _ from
    (if_neg (Nat.lt_irrefl j)).trans (Fresh_first m c ⟨j, hj16⟩ hj))) $$ Hj
  icases Hj with ⟨⟨%q, Hsrc⟩, Htrd, Htwr, Hdst, ⟨%fd, Hslot⟩, Hard, Hawr⟩
  iapply (step_enqRd_first m c ⟨j, hj16⟩ hj (K (dmaC c (rdS (slotOf ⟨j, hj16⟩)))) q fd k') $$ [Hsrc Hslot Htrd]
  · isplitr; · iapply (inv_dma m K c (rdS (slotOf ⟨j, hj16⟩))); iexact Hrec
    isplitl [Hsrc]; · iexact Hsrc
    isplitl [Hslot]; · iexact Hslot
    isplitl [Htrd]; · iexact Htrd
    iapply (reached_dma m K c (rdS (slotOf ⟨j, hj16⟩))); iexact Hrec
  iintro Hcr
  iapply Hk
  isplitr
  · isplitr; · iexact Hrec
    iexact Hlev
  isplitr [HO]
  · iapply Hback
    iapply (Entails.of_eq (show _ = LC2 m c (j + 1) ⟨j, hj16⟩ from
      ((if_pos (Nat.lt_succ_self j)).trans (InRead_first m c ⟨j, hj16⟩ hj)).symm))
    isplitl [Hcr]; · iexact Hcr
    isplitl [Hard]; · iexact Hard
    isplitl [Hawr]; · iexact Hawr
    isplitr; · iapply (reached_dma m K c (wrS (slotOf ⟨j, hj16⟩))); iexact Hrec
    isplitl [Htwr]; · iexact Htwr
    iexact Hdst
  iexists W; iexact HO

theorem phase2 (O : CellTallies nD τ sig Unit) {α : Type} (Q : α → sProp 𝕄) (k : PUnit → Prog (TpuEff nD τ sig (Elt F) Λ₀ .tc) α) :
    iprop(Inv2 m K c O 0 ∗ (Inv2 m K c O 4 -∗ WP (k ⟨⟩) Q))
      ⊢ WP (seqR (upTo 16 (enqRd (F := F) xM sM cc0_scratch1)) 0 4 >>= k) Q :=
  wp_seqR_then frame (wpE (defs₀ (F := F)) 𝒱₀ (c : Thread nD τ) none) Set.univ _ (Inv2 m K c O) Q 4 0 k
    (fun j _ hj k' => step2 m K c O j (by omega) Q k')

/-- info: 'Cert.KernelIdeal.AG.step2' depends on axioms: [propext, Classical.choice, Quot.sound] -/
#guard_msgs in #print axioms step2
/-- info: 'Cert.KernelIdeal.AG.phase2' depends on axioms: [propext, Classical.choice, Quot.sound] -/
#guard_msgs in #print axioms phase2

end Cert.KernelIdeal.AG

end
-- ==== Proof.Advance.lean ====
/- One chunk of the device's own block moves on: its read is awaited and its write started; while a
   later chunk wants the slot, the write is awaited and that chunk's read started. -/
import proofs.«900079_g7700000000000080_dist_ag_v7x_xy2x2_x_m16384_n1024_f32_1_alg».proof.Proof.Families

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-! ## The program, by cases -/

theorem advance_lt_prog (k : Fin 16) (hk : k.val < 12) {α : Type} (k' : PUnit → Prog (TpuEff nD τ sig (Elt F) Λ₀ .tc) α) :
    advance (F := F) xM oM sM cc0_scratch1 cc0_scratch2 c k >>= k'
      = waitRd (F := F) xM sM cc0_scratch1 k >>= fun _ => enqWr (F := F) oM sM cc0_scratch2 c k >>= fun _ =>
          waitWr (F := F) oM sM cc0_scratch2 c k >>= fun _ => enqRd (F := F) xM sM cc0_scratch1 ⟨k.val + 4, by omega⟩ >>= k' := by
  have hlt : k.val + 4 < 16 := by omega
  unfold advance
  simp only [dif_pos hlt, Prog.bind_assoc]

theorem advance_ge_prog (k : Fin 16) (hk : 12 ≤ k.val) {α : Type} (k' : PUnit → Prog (TpuEff nD τ sig (Elt F) Λ₀ .tc) α) :
    advance (F := F) xM oM sM cc0_scratch1 cc0_scratch2 c k >>= k'
      = waitRd (F := F) xM sM cc0_scratch1 k >>= fun _ => enqWr (F := F) oM sM cc0_scratch2 c k >>= fun _ => k' ⟨⟩ := by
  have hge : ¬ (k.val + 4 < 16) := by omega
  unfold advance
  simp only [dif_neg hge, Prog.bind_assoc]
  rfl

/-! ## Chunk `k + 4` has chunk `k`'s slot, one round later -/

theorem slotOf_add4 (k : Fin 16) (h : k.val + 4 < 16) : slotOf ⟨k.val + 4, h⟩ = slotOf k :=
  Fin.ext (by show (k.val + 4) % 4 = k.val % 4; omega)
theorem roundOf_add4 (k : Fin 16) (h : k.val + 4 < 16) : roundOf ⟨k.val + 4, h⟩ = roundOf k + 1 := by
  show (k.val + 4) / 4 = k.val / 4 + 1; omega

theorem Fresh_add4 (k : Fin 16) (h : k.val + 4 < 16) :
    Fresh m c ⟨k.val + 4, h⟩
      = iprop((∃ q : PosShare TreeShare, (lsrc xM ⟨k.val + 4, h⟩).view.loc (c : Thread nD τ) ↦[(lsrc xM ⟨k.val + 4, h⟩).view.set]{q} X m c)
        ∗ dutyTok ER (dmaC c (rdS (slotOf k))) (roundOf k + 1) false ∗ dutyTok ER (dmaC c (wrS (slotOf k))) (roundOf k + 1) false
        ∗ held (F := F) c (ldst oM c ⟨k.val + 4, h⟩) (f0 m c) ∗ emp) := by
  unfold Fresh
  rw [slotOf_add4 k h, roundOf_add4 k h, if_neg (by show ¬ (k.val + 4 < 4); omega)]

theorem InRead_add4 (k : Fin 16) (h : k.val + 4 < 16) :
    InRead m c ⟨k.val + 4, h⟩
      = iprop(cred (tallyAt (dmaC c (rdS (slotOf k))) () NL)
        ∗ atPos ER (dmaC c (rdS (slotOf k))) (roundOf k + 1) ∅ 0 ∗ atPos ER (dmaC c (wrS (slotOf k))) (roundOf k + 1) ∅ 0
        ∗ reached ER (dmaC c (wrS (slotOf k))) (roundOf k + 1)
        ∗ dutyTok ER (dmaC c (wrS (slotOf k))) (roundOf k + 1) false ∗ held (F := F) c (ldst oM c ⟨k.val + 4, h⟩) (f0 m c)) := by
  unfold InRead
  rw [slotOf_add4 k h, roundOf_add4 k h]

/-- The read of chunk `k + 4`, spelt through chunk `k`'s slot and round. -/
theorem step_enqRd_add4 (k : Fin 16) (h : k.val + 4 < 16) (κ : ℕ) (q : PosShare TreeShare)
    (fd : Buf (Elt F) ((slot sM (slotOf k)).view.loc (c : Thread nD τ)))
    {α : Type} {Q : α → sProp 𝕄} (kont : PUnit → Prog (TpuEff nD τ sig (Elt F) Λ₀ .tc) α) :
    iprop(cellInv ER (sched m) κ (dmaC c (rdS (slotOf k)))
        ∗ ((lsrc xM ⟨k.val + 4, h⟩).view.loc (c : Thread nD τ) ↦[(lsrc xM ⟨k.val + 4, h⟩).view.set]{q} X m c)
        ∗ held (F := F) c (slot sM (slotOf k)) fd
        ∗ dutyTok ER (dmaC c (rdS (slotOf k))) (roundOf k + 1) false ∗ reached ER (dmaC c (rdS (slotOf k))) (roundOf k + 1))
      ⊢ iprop((cred (tallyAt (dmaC c (rdS (slotOf k))) () NL) -∗ WP (kont ⟨⟩) Q)
          -∗ WP (enqRd (F := F) xM sM cc0_scratch1 ⟨k.val + 4, h⟩ >>= kont) Q) := by
  have key := step_enqRd m c ⟨k.val + 4, h⟩ κ q fd (Q := Q) kont
  rw [slotOf_add4 k h, roundOf_add4 k h] at key
  exact key

/-- Chunk `k` below twelve: it ends written, chunk `k + 4` being read into its slot. While the device owes only
    second-phase chunks, the two waits sit below them. -/
theorem advance_lt (k : Fin 16) (hk : k.val < 12) (i : ℕ) {α : Type} (Q : α → sProp 𝕄)
    (k' : PUnit → Prog (TpuEff nD τ sig (Elt F) Λ₀ .tc) α) :
    iprop(Rp m K ∗ InRead m c k ∗ Fresh m c ⟨k.val + 4, by omega⟩ ∗ (∃ W, owes (c : Thread nD τ) (OY c i) W)
        ∗ ((DoneL m c k ∗ InRead m c ⟨k.val + 4, by omega⟩ ∗ ∃ W, owes (c : Thread nD τ) (OY c i) W) -∗ WP (k' ⟨⟩) Q))
      ⊢ WP (advance (F := F) xM oM sM cc0_scratch1 cc0_scratch2 c k >>= k') Q := by
  have h4 : k.val + 4 < 16 := by omega
  rw [advance_lt_prog c k hk k', InRead_add4 m c k h4, Fresh_add4 m c k h4]
  unfold InRead DoneL Rp
  iintro ⟨⟨#Hrec, #Hlev⟩, ⟨Hcr, Hard, Hawr, Hrwr, Htwr, Hdst⟩, ⟨⟨%q, Hsrc⟩, Htrd', Htwr', Hdst', -⟩, ⟨%W, HO⟩, Hk⟩
  -- the read of chunk k is awaited: its slot holds the chunk
  iapply (step_waitRd m c k (K (dmaC c (rdS (slotOf k)))) (OY c i) W _) $$ [Hcr HO Hard]
  · isplitr; · iapply (inv_dma m K c (rdS (slotOf k))); iexact Hrec
    isplitl [Hcr]; · iexact Hcr
    isplitl [HO]; · iexact HO
    isplitr
    · iapply (mayWait_OY (F := F) c (.dma (rdS (slotOf k))) i ((lv_rd c (slotOf k)).trans_lt (by decide))); iexact Hlev
    iexact Hard
  iintro ⟨HO, Hard, Hrrd, Hslot⟩
  ihave Hslot := (Entails.of_eq (show rdPay (F := F) m c k = held (F := F) c (slot sM (slotOf k)) (Sat m c k) from rfl)) $$ Hslot
  -- its write is started
  iapply (step_enqWr m c k (K (dmaC c (wrS (slotOf k)))) (f0 m c) _) $$ [Hslot Hdst Htwr Hrwr]
  · isplitr; · iapply (inv_dma m K c (wrS (slotOf k))); iexact Hrec
    isplitl [Hslot]; · iexact Hslot
    isplitl [Hdst]; · iexact Hdst
    isplitl [Htwr]; · iexact Htwr
    iexact Hrwr
  iintro Hcw
  -- and awaited: the chunk's rows of the result are written and the slot is free again
  iapply (step_waitWr m c k (K (dmaC c (wrS (slotOf k)))) (OY c i) (insert (SemLoc.dma (rdS (slotOf k)), ()) W) _) $$ [Hcw HO Hawr]
  · isplitr; · iapply (inv_dma m K c (wrS (slotOf k))); iexact Hrec
    isplitl [Hcw]; · iexact Hcw
    isplitl [HO]; · iexact HO
    isplitr
    · iapply (mayWait_OY (F := F) c (.dma (wrS (slotOf k))) i ((lv_wr c (slotOf k)).trans_lt (by decide))); iexact Hlev
    iexact Hawr
  iintro ⟨HO, Hawr, Hrwr, Hpay⟩
  ihave Hpay := (Entails.of_eq (show wrPay (F := F) m c k
      = iprop(held (F := F) c (ldst oM c k) (Gout m c) ∗ held (F := F) c (slot sM (slotOf k)) (Sat m c k)) from rfl)) $$ Hpay
  icases Hpay with ⟨Hdone, Hslot⟩
  -- the read of chunk k + 4 into the slot is started
  iapply (step_enqRd_add4 m c k h4 (K (dmaC c (rdS (slotOf k)))) q (Sat m c k) _) $$ [Hsrc Hslot Htrd' Hrrd]
  · isplitr; · iapply (inv_dma m K c (rdS (slotOf k))); iexact Hrec
    isplitl [Hsrc]; · iexact Hsrc
    isplitl [Hslot]; · iexact Hslot
    isplitl [Htrd']; · iexact Htrd'
    iexact Hrrd
  iintro Hcr
  iapply Hk
  isplitl [Hdone]; · iexact Hdone
  isplitr [HO]
  · isplitl [Hcr]; · iexact Hcr
    isplitl [Hard]; · iexact Hard
    isplitl [Hawr]; · iexact Hawr
    isplitl [Hrwr]; · iexact Hrwr
    isplitl [Htwr']; · iexact Htwr'
    iexact Hdst'
  iexists _; iexact HO

/-- One of the last four chunks: it ends being written. -/
theorem advance_ge (k : Fin 16) (hk : 12 ≤ k.val) (i : ℕ) {α : Type} (Q : α → sProp 𝕄)
    (k' : PUnit → Prog (TpuEff nD τ sig (Elt F) Λ₀ .tc) α) :
    iprop(Rp m K ∗ InRead m c k ∗ (∃ W, owes (c : Thread nD τ) (OY c i) W)
        ∗ ((InWrite c k ∗ ∃ W, owes (c : Thread nD τ) (OY c i) W) -∗ WP (k' ⟨⟩) Q))
      ⊢ WP (advance (F := F) xM oM sM cc0_scratch1 cc0_scratch2 c k >>= k') Q := by
  rw [advance_ge_prog c k hk k']
  unfold InRead InWrite Rp
  iintro ⟨⟨#Hrec, #Hlev⟩, ⟨Hcr, Hard, Hawr, Hrwr, Htwr, Hdst⟩, ⟨%W, HO⟩, Hk⟩
  -- the read of chunk k is awaited: its slot holds the chunk
  iapply (step_waitRd m c k (K (dmaC c (rdS (slotOf k)))) (OY c i) W _) $$ [Hcr HO Hard]
  · isplitr; · iapply (inv_dma m K c (rdS (slotOf k))); iexact Hrec
    isplitl [Hcr]; · iexact Hcr
    isplitl [HO]; · iexact HO
    isplitr
    · iapply (mayWait_OY (F := F) c (.dma (rdS (slotOf k))) i ((lv_rd c (slotOf k)).trans_lt (by decide))); iexact Hlev
    iexact Hard
  iintro ⟨HO, Hard, -, Hslot⟩
  ihave Hslot := (Entails.of_eq (show rdPay (F := F) m c k = held (F := F) c (slot sM (slotOf k)) (Sat m c k) from rfl)) $$ Hslot
  -- its write is started
  iapply (step_enqWr m c k (K (dmaC c (wrS (slotOf k)))) (f0 m c) _) $$ [Hslot Hdst Htwr Hrwr]
  · isplitr; · iapply (inv_dma m K c (wrS (slotOf k))); iexact Hrec
    isplitl [Hslot]; · iexact Hslot
    isplitl [Hdst]; · iexact Hdst
    isplitl [Htwr]; · iexact Htwr
    iexact Hrwr
  iintro Hcw
  iapply Hk
  isplitr [HO]
  · isplitl [Hcw]; · iexact Hcw
    isplitl [Hawr]; · iexact Hawr
    iexact Hard
  iexists _; iexact HO

/-- info: 'Cert.KernelIdeal.AG.advance_lt' depends on axioms: [propext, Classical.choice, Quot.sound] -/
#guard_msgs in #print axioms advance_lt
/-- info: 'Cert.KernelIdeal.AG.advance_ge' depends on axioms: [propext, Classical.choice, Quot.sound] -/
#guard_msgs in #print axioms advance_ge

end Cert.KernelIdeal.AG

end
-- ==== Proof.Phase3.lean ====
/- The second phase: at step `j` chunk `j` has arrived from the row neighbour and is forwarded to the
   column neighbour; every fourth step one chunk of the device's own block also moves on. -/
import proofs.«900079_g7700000000000080_dist_ag_v7x_xy2x2_x_m16384_n1024_f32_1_alg».proof.Proof.Families
import proofs.«900079_g7700000000000080_dist_ag_v7x_xy2x2_x_m16384_n1024_f32_1_alg».proof.Proof.Advance

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- A step that moves no chunk of the own block on. -/
theorem mainStep_plain (j : ℕ) (hj : j < 64) (h : j % 4 ≠ 0) :
    mainStep (F := F) xM oM sM cc0_scratch1 cc0_scratch2 cc0_scratch4 cc0_scratch5 cc0_scratch6 c ⟨j, hj⟩
      = (waitXr (F := F) xM oM cc0_scratch4 c ⟨j, hj⟩ >>= fun _ => ySend (F := F) oM cc0_scratch5 cc0_scratch6 c ⟨j, hj⟩) := by
  unfold mainStep
  have e : (fun (_ : PUnit) => ySend (F := F) oM cc0_scratch5 cc0_scratch6 c ⟨j, hj⟩ >>= fun _ =>
      if h : (⟨j, hj⟩ : Fin 64).val % 4 = 0 then advance (F := F) xM oM sM cc0_scratch1 cc0_scratch2 c ⟨(⟨j, hj⟩ : Fin 64).val / 4, by have := (⟨j, hj⟩ : Fin 64).isLt; omega⟩ else pure ⟨⟩)
      = fun _ => ySend (F := F) oM cc0_scratch5 cc0_scratch6 c ⟨j, hj⟩ := by
    funext _
    rw [show (fun (_ : PUnit) => if h : (⟨j, hj⟩ : Fin 64).val % 4 = 0 then advance (F := F) xM oM sM cc0_scratch1 cc0_scratch2 c ⟨(⟨j, hj⟩ : Fin 64).val / 4, by have := (⟨j, hj⟩ : Fin 64).isLt; omega⟩ else pure ⟨⟩)
        = fun _ => pure ⟨⟩ from funext fun _ => dif_neg h]
    exact Prog.bind_pure _
  exact congrArg (fun f => waitXr (F := F) xM oM cc0_scratch4 c ⟨j, hj⟩ >>= f) e

/-- A step that does. -/
theorem mainStep_adv (j : ℕ) (hj : j < 64) (h : j % 4 = 0) :
    mainStep (F := F) xM oM sM cc0_scratch1 cc0_scratch2 cc0_scratch4 cc0_scratch5 cc0_scratch6 c ⟨j, hj⟩
      = (waitXr (F := F) xM oM cc0_scratch4 c ⟨j, hj⟩ >>= fun _ => ySend (F := F) oM cc0_scratch5 cc0_scratch6 c ⟨j, hj⟩ >>= fun _ =>
          advance (F := F) xM oM sM cc0_scratch1 cc0_scratch2 c ⟨j / 4, by omega⟩) := by
  unfold mainStep
  have e : (fun (_ : PUnit) => if h : (⟨j, hj⟩ : Fin 64).val % 4 = 0 then advance (F := F) xM oM sM cc0_scratch1 cc0_scratch2 c ⟨(⟨j, hj⟩ : Fin 64).val / 4, by have := (⟨j, hj⟩ : Fin 64).isLt; omega⟩ else pure ⟨⟩)
      = fun _ => advance (F := F) xM oM sM cc0_scratch1 cc0_scratch2 c ⟨j / 4, by omega⟩ := funext fun _ => dif_pos h
  rw [e]

theorem YS_pre (j : ℕ) (hj : j < 64) : YS (F := F) c j ⟨j, hj⟩
    = iprop(cred (tallyAt (dmaC c (xrS ⟨j, hj⟩)) () N) ∗ atPos ER (dmaC c (xrS ⟨j, hj⟩)) 0 ∅ 0
      ∗ (∃ f, held (F := F) (yn c) (ypc oM c ⟨j, hj⟩) f)
      ∗ dutyTok ER (dmaC c (ysS ⟨j, hj⟩)) 0 false ∗ dutyTok ER (dmaC (yn c) (yrS ⟨j, hj⟩)) 0 false) := if_neg (Nat.lt_irrefl j)
theorem YS_post (j : ℕ) (hj : j < 64) : YS (F := F) c (j + 1) ⟨j, hj⟩
    = iprop(cred (tallyAt (dmaC c (ysS ⟨j, hj⟩)) () N) ∗ atPos ER (dmaC c (xrS ⟨j, hj⟩)) 1 ∅ 0) := if_pos (Nat.lt_succ_self j)
theorem YS_other (j : ℕ) (hj : j < 64) (j' : Fin 64) (hne : j' ≠ ⟨j, hj⟩) : YS (F := F) c j j' = YS (F := F) c (j + 1) j' := by
  have : j'.val ≠ j := fun h => hne (Fin.ext h)
  unfold YS
  by_cases h : j'.val < j
  · rw [if_pos h, if_pos (by omega)]
  · rw [if_neg h, if_neg (by omega)]

/-- Chunk `j`: awaited from the row neighbour, sent on to the column neighbour. -/
theorem xy_step (j : ℕ) (hj : j < 64) {α : Type} (Q : α → sProp 𝕄)
    (k' : PUnit → Prog (TpuEff nD τ sig (Elt F) Λ₀ .tc) α) :
    iprop(Rp m K ∗ YS (F := F) c j ⟨j, hj⟩ ∗ (∃ W, owes (c : Thread nD τ) (OY c j) W)
        ∗ ((YS (F := F) c (j + 1) ⟨j, hj⟩ ∗ ∃ W, owes (c : Thread nD τ) (OY c (j + 1)) W) -∗ WP (k' ⟨⟩) Q))
      ⊢ WP (waitXr (F := F) xM oM cc0_scratch4 c ⟨j, hj⟩ >>= fun _ => ySend (F := F) oM cc0_scratch5 cc0_scratch6 c ⟨j, hj⟩ >>= k') Q := by
  have hO : OY c j = OY c (j + 1) + tallyAt (dmaC (yn c) (yrS ⟨j, hj⟩)) () N := OY_succ c ⟨j, hj⟩
  rw [YS_pre c j hj, YS_post c j hj]
  unfold Rp
  iintro ⟨⟨#Hrec, #Hlev⟩, ⟨Hcr, Hat, ⟨%fd, Hdst⟩, Hts, Htr⟩, ⟨%W, HO⟩, Hk⟩
  iapply (step_waitXr m c ⟨j, hj⟩ (K (dmaC c (xrS ⟨j, hj⟩))) (OY c j) W _) $$ [Hcr HO Hat]
  · isplitr; · iapply (inv_dma m K c (xrS ⟨j, hj⟩)); iexact Hrec
    isplitl [Hcr]; · iexact Hcr
    isplitl [HO]; · iexact HO
    isplitr; · iapply (mayWait_OY (F := F) c (.dma (xrS ⟨j, hj⟩)) j (by rw [lv_xr]; decide)); iexact Hlev
    iexact Hat
  iintro ⟨HO, Hat, -, Hpay⟩
  ihave Hpay := (Entails.of_eq (show xrPay m c ⟨j, hj⟩ = held (F := F) c (ypc oM c ⟨j, hj⟩) (Gout m c) from rfl)) $$ Hpay
  ihave HO := (Entails.of_eq (congrArg (fun O => (owes (c : Thread nD τ) O (insert (SemLoc.dma (xrS ⟨j, hj⟩), ()) W) : sProp 𝕄)) hO)) $$ HO
  iapply (step_ySend m c ⟨j, hj⟩ (K (dmaC c (ysS ⟨j, hj⟩))) (K (dmaC (yn c) (yrS ⟨j, hj⟩))) fd (OY c (j + 1)) _ k') $$ [Hpay Hdst HO Hts Htr]
  · isplitr; · iapply (inv_dma m K c (ysS ⟨j, hj⟩)); iexact Hrec
    isplitr; · iapply (inv_dma m K (yn c) (yrS ⟨j, hj⟩)); iexact Hrec
    isplitl [Hpay]; · iexact Hpay
    isplitl [Hdst]; · iexact Hdst
    isplitl [HO]; · iexact HO
    isplitl [Hts]; · iexact Hts
    isplitr; · iapply (reached_dma m K c (ysS ⟨j, hj⟩)); iexact Hrec
    isplitl [Htr]; · iexact Htr
    iapply (reached_dma m K (yn c) (yrS ⟨j, hj⟩)); iexact Hrec
  iintro ⟨Hcy, HO⟩
  iapply Hk
  isplitl [Hcy Hat]
  · isplitl [Hcy]; · iexact Hcy
    iexact Hat
  iexists _; iexact HO

theorem LC_read (a : ℕ) (ha : a < 16) : LC m c a ⟨a, ha⟩ = InRead m c ⟨a, ha⟩ := by
  unfold LC; dsimp only; rw [if_neg (Nat.lt_irrefl a), if_pos (by omega)]
theorem LC_fresh (a : ℕ) (ha : a + 4 < 16) : LC m c a ⟨a + 4, ha⟩ = Fresh m c ⟨a + 4, ha⟩ := by
  unfold LC; dsimp only; rw [if_neg (by omega), if_neg (by omega)]
theorem LC_done (a : ℕ) (ha : a < 12) : LC m c (a + 1) ⟨a, by omega⟩ = DoneL m c ⟨a, by omega⟩ := by
  unfold LC; dsimp only; rw [if_pos (by omega), if_pos ha]
theorem LC_read' (a : ℕ) (ha : a + 4 < 16) : LC m c (a + 1) ⟨a + 4, ha⟩ = InRead m c ⟨a + 4, ha⟩ := by
  unfold LC; dsimp only; rw [if_neg (by omega), if_pos (by omega)]
theorem LC_write (a : ℕ) (h1 : 12 ≤ a) (ha : a < 16) : LC m c (a + 1) ⟨a, ha⟩ = InWrite c ⟨a, ha⟩ := by
  unfold LC; dsimp only; rw [if_pos (by omega), if_neg (by omega)]
theorem LC_other (a : ℕ) (k : Fin 16) (h1 : k.val ≠ a) (h2 : k.val ≠ a + 4) : LC m c a k = LC m c (a + 1) k := by
  have e1 : (k.val < a + 1) ↔ (k.val < a) := by omega
  have e2 : (k.val < a + 1 + 4) ↔ (k.val < a + 4) := by omega
  unfold LC; simp only [e1, e2]

/-- Step `j`. -/
theorem step3 (j : ℕ) (hj : j < 64) {α : Type} (Q : α → sProp 𝕄)
    (k' : PUnit → Prog (TpuEff nD τ sig (Elt F) Λ₀ .tc) α) :
    iprop(Inv3 m K c j ∗ (Inv3 m K c (j + 1) -∗ WP (k' ⟨⟩) Q))
      ⊢ WP (upTo 64 (mainStep (F := F) xM oM sM cc0_scratch1 cc0_scratch2 cc0_scratch4 cc0_scratch5 cc0_scratch6 c) j >>= k') Q := by
  unfold upTo; rw [dif_pos hj]
  by_cases h4 : j % 4 = 0
  · -- a chunk of the own block moves on
    rw [mainStep_adv c j hj h4, Prog.bind_assoc]
    have e : (fun (x : PUnit) => (ySend (F := F) oM cc0_scratch5 cc0_scratch6 c ⟨j, hj⟩ >>= fun _ =>
        advance (F := F) xM oM sM cc0_scratch1 cc0_scratch2 c ⟨j / 4, by omega⟩) >>= k')
        = fun _ => ySend (F := F) oM cc0_scratch5 cc0_scratch6 c ⟨j, hj⟩ >>= fun _ =>
            (advance (F := F) xM oM sM cc0_scratch1 cc0_scratch2 c ⟨j / 4, by omega⟩ >>= k') :=
      funext fun _ => Prog.bind_assoc _ _ _
    rw [e]
    have h1 : (j + 3) / 4 = j / 4 := by omega
    have h2 : (j + 1 + 3) / 4 = j / 4 + 1 := by omega
    unfold Inv3
    rw [h1, h2]
    by_cases ha : j / 4 < 12
    · iintro ⟨⟨#HR, HY, HL, HO⟩, Hk⟩
      ihave HY' := (bigSep_update (YS (F := F) c j) (YS (F := F) c (j + 1)) ⟨j, hj⟩ (YS_other c j hj)) $$ HY
      icases HY' with ⟨Hj, HYb⟩
      iapply (xy_step m K c j hj Q _)
      isplitr; · iexact HR
      isplitl [Hj]; · iexact Hj
      isplitl [HO]; · iexact HO
      iintro ⟨Hj', HO⟩
      ihave HL' := (bigSep_update2 (LC m c (j / 4)) (LC m c (j / 4 + 1)) ⟨j / 4, by omega⟩ ⟨j / 4 + 4, by omega⟩
        (fun h => by have := congrArg Fin.val h; simp only at this; omega)
        (fun k hk1 hk2 => LC_other m c (j / 4) k (fun h => hk1 (Fin.ext h)) (fun h => hk2 (Fin.ext h)))) $$ HL
      icases HL' with ⟨Hr, Hf, HLb⟩
      ihave Hr := (Entails.of_eq (LC_read m c (j / 4) _)) $$ Hr
      ihave Hf := (Entails.of_eq (LC_fresh m c (j / 4) _)) $$ Hf
      iapply (advance_lt m K c ⟨j / 4, _⟩ ha (j + 1) Q k')
      isplitr; · iexact HR
      isplitl [Hr]; · iexact Hr
      isplitl [Hf]; · iexact Hf
      isplitl [HO]; · iexact HO
      iintro ⟨Hd, Hr', HO⟩
      iapply Hk
      isplitr; · iexact HR
      isplitl [HYb Hj']; · iapply HYb; iexact Hj'
      isplitl [HLb Hd Hr']
      · iapply HLb
        isplitl [Hd]
        · iapply (Entails.of_eq (LC_done m c (j / 4) ha).symm); iexact Hd
        · iapply (Entails.of_eq (LC_read' m c (j / 4) _).symm); iexact Hr'
      iexact HO
    · iintro ⟨⟨#HR, HY, HL, HO⟩, Hk⟩
      ihave HY' := (bigSep_update (YS (F := F) c j) (YS (F := F) c (j + 1)) ⟨j, hj⟩ (YS_other c j hj)) $$ HY
      icases HY' with ⟨Hj, HYb⟩
      iapply (xy_step m K c j hj Q _)
      isplitr; · iexact HR
      isplitl [Hj]; · iexact Hj
      isplitl [HO]; · iexact HO
      iintro ⟨Hj', HO⟩
      ihave HL' := (bigSep_update (LC m c (j / 4)) (LC m c (j / 4 + 1)) ⟨j / 4, by omega⟩
        (fun k hk => LC_other m c (j / 4) k (fun h => hk (Fin.ext h)) (by have := k.isLt; omega))) $$ HL
      icases HL' with ⟨Hr, HLb⟩
      ihave Hr := (Entails.of_eq (LC_read m c (j / 4) _)) $$ Hr
      iapply (advance_ge m K c ⟨j / 4, _⟩ (by show 12 ≤ j / 4; omega) (j + 1) Q k')
      isplitr; · iexact HR
      isplitl [Hr]; · iexact Hr
      isplitl [HO]; · iexact HO
      iintro ⟨Hw, HO⟩
      iapply Hk
      isplitr; · iexact HR
      isplitl [HYb Hj']; · iapply HYb; iexact Hj'
      isplitl [HLb Hw]
      · iapply HLb
        iapply (Entails.of_eq (LC_write m c (j / 4) (Nat.le_of_not_lt ha) _).symm); iexact Hw
      iexact HO
  · -- no chunk of the own block moves
    rw [mainStep_plain c j hj h4, Prog.bind_assoc]
    have h1 : (j + 1 + 3) / 4 = (j + 3) / 4 := by omega
    unfold Inv3
    rw [h1]
    iintro ⟨⟨#HR, HY, HL, HO⟩, Hk⟩
    ihave HY' := (bigSep_update (YS (F := F) c j) (YS (F := F) c (j + 1)) ⟨j, hj⟩ (YS_other c j hj)) $$ HY
    icases HY' with ⟨Hj, HYb⟩
    iapply (xy_step m K c j hj Q k')
    isplitr; · iexact HR
    isplitl [Hj]; · iexact Hj
    isplitl [HO]; · iexact HO
    iintro ⟨Hj', HO⟩
    iapply Hk
    isplitr; · iexact HR
    isplitl [HYb Hj']; · iapply HYb; iexact Hj'
    isplitl [HL]; · iexact HL
    iexact HO

theorem phase3 {α : Type} (Q : α → sProp 𝕄) (k : PUnit → Prog (TpuEff nD τ sig (Elt F) Λ₀ .tc) α) :
    iprop(Inv3 m K c 0 ∗ (Inv3 m K c 64 -∗ WP (k ⟨⟩) Q))
      ⊢ WP (seqR (upTo 64 (mainStep (F := F) xM oM sM cc0_scratch1 cc0_scratch2 cc0_scratch4 cc0_scratch5 cc0_scratch6 c)) 0 64 >>= k) Q :=
  wp_seqR_then frame (wpE (defs₀ (F := F)) 𝒱₀ (c : Thread nD τ) none) Set.univ _ (Inv3 m K c) Q 64 0 k
    (fun j _ hj k' => step3 m K c j (by omega) Q k')

end Cert.KernelIdeal.AG

end
-- ==== Proof.PhaseW.lean ====
/- The last waits: the last four writes of the own block, the sixty-four chunks from the column
   neighbour, and the departures of both phases' copies. -/
import proofs.«900079_g7700000000000080_dist_ag_v7x_xy2x2_x_m16384_n1024_f32_1_alg».proof.Proof.Families

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- Owing nothing, the device may wait on any cell. -/
theorem mayWait0 (sm : SemLoc sig) : (emp : sProp 𝕄) ⊢ MayWait (c : Thread nD τ) sm () 0 :=
  Entails.of_eq (MayWait_zero (c : Thread nD τ) sm ()).symm

/-- The write of chunk `j` (one of the last four) is awaited: its rows of the result and its slot are back. -/
theorem step4 (j : ℕ) (h1 : 12 ≤ j) (h2 : j < 16) {α : Type} (Q : α → sProp 𝕄)
    (k' : PUnit → Prog (TpuEff nD τ sig (Elt F) Λ₀ .tc) α) :
    iprop(Inv4 m K c j ∗ (Inv4 m K c (j + 1) -∗ WP (k' ⟨⟩) Q))
      ⊢ WP (upTo 16 (waitWr (F := F) oM sM cc0_scratch2 c) j >>= k') Q := by
  unfold upTo; rw [dif_pos h2]
  unfold Inv4 Rp
  iintro ⟨⟨⟨#Hrec, #Hlev⟩, HS, ⟨%W, HO⟩⟩, Hk⟩
  have hfam : ∀ k : Fin 16, k ≠ ⟨j, h2⟩ → LC4 m c j k = LC4 m c (j + 1) k := fun k hne => by
    have : k.val ≠ j := fun h => hne (Fin.ext h)
    unfold LC4
    by_cases h : k.val < 12
    · rw [if_pos h, if_pos h]
    · rw [if_neg h, if_neg h]
      by_cases h' : k.val < j
      · rw [if_pos h', if_pos (by omega)]
      · rw [if_neg h', if_neg (by omega)]
  ihave HS' := (bigSep_update (LC4 m c j) (LC4 m c (j + 1)) ⟨j, h2⟩ hfam) $$ HS
  icases HS' with ⟨Hj, Hback⟩
  ihave Hj := (Entails.of_eq (show LC4 m c j ⟨j, h2⟩
      = iprop(cred (tallyAt (dmaC c (wrS (slotOf ⟨j, h2⟩))) () NL)
        ∗ atPos ER (dmaC c (wrS (slotOf ⟨j, h2⟩))) (roundOf ⟨j, h2⟩) ∅ 0 ∗ atPos ER (dmaC c (rdS (slotOf ⟨j, h2⟩))) (roundOf ⟨j, h2⟩ + 1) ∅ 0) from by
    unfold LC4 InWrite; rw [if_neg (show ¬ j < 12 by omega), if_neg (Nat.lt_irrefl j)])) $$ Hj
  icases Hj with ⟨Hcr, Hat, Hrd⟩
  iapply (step_waitWr m c ⟨j, h2⟩ (K (dmaC c (wrS (slotOf ⟨j, h2⟩)))) 0 W k') $$ [Hcr HO Hat]
  · isplitr; · iapply (inv_dma m K c (wrS (slotOf ⟨j, h2⟩))); iexact Hrec
    isplitl [Hcr]; · iexact Hcr
    isplitl [HO]; · iexact HO
    isplitr; · iapply (mayWait0 (F := F) c (.dma (wrS (slotOf ⟨j, h2⟩)))); iempintro
    iexact Hat
  iintro ⟨HO, Hat, -, Hpay⟩
  ihave Hpay := (Entails.of_eq (show wrPay m c ⟨j, h2⟩
      = iprop(held c (ldst oM c ⟨j, h2⟩) (Gout m c) ∗ held c (slot sM (slotOf ⟨j, h2⟩)) (Sat m c ⟨j, h2⟩)) from rfl)) $$ Hpay
  icases Hpay with ⟨Hd, Hs⟩
  iapply Hk
  isplitr
  · isplitr; · iexact Hrec
    iexact Hlev
  isplitl [Hback Hat Hrd Hd Hs]
  · iapply Hback
    iapply (Entails.of_eq (show iprop(held (F := F) c (ldst oM c ⟨j, h2⟩) (Gout m c) ∗ held (F := F) c (slot sM (slotOf ⟨j, h2⟩)) (Sat m c ⟨j, h2⟩)
        ∗ atPos ER (dmaC c (wrS (slotOf ⟨j, h2⟩))) (roundOf ⟨j, h2⟩ + 1) ∅ 0 ∗ atPos ER (dmaC c (rdS (slotOf ⟨j, h2⟩))) (roundOf ⟨j, h2⟩ + 1) ∅ 0)
          = LC4 m c (j + 1) ⟨j, h2⟩ from by
      unfold LC4 DoneW; rw [if_neg (show ¬ j < 12 by omega), if_pos (Nat.lt_succ_self j)]))
    isplitl [Hd]; · iexact Hd
    isplitl [Hs]; · iexact Hs
    isplitl [Hat]; · iexact Hat
    iexact Hrd
  iexists _; iexact HO

theorem phase4 {α : Type} (Q : α → sProp 𝕄) (k : PUnit → Prog (TpuEff nD τ sig (Elt F) Λ₀ .tc) α) :
    iprop(Inv4 m K c 12 ∗ (Inv4 m K c 16 -∗ WP (k ⟨⟩) Q))
      ⊢ WP (seqR (upTo 16 (waitWr (F := F) oM sM cc0_scratch2 c)) 12 4 >>= k) Q :=
  wp_seqR_then frame (wpE (defs₀ (F := F)) 𝒱₀ (c : Thread nD τ) none) Set.univ _ (Inv4 m K c) Q 4 12 k
    (fun j h1 hj k' => step4 m K c j h1 (by omega) Q k')

/-- Chunk `j` from the column neighbour is awaited. -/
theorem step5 (j : ℕ) (hj : j < 64) {α : Type} (Q : α → sProp 𝕄)
    (k' : PUnit → Prog (TpuEff nD τ sig (Elt F) Λ₀ .tc) α) :
    iprop(Inv5 m K c j ∗ (Inv5 m K c (j + 1) -∗ WP (k' ⟨⟩) Q))
      ⊢ WP (upTo 64 (waitYr (F := F) oM cc0_scratch6 c) j >>= k') Q := by
  unfold upTo; rw [dif_pos hj]
  unfold Inv5 Rp
  iintro ⟨⟨⟨#Hrec, #Hlev⟩, HS, ⟨%W, HO⟩⟩, Hk⟩
  have hfam : ∀ j' : Fin 64, j' ≠ ⟨j, hj⟩ → RS m c j j' = RS m c (j + 1) j' := fun j' hne => by
    have : j'.val ≠ j := fun h => hne (Fin.ext h)
    unfold RS
    by_cases h : j'.val < j
    · rw [if_pos h, if_pos (by omega)]
    · rw [if_neg h, if_neg (by omega)]
  ihave HS' := (bigSep_update (RS m c j) (RS m c (j + 1)) ⟨j, hj⟩ hfam) $$ HS
  icases HS' with ⟨Hj, Hback⟩
  ihave Hj := (Entails.of_eq (show RS m c j ⟨j, hj⟩ = _ from if_neg (Nat.lt_irrefl j))) $$ Hj
  icases Hj with ⟨Hcr, Hat⟩
  iapply (step_waitYr m c ⟨j, hj⟩ (K (dmaC c (yrS ⟨j, hj⟩))) 0 W k') $$ [Hcr HO Hat]
  · isplitr; · iapply (inv_dma m K c (yrS ⟨j, hj⟩)); iexact Hrec
    isplitl [Hcr]; · iexact Hcr
    isplitl [HO]; · iexact HO
    isplitr; · iapply (mayWait0 (F := F) c (.dma (yrS ⟨j, hj⟩))); iempintro
    iexact Hat
  iintro ⟨HO, Hat, -, Hpay⟩
  iapply Hk
  isplitr
  · isplitr; · iexact Hrec
    iexact Hlev
  isplitl [Hback Hat Hpay]
  · iapply Hback
    iapply (Entails.of_eq (show iprop(atPos ER (dmaC c (yrS ⟨j, hj⟩)) 1 ∅ 0 ∗ yrPay m c ⟨j, hj⟩) = RS m c (j + 1) ⟨j, hj⟩ from
      (if_pos (Nat.lt_succ_self j)).symm))
    isplitl [Hat]; · iexact Hat
    iexact Hpay
  iexists _; iexact HO

theorem phase5 {α : Type} (Q : α → sProp 𝕄) (k : PUnit → Prog (TpuEff nD τ sig (Elt F) Λ₀ .tc) α) :
    iprop(Inv5 m K c 0 ∗ (Inv5 m K c 64 -∗ WP (k ⟨⟩) Q))
      ⊢ WP (seqR (upTo 64 (waitYr (F := F) oM cc0_scratch6 c)) 0 64 >>= k) Q :=
  wp_seqR_then frame (wpE (defs₀ (F := F)) 𝒱₀ (c : Thread nD τ) none) Set.univ _ (Inv5 m K c) Q 64 0 k
    (fun j _ hj k' => step5 m K c j (by omega) Q k')

/-- The two departures of chunk `j` are awaited. -/
theorem step6 (j : ℕ) (hj : j < 64) {α : Type} (Q : α → sProp 𝕄)
    (k' : PUnit → Prog (TpuEff nD τ sig (Elt F) Λ₀ .tc) α) :
    iprop(Inv6 m K c j ∗ (Inv6 m K c (j + 1) -∗ WP (k' ⟨⟩) Q))
      ⊢ WP (upTo 64 (fun i => waitXs (F := F) xM oM cc0_scratch3 c i >>= fun _ => waitYs (F := F) oM cc0_scratch5 c i) j >>= k') Q := by
  unfold upTo; rw [dif_pos hj, Prog.bind_assoc]
  unfold Inv6 Rp
  iintro ⟨⟨⟨#Hrec, #Hlev⟩, HS, ⟨%W, HO⟩⟩, Hk⟩
  have hfam : ∀ j' : Fin 64, j' ≠ ⟨j, hj⟩ → FS m c j j' = FS m c (j + 1) j' := fun j' hne => by
    have : j'.val ≠ j := fun h => hne (Fin.ext h)
    unfold FS
    by_cases h : j'.val < j
    · rw [if_pos h, if_pos (by omega)]
    · rw [if_neg h, if_neg (by omega)]
  ihave HS' := (bigSep_update (FS m c j) (FS m c (j + 1)) ⟨j, hj⟩ hfam) $$ HS
  icases HS' with ⟨Hj, Hback⟩
  ihave Hj := (Entails.of_eq (show FS m c j ⟨j, hj⟩ = _ from if_neg (Nat.lt_irrefl j))) $$ Hj
  icases Hj with ⟨Hcx, Hax, Hcy, Hay⟩
  iapply (step_waitXs m c ⟨j, hj⟩ (K (dmaC c (xsS ⟨j, hj⟩))) 0 W
      (fun _ => waitYs (F := F) oM cc0_scratch5 c ⟨j, hj⟩ >>= k')) $$ [Hcx HO Hax]
  · isplitr; · iapply (inv_dma m K c (xsS ⟨j, hj⟩)); iexact Hrec
    isplitl [Hcx]; · iexact Hcx
    isplitl [HO]; · iexact HO
    isplitr; · iapply (mayWait0 (F := F) c (.dma (xsS ⟨j, hj⟩))); iempintro
    iexact Hax
  iintro ⟨HO, Hax, -⟩
  iapply (step_waitYs m c ⟨j, hj⟩ (K (dmaC c (ysS ⟨j, hj⟩))) 0 (insert (SemLoc.dma (xsS ⟨j, hj⟩), ()) W) k') $$ [Hcy HO Hay]
  · isplitr; · iapply (inv_dma m K c (ysS ⟨j, hj⟩)); iexact Hrec
    isplitl [Hcy]; · iexact Hcy
    isplitl [HO]; · iexact HO
    isplitr; · iapply (mayWait0 (F := F) c (.dma (ysS ⟨j, hj⟩))); iempintro
    iexact Hay
  iintro ⟨HO, Hay, -, Hpay⟩
  iapply Hk
  isplitr
  · isplitr; · iexact Hrec
    iexact Hlev
  isplitl [Hback Hax Hay Hpay]
  · iapply Hback
    iapply (Entails.of_eq (show iprop(atPos ER (dmaC c (xsS ⟨j, hj⟩)) 1 ∅ 0 ∗ atPos ER (dmaC c (ysS ⟨j, hj⟩)) 1 ∅ 0 ∗ xrPay m c ⟨j, hj⟩)
        = FS m c (j + 1) ⟨j, hj⟩ from (if_pos (Nat.lt_succ_self j)).symm))
    isplitl [Hax]; · iexact Hax
    isplitl [Hay]; · iexact Hay
    iexact Hpay
  iexists _; iexact HO

theorem phase6 {α : Type} (Q : α → sProp 𝕄) (k : PUnit → Prog (TpuEff nD τ sig (Elt F) Λ₀ .tc) α) :
    iprop(Inv6 m K c 0 ∗ (Inv6 m K c 64 -∗ WP (k ⟨⟩) Q))
      ⊢ WP (seqR (upTo 64 (fun i => waitXs (F := F) xM oM cc0_scratch3 c i >>= fun _ => waitYs (F := F) oM cc0_scratch5 c i)) 0 64 >>= k) Q :=
  wp_seqR_then frame (wpE (defs₀ (F := F)) 𝒱₀ (c : Thread nD τ) none) Set.univ _ (Inv6 m K c) Q 64 0 k
    (fun j _ hj k' => step6 m K c j (by omega) Q k')

end Cert.KernelIdeal.AG

end
-- ==== Proof.GlueStart.lean ====
/- Sorting what a device holds at launch into the phases' families. -/
import proofs.«900079_g7700000000000080_dist_ag_v7x_xy2x2_x_m16384_n1024_f32_1_alg».proof.Proof.Families

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- Chunk `j` of the first phase, the neighbour's landing chunk still to come. -/
def XSa (j : Fin 64) : sProp 𝕄 :=
  iprop((∃ q : PosShare TreeShare, (xsrc xM c j).view.loc (c : Thread nD τ) ↦[(xsrc xM c j).view.set]{q} X m c)
    ∗ dutyTok ER (dmaC c (xsS j)) 0 false ∗ dutyTok ER (dmaC (xn c) (xrS j)) 0 false)
/-- Chunk `j` of the second phase, the neighbour's landing chunk still to come. -/
def YSa (j : Fin 64) : sProp 𝕄 :=
  iprop(cred (tallyAt (dmaC c (xrS j)) () N) ∗ atPos ER (dmaC c (xrS j)) 0 ∅ 0
    ∗ dutyTok ER (dmaC c (ysS j)) 0 false ∗ dutyTok ER (dmaC (yn c) (yrS j)) 0 false)

/-- What the device holds at launch, sorted: the barrier's cell, credit and two tokens; the chunks of its
    result it hands its two neighbours; a share of its block; and the families of the phases. -/
def Pre0 : sProp 𝕄 :=
  iprop(Rp m K ∗ atPos ER (barC c) 0 ∅ 0 ∗ cred (tallyAt (barC c) () 2)
    ∗ dutyTok ER (barC (xn c)) 0 false ∗ dutyTok ER (barC (yn c)) 0 true
    ∗ barPayX (F := F) (xn c) ∗ barPayY (F := F) (yn c)
    ∗ (∃ q : PosShare TreeShare, ((c : Thread nD τ).loc main_arg0) ↦{q} X m c)
    ∗ bigSep Finset.univ (XSa m c) ∗ bigSep Finset.univ (LC2 m c 0) ∗ bigSep Finset.univ (YSa c)
    ∗ bigSep Finset.univ (RS m c 0)
    ∗ bigSep Finset.univ (fun j : Fin 64 => iprop(atPos ER (dmaC c (xsS j)) 0 ∅ 0 ∗ atPos ER (dmaC c (ysS j)) 0 ∅ 0)))

/-! ## Re-indexing the families -/

/-- The row neighbour's row neighbour is the device itself: the chunks it hands over are its own. -/
theorem barPayX_xn : barPayX (F := F) (xn c) = bigSep Finset.univ fun i : Fin 64 => iprop(∃ f, held (F := F) c (ypc oM c i) f) := by
  unfold barPayX; rw [xn_xn]
/-- Likewise across the other axis. -/
theorem barPayY_yn : barPayY (F := F) (yn c) = bigSep Finset.univ fun i : Fin 64 => iprop(∃ f, held (F := F) c (ypc oM (yn c) i) f) := by
  unfold barPayY; rw [yn_yn]

/-- An assertion per slot is one per chunk, nothing for the chunks past the first four. -/
theorem slot_family {M' : Type} [URA M'] (Ψ : Fin 4 → sProp M') :
    bigSep Finset.univ Ψ = bigSep Finset.univ fun k : Fin 16 => if k.val < 4 then Ψ (slotOf k) else iprop(emp) := by
  have hset : (Finset.univ.filter fun k : Fin 16 => k.val < 4) = Finset.univ.map ⟨Fin.castLE (by decide : 4 ≤ 16), Fin.castLE_injective _⟩ := by decide
  have h := bigSep_filter Finset.univ (fun k : Fin 16 => k.val < 4) (fun k => Ψ (slotOf k))
  rw [hset, bigSep_map] at h
  exact (bigSep_congr fun b _ => congrArg Ψ (Fin.ext (Nat.mod_eq_of_lt b.isLt).symm)).trans h

/-- The first phase's family before the handshake, by kind. -/
theorem XSa_family : bigSep Finset.univ (XSa m c)
    = iprop((bigSep Finset.univ fun j : Fin 64 => iprop(∃ q : PosShare TreeShare, (xsrc xM c j).view.loc (c : Thread nD τ) ↦[(xsrc xM c j).view.set]{q} X m c))
        ∗ (bigSep Finset.univ fun j : Fin 64 => dutyTok ER (dmaC c (xsS j)) 0 false)
        ∗ (bigSep Finset.univ fun j : Fin 64 => dutyTok ER (dmaC (xn c) (xrS j)) 0 false)) := by
  unfold XSa
  rw [bigSep_sep', bigSep_sep']

/-- The second phase's. -/
theorem YSa_family : bigSep Finset.univ (YSa (F := F) c)
    = iprop((bigSep Finset.univ fun j : Fin 64 => cred (tallyAt (dmaC c (xrS j)) () N))
        ∗ (bigSep Finset.univ fun j : Fin 64 => atPos ER (dmaC c (xrS j)) 0 ∅ 0)
        ∗ (bigSep Finset.univ fun j : Fin 64 => dutyTok ER (dmaC c (ysS j)) 0 false)
        ∗ (bigSep Finset.univ fun j : Fin 64 => dutyTok ER (dmaC (yn c) (yrS j)) 0 false)) := by
  unfold YSa
  rw [bigSep_sep', bigSep_sep', bigSep_sep']

/-- The last receives' family, nothing awaited. -/
theorem RS_zero_family : bigSep Finset.univ (RS m c 0)
    = iprop((bigSep Finset.univ fun j : Fin 64 => cred (tallyAt (dmaC c (yrS j)) () N))
        ∗ (bigSep Finset.univ fun j : Fin 64 => atPos ER (dmaC c (yrS j)) 0 ∅ 0)) := by
  rw [bigSep_congr (Ψ := fun j : Fin 64 => iprop(cred (tallyAt (dmaC c (yrS j)) () N) ∗ atPos ER (dmaC c (yrS j)) 0 ∅ 0))
    (fun j _ => by unfold RS; exact if_neg (Nat.not_lt_zero _)), bigSep_sep']

/-- The own block's family, no read started, by kind; the slots and their cells by slot. -/
theorem LC2_zero_family : bigSep Finset.univ (LC2 m c 0)
    = iprop((bigSep Finset.univ fun k : Fin 16 => iprop(∃ q : PosShare TreeShare, (lsrc xM k).view.loc (c : Thread nD τ) ↦[(lsrc xM k).view.set]{q} X m c))
        ∗ (bigSep Finset.univ fun k : Fin 16 => dutyTok ER (dmaC c (rdS (slotOf k))) (roundOf k) false)
        ∗ (bigSep Finset.univ fun k : Fin 16 => dutyTok ER (dmaC c (wrS (slotOf k))) (roundOf k) false)
        ∗ (bigSep Finset.univ fun k : Fin 16 => held (F := F) c (ldst oM c k) (f0 m c))
        ∗ (bigSep Finset.univ fun b : Fin 4 => iprop((∃ f, held (F := F) c (slot sM b) f)
            ∗ atPos ER (dmaC c (rdS b)) 0 ∅ 0 ∗ atPos ER (dmaC c (wrS b)) 0 ∅ 0))) := by
  rw [bigSep_congr (Ψ := Fresh m c) (fun k _ => by unfold LC2; exact if_neg (Nat.not_lt_zero _))]
  rw [slot_family (fun b : Fin 4 => iprop((∃ f, held (F := F) c (slot sM b) f) ∗ atPos ER (dmaC c (rdS b)) 0 ∅ 0 ∗ atPos ER (dmaC c (wrS b)) 0 ∅ 0))]
  unfold Fresh
  rw [bigSep_sep', bigSep_sep', bigSep_sep', bigSep_sep']

/-- Pieces held at some contents are held. -/
theorem held_some {sp : Space} {s : Shape} {e : EltTy} {I : Type} (S : Finset I) (M : I → Memref sig .tc sp s e)
    (f : (i : I) → Buf (Elt F) ((M i).view.loc (c : Thread nD τ))) :
    (bigSep S fun i => held (F := F) c (M i) (f i)) ⊢ bigSep S fun i => iprop(∃ f', held (F := F) c (M i) f') := by
  have h : ∀ i, held (F := F) c (M i) (f i) ⊢ iprop(∃ f', held (F := F) c (M i) f') := fun i => by
    iintro H; iexists (f i); iexact H
  exact bigSep_mono fun i _ => h i

theorem prep : Φ₀ m c ⊢ iprop(∃ K, Pre0 m K c) := by
  have hf0 : f0 m c = m ((c : Thread nD τ).loc main_v1) := rfl
  unfold Φ₀ start ghost positions payToks creds
  rw [← hf0]
  iintro ⟨⟨⟨%K, Hrec, ⟨HatB, Hpos⟩, HtBx, HtBy, Htxr, Htyr, Htxs, Htys, Htrd, Htwr⟩, ⟨HcB, Hcxr, Hcyr⟩, Hlev, Hx, Hout⟩, ⟨%fs, Hst⟩⟩
  ihave Hpos := (Entails.of_eq (dma_family_split (fun q : DmaSem sig => (atPos ER (dmaC c q) 0 ∅ 0 : sProp 𝕄)))) $$ Hpos
  icases Hpos with ⟨Prd, Pwr, Pxs, Pxr, Pys, Pyr⟩
  ihave Hx := (x_split m c) $$ Hx
  icases Hx with ⟨Hxk, Hxs, Hxl⟩
  ihave Hout := (out_split c (f0 m c)) $$ Hout
  icases Hout with ⟨Hol, Hox, Hoy⟩
  ihave Hst := (stage_split c fs) $$ Hst
  iexists K
  unfold Pre0 Rp
  isplitl [Hrec Hlev]
  · isplitl [Hrec]; · iexact Hrec
    iexact Hlev
  isplitl [HatB]; · iexact HatB
  isplitl [HcB]; · iexact HcB
  isplitl [HtBx]; · iexact HtBx
  isplitl [HtBy]; · iexact HtBy
  isplitl [Hox]
  · iapply (Entails.of_eq (barPayX_xn (F := F) c).symm)
    iapply (held_some c Finset.univ (fun i : Fin 64 => ypc oM c i) (fun _ => f0 m c)) $$ Hox
  isplitl [Hoy]
  · iapply (Entails.of_eq (barPayY_yn (F := F) c).symm)
    iapply (held_some c Finset.univ (fun i : Fin 64 => ypc oM (yn c) i) (fun _ => f0 m c)) $$ Hoy
  isplitl [Hxk]; · iexact Hxk
  isplitl [Hxs Htxs Htxr]
  · iapply (Entails.of_eq (XSa_family m c).symm)
    isplitl [Hxs]; · iexact Hxs
    isplitl [Htxs]; · iexact Htxs
    iexact Htxr
  isplitl [Hxl Htrd Htwr Hol Hst Prd Pwr]
  · iapply (Entails.of_eq (LC2_zero_family m c).symm)
    isplitl [Hxl]; · iexact Hxl
    isplitl [Htrd]; · iexact Htrd
    isplitl [Htwr]; · iexact Htwr
    isplitl [Hol]; · iexact Hol
    ihave Hst := (held_some c Finset.univ (fun b : Fin 4 => slot sM b) (fun _ => fs)) $$ Hst
    iapply (Entails.of_eq (bigSep_sep' Finset.univ (fun b : Fin 4 => iprop(∃ f, held (F := F) c (slot sM b) f))
      (fun b : Fin 4 => iprop(atPos ER (dmaC c (rdS b)) 0 ∅ 0 ∗ atPos ER (dmaC c (wrS b)) 0 ∅ 0))).symm)
    isplitl [Hst]; · iexact Hst
    iapply (Entails.of_eq (bigSep_sep' Finset.univ (fun b : Fin 4 => (atPos ER (dmaC c (rdS b)) 0 ∅ 0 : sProp 𝕄))
      (fun b : Fin 4 => (atPos ER (dmaC c (wrS b)) 0 ∅ 0 : sProp 𝕄))).symm)
    isplitl [Prd]; · iexact Prd
    iexact Pwr
  isplitl [Hcxr Pxr Htys Htyr]
  · iapply (Entails.of_eq (YSa_family (F := F) c).symm)
    isplitl [Hcxr]; · iexact Hcxr
    isplitl [Pxr]; · iexact Pxr
    isplitl [Htys]; · iexact Htys
    iexact Htyr
  isplitl [Hcyr Pyr]
  · iapply (Entails.of_eq (RS_zero_family m c).symm)
    isplitl [Hcyr]; · iexact Hcyr
    iexact Pyr
  iapply (Entails.of_eq (bigSep_sep' Finset.univ (fun j : Fin 64 => (atPos ER (dmaC c (xsS j)) 0 ∅ 0 : sProp 𝕄))
    (fun j : Fin 64 => (atPos ER (dmaC c (ysS j)) 0 ∅ 0 : sProp 𝕄))).symm)
  isplitl [Pxs]; · iexact Pxs
  iexact Pys

/-- The row neighbour's chunks, come with the barrier wait, complete the first phase's family. -/
theorem mergeX : iprop(bigSep Finset.univ (XSa m c) ∗ barPayX (F := F) c) ⊢ bigSep Finset.univ (XS m c 0) := by
  have perj : ∀ j : Fin 64, iprop(XSa m c j ∗ ∃ f, held (F := F) (xn c) (ypc oM (xn c) j) f) ⊢ XS m c 0 j := by
    intro j
    unfold XSa XS
    rw [if_neg (Nat.not_lt_zero _)]
    iintro ⟨⟨A, B, C⟩, D⟩
    isplitl [A]; · iexact A
    isplitl [D]; · iexact D
    isplitl [B]; · iexact B
    iexact C
  have hm : (bigSep Finset.univ fun j : Fin 64 => iprop(XSa m c j ∗ ∃ f, held (F := F) (xn c) (ypc oM (xn c) j) f))
      ⊢ bigSep Finset.univ (XS m c 0) := bigSep_mono fun j _ => perj j
  unfold barPayX
  rw [← bigSep_sep']
  exact hm

/-- The column neighbour's complete the second phase's. -/
theorem mergeY : iprop(bigSep Finset.univ (YSa (F := F) c) ∗ barPayY (F := F) c) ⊢ bigSep Finset.univ (YS (F := F) c 0) := by
  have perj : ∀ j : Fin 64, iprop(YSa (F := F) c j ∗ ∃ f, held (F := F) (yn c) (ypc oM c j) f) ⊢ YS (F := F) c 0 j := by
    intro j
    unfold YSa YS
    rw [if_neg (Nat.not_lt_zero _)]
    iintro ⟨⟨A, B, C, D⟩, E⟩
    isplitl [A]; · iexact A
    isplitl [B]; · iexact B
    isplitl [E]; · iexact E
    isplitl [C]; · iexact C
    iexact D
  have hm : (bigSep Finset.univ fun j : Fin 64 => iprop(YSa (F := F) c j ∗ ∃ f, held (F := F) (yn c) (ypc oM c j) f))
      ⊢ bigSep Finset.univ (YS (F := F) c 0) := bigSep_mono fun j _ => perj j
  unfold barPayY
  rw [← bigSep_sep']
  exact hm

theorem LC2_four : LC2 m c 4 = LC m c 0 := by
  funext k
  unfold LC2 LC
  rw [if_neg (Nat.not_lt_zero _), Nat.zero_add]

theorem LC_sixteen : LC m c 16 = LC4 m c 12 := by
  funext k
  unfold LC LC4
  rw [if_pos k.isLt]
  by_cases h : k.val < 12
  · rw [if_pos h, if_pos h]
  · rw [if_neg h, if_neg h, if_neg h]

end Cert.KernelIdeal.AG

end
-- ==== Proof.GlueEnd.lean ====
/- Putting together what a device holds when its last wait has returned. -/
import proofs.«900079_g7700000000000080_dist_ag_v7x_xy2x2_x_m16384_n1024_f32_1_alg».proof.Proof.Families

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- After the first phase every chunk's member is the credit for its departure. -/
theorem XS_end : bigSep Finset.univ (XS m c 64) = bigSep Finset.univ fun j : Fin 64 => (cred (tallyAt (dmaC c (xsS j)) () N) : sProp 𝕄) := by
  refine bigSep_congr fun j _ => ?_
  unfold XS
  exact if_pos j.isLt

/-- The departures' family at its start: the first phase's credits, the second's, and the send cells' positions;
    the receive cells of the first phase, all awaited, stay aside. -/
theorem FS_start :
    iprop(bigSep Finset.univ (XS m c 64) ∗ bigSep Finset.univ (YS (F := F) c 64)
        ∗ bigSep Finset.univ (fun j : Fin 64 => iprop(atPos ER (dmaC c (xsS j)) 0 ∅ 0 ∗ atPos ER (dmaC c (ysS j)) 0 ∅ 0)))
      ⊢ iprop(bigSep Finset.univ (FS m c 0) ∗ bigSep Finset.univ fun j : Fin 64 => (atPos ER (dmaC c (xrS j)) 1 ∅ 0 : sProp 𝕄)) := by
  have e1 : iprop(bigSep Finset.univ (XS m c 64) ∗ bigSep Finset.univ (YS (F := F) c 64)
        ∗ bigSep Finset.univ (fun j : Fin 64 => iprop(atPos ER (dmaC c (xsS j)) 0 ∅ 0 ∗ atPos ER (dmaC c (ysS j)) 0 ∅ 0)))
      = bigSep Finset.univ fun j : Fin 64 => iprop(XS m c 64 j ∗ YS (F := F) c 64 j
          ∗ (atPos ER (dmaC c (xsS j)) 0 ∅ 0 ∗ atPos ER (dmaC c (ysS j)) 0 ∅ 0)) := by
    rw [bigSep_sep' Finset.univ (XS m c 64) (fun j : Fin 64 => iprop(YS (F := F) c 64 j
          ∗ (atPos ER (dmaC c (xsS j)) 0 ∅ 0 ∗ atPos ER (dmaC c (ysS j)) 0 ∅ 0))),
      bigSep_sep' Finset.univ (YS (F := F) c 64) (fun j : Fin 64 => iprop(atPos ER (dmaC c (xsS j)) 0 ∅ 0 ∗ atPos ER (dmaC c (ysS j)) 0 ∅ 0))]
  have perj : ∀ j : Fin 64, iprop(XS m c 64 j ∗ YS (F := F) c 64 j
          ∗ (atPos ER (dmaC c (xsS j)) 0 ∅ 0 ∗ atPos ER (dmaC c (ysS j)) 0 ∅ 0))
        ⊢ iprop(FS m c 0 j ∗ (atPos ER (dmaC c (xrS j)) 1 ∅ 0 : sProp 𝕄)) := by
    intro j
    have hx : XS m c 64 j = (cred (tallyAt (dmaC c (xsS j)) () N) : sProp 𝕄) := by unfold XS; exact if_pos j.isLt
    have hy : YS (F := F) c 64 j = iprop(cred (tallyAt (dmaC c (ysS j)) () N) ∗ atPos ER (dmaC c (xrS j)) 1 ∅ 0) := by
      unfold YS; exact if_pos j.isLt
    have hf : FS m c 0 j = iprop(cred (tallyAt (dmaC c (xsS j)) () N) ∗ atPos ER (dmaC c (xsS j)) 0 ∅ 0
        ∗ cred (tallyAt (dmaC c (ysS j)) () N) ∗ atPos ER (dmaC c (ysS j)) 0 ∅ 0) := by
      unfold FS; exact if_neg (Nat.not_lt_zero _)
    rw [hx, hy, hf]
    iintro ⟨Hcx, ⟨Hcy, Hxr⟩, Hax, Hay⟩
    isplitr [Hxr]
    · isplitl [Hcx]; · iexact Hcx
      isplitl [Hax]; · iexact Hax
      isplitl [Hcy]; · iexact Hcy
      iexact Hay
    · iexact Hxr
  have e2 : (bigSep Finset.univ fun j : Fin 64 => iprop(FS m c 0 j ∗ (atPos ER (dmaC c (xrS j)) 1 ∅ 0 : sProp 𝕄)))
      = iprop(bigSep Finset.univ (FS m c 0) ∗ bigSep Finset.univ fun j : Fin 64 => (atPos ER (dmaC c (xrS j)) 1 ∅ 0 : sProp 𝕄)) :=
    bigSep_sep' _ _ _
  exact (Entails.of_eq e1).trans ((bigSep_mono fun j _ => perj j).trans (Entails.of_eq e2))

/-! ## The end -/

/-- Of a family over the sixteen chunks, the last four members, by slot; the others are let go. -/
theorem bigSep_last_four (Φ : Fin 16 → sProp 𝕄) :
    bigSep Finset.univ Φ ⊢ bigSep Finset.univ fun b : Fin 4 => Φ ⟨b.val + 12, by omega⟩ := by
  classical
  let e : Fin 4 ↪ Fin 16 := ⟨fun b => ⟨b.val + 12, by omega⟩, fun a b h => Fin.ext (by
    have h' : a.val + 12 = b.val + 12 := congrArg Fin.val h
    omega)⟩
  exact (bigSep_subset (Finset.subset_univ (Finset.univ.map e))).trans (Entails.of_eq (bigSep_map e))

/-- What chunk `k`'s slot gives back at the end: the slot and its two cells' positions from the last four
    chunks, nothing from the others. -/
def SlotBack (k : Fin 16) : sProp 𝕄 :=
  if 12 ≤ k.val then iprop(held (F := F) c (slot sM (slotOf k)) (Sat m c k)
    ∗ atPos ER (dmaC c (wrS (slotOf k))) (roundOf k + 1) ∅ 0 ∗ atPos ER (dmaC c (rdS (slotOf k))) (roundOf k + 1) ∅ 0)
  else iprop(emp)

theorem LC4_end_one (k : Fin 16) :
    LC4 m c 16 k ⊢ iprop(held (F := F) c (ldst oM c k) (Gout m c) ∗ SlotBack m c k) := by
  unfold LC4 SlotBack
  by_cases h : k.val < 12
  · rw [if_pos h, if_neg (by omega)]
    unfold DoneL
    iintro H
    isplitl [H]; · iexact H
    iempintro
  · rw [if_neg h, if_pos k.isLt, if_pos (by omega)]
    unfold DoneW
    exact .rfl

theorem SlotBack_last (b : Fin 4) :
    SlotBack m c ⟨b.val + 12, by omega⟩ ⊢ iprop((∃ f, held (F := F) c (slot sM b) f)
      ∗ atPos ER (dmaC c (wrS b)) 4 ∅ 0 ∗ atPos ER (dmaC c (rdS b)) 4 ∅ 0) := by
  have hs : slotOf ⟨b.val + 12, by omega⟩ = b := Fin.ext (by show (b.val + 12) % 4 = b.val; omega)
  have hr : roundOf ⟨b.val + 12, by omega⟩ + 1 = 4 := by show (b.val + 12) / 4 + 1 = 4; omega
  unfold SlotBack
  rw [if_pos (show 12 ≤ b.val + 12 by omega), hr, hs]
  iintro ⟨H, Hw, Hr⟩
  isplitl [H]; · iexists _; iexact H
  isplitl [Hw] <;> iassumption

/-- The sixteen chunks of the device's own block at the end: their rows of the result at the expected contents,
    the four slots, and the slots' cells with all four rounds consumed. -/
theorem LC4_end :
    bigSep Finset.univ (LC4 m c 16)
      ⊢ iprop((bigSep Finset.univ fun k : Fin 16 => held (F := F) c (ldst oM c k) (Gout m c))
          ∗ (bigSep Finset.univ fun b : Fin 4 => iprop(∃ f, held (F := F) c (slot sM b) f))
          ∗ (bigSep Finset.univ fun b : Fin 4 => (atPos ER (dmaC c (wrS b)) 4 ∅ 0 : sProp 𝕄))
          ∗ (bigSep Finset.univ fun b : Fin 4 => (atPos ER (dmaC c (rdS b)) 4 ∅ 0 : sProp 𝕄))) := by
  have e1 : (bigSep Finset.univ fun k : Fin 16 => iprop(held (F := F) c (ldst oM c k) (Gout m c) ∗ SlotBack m c k))
      = iprop((bigSep Finset.univ fun k : Fin 16 => held (F := F) c (ldst oM c k) (Gout m c)) ∗ bigSep Finset.univ (SlotBack m c)) :=
    bigSep_sep' _ _ _
  have e2 : (bigSep Finset.univ fun b : Fin 4 => iprop((∃ f, held (F := F) c (slot sM b) f)
        ∗ atPos ER (dmaC c (wrS b)) 4 ∅ 0 ∗ atPos ER (dmaC c (rdS b)) 4 ∅ 0))
      = iprop((bigSep Finset.univ fun b : Fin 4 => iprop(∃ f, held (F := F) c (slot sM b) f))
          ∗ bigSep Finset.univ fun b : Fin 4 => iprop(atPos ER (dmaC c (wrS b)) 4 ∅ 0 ∗ (atPos ER (dmaC c (rdS b)) 4 ∅ 0 : sProp 𝕄))) :=
    bigSep_sep' _ _ _
  have e3 : (bigSep Finset.univ fun b : Fin 4 => iprop(atPos ER (dmaC c (wrS b)) 4 ∅ 0 ∗ (atPos ER (dmaC c (rdS b)) 4 ∅ 0 : sProp 𝕄)))
      = iprop((bigSep Finset.univ fun b : Fin 4 => (atPos ER (dmaC c (wrS b)) 4 ∅ 0 : sProp 𝕄))
          ∗ (bigSep Finset.univ fun b : Fin 4 => (atPos ER (dmaC c (rdS b)) 4 ∅ 0 : sProp 𝕄))) :=
    bigSep_sep' _ _ _
  have hm : (bigSep Finset.univ fun b : Fin 4 => SlotBack m c ⟨b.val + 12, by omega⟩)
      ⊢ bigSep Finset.univ fun b : Fin 4 => iprop((∃ f, held (F := F) c (slot sM b) f)
        ∗ atPos ER (dmaC c (wrS b)) 4 ∅ 0 ∗ atPos ER (dmaC c (rdS b)) 4 ∅ 0) :=
    bigSep_mono fun b _ => SlotBack_last m c b
  refine BIBase.Entails.trans ((bigSep_mono fun k _ => LC4_end_one m c k).trans (Entails.of_eq e1)) ?_
  iintro ⟨H1, H2⟩
  isplitl [H1]; · iexact H1
  ihave H2 := (bigSep_last_four (SlotBack m c)) $$ H2
  ihave H2 := (hm) $$ H2
  ihave H2 := (Entails.of_eq e2) $$ H2
  icases H2 with ⟨H2, H3⟩
  isplitl [H2]; · iexact H2
  iapply (Entails.of_eq e3)
  iexact H3

/-- The chunks from the column neighbour at the end: their cells' positions, and their rows of the result. -/
theorem RS_end :
    bigSep Finset.univ (RS m c 64)
      = iprop((bigSep Finset.univ fun j : Fin 64 => (atPos ER (dmaC c (yrS j)) 1 ∅ 0 : sProp 𝕄))
          ∗ (bigSep Finset.univ fun j : Fin 64 => held (F := F) c (ypc oM (yn c) j) (Gout m c))) := by
  rw [← bigSep_sep']
  refine bigSep_congr fun j _ => ?_
  unfold RS yrPay
  exact if_pos j.isLt

/-- The departures at the end: the send cells' positions, and the forwarded rows of the result. -/
theorem FS_end :
    bigSep Finset.univ (FS m c 64)
      = iprop((bigSep Finset.univ fun j : Fin 64 => (atPos ER (dmaC c (xsS j)) 1 ∅ 0 : sProp 𝕄))
          ∗ (bigSep Finset.univ fun j : Fin 64 => (atPos ER (dmaC c (ysS j)) 1 ∅ 0 : sProp 𝕄))
          ∗ (bigSep Finset.univ fun j : Fin 64 => held (F := F) c (ypc oM c j) (Gout m c))) := by
  rw [← bigSep_sep', ← bigSep_sep']
  refine bigSep_congr fun j _ => ?_
  unfold FS xrPay
  exact if_pos j.isLt

/-- A family of the device's cells of one round each, every one with its round consumed, closes. -/
theorem close_fam_big {J : Type} [Fintype J] (qf : J → DmaSem sig) (h : ∀ j, 8 ≤ (qf j).val) :
    iprop(records (F := F) m K ∗ bigSep Finset.univ fun j : J => (atPos ER (dmaC c (qf j)) 1 ∅ 0 : sProp 𝕄))
      ⊢ (|={Set.univ}=> bigSep Finset.univ fun j : J => (semVal (dmaC c (qf j)) 0 : sProp 𝕄) : sProp 𝕄) := by
  classical
  refine (bigSep_with_persistent (Ψ := fun j : J => iprop(|={Set.univ}=> (semVal (dmaC c (qf j)) 0 : sProp 𝕄)))
    fun j _ => ?_).trans (bigSep_fupd _ _)
  iintro ⟨#Hrec, Hp⟩
  iapply (close_big m c (qf j) (K (dmaC c (qf j))) (h j))
  isplitr
  · iapply (inv_dma m K c (qf j)); iexact Hrec
  · iexact Hp

/-- The same for the slots' cells, of four rounds each. -/
theorem close_fam_small {J : Type} [Fintype J] (qf : J → DmaSem sig) (h : ∀ j, (qf j).val < 8) :
    iprop(records (F := F) m K ∗ bigSep Finset.univ fun j : J => (atPos ER (dmaC c (qf j)) 4 ∅ 0 : sProp 𝕄))
      ⊢ (|={Set.univ}=> bigSep Finset.univ fun j : J => (semVal (dmaC c (qf j)) 0 : sProp 𝕄) : sProp 𝕄) := by
  classical
  refine (bigSep_with_persistent (Ψ := fun j : J => iprop(|={Set.univ}=> (semVal (dmaC c (qf j)) 0 : sProp 𝕄)))
    fun j _ => ?_).trans (bigSep_fupd _ _)
  iintro ⟨#Hrec, Hp⟩
  iapply (close_small m c (qf j) (K (dmaC c (qf j))) (h j))
  isplitr
  · iapply (inv_dma m K c (qf j)); iexact Hrec
  · iexact Hp

/-- The end: the result's 144 pieces, all at the expected contents, are the result; the four slots the staging
    buffer; every DMA cell, all its rounds consumed, closes and gives its counter back at zero. -/
theorem final :
    iprop(Rp m K ∗ (∃ q : PosShare TreeShare, ((c : Thread nD τ).loc main_arg0) ↦{q} X m c)
        ∗ bigSep Finset.univ (LC4 m c 16) ∗ bigSep Finset.univ (RS m c 64) ∗ bigSep Finset.univ (FS m c 64)
        ∗ bigSep Finset.univ (fun j : Fin 64 => (atPos ER (dmaC c (xrS j)) 1 ∅ 0 : sProp 𝕄)))
      ⊢ (|={Set.univ}=> Φ₁ m c : sProp 𝕄) := by
  classical
  unfold Rp Φ₁
  iintro ⟨⟨#Hrec, #Hlev⟩, Hx, HL, HR, HF, HXR⟩
  ihave HL := (LC4_end m c) $$ HL
  icases HL with ⟨HLd, HSl, HW, HRd⟩
  ihave HR := (Entails.of_eq (RS_end m c)) $$ HR
  icases HR with ⟨HYR, HYd⟩
  ihave HF := (Entails.of_eq (FS_end m c)) $$ HF
  icases HF with ⟨HXS, HYS, HXd⟩
  ihave Hout := (out_join (F := F) c (Gout m c)) $$ [HLd HXd HYd]
  · isplitl [HLd]; · iexact HLd
    isplitl [HXd]; · iexact HXd
    iexact HYd
  ihave Hst := (stage_join (F := F) c) $$ HSl
  imod (close_fam_small m K c rdS (fun b => by rw [rdS_val]; omega)) $$ [HRd] with Hrd
  · isplitr; · iexact Hrec
    iexact HRd
  imod (close_fam_small m K c wrS (fun b => by rw [wrS_val]; omega)) $$ [HW] with Hwr
  · isplitr; · iexact Hrec
    iexact HW
  imod (close_fam_big m K c xsS (fun j => by rw [xsS_val]; omega)) $$ [HXS] with Hxs
  · isplitr; · iexact Hrec
    iexact HXS
  imod (close_fam_big m K c xrS (fun j => by rw [xrS_val]; omega)) $$ [HXR] with Hxr
  · isplitr; · iexact Hrec
    iexact HXR
  imod (close_fam_big m K c ysS (fun j => by rw [ysS_val]; omega)) $$ [HYS] with Hys
  · isplitr; · iexact Hrec
    iexact HYS
  imod (close_fam_big m K c yrS (fun j => by rw [yrS_val]; omega)) $$ [HYR] with Hyr
  · isplitr; · iexact Hrec
    iexact HYR
  imodintro
  isplitl [Hout]; · iexact Hout
  isplitl [Hx]; · iexact Hx
  isplitl [Hst]; · iexact Hst
  iapply (Entails.of_eq (dma_family_split (fun q : DmaSem sig => (semVal (dmaC c q) 0 : sProp 𝕄))).symm)
  isplitl [Hrd]; · iexact Hrd
  isplitl [Hwr]; · iexact Hwr
  isplitl [Hxs]; · iexact Hxs
  isplitl [Hxr]; · iexact Hxr
  isplitl [Hys]; · iexact Hys
  iexact Hyr

end Cert.KernelIdeal.AG

end
-- ==== Proof.Sound.lean ====
/- The whole body of one device, from what it holds at launch to what it must give back. -/
import proofs.«900079_g7700000000000080_dist_ag_v7x_xy2x2_x_m16384_n1024_f32_1_alg».proof.Proof.Families
import proofs.«900079_g7700000000000080_dist_ag_v7x_xy2x2_x_m16384_n1024_f32_1_alg».proof.Proof.Phase0
import proofs.«900079_g7700000000000080_dist_ag_v7x_xy2x2_x_m16384_n1024_f32_1_alg».proof.Proof.Phase1
import proofs.«900079_g7700000000000080_dist_ag_v7x_xy2x2_x_m16384_n1024_f32_1_alg».proof.Proof.Phase2
import proofs.«900079_g7700000000000080_dist_ag_v7x_xy2x2_x_m16384_n1024_f32_1_alg».proof.Proof.Phase3
import proofs.«900079_g7700000000000080_dist_ag_v7x_xy2x2_x_m16384_n1024_f32_1_alg».proof.Proof.PhaseW
import proofs.«900079_g7700000000000080_dist_ag_v7x_xy2x2_x_m16384_n1024_f32_1_alg».proof.Proof.GlueStart
import proofs.«900079_g7700000000000080_dist_ag_v7x_xy2x2_x_m16384_n1024_f32_1_alg».proof.Proof.GlueEnd

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

theorem sound_body (Kt : PUnit → sProp 𝕄) :
    iprop(Φ₀ m c ∗ (∃ W, owes (c : Thread nD τ) (O₀ c) W) ∗ ((Φ₁ m c ∗ ∃ W, owes (c : Thread nD τ) 0 W) -∗ Kt ⟨⟩))
      ⊢ WP (kbody (F := F) xM oM sM cc0_scratch1 cc0_scratch2 cc0_scratch3 cc0_scratch4 cc0_scratch5 cc0_scratch6) Kt := by
  unfold kbody
  simp only [Prog.bind_lift, wp_deviceId, dev1_eq, dev2_eq]
  have hprep := prep m c
  unfold Pre0 at hprep
  iintro ⟨HΦ, HO, Hk⟩
  ihave HP := hprep $$ HΦ
  icases HP with ⟨%K, #HR, Hatb, Hcrb, Htx, Hty, Hpx, Hpy, Hx, HXa, HL2, HYa, HRS, Hsend⟩
  have h0 := @phase0 F _ m K c
  have h1 := @phase1 F _ m K c (OY c 0)
  have h2 := @phase2 F _ m K c (OY c 0)
  have h3 := @phase3 F _ m K c
  have h4 := @phase4 F _ m K c
  have h5 := @phase5 F _ m K c
  have h6 := @phase6 F _ m K c
  unfold Inv1 at h1; unfold Inv2 at h2; unfold Inv3 at h3; unfold Inv4 at h4; unfold Inv5 at h5; unfold Inv6 at h6
  -- the handshake
  iapply (h0 Kt _)
  isplitr; · iexact HR
  isplitl [Hatb]; · iexact Hatb
  isplitl [Hcrb]; · iexact Hcrb
  isplitl [Htx]; · iexact Htx
  isplitl [Hty]; · iexact Hty
  isplitl [Hpx]; · iexact Hpx
  isplitl [Hpy]; · iexact Hpy
  isplitl [HO]; · iexact HO
  iintro ⟨Hbx, Hby, HO⟩
  ihave HX := (mergeX m c) $$ [HXa Hbx]
  · isplitl [HXa]; · iexact HXa
    iexact Hbx
  ihave HY := (mergeY (F := F) c) $$ [HYa Hby]
  · isplitl [HYa]; · iexact HYa
    iexact Hby
  -- the first phase
  iapply (h1 Kt _)
  isplitl [HX HO]
  · isplitr; · iexact HR
    isplitl [HX]; · iexact HX
    iexact HO
  iintro ⟨-, HX, ⟨%W1, HO⟩⟩
  ihave HO := (Entails.of_eq (congrArg (fun O => (owes (c : Thread nD τ) O W1 : sProp 𝕄)) (show OX c (0 + 64) + OY c 0 = OY c 0 by rw [show (0 + 64) = 64 from rfl, OX_end, zero_add]))) $$ HO
  -- the first four reads
  iapply (h2 Kt _)
  isplitl [HL2 HO]
  · isplitr; · iexact HR
    isplitl [HL2]; · iexact HL2
    iexists W1; iexact HO
  iintro ⟨-, HL, HO⟩
  ihave HL := (Entails.of_eq (congrArg (fun f => (bigSep Finset.univ f : sProp 𝕄)) (LC2_four m c))) $$ HL
  -- the second phase
  iapply (h3 Kt _)
  isplitl [HY HL HO]
  · isplitr; · iexact HR
    isplitl [HY]; · iexact HY
    isplitl [HL]; · iexact HL
    iexact HO
  iintro ⟨-, HY, HL, ⟨%W3, HO⟩⟩
  ihave HO := (Entails.of_eq (congrArg (fun O => (owes (c : Thread nD τ) O W3 : sProp 𝕄)) (OY_end c))) $$ HO
  ihave HL := (Entails.of_eq (congrArg (fun f => (bigSep Finset.univ f : sProp 𝕄)) (LC_sixteen m c))) $$ HL
  -- the last writes
  iapply (h4 Kt _)
  isplitl [HL HO]
  · isplitr; · iexact HR
    isplitl [HL]; · iexact HL
    iexists W3; iexact HO
  iintro ⟨-, HL, HO⟩
  -- the chunks from the column neighbour
  iapply (h5 Kt _)
  isplitl [HRS HO]
  · isplitr; · iexact HR
    isplitl [HRS]; · iexact HRS
    iexact HO
  iintro ⟨-, HRS, HO⟩
  -- the departures
  ihave HF := (FS_start m c) $$ [HX HY Hsend]
  · isplitl [HX]; · iexact HX
    isplitl [HY]; · iexact HY
    iexact Hsend
  icases HF with ⟨HF, Hxr⟩
  iapply (Entails.of_eq (congrArg (fun p => WP p Kt) (Prog.bind_pure _)))
  iapply (h6 Kt pure)
  isplitl [HF HO]
  · isplitr; · iexact HR
    isplitl [HF]; · iexact HF
    iexact HO
  iintro ⟨-, HF, HO⟩
  -- the end
  imod (final m K c) $$ [Hx HL HRS HF Hxr] with HΦ1
  · isplitr; · iexact HR
    isplitl [Hx]; · iexact Hx
    isplitl [HL]; · iexact HL
    isplitl [HRS]; · iexact HRS
    isplitl [HF]; · iexact HF
    iexact Hxr
  iapply (le_wp_ret frame (wpE (defs₀ (F := F)) 𝒱₀ (c : Thread nD τ) none) Set.univ PUnit.unit Kt)
  iapply Hk
  isplitl [HΦ1]; · iexact HΦ1
  iexact HO

end Cert.KernelIdeal.AG

end
-- ==== Proof.Body.lean ====
/- The library's body obligation on each device: the printed body is the short program, whose run is proved. -/
import proofs.«900079_g7700000000000080_dist_ag_v7x_xy2x2_x_m16384_n1024_f32_1_alg».proof.Proof.Families
import proofs.«900079_g7700000000000080_dist_ag_v7x_xy2x2_x_m16384_n1024_f32_1_alg».proof.Proof.Sound
import proofs.«900079_g7700000000000080_dist_ag_v7x_xy2x2_x_m16384_n1024_f32_1_alg».proof.Proof.Gen.KernelIdeal.Launch

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- The pipeline of this kernel stages no window: a product over its windows is empty. -/
theorem bigSep_noWindow (Φ : Fin cfg0.W → sProp 𝕄) : bigSep Finset.univ Φ = (iprop(emp) : sProp 𝕄) := by
  rw [show (Finset.univ : Finset (Fin cfg0.W)) = ∅ from Finset.eq_empty_of_forall_notMem fun w => w.elim0]
  exact bigSep_empty

/-- At the one grid point the pipeline calls the printed body on the whole arrays, and that call is the short program. -/
theorem body_call : defs₀ (F := F) .tc cfg0.body (cfg0.bodyArgs t0_0 (cfg0.slots t0_0))
    = kbody (F := F) xM oM sM cc0_scratch1 cc0_scratch2 cc0_scratch3 cc0_scratch4 cc0_scratch5 cc0_scratch6 := by
  unfold defs₀; rw [Defs.onTc_tc]
  exact body_eq _ _ _ _ _ _ _ _ _ _ _ _

/-- The invariant and the dues before and after the one grid point. -/
theorem dats_Φ_first : (dats (F := F) m 0 c).Φ t0_0.castSucc = Φ₀ m c := rfl
theorem dats_Φ_last : (dats (F := F) m 0 c).Φ t0_0.succ = Φ₁ m c := rfl
theorem dats_owed_first : (dats (F := F) m 0 c).owed t0_0.castSucc = O₀ c := rfl
theorem dats_owed_last : (dats (F := F) m 0 c).owed t0_0.succ = 0 := rfl

/-- The library's body obligation on device `c`: the short program runs from what the device holds at launch,
    owing `O₀ c`, to what it must give back, owing nothing. -/
theorem body_obligation : BodyObligation (dats (F := F) m 0 c) (defs₀ (F := F)) 𝒱₀ () Set.univ := fun t => by
  rw [fin_N0 t, bigSep_noWindow, bigSep_noWindow, body_call]
  unfold Dat.owesAt Pipeline.owesWithin
  rw [dats_Φ_first, dats_Φ_last, dats_owed_first, dats_owed_last]
  iintro ⟨HΦ, ⟨%W, -, HO⟩, -⟩
  iapply (sound_body m c)
  isplitl [HΦ]; · iexact HΦ
  isplitl [HO]; · iexists W; iexact HO
  iintro ⟨HΦ, ⟨%W', HO⟩⟩
  isplitl [HΦ]; · iexact HΦ
  isplitl [HO]
  · iexists W'
    isplitr; · ipureintro; exact fun _ _ => Or.inl trivial
    iexact HO
  iempintro

end Cert.KernelIdeal.AG

end
-- ==== Proof.Bits.Mesh.lean ====
/- The 2 × 2 mesh: a device's two neighbours, and the device the kernel's printed
   address chains name. Device `c` sits at row `c / 2` and column `c % 2`; its row
   neighbour `xn c` differs in the row, its column neighbour `yn c` in the column. -/
import proofs.«900079_g7700000000000080_dist_ag_v7x_xy2x2_x_m16384_n1024_f32_1_alg».proof.Proof.Gen.Kernel

noncomputable section

namespace Cert.Kernel.AG

open Cert.Kernel Cert.Kernel.Gen
open Idealize.ShloMosaic

/-- The neighbour across the first mesh axis: same column, other row. -/
def xn (c : Dev nD) : Dev nD := ![2, 3, 0, 1] c
/-- The neighbour across the second mesh axis: same row, other column. -/
def yn (c : Dev nD) : Dev nD := ![1, 0, 3, 2] c

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide
theorem xn_row (c : Dev nD) : (xn c).val / 2 = 1 - c.val / 2 := by revert c; decide
theorem xn_col (c : Dev nD) : (xn c).val % 2 = c.val % 2 := by revert c; decide
theorem yn_row (c : Dev nD) : (yn c).val / 2 = c.val / 2 := by revert c; decide
theorem yn_col (c : Dev nD) : (yn c).val % 2 = 1 - c.val % 2 := by revert c; decide

def xnE : Dev nD ≃ Dev nD := ⟨xn, xn, xn_xn, xn_xn⟩
def ynE : Dev nD ≃ Dev nD := ⟨yn, yn, yn_yn, yn_yn⟩

/-- The two barrier signals go to the row neighbour and to the column neighbour; every copy of the
    first phase is addressed to the row neighbour, every copy of the second to the column neighbour. -/
theorem dev1_eq (c : Dev nD) : (⟨k0_dev1 c, k0_dev1_lt c⟩ : Dev nD) = xn c := Fin.ext (by show k0_dev1 c = _; rw [k0_dev1_eq]; revert c; decide)
theorem dev2_eq (c : Dev nD) : (⟨k0_dev2 c, k0_dev2_lt c⟩ : Dev nD) = yn c := Fin.ext (by show k0_dev2 c = _; rw [k0_dev2_eq]; revert c; decide)
theorem dev3_eq (c : Dev nD) : (⟨k0_dev3 c, k0_dev3_lt c⟩ : Dev nD) = xn c := Fin.ext (by show k0_dev3 c = _; rw [k0_dev3_eq]; revert c; decide)
theorem dev67_eq (c : Dev nD) : (⟨k0_dev67 c, k0_dev67_lt c⟩ : Dev nD) = yn c := Fin.ext (by show k0_dev67 c = _; rw [k0_dev67_eq]; revert c; decide)

end Cert.Kernel.AG

end
-- ==== Proof.Bits.Program.lean ====
/- The kernel's body as a short program: the printed body is a straight line of some four hundred
   memory operations, each of one of a dozen shapes that differ only in a chunk number. Here each
   shape is ONE function of the chunk number and the body is the sequence of those functions over
   their ranges; the printed body IS this program, by unfolding both. -/
import proofs.«900079_g7700000000000080_dist_ag_v7x_xy2x2_x_m16384_n1024_f32_1_alg».proof.Proof.Bits.Mesh
import Idealize.ShloMosaic.Lib.Pipeline.Regions

noncomputable section

namespace Cert.Kernel.AG

open Cert.Kernel Cert.Kernel.Gen
open Idealize.ShloMosaic Idealize.SL.Sem

variable {F : FTy → Type} [FloatOps F]

/-- `f i`, `f (i + 1)`, …: `n` of them in a row. -/
def seqR {E : Type → Type} (f : Nat → Prog E PUnit) : Nat → Nat → Prog E PUnit
  | _, 0 => pure ⟨⟩
  | i, n + 1 => f i >>= fun _ => seqR f (i + 1) n

theorem seqR_zero {E : Type → Type} (f : Nat → Prog E PUnit) (i : Nat) : seqR f i 0 = pure ⟨⟩ := rfl
theorem seqR_succ {E : Type → Type} (f : Nat → Prog E PUnit) (i n : Nat) :
    seqR f i (n + 1) = (f i >>= fun _ => seqR f (i + 1) n) := rfl

theorem inb64 (i : Fin 64) : ∀ a, (![i.val] : Fin 1 → Nat) a + S1.size a ≤ S64.size a := by
  intro a; fin_cases a; show i.val + 1 ≤ 64; omega
theorem inb4 (b : Fin 4) : ∀ a, (![b.val] : Fin 1 → Nat) a + S1.size a ≤ S4.size a := by
  intro a; fin_cases a; show b.val + 1 ≤ 4; omega
theorem inbRow (k : Fin 16) : ∀ a, (![1024 * k.val, 0] : Fin 2 → Nat) a + S1024x1024.size a ≤ S16384x1024.size a := by
  intro a; fin_cases a
  · show 1024 * k.val + 1024 ≤ 16384; omega
  · show 0 + 1024 ≤ 1024; omega
theorem inbSlot (b : Fin 4) : ∀ a, (![b.val, 0, 0] : Fin 3 → Nat) a + S1x1024x1024.size a ≤ S4x1024x1024.size a := by
  intro a; fin_cases a
  · show b.val + 1 ≤ 4; omega
  · show 0 + 1024 ≤ 1024; omega
  · show 0 + 1024 ≤ 1024; omega

/-- Semaphore `i` of an array of sixty-four, of four. -/
def s64 (A : DmaSems sig S64) (i : Fin 64) : DmaSem sig :=
  ((A.slice (Rect.unit (s := S64) ![i.val] S1.size (inb64 i))).squeeze S_ squeezes_S1_S_).sem
def s4 (A : DmaSems sig S4) (b : Fin 4) : DmaSem sig :=
  ((A.slice (Rect.unit (s := S4) ![b.val] S1.size (inb4 b))).squeeze S_ squeezes_S1_S_).sem

/-- The runtime's barrier semaphore. -/
abbrev barS : Sem sig := (SemArray.scalar (sig.barrier 0 rfl) : Sems sig S_).sem

section Pieces
variable (arg0 : Memref sig .tc .hbm S16384x1024 .f32) (arg1 : Memref sig .tc .hbm S32768x1024 .f32)
  (arg2 : Memref sig .tc .vmem S4x1024x1024 .f32)

/-- Rows `[8192 · col + 128 i, + 128)` of the device's block: what it sends its row neighbour. -/
def xsrc (d : Dev nD) (i : Fin 64) : Memref sig .tc .hbm S128x1024 .f32 :=
  arg0.slice (Rect.unit (s := S16384x1024) (k0_off2 d (BitVec.ofNat 32 (128 * i.val))) S128x1024.size (Gen.k0_off2_inb d i)) (fun _ => rfl)
/-- Rows `[16384 · row + 8192 · col + 128 i, + 128)` of the result: where that chunk lands on the row neighbour. -/
def xdst (d : Dev nD) (i : Fin 64) : Memref sig .tc .hbm S128x1024 .f32 :=
  arg1.slice (Rect.unit (s := S32768x1024) (k0_off1 d (BitVec.ofNat 32 (128 * i.val))) S128x1024.size (Gen.k0_off1_inb d i)) (fun _ => rfl)
/-- Rows `[16384 · (1 - row) + 8192 · col + 128 i, + 128)` of the result: the chunk received from the row
    neighbour, forwarded to the same rows of the column neighbour. -/
def ypc (d : Dev nD) (i : Fin 64) : Memref sig .tc .hbm S128x1024 .f32 :=
  arg1.slice (Rect.unit (s := S32768x1024) (k0_off3 d (BitVec.ofNat 32 (128 * i.val))) S128x1024.size (Gen.k0_off3_inb d i)) (fun _ => rfl)
/-- Rows `[1024 k, + 1024)` of the device's block. -/
def lsrc (k : Fin 16) : Memref sig .tc .hbm S1024x1024 .f32 :=
  arg0.slice (Rect.unit (s := S16384x1024) ![1024 * k.val, 0] S1024x1024.size (inbRow k)) (fun _ => rfl)
/-- Rows `[16384 · row + 1024 k, + 1024)` of the result: the device's own block, copied through the staging slots. -/
def ldst (d : Dev nD) (k : Fin 16) : Memref sig .tc .hbm S1024x1024 .f32 :=
  arg1.slice (Rect.unit (s := S32768x1024) (k0_off4 d (BitVec.ofNat 32 (1024 * k.val))) S1024x1024.size (Gen.k0_off4_inb d k)) (fun _ => rfl)
/-- Staging slot `b`. -/
def slot (b : Fin 4) : Memref sig .tc .vmem S1024x1024 .f32 :=
  (arg2.slice (Rect.unit (s := S4x1024x1024) ![b.val, 0, 0] S1x1024x1024.size (inbSlot b)) (fun _ => rfl)).squeeze S1024x1024 squeezes_S1x1024x1024_S1024x1024

end Pieces

/-- The slot of chunk `k`. -/
def slotOf (k : Fin 16) : Fin 4 := ⟨k.val % 4, Nat.mod_lt _ (by decide)⟩

section Ops
variable (arg0 : Memref sig .tc .hbm S16384x1024 .f32) (arg1 : Memref sig .tc .hbm S32768x1024 .f32)
  (arg2 : Memref sig .tc .vmem S4x1024x1024 .f32) (arg3 arg4 : DmaSems sig S4) (arg5 arg6 arg7 arg8 : DmaSems sig S64)

def xSend (d : Dev nD) (i : Fin 64) : Prog (TpuEff nD τ sig (Elt F) Λ₀ .tc) PUnit :=
  Prog.lift (.enqueueDma (xsrc arg0 d i) (.remote (Dev.tc (⟨k0_dev3 d, Gen.k0_dev3_lt d⟩ : Dev nD)) (xdst arg1 d i) (.dma (s64 arg5 i))) (.dma (s64 arg6 i))
    (View.wordExact_bits rfl) (View.wordExact_bits rfl) ⟨⟨rfl, Or.inl rfl⟩, trivial⟩)
def ySend (d : Dev nD) (i : Fin 64) : Prog (TpuEff nD τ sig (Elt F) Λ₀ .tc) PUnit :=
  Prog.lift (.enqueueDma (ypc arg1 d i) (.remote (Dev.tc (⟨k0_dev67 d, Gen.k0_dev67_lt d⟩ : Dev nD)) (ypc arg1 d i) (.dma (s64 arg7 i))) (.dma (s64 arg8 i))
    (View.wordExact_bits rfl) (View.wordExact_bits rfl) ⟨⟨rfl, Or.inl rfl⟩, trivial⟩)
def enqRd (k : Fin 16) : Prog (TpuEff nD τ sig (Elt F) Λ₀ .tc) PUnit :=
  Prog.lift (.enqueueDma (lsrc arg0 k) (.here (slot arg2 (slotOf k))) (.dma (s4 arg3 (slotOf k)))
    (View.wordExact_bits rfl) ((View.wordExact_bits rfl).reshape _ _) ⟨Or.inl rfl, trivial⟩)
def enqWr (d : Dev nD) (k : Fin 16) : Prog (TpuEff nD τ sig (Elt F) Λ₀ .tc) PUnit :=
  Prog.lift (.enqueueDma (slot arg2 (slotOf k)) (.here (ldst arg1 d k)) (.dma (s4 arg4 (slotOf k)))
    ((View.wordExact_bits rfl).reshape _ _) (View.wordExact_bits rfl) ⟨Or.inl rfl, trivial⟩)
def waitXr (d : Dev nD) (i : Fin 64) : Prog (TpuEff nD τ sig (Elt F) Λ₀ .tc) PUnit :=
  Prog.lift (.waitDma2 (s64 arg6 i) (xsrc arg0 d i) (xdst arg1 d i) (View.wordExact_bits rfl) (View.wordExact_bits rfl))
def waitXs (d : Dev nD) (i : Fin 64) : Prog (TpuEff nD τ sig (Elt F) Λ₀ .tc) PUnit :=
  Prog.lift (.waitDma2 (s64 arg5 i) (xdst arg1 d i) (xsrc arg0 d i) (View.wordExact_bits rfl) (View.wordExact_bits rfl))
def waitYr (d : Dev nD) (i : Fin 64) : Prog (TpuEff nD τ sig (Elt F) Λ₀ .tc) PUnit :=
  Prog.lift (.waitDma2 (s64 arg8 i) (ypc arg1 d i) (ypc arg1 d i) (View.wordExact_bits rfl) (View.wordExact_bits rfl))
def waitYs (d : Dev nD) (i : Fin 64) : Prog (TpuEff nD τ sig (Elt F) Λ₀ .tc) PUnit :=
  Prog.lift (.waitDma2 (s64 arg7 i) (ypc arg1 d i) (ypc arg1 d i) (View.wordExact_bits rfl) (View.wordExact_bits rfl))
def waitRd (k : Fin 16) : Prog (TpuEff nD τ sig (Elt F) Λ₀ .tc) PUnit :=
  Prog.lift (.waitDma2 (s4 arg3 (slotOf k)) (lsrc arg0 k) (slot arg2 (slotOf k)) (View.wordExact_bits rfl) ((View.wordExact_bits rfl).reshape _ _))
def waitWr (d : Dev nD) (k : Fin 16) : Prog (TpuEff nD τ sig (Elt F) Λ₀ .tc) PUnit :=
  Prog.lift (.waitDma2 (s4 arg4 (slotOf k)) (slot arg2 (slotOf k)) (ldst arg1 d k) ((View.wordExact_bits rfl).reshape _ _) (View.wordExact_bits rfl))

/-- Chunk `k` of the device's own block moves on: its read is awaited and its write started; while a
    later chunk still wants the slot, the write is awaited and that chunk's read started. -/
def advance (d : Dev nD) (k : Fin 16) : Prog (TpuEff nD τ sig (Elt F) Λ₀ .tc) PUnit :=
  waitRd (F := F) arg0 arg2 arg3 k >>= fun _ => enqWr (F := F) arg1 arg2 arg4 d k >>= fun _ =>
    if h : k.val + 4 < 16 then
      waitWr (F := F) arg1 arg2 arg4 d k >>= fun _ => enqRd (F := F) arg0 arg2 arg3 ⟨k.val + 4, h⟩
    else pure ⟨⟩

/-- Step `i` of the second phase: chunk `i` has arrived from the row neighbour and is forwarded to the
    column neighbour; every fourth step also moves the device's own block on. -/
def mainStep (d : Dev nD) (i : Fin 64) : Prog (TpuEff nD τ sig (Elt F) Λ₀ .tc) PUnit :=
  waitXr (F := F) arg0 arg1 arg6 d i >>= fun _ => ySend (F := F) arg1 arg7 arg8 d i >>= fun _ =>
    if h : i.val % 4 = 0 then advance (F := F) arg0 arg1 arg2 arg3 arg4 d ⟨i.val / 4, by have := i.isLt; omega⟩ else pure ⟨⟩

/-- A family over `Fin n` as a family over the naturals, nothing past `n`. -/
def upTo {E : Type → Type} (n : Nat) (f : Fin n → Prog E PUnit) (i : Nat) : Prog E PUnit :=
  if h : i < n then f ⟨i, h⟩ else pure ⟨⟩

/-- The whole body. -/
def kbody : Prog (TpuEff nD τ sig (Elt F) Λ₀ .tc) PUnit := do
  let d ← Prog.lift .deviceId
  semSignalWord (⟨k0_dev1 d, Gen.k0_dev1_lt d⟩ : Dev nD) barS 1#32 Gen.hamt_1
  semSignalWord (⟨k0_dev2 d, Gen.k0_dev2_lt d⟩ : Dev nD) barS 1#32 Gen.hamt_1
  semWaitWord barS 2#32 Gen.hamt_2
  seqR (upTo 64 (xSend (F := F) arg0 arg1 arg5 arg6 d)) 0 64
  seqR (upTo 16 (enqRd (F := F) arg0 arg2 arg3)) 0 4
  seqR (upTo 64 (mainStep (F := F) arg0 arg1 arg2 arg3 arg4 arg6 arg7 arg8 d)) 0 64
  seqR (upTo 16 (waitWr (F := F) arg1 arg2 arg4 d)) 12 4
  seqR (upTo 64 (waitYr (F := F) arg1 arg8 d)) 0 64
  seqR (upTo 64 (fun i => waitXs (F := F) arg0 arg1 arg5 d i >>= fun _ => waitYs (F := F) arg1 arg7 d i)) 0 64

end Ops

/-- The printed body is that program. -/
theorem body_eq (arg0 : Memref sig .tc .hbm S16384x1024 .f32) (harg0 : arg0.IsWhole) (arg1 : Memref sig .tc .hbm S32768x1024 .f32) (harg1 : arg1.IsWhole)
    (arg2 : Memref sig .tc .vmem S4x1024x1024 .f32) (harg2 : arg2.IsWhole) (arg3 arg4 : DmaSems sig S4) (arg5 arg6 arg7 arg8 : DmaSems sig S64) :
    cc0_body (F := F) arg0 harg0 arg1 harg1 arg2 harg2 arg3 arg4 arg5 arg6 arg7 arg8
      = kbody (F := F) arg0 arg1 arg2 arg3 arg4 arg5 arg6 arg7 arg8 := by
  chain_rfl

end Cert.Kernel.AG

end
-- ==== Proof.Bits.Contents.lean ====
/- What each buffer is expected to hold. Device `c` holds block `X c` of the input. Its result must
   end as the whole gathered array: its own block in its own half; in the other half, the rows of its
   column come straight from the row neighbour, the rows of the other column come from the column
   neighbour, which had them from ITS row neighbour. A staging slot that carries chunk `k` holds rows
   `[1024 k, 1024 k + 1024)` of the device's block. -/
import proofs.«900079_g7700000000000080_dist_ag_v7x_xy2x2_x_m16384_n1024_f32_1_alg».proof.Proof.Bits.Program

noncomputable section

namespace Cert.Kernel.AG

open Cert.Kernel Cert.Kernel.Gen
open Idealize.ShloMosaic Idealize.ShloMosaic.TcCoe Idealize.SL.Sem

variable {F : FTy → Type} [FloatOps F]

abbrev xM : Memref sig .tc .hbm S16384x1024 .f32 := Memref.whole main_arg0
abbrev oM : Memref sig .tc .hbm S32768x1024 .f32 := Memref.whole main_v1
abbrev sM : Memref sig .tc .vmem S4x1024x1024 .f32 := Memref.whole cc0_scratch0

variable (m : (ℓ : Loc nD τ sig) → Buf (Elt F) ℓ)

/-- Device `c`'s block of the input, as launched. -/
def X (c : Dev nD) : Buf (Elt F) ((c : Thread nD τ).loc main_arg0) := m ((c : Thread nD τ).loc main_arg0)

/-- A row of the block and a column, as an index of the block. -/
def blkIdx (r : Nat) (hr : r < 16384) (j : Fin 1024) : S16384x1024.Idx := Shape.pair ⟨r, hr⟩ j

/-- The device whose block row `R` of device `c`'s result comes from. -/
def srcDev (c : Dev nD) (R : Nat) : Dev nD :=
  if R / 16384 = c.val / 2 then c else if (R % 16384) / 8192 = c.val % 2 then xn c else xn (yn c)

/-- The result device `c` must end with. -/
def Gout (c : Dev nD) : Buf (Elt F) ((c : Thread nD τ).loc main_v1) :=
  fun (idx : S32768x1024.Idx) => X m (srcDev c (idx 0).val) (blkIdx ((idx 0).val % 16384) (Nat.mod_lt _ (by decide)) (idx 1))

/-- A staging buffer all of whose slots carry chunk `k`. -/
def Sat (c : Dev nD) (k : Fin 16) : Buf (Elt F) ((c : Thread nD τ).loc cc0_scratch0) :=
  fun (idx : S4x1024x1024.Idx) => X m c (blkIdx (1024 * k.val + (idx 1).val) (by have := (idx 1).isLt; have := k.isLt; change (idx 1).val < 1024 at *; omega) (idx 2))

end Cert.Kernel.AG

end
-- ==== Proof.Bits.Schedule.lean ====
/- The protocol, cell by cell. A cell is a semaphore of a device; its units come in rounds of duties.
   * The barrier cell of `c`: one round, two duties of one unit: `false`, paid by the row neighbour,
     hands `c` the sixty-four row chunks of the NEIGHBOUR's result that `c` will write; `true`, paid by
     the column neighbour, the sixty-four chunks of that neighbour's result that `c` will forward into.
   * The receive cell `xr i` of `c`: one round, one duty paid by the row neighbour's copy `i`: the
     chunk of `c`'s result it lands in, at the expected contents. `yr i`: the same from the column neighbour.
   * The send cells `xs i`, `ys i`: one round, one duty paid by the device's own copy; `xs i` hands
     back nothing, `ys i` the forwarded chunk of the device's own result.
   * The read cell of slot `b`: four rounds, round `r` paid by the read of chunk `b + 4 r`: the slot holding
     that chunk. The write cell of slot `b`: four rounds: the chunk's rows of the result, and the slot. -/
import proofs.«900079_g7700000000000080_dist_ag_v7x_xy2x2_x_m16384_n1024_f32_1_alg».proof.Proof.Bits.Contents
import Idealize.ShloMosaic.Lib.Pipeline.Launch
import Idealize.ShloMosaic.Lib.Pipeline.Kit
import Idealize.ShloMosaic.Lib.Tactic

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev rdS (b : Fin 4) : DmaSem sig := s4 cc0_scratch1 b
abbrev wrS (b : Fin 4) : DmaSem sig := s4 cc0_scratch2 b
abbrev xsS (i : Fin 64) : DmaSem sig := s64 cc0_scratch3 i
abbrev xrS (i : Fin 64) : DmaSem sig := s64 cc0_scratch4 i
abbrev ysS (i : Fin 64) : DmaSem sig := s64 cc0_scratch5 i
abbrev yrS (i : Fin 64) : DmaSem sig := s64 cc0_scratch6 i

theorem rdS_val (b : Fin 4) : (rdS b).val = b.val := by revert b; decide
theorem wrS_val (b : Fin 4) : (wrS b).val = 4 + b.val := by revert b; decide
theorem xsS_val (i : Fin 64) : (xsS i).val = 8 + i.val := by revert i; decide
theorem xrS_val (i : Fin 64) : (xrS i).val = 72 + i.val := by revert i; decide
theorem ysS_val (i : Fin 64) : (ysS i).val = 136 + i.val := by revert i; decide
theorem yrS_val (i : Fin 64) : (yrS i).val = 200 + i.val := by revert i; decide

abbrev barC (c : Dev nD) : GSem nD τ sig := ((c : Thread nD τ), .reg barS)
abbrev dmaC (c : Dev nD) (q : DmaSem sig) : GSem nD τ sig := ((c : Thread nD τ), .dma q)

/-- The units a chunk of 128 rows credits, and a chunk of 1024 rows. -/
abbrev N : ℕ := (ypc oM (0 : Dev nD) (0 : Fin 64)).view.dmaCredit
abbrev NL : ℕ := (lsrc xM (0 : Fin 16)).view.dmaCredit
theorem N_pos : 0 < N := View.dmaCredit_pos _ (by decide)
theorem NL_pos : 0 < NL := View.dmaCredit_pos _ (by decide)

/-! ## Payloads -/

variable (m : (ℓ : Loc nD τ sig) → Buf (Elt F) ℓ)

/-- The elements under a memref on device `c'`, held outright at contents `f`. -/
abbrev held {sp : Space} {s : Shape} {e : EltTy} (c' : Dev nD) (M : Memref sig .tc sp s e) (f : Buf (Elt F) (M.view.loc (c' : Thread nD τ))) : sProp 𝕄 :=
  M.view.loc (c' : Thread nD τ) ↦[M.view.set]{fullShare} f

/-- What the row neighbour's barrier signal hands `c`: the neighbour's chunks `c` will write. -/
def barPayX (c : Dev nD) : sProp 𝕄 :=
  bigSep Finset.univ fun i : Fin 64 => iprop(∃ f, held (F := F) (xn c) (ypc oM (xn c) i) f)
/-- What the column neighbour's hands `c`: the neighbour's chunks `c` will forward into. -/
def barPayY (c : Dev nD) : sProp 𝕄 :=
  bigSep Finset.univ fun i : Fin 64 => iprop(∃ f, held (F := F) (yn c) (ypc oM c i) f)
/-- Chunk `i` from the row neighbour, landed. -/
def xrPay (c : Dev nD) (i : Fin 64) : sProp 𝕄 := held c (ypc oM c i) (Gout m c)
/-- Chunk `i` from the column neighbour, landed. -/
def yrPay (c : Dev nD) (i : Fin 64) : sProp 𝕄 := held c (ypc oM (yn c) i) (Gout m c)
/-- Slot of chunk `k`, holding it. -/
def rdPay (c : Dev nD) (k : Fin 16) : sProp 𝕄 := held c (slot sM (slotOf k)) (Sat m c k)
/-- Chunk `k`'s rows of the result, written, and its slot back. -/
def wrPay (c : Dev nD) (k : Fin 16) : sProp 𝕄 := iprop(held c (ldst oM c k) (Gout m c) ∗ held c (slot sM (slotOf k)) (Sat m c k))

/-- Chunk `b + 4 r`. -/
def chunkOf (b r : ℕ) : Fin 16 := ⟨(b + 4 * r) % 16, Nat.mod_lt _ (by decide)⟩

/-! ## The schedule -/

/-- The payload of the DMA cell numbered `q` of device `c` at round `r`. -/
def dmaPay (c : Dev nD) (q r : ℕ) : sProp 𝕄 :=
  if q < 4 then rdPay m c (chunkOf q r)
  else if q < 8 then wrPay m c (chunkOf (q - 4) r)
  else if q < 72 then iprop(emp)
  else if h : q < 136 then xrPay m c ⟨q - 72, by omega⟩
  else if h : q < 200 then xrPay m c ⟨q - 136, by omega⟩
  else if h : q < 264 then yrPay m c ⟨q - 200, by omega⟩
  else iprop(emp)

def sched : Rounds.Schedule (GSem nD τ sig) Bool 𝕄 where
  duties g r := match g.2 with
    | .reg _ => if r = 0 then Finset.univ else ∅
    | .dma q => if q.val < 8 then (if r < 4 then {false} else ∅) else (if r = 0 then {false} else ∅)
  unitless _ := False
  amount g _ _ := match g.2 with
    | .reg _ => 1
    | .dma q => if q.val < 8 then NL else N
  payload g r d := match g.2 with
    | .reg _ => if d then barPayY g.1.1 else barPayX g.1.1
    | .dma q => dmaPay m g.1.1 q.val r
  amount_pos g _ _ _ := by
    cases g.2 with
    | reg _ => exact Nat.one_pos
    | dma q => show 0 < (if q.val < 8 then NL else N); split; exact NL_pos; exact N_pos

omit [FloatOps F] in
theorem pointsTo_storable (ℓ : Loc nD τ sig) (I : Finset (Idx ℓ)) (q : PosShare TreeShare) (f : Buf (Elt F) ℓ) :
    BI.Storable (upEmb : UEmb _ 𝕄) (ℓ ↦[I]{q} f : sProp 𝕄) := inferInstance

instance rdPay_storable (c : Dev nD) (k : Fin 16) : BI.Storable (upEmb : UEmb _ 𝕄) (rdPay (F := F) m c k) := by
  unfold rdPay held; exact pointsTo_storable _ _ _ _
instance xrPay_storable (c : Dev nD) (i : Fin 64) : BI.Storable (upEmb : UEmb _ 𝕄) (xrPay (F := F) m c i) := by
  unfold xrPay held; exact pointsTo_storable _ _ _ _
instance yrPay_storable (c : Dev nD) (i : Fin 64) : BI.Storable (upEmb : UEmb _ 𝕄) (yrPay (F := F) m c i) := by
  unfold yrPay held; exact pointsTo_storable _ _ _ _
instance wrPay_storable (c : Dev nD) (k : Fin 16) : BI.Storable (upEmb : UEmb _ 𝕄) (wrPay (F := F) m c k) := by
  unfold wrPay held
  letI h1 := pointsTo_storable (F := F) ((ldst oM c k).view.loc (c : Thread nD τ)) (ldst oM c k).view.set fullShare (Gout m c)
  letI h2 := pointsTo_storable (F := F) ((slot sM (slotOf k)).view.loc (c : Thread nD τ)) (slot sM (slotOf k)).view.set fullShare (Sat m c k)
  infer_instance

instance sched_payload_storable (g : GSem nD τ sig) (r : ℕ) (d : Bool) :
    BI.Storable (upEmb : UEmb _ 𝕄) ((sched (F := F) m).payload g r d) := by
  show BI.Storable upEmb (match g.2 with
    | .reg _ => if d then barPayY g.1.1 else barPayX g.1.1
    | .dma q => dmaPay m g.1.1 q.val r)
  cases g.2 with
  | reg _ => show BI.Storable upEmb (if d then barPayY g.1.1 else barPayX g.1.1); unfold barPayY barPayX; split <;> infer_instance
  | dma q =>
    show BI.Storable upEmb (dmaPay m g.1.1 q.val r)
    unfold dmaPay
    (repeat' split) <;> infer_instance

/-! ## What each device owes at launch; the levels -/

/-- Device `c` owes both neighbours' barrier cells a unit, the row neighbour's receive cells the
    first phase's chunks, the column neighbour's the second's. -/
def O₀ (c : Dev nD) : CellTallies nD τ sig Unit :=
  tallyAt (barC (xn c)) () 1 + tallyAt (barC (yn c)) () 1
    + (∑ i : Fin 64, tallyAt (dmaC (xn c) (xrS i)) () N) + (∑ i : Fin 64, tallyAt (dmaC (yn c) (yrS i)) () N)

def L (g : GSem nD τ sig) : Finset Unit := if g.1.2 = .tc then {()} else ∅
/-- Barrier cells at 1, the first phase's receive cells at 2, the second's at 3, all else at 0. -/
def lv (g : GSem nD τ sig) (_ : Unit) : ℕ := match g.2 with
  | .reg _ => 1
  | .dma q => if 72 ≤ q.val ∧ q.val < 136 then 2 else if 200 ≤ q.val then 3 else 0

end Cert.Kernel.AG

end
-- ==== Proof.Bits.Ghost.lean ====
/- What each device holds when its body starts and when it ends. Every device knows every cell's
   invariant and that every cell is at its first round; it holds its own cells' positions, the tokens
   of the duties IT pays (on its neighbours' barrier and receive cells, on its own send, read and write
   cells), the credit for what its neighbours owe it, its block of the input, its result array and its
   staging buffer. At the end: the result at the expected contents, a share of the input, the staging
   buffer, and every DMA semaphore of its own back at zero. -/
import proofs.«900079_g7700000000000080_dist_ag_v7x_xy2x2_x_m16384_n1024_f32_1_alg».proof.Proof.Bits.Schedule

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## All the cells: per device the barrier cell and the 264 DMA cells -/

def cellIx (co : Dev nD × Option (DmaSem sig)) : GSem nD τ sig :=
  match co.2 with
  | none => barC co.1
  | some q => dmaC co.1 q

theorem cellIx_injective : Function.Injective cellIx := by
  rintro ⟨c, o⟩ ⟨c', o'⟩ h
  have h1 : c = c' := by
    cases o <;> cases o' <;> exact congrArg (fun g : GSem nD τ sig => g.1.1) h
  subst h1
  cases o <;> cases o'
  · rfl
  · exact absurd (congrArg Prod.snd h) (fun h' => by cases h')
  · exact absurd (congrArg Prod.snd h) (fun h' => by cases h')
  · have h2 := congrArg Prod.snd h
    simp only [cellIx] at h2
    cases h2; rfl

def allCells : Finset (GSem nD τ sig) := Finset.univ.map ⟨cellIx, cellIx_injective⟩

/-- Every cell's invariant, under the names `K`, and that every cell is at its first round. -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

/-- Device `c`'s positions: every cell of its own at the start of its first round. -/
def positions (c : Dev nD) : sProp 𝕄 :=
  iprop(atPos ER (barC c) 0 ∅ 0 ∗ bigSep Finset.univ fun q : DmaSem sig => atPos ER (dmaC c q) 0 ∅ 0)

/-- The round of chunk `k` on its slot's cells. -/
def roundOf (k : Fin 16) : ℕ := k.val / 4

/-- The tokens of the duties device `c` pays. -/
def payToks (c : Dev nD) : sProp 𝕄 :=
  iprop(dutyTok ER (barC (xn c)) 0 false ∗ dutyTok ER (barC (yn c)) 0 true
    ∗ (bigSep Finset.univ fun i : Fin 64 => dutyTok ER (dmaC (xn c) (xrS i)) 0 false)
    ∗ (bigSep Finset.univ fun i : Fin 64 => dutyTok ER (dmaC (yn c) (yrS i)) 0 false)
    ∗ (bigSep Finset.univ fun i : Fin 64 => dutyTok ER (dmaC c (xsS i)) 0 false)
    ∗ (bigSep Finset.univ fun i : Fin 64 => dutyTok ER (dmaC c (ysS i)) 0 false)
    ∗ (bigSep Finset.univ fun k : Fin 16 => dutyTok ER (dmaC c (rdS (slotOf k))) (roundOf k) false)
    ∗ (bigSep Finset.univ fun k : Fin 16 => dutyTok ER (dmaC c (wrS (slotOf k))) (roundOf k) false))

/-- The credit for what the neighbours owe device `c`'s cells. -/
def creds (c : Dev nD) : sProp 𝕄 :=
  iprop(cred (tallyAt (barC c) () 2)
    ∗ (bigSep Finset.univ fun i : Fin 64 => cred (tallyAt (dmaC c (xrS i)) () N))
    ∗ (bigSep Finset.univ fun i : Fin 64 => cred (tallyAt (dmaC c (yrS i)) () N)))

def ghost (K : GSem nD τ sig → ℕ) (c : Dev nD) : sProp 𝕄 :=
  iprop(records m K ∗ positions c ∗ payToks c)

/-- What device `c`'s body starts from, the staging buffer apart. -/
def start (c : Dev nD) : sProp 𝕄 :=
  iprop((∃ K, ghost m K c) ∗ creds c ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- What it ends with. -/
def Φ₁ (c : Dev nD) : sProp 𝕄 :=
  iprop((((c : Thread nD τ).loc main_v1) ↦{fullShare} Gout m c)
    ∗ (∃ q : PosShare TreeShare, ((c : Thread nD τ).loc main_arg0) ↦{q} X m c)
    ∗ (∃ f : Buf (Elt F) ((c : Thread nD τ).loc cc0_scratch0), ((c : Thread nD τ).loc cc0_scratch0) ↦{fullShare} f)
    ∗ bigSep Finset.univ fun q : DmaSem sig => semVal (dmaC c q) 0)

/-- The pipeline's proof data: no window; the invariant before and after the one point. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

abbrev 𝒱₀ : Variants := Variants.none

end Cert.Kernel.AG

end
-- ==== Proof.Bits.Credit.lean ====
/- The credit dealt at launch. Every device owes each neighbour's barrier cell one unit and each
   neighbour's receive cells a chunk's units. The launch deals the owner of a cell one credit for every
   unit any device owes that cell; since the neighbour maps are their own inverses, each summand of what
   the devices owe puts exactly one device's due on each cell of `c`. -/
import proofs.«900079_g7700000000000080_dist_ag_v7x_xy2x2_x_m16384_n1024_f32_1_alg».proof.Proof.Bits.Ghost
import proofs.«900079_g7700000000000080_dist_ag_v7x_xy2x2_x_m16384_n1024_f32_1_alg».proof.Proof.Gen.Kernel.Launch
import proofs.«900079_g7700000000000080_dist_ag_v7x_xy2x2_x_m16384_n1024_f32_1_alg».proof.Proof.Gen.Kernel.Frame

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
/-- The four protocols' dues apart: the launch credit under the sum of the tallies is the launch credit
    under each summand, and under a sum over the chunks it is the chunks' launch credits one by one. -/
theorem launchCred_split (c : Dev nD) :
    (Pipeline.launchCred O₀ c : sProp 𝕄) = iprop(
      ((Pipeline.launchCred (fun d : Dev nD => (tallyAt (barC (xn d)) () 1 : CellTallies nD τ sig Unit)) c
          ∗ Pipeline.launchCred (fun d : Dev nD => (tallyAt (barC (yn d)) () 1 : CellTallies nD τ sig Unit)) c)
        ∗ bigSep Finset.univ fun i : Fin 64 => Pipeline.launchCred (fun d : Dev nD => (tallyAt (dmaC (xn d) (xrS i)) () N : CellTallies nD τ sig Unit)) c)
      ∗ bigSep Finset.univ fun i : Fin 64 => Pipeline.launchCred (fun d : Dev nD => (tallyAt (dmaC (yn d) (yrS i)) () N : CellTallies nD τ sig Unit)) c) := by
  show (Pipeline.launchCred (fun d : Dev nD =>
      (tallyAt (barC (xn d)) () 1 + tallyAt (barC (yn d)) () 1 + (∑ i : Fin 64, tallyAt (dmaC (xn d) (xrS i)) () N)
        + (∑ i : Fin 64, tallyAt (dmaC (yn d) (yrS i)) () N) : CellTallies nD τ sig Unit)) c : sProp 𝕄) = _
  rw [Pipeline.launchCred_add
      (fun d : Dev nD => (tallyAt (barC (xn d)) () 1 + tallyAt (barC (yn d)) () 1 + (∑ i : Fin 64, tallyAt (dmaC (xn d) (xrS i)) () N) : CellTallies nD τ sig Unit))
      (fun d : Dev nD => (∑ i : Fin 64, tallyAt (dmaC (yn d) (yrS i)) () N : CellTallies nD τ sig Unit)) c,
    Pipeline.launchCred_add
      (fun d : Dev nD => (tallyAt (barC (xn d)) () 1 + tallyAt (barC (yn d)) () 1 : CellTallies nD τ sig Unit))
      (fun d : Dev nD => (∑ i : Fin 64, tallyAt (dmaC (xn d) (xrS i)) () N : CellTallies nD τ sig Unit)) c,
    Pipeline.launchCred_add
      (fun d : Dev nD => (tallyAt (barC (xn d)) () 1 : CellTallies nD τ sig Unit))
      (fun d : Dev nD => (tallyAt (barC (yn d)) () 1 : CellTallies nD τ sig Unit)) c,
    Pipeline.launchCred_sum Finset.univ (fun (i : Fin 64) (d : Dev nD) => (tallyAt (dmaC (xn d) (xrS i)) () N : CellTallies nD τ sig Unit)) c,
    Pipeline.launchCred_sum Finset.univ (fun (i : Fin 64) (d : Dev nD) => (tallyAt (dmaC (yn d) (yrS i)) () N : CellTallies nD τ sig Unit)) c]

/-- The barrier cell of `c` is owed one unit by its row neighbour and one by its column neighbour: each
    neighbour map is its own inverse, so each summand deals `c` one unit, two in all. -/
theorem barrier_credit (c : Dev nD) :
    iprop(Pipeline.launchCred (fun d : Dev nD => (tallyAt (barC (xn d)) () 1 : CellTallies nD τ sig Unit)) c
        ∗ Pipeline.launchCred (fun d : Dev nD => (tallyAt (barC (yn d)) () 1 : CellTallies nD τ sig Unit)) c : sProp 𝕄)
      ⊢ cred (tallyAt (barC c) () 2) := by
  refine (BIClass.sep_mono (Pipeline.launchCred_tallyAt (.reg barS) xn xn xn_xn xn_xn () 1 c)
    (Pipeline.launchCred_tallyAt (.reg barS) yn yn yn_yn yn_yn () 1 c)).trans ?_
  rw [← tallyAt_add (barC c) () 1 1]
  exact (cred_add _ _).2

/-- A receive cell of `c` is owed a chunk's units by the one device whose neighbour `c` is. -/
theorem recv_credit (f : Dev nD → Dev nD) (hf : ∀ d, f (f d) = d) (q : DmaSem sig) (c : Dev nD) :
    (Pipeline.launchCred (fun d : Dev nD => (tallyAt (dmaC (f d) q) () N : CellTallies nD τ sig Unit)) c : sProp 𝕄)
      ⊢ cred (tallyAt (dmaC c q) () N) :=
  Pipeline.launchCred_tallyAt (.dma q) f f hf hf () N c

/-- The credit dealt at launch for what the neighbours owe device `c`: two units on its barrier cell,
    a chunk's credit on each of its receive cells. -/
theorem creds_of_launch' (c : Dev nD) : (Pipeline.launchCred O₀ c : sProp 𝕄) ⊢ creds c := by
  rw [launchCred_split]
  unfold creds
  refine Laws.sep_assoc.1.trans ?_
  exact BIClass.sep_mono (barrier_credit c)
    (BIClass.sep_mono (bigSep_mono fun i _ => recv_credit xn xn_xn (xrS i) c) (bigSep_mono fun i _ => recv_credit yn yn_yn (yrS i) c))

end Cert.Kernel.AG

end
-- ==== Proof.Bits.Launch.lean ====
/- The launch: every cell's invariant is allocated for all four devices at once, each device is dealt
   its positions, the tokens of the duties it pays and the credit for what its neighbours owe it, and
   the launch theorem turns the four bodies' proofs into the run of the program.
   In order: families over the cells, device by device; the tokens of every duty of the schedule, indexed
   by the device that PAYS them; what the funding step deals each device; every cell's invariant
   allocated under one update, with the records, positions and tokens dealt to each device; the launch
   theorem's side conditions; the launch theorem applied, given each device's body. -/
import proofs.«900079_g7700000000000080_dist_ag_v7x_xy2x2_x_m16384_n1024_f32_1_alg».proof.Proof.Bits.Ghost
import proofs.«900079_g7700000000000080_dist_ag_v7x_xy2x2_x_m16384_n1024_f32_1_alg».proof.Proof.Bits.Credit
import proofs.«900079_g7700000000000080_dist_ag_v7x_xy2x2_x_m16384_n1024_f32_1_alg».proof.Proof.Gen.Kernel.Launch
import proofs.«900079_g7700000000000080_dist_ag_v7x_xy2x2_x_m16384_n1024_f32_1_alg».proof.Proof.Gen.Kernel.Frame

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Families over the cells -/

/-- A family over an optional index: the member at no index, and the members at the indices. -/
theorem bigSep_univ_option {M : Type} [URA M] {α : Type} [Fintype α] [DecidableEq α] (Φ : Option α → sProp M) :
    bigSep Finset.univ Φ = iprop(Φ none ∗ bigSep Finset.univ fun a => Φ (some a)) := by
  have h : (Finset.univ.erase (none : Option α)) = Finset.univ.map Function.Embedding.some := by
    ext o; cases o <;> simp
  rw [bigSep_univ_at Φ none, h, bigSep_map]; rfl

theorem bigSep_bool {M : Type} [URA M] (Φ : Bool → sProp M) : bigSep Finset.univ Φ = iprop(Φ false ∗ Φ true) :=
  bigSep_univ_eq_bigSepL [false, true] (by decide) (by decide) Φ

/-- A family over device `c`'s cells: its barrier cell's member and its DMA cells' members. -/
def cellsOf (c : Dev nD) (Φ : GSem nD τ sig → sProp 𝕄) : sProp 𝕄 :=
  iprop(Φ (barC c) ∗ bigSep Finset.univ fun q : DmaSem sig => Φ (dmaC c q))

/-- A family over all the cells is, device by device, the family over the device's cells. -/
theorem bigSep_allCells (Φ : GSem nD τ sig → sProp 𝕄) :
    bigSep allCells Φ = bigSep Finset.univ fun c : Dev nD => cellsOf c Φ := by
  unfold allCells; rw [bigSep_map, bigSep_univ_prod]
  exact bigSep_congr fun c _ => by rw [bigSep_univ_option]; rfl

theorem positions_eq (c : Dev nD) : (positions c : sProp 𝕄) = cellsOf c (fun g => atPos ER g 0 ∅ 0) := rfl

/-! ## The tokens, by the device that pays them -/

/-- The duties a device pays: the two barrier signals (`false`: to the row neighbour, `true`: to the column
    neighbour), the sixty-four landings on the row neighbour's receive cells, the sixty-four on the column
    neighbour's, its own sixty-four send cells of each phase, and its sixteen reads and sixteen writes. -/
abbrev TokIx : Type := Bool ⊕ Fin 64 ⊕ Fin 64 ⊕ Fin 64 ⊕ Fin 64 ⊕ Fin 16 ⊕ Fin 16

/-- The device whose cell the duty is on, for payer `c`. -/
def tokDev : TokIx → Dev nD → Dev nD
  | .inl false, c => xn c
  | .inl true, c => yn c
  | .inr (.inl _), c => xn c
  | .inr (.inr (.inl _)), c => yn c
  | .inr (.inr (.inr (.inl _))), c => c
  | .inr (.inr (.inr (.inr (.inl _)))), c => c
  | .inr (.inr (.inr (.inr (.inr (.inl _))))), c => c
  | .inr (.inr (.inr (.inr (.inr (.inr _))))), c => c

/-- The semaphore of the duty's cell. -/
def tokSem : TokIx → SemLoc sig
  | .inl _ => .reg barS
  | .inr (.inl i) => .dma (xrS i)
  | .inr (.inr (.inl i)) => .dma (yrS i)
  | .inr (.inr (.inr (.inl i))) => .dma (xsS i)
  | .inr (.inr (.inr (.inr (.inl i)))) => .dma (ysS i)
  | .inr (.inr (.inr (.inr (.inr (.inl k))))) => .dma (rdS (slotOf k))
  | .inr (.inr (.inr (.inr (.inr (.inr k))))) => .dma (wrS (slotOf k))

/-- Its round. -/
def tokRound : TokIx → ℕ
  | .inl _ => 0
  | .inr (.inl _) => 0
  | .inr (.inr (.inl _)) => 0
  | .inr (.inr (.inr (.inl _))) => 0
  | .inr (.inr (.inr (.inr (.inl _)))) => 0
  | .inr (.inr (.inr (.inr (.inr (.inl k))))) => roundOf k
  | .inr (.inr (.inr (.inr (.inr (.inr k))))) => roundOf k

/-- Its name in the round. -/
def tokDuty : TokIx → Bool
  | .inl b => b
  | .inr _ => false

/-- The token of duty `j` paid by device `c`. -/
def tokOf (cj : Dev nD × TokIx) : GSem nD τ sig × ℕ × Bool :=
  ((((tokDev cj.2 cj.1 : Dev nD) : Thread nD τ), tokSem cj.2), tokRound cj.2, tokDuty cj.2)

/-- A cell's semaphore as a number: the DMA semaphore's, or one above them all for the barrier. -/
def semNat : SemLoc sig → ℕ
  | .reg _ => 1000
  | .dma q => q.val

def tokKey (j : TokIx) : ℕ × ℕ × Bool := (semNat (tokSem j), tokRound j, tokDuty j)

/-- Semaphore, round and name tell the duties apart. -/
theorem tokKey_injective : Function.Injective tokKey := by
  intro j j' h
  have h1 : semNat (tokSem j) = semNat (tokSem j') := congrArg (fun x : ℕ × ℕ × Bool => x.1) h
  have h2 : tokRound j = tokRound j' := congrArg (fun x : ℕ × ℕ × Bool => x.2.1) h
  have h3 : tokDuty j = tokDuty j' := congrArg (fun x : ℕ × ℕ × Bool => x.2.2) h
  rcases j with b | i | i | i | i | i | i <;> rcases j' with b' | i' | i' | i' | i' | i' | i' <;>
    simp only [tokSem, tokRound, tokDuty, semNat, xrS_val, yrS_val, xsS_val, ysS_val, rdS_val, wrS_val, slotOf, roundOf] at h1 h2 h3 <;>
    first
      | (exfalso; omega)
      | rw [h3]
      | (have e : i = i' := Fin.ext (by omega); rw [e])

theorem tokDev_injective (j : TokIx) : Function.Injective (tokDev j) := by
  rcases j with (_ | _) | i | i | i | i | i | i <;> intro c c' h
  · exact xnE.injective h
  · exact ynE.injective h
  · exact xnE.injective h
  · exact ynE.injective h
  · exact h
  · exact h
  · exact h
  · exact h

theorem tokOf_injective : Function.Injective tokOf := by
  rintro ⟨c, j⟩ ⟨c', j'⟩ h
  have hj : j = j' := tokKey_injective
    (congrArg (fun x : GSem nD τ sig × ℕ × Bool => (semNat x.1.2, x.2.1, x.2.2)) h)
  subst hj
  have hc : c = c' := tokDev_injective j (congrArg (fun x : GSem nD τ sig × ℕ × Bool => x.1.1.1) h)
  subst hc; rfl

/-- Every duty's token. -/
def allToks : Finset (GSem nD τ sig × ℕ × Bool) := Finset.univ.map ⟨tokOf, tokOf_injective⟩

/-- The tokens, dealt: each device gets those of the duties it pays. -/
theorem toks_deal :
    (bigSep allToks fun x => (dutyTok ER x.1 x.2.1 x.2.2 : sProp 𝕄)) ⊢ bigSep Finset.univ fun c : Dev nD => payToks c := by
  unfold allToks; rw [bigSep_map, bigSep_univ_prod]
  refine bigSep_mono fun c _ => ?_
  rw [bigSep_univ_sum, bigSep_univ_sum, bigSep_univ_sum, bigSep_univ_sum, bigSep_univ_sum, bigSep_univ_sum, bigSep_bool]
  unfold payToks
  simp only [Function.Embedding.coeFn_mk, tokOf, tokDev, tokSem, tokRound, tokDuty]
  exact BI.sep_assoc

/-! ## What the funding step deals each device -/

/-- Device `c`'s share of the launch element: the round state of each of its cells at counter zero, that each
    is at its first round, its positions, and the tokens of the duties it pays. -/
def G (c : Dev nD) : sProp 𝕄 :=
  iprop(cellsOf c (fun g => roundState ER (sched m) g 0) ∗ cellsOf c (fun g => reached ER g 0) ∗ positions c ∗ payToks c)

/-- What the global step makes of it: every cell's invariant under some names, and the rest. -/
def G' (c : Dev nD) : sProp 𝕄 := iprop(∃ K, ghost m K c)

/-- The launch element: the pipeline library's (no staging cell) and the protocol's. -/
def u₀ : UU := (initOf (Pipeline.cells cfgs cellOf_inj) (Pipeline.launchToks cfgs cellOf_inj), initOf allCells allToks)

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (bigSep_allCells fun g => roundState ER (sched m) g 0)) $$ Hst
  ihave Hr' := (Entails.of_eq (bigSep_allCells (F := F) fun g => reached ER g 0)) $$ Hr
  ihave Hat' := (Entails.of_eq (bigSep_allCells (F := F) fun g => atPos ER g 0 ∅ 0)) $$ Hat
  ihave Htok' := (toks_deal (F := F)) $$ Htok
  unfold G; simp only [bigSep_sep']
  isplitl [Hst']; · iexact Hst'
  isplitl [Hr']; · iexact Hr'
  isplitl [Hat']; · iexact Hat'
  iexact Htok'

/-! ## The global step: every cell's invariant, for all devices at once -/

/-- The kernel's own semaphores: every DMA semaphore. -/
abbrev osem : DmaSem sig → SemLoc sig := fun q => .dma q

theorem ownSemFacts : Pipeline.OwnSemFacts cfg0.spec osem :=
  ⟨by decide, fun a b h => by cases h; rfl, fun k w s => w.elim0⟩

theorem ownSems0_eq (c : Dev nD) :
    (Pipeline.ownSems0 (Ix := Unit) (Name := ℕ) (U := UU) (Lvl := ℕ) (Val := Elt F) (τ := τ) osem c : sProp 𝕄)
      = bigSep Finset.univ fun q : DmaSem sig => semVal (dmaC c q) 0 := rfl

/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem ghost_intro (K : GSem nD τ sig → ℕ) (c : Dev nD) : iprop(records m K ∗ (positions c ∗ payToks c)) ⊢ G' m c := by
  unfold G' ghost
  iintro ⟨#HR, Hp, Ht⟩
  iexists K
  isplitr; · iexact HR
  isplitl [Hp] <;> iassumption

theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) := by
  have hcore (c : Dev nD) :
      iprop(Pipeline.ownSems0 (Ix := Unit) (Name := ℕ) (U := UU) (Lvl := ℕ) (Val := Elt F) (τ := τ) osem c ∗ unscopedSems0 c ∗ G m c)
        ⊢ iprop(cellsOf c (fun g => iprop(semVal g 0 ∗ roundState ER (sched m) g 0)) ∗ cellsOf c (fun g => reached ER g 0)
            ∗ positions c ∗ payToks c) := by
    rw [ownSems0_eq, unscopedSems0_eq]; unfold G cellsOf
    rw [bigSep_sep']
    iintro ⟨Hq, Hb, ⟨Hsb, Hsq⟩, Hr, Hp, Ht⟩
    isplitl [Hq Hb Hsb Hsq]
    · isplitl [Hb Hsb]
      · isplitl [Hb] <;> iassumption
      · isplitl [Hq] <;> iassumption
    isplitl [Hr]; · iexact Hr
    isplitl [Hp] <;> iassumption
  have hsplit : (bigSep Finset.univ fun c : Dev nD => iprop(cellsOf c (fun g => iprop(semVal g 0 ∗ roundState ER (sched m) g 0))
        ∗ cellsOf c (fun g => reached ER g 0) ∗ positions c ∗ payToks c) : sProp 𝕄)
      = iprop((bigSep allCells fun g => iprop(semVal g 0 ∗ roundState ER (sched m) g 0)) ∗ (bigSep allCells fun g => reached ER g 0)
          ∗ (bigSep Finset.univ fun c : Dev nD => positions c) ∗ bigSep Finset.univ fun c : Dev nD => payToks c) := by
    rw [bigSep_sep', bigSep_sep', bigSep_sep',
      ← bigSep_allCells (fun g => iprop(semVal g 0 ∗ roundState ER (sched m) g 0)),
      ← bigSep_allCells (F := F) (fun g => reached ER g 0)]
  refine (bigSep_mono fun c _ => hcore c).trans ((Entails.of_eq hsplit).trans ?_)
  show iprop((bigSep allCells fun g => iprop(semVal g 0 ∗ roundState ER (sched m) g 0)) ∗ (bigSep allCells fun g => reached ER g 0)
          ∗ (bigSep Finset.univ fun c : Dev nD => positions c) ∗ bigSep Finset.univ fun c : Dev nD => payToks c)
      ⊢ (|={Set.univ}=> bigSep Finset.univ (G' m) : sProp 𝕄)
  iintro ⟨Hcells, #Hr, Hpos, Htok⟩
  imod (show (bigSep allCells fun g => iprop(semVal g 0 ∗ roundState ER (sched m) g 0))
      ⊢ (|={Set.univ}=> bigSep allCells fun g => iprop(∃ κ : ℕ, cellInv ER (sched m) κ g) : sProp 𝕄) from
        (bigSep_mono fun g _ => (Rounds.body_intro ER (sched m) g).trans inv_alloc).trans (bigSep_fupd _ _)) $$ Hcells with HI
  ihave HK := (BI.bigSep_exists_pi allCells (fun (g : GSem nD τ sig) (κ : ℕ) => (cellInv ER (sched m) κ g : sProp 𝕄))) $$ HI
  icases HK with ⟨%K, #HI⟩
  imodintro
  iapply (bigSep_with_persistent (R := records m K) fun c _ => ghost_intro m K c)
  isplitr
  · unfold records; isplitl; · iexact HI
    iexact Hr
  · iapply (Entails.of_eq (bigSep_sep' Finset.univ (fun c : Dev nD => (positions c : sProp 𝕄)) payToks).symm)
    isplitl [Hpos] <;> iassumption

/-! ## The launch theorem's side conditions -/

theorem L_of_ne (g : GSem nD τ sig) (h : g.1.2 ≠ .tc) : L g = ∅ := if_neg h

/-- What the launch hands a device becomes what its body starts from, the staging buffer apart. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_of_launch' (F := F) c) $$ Hcr
  imodintro
  unfold start G' X
  isplitl
  · isplitl [HG]; · iexact HG
    isplitl [Hc]; · iexact Hc
    isplitl [Hlev]; · iexact Hlev
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- What a device keeps for the final read: its result at the expected contents and a share of its block. -/
def Yf (c : Dev nD) : sProp 𝕄 :=
  iprop((((c : Thread nD τ).loc main_v1) ↦{fullShare} Gout m c)
    ∗ ∃ q : PosShare TreeShare, ((c : Thread nD τ).loc main_arg0) ↦{q} X m c)

theorem phi1_exit (c : Dev nD) :
    (dats m 0 c).Φ (Fin.last cfg0.N) ⊢ iprop(Yf m c ∗ Pipeline.ownSems0 osem c ∗ Pipeline.scopedRest cfg0.spec c) := by
  rw [show (dats m 0 c).Φ (Fin.last cfg0.N) = Φ₁ m c from rfl, scopedRest0_eq, ownSems0_eq]
  unfold Φ₁ Yf
  iintro ⟨Hv, Hx, Hs, Hq⟩
  isplitl [Hv Hx]
  · isplitl [Hv] <;> iassumption
  isplitl [Hq] <;> iassumption

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 100000 in
/-- From any memory with zero counters, given each device's body from `Φ₀` to `Φ₁`: every weakly fair
    execution terminates, every device's result ends at the expected contents and its block unchanged. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c : Thread nD τ).loc main_v1) = Gout m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := Yf m) (Z := fun _ => iprop(emp))
    (hX := start_intro m ρ) (hin := phi0_intro m) (hout := phi1_exit m)
    (QY := fun c s => s.mem ((c : Thread nD τ).loc main_v1) = Gout m c ∧ s.mem ((c : Thread nD τ).loc main_arg0) = X m c)
    (hY := fun c s' => by
      unfold Yf
      iintro ⟨⟨Hv, %q, Hx⟩, -, HSI⟩
      icombine HSI Hv gives %hv
      icombine HSI Hx gives %hx
      imodintro
      isplitr; · ipureintro; exact ⟨Buf.eq_of_forall_mem_univ hv, Buf.eq_of_forall_mem_univ hx⟩
      iexact HSI)
    (hQ := fun _ h c => (h c).2.2)

/-- info: 'Cert.Kernel.AG.run_main' depends on axioms: [propext, Classical.choice, Quot.sound] -/
#guard_msgs in #print axioms run_main

end Cert.Kernel.AG

end
-- ==== Proof.Bits.Tables.lean ====
/- The schedule's tables, cell by cell: the duties, amounts and payloads of each kind of cell. -/
import proofs.«900079_g7700000000000080_dist_ag_v7x_xy2x2_x_m16384_n1024_f32_1_alg».proof.Proof.Bits.Ghost

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem duties_bar (c : Dev nD) : (sched (F := F) m).duties (barC c) 0 = Finset.univ := by
  show (if (0 : ℕ) = 0 then (Finset.univ : Finset Bool) else ∅) = Finset.univ
  exact if_pos rfl
theorem duties_small (c : Dev nD) (q : DmaSem sig) (r : ℕ) (hq : q.val < 8) (hr : r < 4) : (sched (F := F) m).duties (dmaC c q) r = {false} := by
  show (if q.val < 8 then (if r < 4 then ({false} : Finset Bool) else ∅) else (if r = 0 then {false} else ∅)) = {false}
  rw [if_pos hq, if_pos hr]
theorem duties_big (c : Dev nD) (q : DmaSem sig) (hq : 8 ≤ q.val) : (sched (F := F) m).duties (dmaC c q) 0 = {false} := by
  show (if q.val < 8 then (if (0 : ℕ) < 4 then ({false} : Finset Bool) else ∅) else (if (0 : ℕ) = 0 then {false} else ∅)) = {false}
  rw [if_neg (by omega), if_pos rfl]
theorem duties_later_small (c : Dev nD) (q : DmaSem sig) (hq : q.val < 8) : ∀ r, 4 ≤ r → (sched (F := F) m).duties (dmaC c q) r = ∅ := by
  intro r hr
  show (if q.val < 8 then (if r < 4 then ({false} : Finset Bool) else ∅) else (if r = 0 then {false} else ∅)) = ∅
  rw [if_pos hq, if_neg (by omega)]
theorem duties_later_big (c : Dev nD) (q : DmaSem sig) (hq : 8 ≤ q.val) : ∀ r, 1 ≤ r → (sched (F := F) m).duties (dmaC c q) r = ∅ := by
  intro r hr
  show (if q.val < 8 then (if r < 4 then ({false} : Finset Bool) else ∅) else (if r = 0 then {false} else ∅)) = ∅
  rw [if_neg (by omega), if_neg (by omega)]

theorem amount_bar (c : Dev nD) (r : ℕ) (d : Bool) : (sched (F := F) m).amount (barC c) r d = 1 := rfl
theorem amount_small (c : Dev nD) (q : DmaSem sig) (r : ℕ) (d : Bool) (hq : q.val < 8) : (sched (F := F) m).amount (dmaC c q) r d = NL := by
  show (if q.val < 8 then NL else N) = NL
  exact if_pos hq
theorem amount_big (c : Dev nD) (q : DmaSem sig) (r : ℕ) (d : Bool) (hq : 8 ≤ q.val) : (sched (F := F) m).amount (dmaC c q) r d = N := by
  show (if q.val < 8 then NL else N) = N
  exact if_neg (by omega)

theorem expect_bar (c : Dev nD) : (sched (F := F) m).expect (barC c) 0 = 2 := by
  unfold Schedule.expect Schedule.amountOf
  rw [duties_bar, Finset.sum_congr rfl fun d _ => amount_bar m c 0 d, Finset.sum_const, Finset.card_univ, Fintype.card_bool, smul_eq_mul]
theorem expect_small (c : Dev nD) (q : DmaSem sig) (r : ℕ) (hq : q.val < 8) (hr : r < 4) : (sched (F := F) m).expect (dmaC c q) r = NL := by
  unfold Schedule.expect Schedule.amountOf
  rw [duties_small m c q r hq hr, Finset.sum_singleton, amount_small m c q r false hq]
theorem expect_big (c : Dev nD) (q : DmaSem sig) (hq : 8 ≤ q.val) : (sched (F := F) m).expect (dmaC c q) 0 = N := by
  unfold Schedule.expect Schedule.amountOf
  rw [duties_big m c q hq, Finset.sum_singleton, amount_big m c q 0 false hq]

/-- Slot `k % 4` at round `k / 4` carries chunk `k`. -/
theorem chunkOf_slot (k : Fin 16) : chunkOf (slotOf k).val (roundOf k) = k := by
  apply Fin.ext
  show (k.val % 4 + 4 * (k.val / 4)) % 16 = k.val
  have := k.isLt
  omega

theorem payload_bar_false (c : Dev nD) : (sched (F := F) m).payload (barC c) 0 false = barPayX c := by
  show (if false = true then barPayY (F := F) c else barPayX c) = barPayX c
  exact if_neg Bool.false_ne_true
theorem payload_bar_true (c : Dev nD) : (sched (F := F) m).payload (barC c) 0 true = barPayY c := by
  show (if true = true then barPayY (F := F) c else barPayX c) = barPayY c
  exact if_pos rfl
theorem payload_rd (c : Dev nD) (k : Fin 16) : (sched (F := F) m).payload (dmaC c (rdS (slotOf k))) (roundOf k) false = rdPay m c k := by
  show dmaPay m c (rdS (slotOf k)).val (roundOf k) = rdPay m c k
  rw [rdS_val]; unfold dmaPay
  rw [if_pos (slotOf k).isLt, chunkOf_slot]
theorem payload_wr (c : Dev nD) (k : Fin 16) : (sched (F := F) m).payload (dmaC c (wrS (slotOf k))) (roundOf k) false = wrPay m c k := by
  show dmaPay m c (wrS (slotOf k)).val (roundOf k) = wrPay m c k
  rw [wrS_val]; unfold dmaPay
  have hb := (slotOf k).isLt
  rw [if_neg (by omega), if_pos (by omega), Nat.add_sub_cancel_left, chunkOf_slot]
theorem payload_xs (c : Dev nD) (i : Fin 64) : (sched (F := F) m).payload (dmaC c (xsS i)) 0 false = iprop(emp) := by
  show dmaPay m c (xsS i).val 0 = iprop(emp)
  rw [xsS_val]; unfold dmaPay
  have hi := i.isLt
  rw [if_neg (by omega), if_neg (by omega), if_pos (by omega)]
theorem payload_xr (c : Dev nD) (i : Fin 64) : (sched (F := F) m).payload (dmaC c (xrS i)) 0 false = xrPay m c i := by
  show dmaPay m c (xrS i).val 0 = xrPay m c i
  rw [xrS_val]; unfold dmaPay
  have hi := i.isLt
  rw [if_neg (by omega), if_neg (by omega), if_neg (by omega), dif_pos (by omega)]
  congr 1
  exact Fin.ext (Nat.add_sub_cancel_left ..)
theorem payload_ys (c : Dev nD) (i : Fin 64) : (sched (F := F) m).payload (dmaC c (ysS i)) 0 false = xrPay m c i := by
  show dmaPay m c (ysS i).val 0 = xrPay m c i
  rw [ysS_val]; unfold dmaPay
  have hi := i.isLt
  rw [if_neg (by omega), if_neg (by omega), if_neg (by omega), dif_neg (by omega), dif_pos (by omega)]
  congr 1
  exact Fin.ext (Nat.add_sub_cancel_left ..)
theorem payload_yr (c : Dev nD) (i : Fin 64) : (sched (F := F) m).payload (dmaC c (yrS i)) 0 false = yrPay m c i := by
  show dmaPay m c (yrS i).val 0 = yrPay m c i
  rw [yrS_val]; unfold dmaPay
  have hi := i.isLt
  rw [if_neg (by omega), if_neg (by omega), if_neg (by omega), dif_neg (by omega), dif_neg (by omega), dif_pos (by omega)]
  congr 1
  exact Fin.ext (Nat.add_sub_cancel_left ..)

end Cert.Kernel.AG

end
-- ==== Proof.Bits.Landing.lean ====
/- What each copy leaves where it lands: on the destination slice's own elements, the destination
   rewritten with the source slice's values is the expected contents — whatever the destination held.

   Every slice here is a block of consecutive rows of a whole array (or one staging slot with its unit
   axis dropped), so the element a slice's index names is the slice's offset plus that index. With the
   offsets in closed form, each claim is an equation between two rows of one device's block. -/
import proofs.«900079_g7700000000000080_dist_ag_v7x_xy2x2_x_m16384_n1024_f32_1_alg».proof.Proof.Bits.Contents
import Idealize.ShloMosaic.Lib.Pipeline.Value

noncomputable section

namespace Cert.Kernel.AG

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-! ## Blocks and expected contents at an index -/

/-- A block read at equal devices and equal indices. -/
theorem X_congr (d d' : Dev nD) (h : d = d') (a a' : S16384x1024.Idx) (ha : a = a') : X m d a = X m d' a' := by
  subst h; subst ha; rfl

/-- A rank-2 index is its two coordinates. -/
theorem idx2_ext {d : Fin 2 → Nat} (a b : (⟨2, d⟩ : Shape).Idx) (h0 : (a 0).val = (b 0).val) (h1 : (a 1).val = (b 1).val) : a = b := by
  funext x; apply Fin.ext
  rcases x with ⟨_ | _ | n, hx⟩
  · exact h0
  · exact h1
  · exact absurd hx (by simp)

/-- The expected result at an index, from where its row comes from. -/
theorem Gout_eq (c d : Dev nD) (idx : S32768x1024.Idx) (a : S16384x1024.Idx)
    (hd : srcDev c (idx 0).val = d) (h0 : (a 0).val = (idx 0).val % 16384) (h1 : (a 1).val = (idx 1).val) :
    Gout m c idx = X m d a := by
  unfold Gout
  exact X_congr m _ _ hd _ _ (idx2_ext _ _ h0.symm h1.symm)

/-! ## Where a slice's elements sit -/

/-- An element of a unit-stride slice of the result sits at the slice's offset plus its own index. -/
theorem oM_emb (off size : Fin 2 → Nat) (inb : ∀ a, off a + size a ≤ S32768x1024.size a)
    (y : (Rect.unit (s := S32768x1024) off size inb).shape.Idx) (idx : S32768x1024.Idx)
    (h : (oM.slice (Rect.unit (s := S32768x1024) off size inb) (fun _ => rfl)).view.emb y = idx) (a : Fin 2) :
    (idx a).val = off a + (y a).val := by
  subst h; show off a + 1 * (y a).val = _; omega

/-- The same for the device's block. -/
theorem xM_emb (off size : Fin 2 → Nat) (inb : ∀ a, off a + size a ≤ S16384x1024.size a)
    (y : (Rect.unit (s := S16384x1024) off size inb).shape.Idx) (idx : S16384x1024.Idx)
    (h : (xM.slice (Rect.unit (s := S16384x1024) off size inb) (fun _ => rfl)).view.emb y = idx) (a : Fin 2) :
    (idx a).val = off a + (y a).val := by
  subst h; show off a + 1 * (y a).val = _; omega

/-- Row and column of an element of the rows a device sends into, on its row neighbour. -/
theorem xdst_emb0 (s : Dev nD) (i : Fin 64) (y : S128x1024.Idx) (idx : S32768x1024.Idx) (h : (xdst oM s i).view.emb y = idx) :
    (idx 0).val = 16384 * (s.val / 2) + 8192 * (s.val % 2) + 128 * i.val + (y 0).val := by
  exact (oM_emb _ _ _ y idx h 0).trans (congrArg (· + (y 0).val) (congrFun (Gen.k0_off1_eq s i) 0))

theorem xdst_emb1 (s : Dev nD) (i : Fin 64) (y : S128x1024.Idx) (idx : S32768x1024.Idx) (h : (xdst oM s i).view.emb y = idx) :
    (idx 1).val = (y 1).val := by
  exact ((oM_emb _ _ _ y idx h 1).trans (congrArg (· + (y 1).val) (congrFun (Gen.k0_off1_eq s i) 1))).trans (Nat.zero_add _)

/-- Row and column of an element of the rows a device sends from. -/
theorem xsrc_emb0 (s : Dev nD) (i : Fin 64) (y : S128x1024.Idx) (idx : S16384x1024.Idx) (h : (xsrc xM s i).view.emb y = idx) :
    (idx 0).val = 8192 * (s.val % 2) + 128 * i.val + (y 0).val := by
  exact (xM_emb _ _ _ y idx h 0).trans (congrArg (· + (y 0).val) (congrFun (Gen.k0_off2_eq s i) 0))

theorem xsrc_emb1 (s : Dev nD) (i : Fin 64) (y : S128x1024.Idx) (idx : S16384x1024.Idx) (h : (xsrc xM s i).view.emb y = idx) :
    (idx 1).val = (y 1).val := by
  exact ((xM_emb _ _ _ y idx h 1).trans (congrArg (· + (y 1).val) (congrFun (Gen.k0_off2_eq s i) 1))).trans (Nat.zero_add _)

/-! ## The four landings -/

/-- The row neighbour's chunk `i`, sent by `s`, lands on `xn s` as the expected contents there: row
    `16384 · row s + 8192 · col s + 128 i + p` lies in the half that is not `xn s`'s own and in `xn s`'s
    column, so it is expected from `xn (xn s) = s`, at row `8192 · col s + 128 i + p` of its block. -/
theorem land_x (s : Dev nD) (i : Fin 64) (fd : Buf (Elt F) ((xdst oM s i).view.loc (xn s : Thread nD τ))) :
    ∀ idx ∈ (xdst oM s i).view.set,
      (xdst oM s i).view.write (Elt F) fd ((xsrc xM s i).view.read (Elt F) (X m s)) Finset.univ idx = Gout m (xn s) idx := by
  intro idx hidx
  obtain ⟨y, rfl⟩ := View.exists_emb_of_mem_set _ hidx
  rw [View.write_emb_of_mem _ _ (Finset.mem_univ y)]
  have hs : s.val < 4 := s.isLt
  have hi := i.isLt
  have hy0 : (y 0).val < 128 := (y 0).isLt
  have d0 := xdst_emb0 s i y _ rfl
  have d1 := xdst_emb1 s i y _ rfl
  have s0 := xsrc_emb0 s i y _ rfl
  have s1 := xsrc_emb1 s i y _ rfl
  have hr := xn_row s
  have hc := xn_col s
  show X m s ((xsrc xM s i).view.emb y) = Gout m (xn s) ((xdst oM s i).view.emb y)
  refine (Gout_eq m (xn s) s _ _ ?_ ?_ ?_).symm
  · unfold srcDev
    rw [if_neg (by omega), if_pos (by omega), xn_xn]
  · omega
  · omega

/-- Row and column of an element of the rows a device forwards. -/
theorem ypc_emb0 (c : Dev nD) (i : Fin 64) (y : S128x1024.Idx) (idx : S32768x1024.Idx) (h : (ypc oM c i).view.emb y = idx) :
    (idx 0).val = (8192 * (c.val % 2) + 128 * i.val + 16384) - 16384 * (c.val / 2) + (y 0).val :=
  (oM_emb _ _ _ y idx h 0).trans (congrArg (· + (y 0).val) (congrFun (Gen.k0_off3_eq c i) 0))

theorem ypc_emb1 (c : Dev nD) (i : Fin 64) (y : S128x1024.Idx) (idx : S32768x1024.Idx) (h : (ypc oM c i).view.emb y = idx) :
    (idx 1).val = (y 1).val :=
  ((oM_emb _ _ _ y idx h 1).trans (congrArg (· + (y 1).val) (congrFun (Gen.k0_off3_eq c i) 1))).trans (Nat.zero_add _)

/-- Row and column of an element of the rows chunk `k` of the device's own block goes to. -/
theorem ldst_emb0 (c : Dev nD) (k : Fin 16) (y : S1024x1024.Idx) (idx : S32768x1024.Idx) (h : (ldst oM c k).view.emb y = idx) :
    (idx 0).val = 16384 * (c.val / 2) + 1024 * k.val + (y 0).val :=
  (oM_emb _ _ _ y idx h 0).trans (congrArg (· + (y 0).val) (congrFun (Gen.k0_off4_eq c k) 0))

theorem ldst_emb1 (c : Dev nD) (k : Fin 16) (y : S1024x1024.Idx) (idx : S32768x1024.Idx) (h : (ldst oM c k).view.emb y = idx) :
    (idx 1).val = (y 1).val :=
  ((oM_emb _ _ _ y idx h 1).trans (congrArg (· + (y 1).val) (congrFun (Gen.k0_off4_eq c k) 1))).trans (Nat.zero_add _)

/-- Row and column of an element of chunk `k` of the device's block. -/
theorem lsrc_emb0 (k : Fin 16) (y : S1024x1024.Idx) (idx : S16384x1024.Idx) (h : (lsrc xM k).view.emb y = idx) :
    (idx 0).val = 1024 * k.val + (y 0).val :=
  xM_emb _ _ _ y idx h 0

theorem lsrc_emb1 (k : Fin 16) (y : S1024x1024.Idx) (idx : S16384x1024.Idx) (h : (lsrc xM k).view.emb y = idx) :
    (idx 1).val = (y 1).val :=
  (xM_emb _ _ _ y idx h 1).trans (Nat.zero_add _)

/-- A staging slot is the staging buffer's rows at one leading coordinate, the unit axis dropped: its
    index `(p, j)` names the buffer's `(b, p, j)`. -/
theorem slot_emb (b : Fin 4) (y : S1024x1024.Idx) (idx : S4x1024x1024.Idx) (h : (slot sM b).view.emb y = idx) (a : Fin 3) :
    (idx a).val = (![b.val, 0, 0] : Fin 3 → Nat) a
      + ((Fin.cons (⟨0, Nat.one_pos⟩ : Fin 1) y : (a : Fin 3) → Fin ((Matrix.vecCons 1 ![1024, 1024] : Fin 3 → Nat) a)) a).val := by
  subst h
  have e := Shape.reshapeEquiv_cons_one (n := 2) (d := ![1024, 1024]) squeezes_S1x1024x1024_S1024x1024.numel_eq y
  show (![b.val, 0, 0] : Fin 3 → Nat) a + 1 * ((Shape.reshapeEquiv squeezes_S1x1024x1024_S1024x1024.numel_eq y) a).val = _
  rw [e, Nat.one_mul]; rfl

theorem slot_emb0 (b : Fin 4) (y : S1024x1024.Idx) (idx : S4x1024x1024.Idx) (h : (slot sM b).view.emb y = idx) :
    (idx 0).val = b.val := (slot_emb b y idx h 0).trans (Nat.add_zero _)
theorem slot_emb1 (b : Fin 4) (y : S1024x1024.Idx) (idx : S4x1024x1024.Idx) (h : (slot sM b).view.emb y = idx) :
    (idx 1).val = (y 0).val := (slot_emb b y idx h 1).trans (Nat.zero_add _)
theorem slot_emb2 (b : Fin 4) (y : S1024x1024.Idx) (idx : S4x1024x1024.Idx) (h : (slot sM b).view.emb y = idx) :
    (idx 2).val = (y 1).val := (slot_emb b y idx h 2).trans (Nat.zero_add _)

/-- A row of the other half of the result, in the device's own column: on the device it comes from the row
    neighbour, and on the column neighbour it comes from that same device. -/
theorem srcDev_fwd (c : Dev nD) (R : Nat) (h1 : R / 16384 = 1 - c.val / 2) (h2 : (R % 16384) / 8192 = c.val % 2) :
    srcDev c R = srcDev (yn c) R := by
  have hc : c.val < 4 := c.isLt
  have hr := yn_row c
  have hl := yn_col c
  unfold srcDev
  rw [if_neg (by omega), if_pos (by omega), if_neg (by omega), if_neg (by omega), yn_yn]

/-- The expected results of two devices agree at an index whose row both expect from one device. -/
theorem Gout_congr (c c' : Dev nD) (idx : S32768x1024.Idx) (h : srcDev c (idx 0).val = srcDev c' (idx 0).val) :
    Gout m c idx = Gout m c' idx := by
  unfold Gout; exact X_congr m _ _ h _ _ rfl

/-- The staging buffer's expected contents at an index, as an element of the device's block. -/
theorem Sat_eq (c : Dev nD) (k : Fin 16) (idx : S4x1024x1024.Idx) (a : S16384x1024.Idx)
    (h0 : (a 0).val = 1024 * k.val + (idx 1).val) (h1 : (a 1).val = (idx 2).val) : Sat m c k idx = X m c a := by
  unfold Sat; exact X_congr m _ _ rfl _ _ (idx2_ext _ _ h0.symm h1.symm)

/-- The chunk `c` forwards lands on `yn c` as the expected contents there: both devices expect those rows
    from `xn c`. -/
theorem land_y (c : Dev nD) (i : Fin 64) (fd : Buf (Elt F) ((ypc oM c i).view.loc (yn c : Thread nD τ))) :
    ∀ idx ∈ (ypc oM c i).view.set,
      (ypc oM c i).view.write (Elt F) fd ((ypc oM c i).view.read (Elt F) (Gout m c)) Finset.univ idx = Gout m (yn c) idx := by
  intro idx hidx
  obtain ⟨y, rfl⟩ := View.exists_emb_of_mem_set _ hidx
  rw [View.write_emb_of_mem _ _ (Finset.mem_univ y)]
  have hc : c.val < 4 := c.isLt
  have hi := i.isLt
  have hy0 : (y 0).val < 128 := (y 0).isLt
  have d0 := ypc_emb0 c i y _ rfl
  show Gout m c ((ypc oM c i).view.emb y) = Gout m (yn c) ((ypc oM c i).view.emb y)
  refine Gout_congr m c (yn c) _ (srcDev_fwd c _ ?_ ?_) <;> omega

/-- Chunk `k` of the device's block, read into its slot. -/
theorem land_rd (c : Dev nD) (k : Fin 16) (fd : Buf (Elt F) ((slot sM (slotOf k)).view.loc (c : Thread nD τ))) :
    ∀ idx ∈ (slot sM (slotOf k)).view.set,
      (slot sM (slotOf k)).view.write (Elt F) fd ((lsrc xM k).view.read (Elt F) (X m c)) Finset.univ idx = Sat m c k idx := by
  intro idx hidx
  obtain ⟨y, rfl⟩ := View.exists_emb_of_mem_set _ hidx
  rw [View.write_emb_of_mem _ _ (Finset.mem_univ y)]
  show X m c ((lsrc xM k).view.emb y) = Sat m c k ((slot sM (slotOf k)).view.emb y)
  refine (Sat_eq m c k _ _ ?_ ?_).symm
  · exact (lsrc_emb0 k y _ rfl).trans (congrArg (1024 * k.val + ·) (slot_emb1 _ y _ rfl).symm)
  · exact (lsrc_emb1 k y _ rfl).trans (slot_emb2 _ y _ rfl).symm

/-- The slot's chunk `k`, written to its rows of the result: rows of the device's own half, expected
    from the device itself. -/
theorem land_wr (c : Dev nD) (k : Fin 16) (fd : Buf (Elt F) ((ldst oM c k).view.loc (c : Thread nD τ))) :
    ∀ idx ∈ (ldst oM c k).view.set,
      (ldst oM c k).view.write (Elt F) fd ((slot sM (slotOf k)).view.read (Elt F) (Sat m c k)) Finset.univ idx = Gout m c idx := by
  intro idx hidx
  obtain ⟨y, rfl⟩ := View.exists_emb_of_mem_set _ hidx
  rw [View.write_emb_of_mem _ _ (Finset.mem_univ y)]
  have hc : c.val < 4 := c.isLt
  have hk := k.isLt
  have hy0 : (y 0).val < 1024 := (y 0).isLt
  have d0 := ldst_emb0 c k y _ rfl
  show Sat m c k ((slot sM (slotOf k)).view.emb y) = Gout m c ((ldst oM c k).view.emb y)
  refine (Sat_eq m c k _ (blkIdx (1024 * k.val + (y 0).val) (by omega) (y 1)) ?_ ?_).trans
    (Gout_eq m c c _ (blkIdx (1024 * k.val + (y 0).val) (by omega) (y 1)) ?_ ?_ ?_).symm
  · exact congrArg (1024 * k.val + ·) (slot_emb1 _ y _ rfl).symm
  · exact (slot_emb2 _ y _ rfl).symm
  · unfold srcDev; rw [if_pos (by omega)]
  · show 1024 * k.val + (y 0).val = _; omega
  · exact (ldst_emb1 c k y _ rfl).symm

/-- Slices of one array at equal offsets are one slice. -/
theorem slice_congr_off {sp : Space} {S : Shape} {e : EltTy} (arg : Memref sig .tc sp S e) (off off' size : Fin S.rank → Nat)
    (h : off = off') (p : ∀ a, off a + size a ≤ S.size a) (p' : ∀ a, off' a + size a ≤ S.size a) :
    arg.slice (Rect.unit off size p) (fun _ => rfl) = arg.slice (Rect.unit off' size p') (fun _ => rfl) := by
  subst h; rfl

/-- The rows the row neighbour's copy `i` writes on `xn s` are the rows `xn s` forwards as its chunk `i`. -/
theorem xdst_eq (s : Dev nD) (i : Fin 64) : xdst oM s i = ypc oM (xn s) i := by
  have hAB : 16384 * (s.val / 2) + 8192 * (s.val % 2) + 128 * i.val
      = (8192 * ((xn s).val % 2) + 128 * i.val + 16384) - 16384 * ((xn s).val / 2) := by
    have := xn_row s; have := xn_col s; have : s.val < 4 := s.isLt; omega
  exact slice_congr_off oM _ _ _
    ((Gen.k0_off1_eq s i).trans ((congrArg (fun t : Nat => (![t, 0] : Fin 2 → Nat)) hAB).trans (Gen.k0_off3_eq (xn s) i).symm)) _ _

/-- info: 'Cert.Kernel.AG.land_x' depends on axioms: [propext, Classical.choice, Quot.sound] -/
#guard_msgs in #print axioms land_x
/-- info: 'Cert.Kernel.AG.land_y' depends on axioms: [propext, Classical.choice, Quot.sound] -/
#guard_msgs in #print axioms land_y
/-- info: 'Cert.Kernel.AG.land_rd' depends on axioms: [propext, Classical.choice, Quot.sound] -/
#guard_msgs in #print axioms land_rd
/-- info: 'Cert.Kernel.AG.land_wr' depends on axioms: [propext, Classical.choice, Quot.sound] -/
#guard_msgs in #print axioms land_wr
/-- info: 'Cert.Kernel.AG.xdst_eq' depends on axioms: [propext, Classical.choice, Quot.sound] -/
#guard_msgs in #print axioms xdst_eq

end Cert.Kernel.AG
end
-- ==== Proof.Bits.Steps.lean ====
/- One rule per kind of operation of the body, at a symbolic device and chunk: what the operation
   takes from the device's hands and what it gives back. -/
import proofs.«900079_g7700000000000080_dist_ag_v7x_xy2x2_x_m16384_n1024_f32_1_alg».proof.Proof.Bits.Tables
import proofs.«900079_g7700000000000080_dist_ag_v7x_xy2x2_x_m16384_n1024_f32_1_alg».proof.Proof.Bits.Landing

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The levels' word -/

/-- A device may wait on a cell of its own below everything it still owes. -/
theorem mayWait_lv (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O := by
  refine Pipeline.mayWait_of_levAts (L := L) (lev := lv)
    (by unfold L; rw [if_pos rfl]; exact Finset.mem_singleton_self _) (fun g u hg => ⟨?_, (h g u hg).2⟩)
  unfold L; rw [if_pos (h g u hg).1]; exact Finset.mem_singleton_self _

/-! ## The barrier -/

/-- The signal to the row neighbour hands it the chunks of `c`'s result it will write. -/
theorem step_signal_x (c : Dev nD) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (barC (xn c)) ∗ owes (c : Thread nD τ) (O + tallyAt (barC (xn c)) () 1) W
        ∗ dutyTok ER (barC (xn c)) 0 false ∗ barPayX (F := F) (xn c) ∗ reached ER (barC (xn c)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (semSignalWord (xn c) barS 1#32 Gen.hamt_1 >>= kont) Q) := by
  simp only [semSignalWord, Prog.bind_op, Prog.bind_ret]
  rw [← payload_bar_false m (xn c)]
  exact Rounds.wp_signal 𝒱₀ ER (sched m) (c : Thread nD τ) none (dst := (xn c : Thread nD τ)) (κ := κ) (r := 0) (d := false)
    (by rw [duties_bar]; exact Finset.mem_univ _) ((amount_bar m (xn c) 0 false).trans (by decide)) () O rfl

/-- The signal to the column neighbour hands it the chunks of `c`'s result it will forward into. -/
theorem step_signal_y (c : Dev nD) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (barC (yn c)) ∗ owes (c : Thread nD τ) (O + tallyAt (barC (yn c)) () 1) W
        ∗ dutyTok ER (barC (yn c)) 0 true ∗ barPayY (F := F) (yn c) ∗ reached ER (barC (yn c)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (semSignalWord (yn c) barS 1#32 Gen.hamt_1 >>= kont) Q) := by
  simp only [semSignalWord, Prog.bind_op, Prog.bind_ret]
  rw [← payload_bar_true m (yn c)]
  exact Rounds.wp_signal 𝒱₀ ER (sched m) (c : Thread nD τ) none (dst := (yn c : Thread nD τ)) (κ := κ) (r := 0) (d := true)
    (by rw [duties_bar]; exact Finset.mem_univ _) ((amount_bar m (yn c) 0 true).trans (by decide)) () O rfl

/-- The rest of the barrier cell's round, no duty taken: both neighbours' chunks. -/
theorem rest_bar (c : Dev nD) :
    bigSep ((sched (F := F) m).duties (barC c) 0 \ ∅) (fun d => (sched (F := F) m).payload (barC c) 0 d) = iprop(barPayX (F := F) c ∗ barPayY (F := F) c) := by
  rw [Finset.sdiff_empty, duties_bar, bigSep_univ_eq_bigSepL [false, true] (by decide) (by decide), bigSepL_cons_cons, bigSepL_singleton,
    payload_bar_false, payload_bar_true]
  rfl

/-- The wait for both neighbours: their chunks come with it. -/
theorem step_wait_bar (c : Dev nD) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (barC c) ∗ cred (tallyAt (barC c) () 2) ∗ owes (c : Thread nD τ) O W
        ∗ MayWait (c : Thread nD τ) (.reg barS) () O ∗ atPos ER (barC c) 0 ∅ 0)
      ⊢ iprop(((owes (c : Thread nD τ) O (insert (SemLoc.reg barS, ()) W) ∗ atPos ER (barC c) 1 ∅ 0
              ∗ barPayX (F := F) c ∗ barPayY (F := F) c) -∗ wp frame (wpE (defs₀ (F := F)) 𝒱₀ (c : Thread nD τ) none) Set.univ (kont ⟨⟩) Q)
          -∗ wp frame (wpE (defs₀ (F := F)) 𝒱₀ (c : Thread nD τ) none) Set.univ (semWaitWord barS 2#32 Gen.hamt_2 >>= kont) Q) := by
  simp only [semWaitWord, Prog.bind_op, Prog.bind_ret]
  iintro ⟨Hg, Hc, HO, Hlev, Hat⟩ Hk
  iapply (Rounds.wp_wait_rest_token 𝒱₀ ER (sched m) (c : Thread nD τ) none (κ := κ)
      (wpE_semWait_eq 𝒱₀ (c : Thread nD τ) none Set.univ) (Set.mem_univ _) () (O := O) (W := W) (R := 0) (m := 0) (T := ∅)
      (by rw [expect_bar]; decide)) $$ [Hg Hc HO Hlev Hat]
  · isplitl [Hg]; · iexact Hg
    isplitl [Hc]; · iexact Hc
    isplitl [HO]; · iexact HO
    isplitl [Hlev]; · iexact Hlev
    iexact Hat
  iintro ⟨HO, HatB, -, Hpay⟩
  ihave Hp := (Entails.of_eq (rest_bar m c)) $$ Hpay
  icases Hp with ⟨HX, HY⟩
  iapply Hk
  isplitl [HO]; · iexact HO
  isplitl [HatB]; · iexact HatB
  isplitl [HX]; · iexact HX
  iexact HY

/-! ## The copies -/

/-- Chunk `k` sits at a round below four. -/
theorem roundOf_lt (k : Fin 16) : roundOf k < 4 := by
  unfold roundOf; have := k.isLt; omega

/-- Equal memrefs hold the same elements. -/
theorem held_memref_eq {sp : Space} {s : Shape} {e : EltTy} (c' : Dev nD) (M M' : Memref sig .tc sp s e) (h : M = M')
    (f : Buf (Elt F) (M.view.loc (c' : Thread nD τ))) (g : Buf (Elt F) (M'.view.loc (c' : Thread nD τ))) (hfg : HEq f g) :
    held (F := F) c' M f = held (F := F) c' M' g := by
  subst h; rw [eq_of_heq hfg]

/-- The addressed-transfer rule at the first phase's cells, the copy addressed to `n = xn c`. -/
theorem send_x (c n : Dev nD) (hn : n = xn c) (i : Fin 64) (κ₁ κ₂ : ℕ) (q : PosShare TreeShare)
    (fd : Buf (Elt F) ((xdst oM c i).view.loc (xn c : Thread nD τ)))
    (O : CellTallies nD τ sig Unit) (W : Waits sig Unit)
    {hsc : (xdst oM c i : Memref sig (Dev.tc n : Thread nD τ).2.kind .hbm S128x1024 .f32).view.ref.isScScratch = false}
    {hsrc : (xsrc xM c i).view.WordExact} {hdst : (xdst oM c i).view.WordExact}
    {hsem : DmaTarget.Typed .hbm (.dma (xrS i)) (.remote (Dev.tc n : Thread nD τ) (xdst oM c i) (.dma (xsS i)) hsc)}
    {α : Type} {Q : α → sProp 𝕄} (kont : PUnit → Prog (TpuEff nD τ sig (Elt F) Λ₀ .tc) α) :
    iprop(cellInv ER (sched m) κ₁ (dmaC c (xsS i)) ∗ cellInv ER (sched m) κ₂ (dmaC (xn c) (xrS i))
        ∗ ((xsrc xM c i).view.loc (c : Thread nD τ) ↦[(xsrc xM c i).view.set]{q} X m c)
        ∗ held (F := F) (xn c) (xdst oM c i) fd
        ∗ owes (c : Thread nD τ) (O + tallyAt (dmaC (xn c) (xrS i)) () N) W
        ∗ dutyTok ER (dmaC c (xsS i)) 0 false ∗ reached ER (dmaC c (xsS i)) 0
        ∗ dutyTok ER (dmaC (xn c) (xrS i)) 0 false ∗ reached ER (dmaC (xn c) (xrS i)) 0)
      ⊢ iprop(((cred (tallyAt (dmaC c (xsS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xsrc xM c i) (.remote (Dev.tc n : Thread nD τ) (xdst oM c i) (.dma (xsS i)) hsc) (.dma (xrS i)) hsrc hdst hsem) kont) Q) := by
  subst hn
  have hs : 8 ≤ (xsS i).val := by rw [xsS_val]; omega
  have hr : 8 ≤ (xrS i).val := by rw [xrS_val]; omega
  exact Rounds.wp_send_pointsTo 𝒱₀ ER (sched m) (c : Thread nD τ) none (c' := (xn c : Thread nD τ)) (src := xsrc xM c i) (dst := xdst oM c i)
    (sS := .dma (xsS i)) (sem := .dma (xrS i)) (q := q) (fs := X m c) (fd := fd) (κ₁ := κ₁) (κ₂ := κ₂) (r₁ := 0) (r₂ := 0) (d₁ := false) (d₂ := false)
    (by rw [duties_big m c _ hs]; exact Finset.mem_singleton_self _) (by rw [duties_big m (xn c) _ hr]; exact Finset.mem_singleton_self _)
    () () N rfl (amount_big m c _ 0 false hs) (amount_big m (xn c) _ 0 false hr) O rfl
    (by rw [payload_xs]; iintro -; iempintro)
    (by
      rw [payload_xr]; unfold xrPay
      rw [← held_memref_eq (F := F) (xn c) (xdst oM c i) (ypc oM (xn c) i) (xdst_eq c i) (Gout m (xn c)) (Gout m (xn c)) HEq.rfl]
      unfold held
      rw [pointsTo_congr (land_x m c i fd)])

/-- Chunk `i` to the row neighbour: a share of its rows of the block, and the neighbour's chunk it lands in. -/
theorem step_xSend (c : Dev nD) (i : Fin 64) (κ₁ κ₂ : ℕ) (q : PosShare TreeShare)
    (fd : Buf (Elt F) ((ypc oM (xn c) i).view.loc (xn c : Thread nD τ)))
    (O : CellTallies nD τ sig Unit) (W : Waits sig Unit)
    {α : Type} {Q : α → sProp 𝕄} (kont : PUnit → Prog (TpuEff nD τ sig (Elt F) Λ₀ .tc) α) :
    iprop(cellInv ER (sched m) κ₁ (dmaC c (xsS i)) ∗ cellInv ER (sched m) κ₂ (dmaC (xn c) (xrS i))
        ∗ ((xsrc xM c i).view.loc (c : Thread nD τ) ↦[(xsrc xM c i).view.set]{q} X m c)
        ∗ held (F := F) (xn c) (ypc oM (xn c) i) fd
        ∗ owes (c : Thread nD τ) (O + tallyAt (dmaC (xn c) (xrS i)) () N) W
        ∗ dutyTok ER (dmaC c (xsS i)) 0 false ∗ reached ER (dmaC c (xsS i)) 0
        ∗ dutyTok ER (dmaC (xn c) (xrS i)) 0 false ∗ reached ER (dmaC (xn c) (xrS i)) 0)
      ⊢ iprop(((cred (tallyAt (dmaC c (xsS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (xSend (F := F) xM oM cc0_scratch3 cc0_scratch4 c i >>= kont) Q) := by
  simp only [xSend, Prog.lift, Prog.bind_op, Prog.bind_ret]
  revert fd
  rw [← xdst_eq c i]
  intro fd
  exact send_x m c _ (dev3_eq c) i κ₁ κ₂ q fd O W kont

/-- The addressed-transfer rule at the second phase's cells, the copy addressed to `n = yn c`. -/
theorem send_y (c n : Dev nD) (hn : n = yn c) (i : Fin 64) (κ₁ κ₂ : ℕ)
    (fd : Buf (Elt F) ((ypc oM c i).view.loc (yn c : Thread nD τ)))
    (O : CellTallies nD τ sig Unit) (W : Waits sig Unit)
    {hsc : (ypc oM c i : Memref sig (Dev.tc n : Thread nD τ).2.kind .hbm S128x1024 .f32).view.ref.isScScratch = false}
    {hsrc : (ypc oM c i).view.WordExact} {hdst : (ypc oM c i).view.WordExact}
    {hsem : DmaTarget.Typed .hbm (.dma (yrS i)) (.remote (Dev.tc n : Thread nD τ) (ypc oM c i) (.dma (ysS i)) hsc)}
    {α : Type} {Q : α → sProp 𝕄} (kont : PUnit → Prog (TpuEff nD τ sig (Elt F) Λ₀ .tc) α) :
    iprop(cellInv ER (sched m) κ₁ (dmaC c (ysS i)) ∗ cellInv ER (sched m) κ₂ (dmaC (yn c) (yrS i))
        ∗ held (F := F) c (ypc oM c i) (Gout m c)
        ∗ held (F := F) (yn c) (ypc oM c i) fd
        ∗ owes (c : Thread nD τ) (O + tallyAt (dmaC (yn c) (yrS i)) () N) W
        ∗ dutyTok ER (dmaC c (ysS i)) 0 false ∗ reached ER (dmaC c (ysS i)) 0
        ∗ dutyTok ER (dmaC (yn c) (yrS i)) 0 false ∗ reached ER (dmaC (yn c) (yrS i)) 0)
      ⊢ iprop(((cred (tallyAt (dmaC c (ysS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ypc oM c i) (.remote (Dev.tc n : Thread nD τ) (ypc oM c i) (.dma (ysS i)) hsc) (.dma (yrS i)) hsrc hdst hsem) kont) Q) := by
  subst hn
  have hs : 8 ≤ (ysS i).val := by rw [ysS_val]; omega
  have hr : 8 ≤ (yrS i).val := by rw [yrS_val]; omega
  exact Rounds.wp_send_pointsTo 𝒱₀ ER (sched m) (c : Thread nD τ) none (c' := (yn c : Thread nD τ)) (src := ypc oM c i) (dst := ypc oM c i)
    (sS := .dma (ysS i)) (sem := .dma (yrS i)) (q := fullShare) (fs := Gout m c) (fd := fd) (κ₁ := κ₁) (κ₂ := κ₂) (r₁ := 0) (r₂ := 0) (d₁ := false) (d₂ := false)
    (by rw [duties_big m c _ hs]; exact Finset.mem_singleton_self _) (by rw [duties_big m (yn c) _ hr]; exact Finset.mem_singleton_self _)
    () () N rfl (amount_big m c _ 0 false hs) (amount_big m (yn c) _ 0 false hr) O rfl
    (by rw [payload_ys]; unfold xrPay held; exact BI.Entails.refl _)
    (by
      rw [payload_yr]; unfold yrPay held
      rw [yn_yn, pointsTo_congr (land_y m c i fd)])

/-- Chunk `i` forwarded to the column neighbour: the chunk itself, and the neighbour's chunk it lands in. -/
theorem step_ySend (c : Dev nD) (i : Fin 64) (κ₁ κ₂ : ℕ)
    (fd : Buf (Elt F) ((ypc oM c i).view.loc (yn c : Thread nD τ)))
    (O : CellTallies nD τ sig Unit) (W : Waits sig Unit)
    {α : Type} {Q : α → sProp 𝕄} (kont : PUnit → Prog (TpuEff nD τ sig (Elt F) Λ₀ .tc) α) :
    iprop(cellInv ER (sched m) κ₁ (dmaC c (ysS i)) ∗ cellInv ER (sched m) κ₂ (dmaC (yn c) (yrS i))
        ∗ held (F := F) c (ypc oM c i) (Gout m c)
        ∗ held (F := F) (yn c) (ypc oM c i) fd
        ∗ owes (c : Thread nD τ) (O + tallyAt (dmaC (yn c) (yrS i)) () N) W
        ∗ dutyTok ER (dmaC c (ysS i)) 0 false ∗ reached ER (dmaC c (ysS i)) 0
        ∗ dutyTok ER (dmaC (yn c) (yrS i)) 0 false ∗ reached ER (dmaC (yn c) (yrS i)) 0)
      ⊢ iprop(((cred (tallyAt (dmaC c (ysS i)) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (ySend (F := F) oM cc0_scratch5 cc0_scratch6 c i >>= kont) Q) := by
  simp only [ySend, Prog.lift, Prog.bind_op, Prog.bind_ret]
  exact send_y m c _ (dev67_eq c) i κ₁ κ₂ fd O W kont

/-- Chunk `k` of the block read into its slot. -/
theorem step_enqRd (c : Dev nD) (k : Fin 16) (κ : ℕ) (q : PosShare TreeShare)
    (fd : Buf (Elt F) ((slot sM (slotOf k)).view.loc (c : Thread nD τ)))
    {α : Type} {Q : α → sProp 𝕄} (kont : PUnit → Prog (TpuEff nD τ sig (Elt F) Λ₀ .tc) α) :
    iprop(cellInv ER (sched m) κ (dmaC c (rdS (slotOf k)))
        ∗ ((lsrc xM k).view.loc (c : Thread nD τ) ↦[(lsrc xM k).view.set]{q} X m c)
        ∗ held (F := F) c (slot sM (slotOf k)) fd
        ∗ dutyTok ER (dmaC c (rdS (slotOf k))) (roundOf k) false ∗ reached ER (dmaC c (rdS (slotOf k))) (roundOf k))
      ⊢ iprop((cred (tallyAt (dmaC c (rdS (slotOf k))) () NL) -∗ wp frame (wpE (defs₀ (F := F)) 𝒱₀ (c : Thread nD τ) none) Set.univ (kont ⟨⟩) Q)
          -∗ wp frame (wpE (defs₀ (F := F)) 𝒱₀ (c : Thread nD τ) none) Set.univ (enqRd (F := F) xM sM cc0_scratch1 k >>= kont) Q) := by
  simp only [enqRd, Prog.lift, Prog.bind_op, Prog.bind_ret]
  have hq : (rdS (slotOf k)).val < 8 := by rw [rdS_val]; have := (slotOf k).isLt; omega
  exact Rounds.wp_copy_pointsTo 𝒱₀ ER (sched m) (c : Thread nD τ) none (src := lsrc xM k) (dst := slot sM (slotOf k)) (sem := .dma (rdS (slotOf k)))
    (q := q) (fs := X m c) (fd := fd) (r := roundOf k) (d := false) (κ := κ)
    (by rw [duties_small m c _ _ hq (roundOf_lt k)]; exact Finset.mem_singleton_self _) () NL rfl
    (amount_small m c _ _ false hq)
    (by
      rw [payload_rd]; unfold rdPay held
      rw [pointsTo_congr (land_rd m c k fd)]
      iintro ⟨H, -⟩; iexact H)

/-- The slot's chunk `k` written to its rows of the result. -/
theorem step_enqWr (c : Dev nD) (k : Fin 16) (κ : ℕ)
    (fd : Buf (Elt F) ((ldst oM c k).view.loc (c : Thread nD τ)))
    {α : Type} {Q : α → sProp 𝕄} (kont : PUnit → Prog (TpuEff nD τ sig (Elt F) Λ₀ .tc) α) :
    iprop(cellInv ER (sched m) κ (dmaC c (wrS (slotOf k)))
        ∗ held (F := F) c (slot sM (slotOf k)) (Sat m c k)
        ∗ held (F := F) c (ldst oM c k) fd
        ∗ dutyTok ER (dmaC c (wrS (slotOf k))) (roundOf k) false ∗ reached ER (dmaC c (wrS (slotOf k))) (roundOf k))
      ⊢ iprop((cred (tallyAt (dmaC c (wrS (slotOf k))) () NL) -∗ wp frame (wpE (defs₀ (F := F)) 𝒱₀ (c : Thread nD τ) none) Set.univ (kont ⟨⟩) Q)
          -∗ wp frame (wpE (defs₀ (F := F)) 𝒱₀ (c : Thread nD τ) none) Set.univ (enqWr (F := F) oM sM cc0_scratch2 c k >>= kont) Q) := by
  simp only [enqWr, Prog.lift, Prog.bind_op, Prog.bind_ret]
  have hq : (wrS (slotOf k)).val < 8 := by rw [wrS_val]; have := (slotOf k).isLt; omega
  exact Rounds.wp_copy_pointsTo 𝒱₀ ER (sched m) (c : Thread nD τ) none (src := slot sM (slotOf k)) (dst := ldst oM c k) (sem := .dma (wrS (slotOf k)))
    (q := fullShare) (fs := Sat m c k) (fd := fd) (r := roundOf k) (d := false) (κ := κ)
    (by rw [duties_small m c _ _ hq (roundOf_lt k)]; exact Finset.mem_singleton_self _) () NL rfl
    (amount_small m c _ _ false hq)
    (by
      rw [payload_wr]; unfold wrPay held
      rw [pointsTo_congr (land_wr m c k fd)])

/-! ## The waits -/

/-- A wait for the whole of a round whose one duty is `false`, on a DMA cell of the device's own: the
    round's payload comes back and the cell stands at the next round. -/
theorem wait_one (c : Dev nD) (q : DmaSem sig) (R n : ℕ) (κ : ℕ) (O : CellTallies nD τ sig Unit) (W : Waits sig Unit) (P : sProp 𝕄)
    (hd : (sched (F := F) m).duties (dmaC c q) R = {false}) (he : (sched (F := F) m).expect (dmaC c q) R = n)
    (hp : (sched (F := F) m).payload (dmaC c q) R false = P)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma q) n K)
    {α : Type} {Q : α → sProp 𝕄} (kont : PUnit → Prog (TpuEff nD τ sig (Elt F) Λ₀ .tc) α) :
    iprop(cellInv ER (sched m) κ (dmaC c q) ∗ cred (tallyAt (dmaC c q) () n) ∗ owes (c : Thread nD τ) O W
        ∗ MayWait (c : Thread nD τ) (.dma q) () O ∗ atPos ER (dmaC c q) R ∅ 0)
      ⊢ iprop(((owes (c : Thread nD τ) O (insert (SemLoc.dma q, ()) W) ∗ atPos ER (dmaC c q) (R + 1) ∅ 0
              ∗ reached ER (dmaC c q) (R + 1) ∗ P) -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  have hrest : bigSep ((sched (F := F) m).duties (dmaC c q) R \ ∅) (fun d => (sched (F := F) m).payload (dmaC c q) R d) = P := by
    rw [Finset.sdiff_empty, hd, bigSep_singleton, hp]
  rw [← hrest]
  exact Rounds.wp_wait_rest_token 𝒱₀ ER (sched m) (c : Thread nD τ) none (κ := κ) hw (Set.mem_univ _) () (O := O) (W := W) (R := R) (m := 0) (T := ∅)
    (by rw [Nat.zero_add, he])

/-- Chunk `i` from the row neighbour has landed. -/
theorem step_waitXr (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (xrS i)) ∗ cred (tallyAt (dmaC c (xrS i)) () N) ∗ owes (c : Thread nD τ) O W
        ∗ MayWait (c : Thread nD τ) (.dma (xrS i)) () O ∗ atPos ER (dmaC c (xrS i)) (0) ∅ 0)
      ⊢ iprop(((owes (c : Thread nD τ) O (insert (SemLoc.dma (xrS i), ()) W) ∗ atPos ER (dmaC c (xrS i)) (0 + 1) ∅ 0
              ∗ reached ER (dmaC c (xrS i)) (0 + 1) ∗ xrPay m c i) -∗ wp frame (wpE (defs₀ (F := F)) 𝒱₀ (c : Thread nD τ) none) Set.univ (kont ⟨⟩) Q)
          -∗ wp frame (wpE (defs₀ (F := F)) 𝒱₀ (c : Thread nD τ) none) Set.univ (waitXr (F := F) xM oM cc0_scratch4 c i >>= kont) Q) := by
  simp only [waitXr, Prog.lift, Prog.bind_op, Prog.bind_ret]
  have hq : 8 ≤ (xrS i).val := by rw [xrS_val]; omega
  have hw : ∀ K : PUnit → sProp 𝕄, wpE (defs₀ (F := F)) 𝒱₀ (c : Thread nD τ) none Set.univ (.waitDma2 (xrS i) (xsrc xM c i) (xdst oM c i) (View.wordExact_bits rfl) (View.wordExact_bits rfl)) K
      = waitSpec (c : Thread nD τ) Set.univ (.dma (xrS i)) N K :=
    wpE_waitDma2_eq 𝒱₀ (c : Thread nD τ) none Set.univ
  exact wait_one m c (xrS i) 0 N κ O W (xrPay m c i) (duties_big m c _ hq) (expect_big m c _ hq) (payload_xr m c i)
    hw kont

/-- Chunk `i` from the column neighbour has landed. -/
theorem step_waitYr (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (yrS i)) ∗ cred (tallyAt (dmaC c (yrS i)) () N) ∗ owes (c : Thread nD τ) O W
        ∗ MayWait (c : Thread nD τ) (.dma (yrS i)) () O ∗ atPos ER (dmaC c (yrS i)) (0) ∅ 0)
      ⊢ iprop(((owes (c : Thread nD τ) O (insert (SemLoc.dma (yrS i), ()) W) ∗ atPos ER (dmaC c (yrS i)) (0 + 1) ∅ 0
              ∗ reached ER (dmaC c (yrS i)) (0 + 1) ∗ yrPay m c i) -∗ wp frame (wpE (defs₀ (F := F)) 𝒱₀ (c : Thread nD τ) none) Set.univ (kont ⟨⟩) Q)
          -∗ wp frame (wpE (defs₀ (F := F)) 𝒱₀ (c : Thread nD τ) none) Set.univ (waitYr (F := F) oM cc0_scratch6 c i >>= kont) Q) := by
  simp only [waitYr, Prog.lift, Prog.bind_op, Prog.bind_ret]
  have hq : 8 ≤ (yrS i).val := by rw [yrS_val]; omega
  have hw : ∀ K : PUnit → sProp 𝕄, wpE (defs₀ (F := F)) 𝒱₀ (c : Thread nD τ) none Set.univ (.waitDma2 (yrS i) (ypc oM c i) (ypc oM c i) (View.wordExact_bits rfl) (View.wordExact_bits rfl)) K
      = waitSpec (c : Thread nD τ) Set.univ (.dma (yrS i)) N K :=
    wpE_waitDma2_eq 𝒱₀ (c : Thread nD τ) none Set.univ
  exact wait_one m c (yrS i) 0 N κ O W (yrPay m c i) (duties_big m c _ hq) (expect_big m c _ hq) (payload_yr m c i)
    hw kont

/-- Chunk `i` has left for the row neighbour. -/
theorem step_waitXs (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (xsS i)) ∗ cred (tallyAt (dmaC c (xsS i)) () N) ∗ owes (c : Thread nD τ) O W
        ∗ MayWait (c : Thread nD τ) (.dma (xsS i)) () O ∗ atPos ER (dmaC c (xsS i)) (0) ∅ 0)
      ⊢ iprop(((owes (c : Thread nD τ) O (insert (SemLoc.dma (xsS i), ()) W) ∗ atPos ER (dmaC c (xsS i)) (0 + 1) ∅ 0
              ∗ reached ER (dmaC c (xsS i)) (0 + 1)) -∗ wp frame (wpE (defs₀ (F := F)) 𝒱₀ (c : Thread nD τ) none) Set.univ (kont ⟨⟩) Q)
          -∗ wp frame (wpE (defs₀ (F := F)) 𝒱₀ (c : Thread nD τ) none) Set.univ (waitXs (F := F) xM oM cc0_scratch3 c i >>= kont) Q) := by
  simp only [waitXs, Prog.lift, Prog.bind_op, Prog.bind_ret]
  have hq : 8 ≤ (xsS i).val := by rw [xsS_val]; omega
  have hw : ∀ K : PUnit → sProp 𝕄, wpE (defs₀ (F := F)) 𝒱₀ (c : Thread nD τ) none Set.univ (.waitDma2 (xsS i) (xdst oM c i) (xsrc xM c i) (View.wordExact_bits rfl) (View.wordExact_bits rfl)) K
      = waitSpec (c : Thread nD τ) Set.univ (.dma (xsS i)) N K :=
    wpE_waitDma2_eq 𝒱₀ (c : Thread nD τ) none Set.univ
  iintro H Hk
  iapply (wait_one m c (xsS i) 0 N κ O W iprop(emp) (duties_big m c _ hq) (expect_big m c _ hq) (payload_xs m c i)
    hw kont) $$ H
  iintro ⟨HO, Hat, Hr, -⟩
  iapply Hk
  isplitl [HO]; · iexact HO
  isplitl [Hat]; · iexact Hat
  iexact Hr

/-- Chunk `i` has left for the column neighbour: the chunk is the device's again. -/
theorem step_waitYs (c : Dev nD) (i : Fin 64) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (ysS i)) ∗ cred (tallyAt (dmaC c (ysS i)) () N) ∗ owes (c : Thread nD τ) O W
        ∗ MayWait (c : Thread nD τ) (.dma (ysS i)) () O ∗ atPos ER (dmaC c (ysS i)) (0) ∅ 0)
      ⊢ iprop(((owes (c : Thread nD τ) O (insert (SemLoc.dma (ysS i), ()) W) ∗ atPos ER (dmaC c (ysS i)) (0 + 1) ∅ 0
              ∗ reached ER (dmaC c (ysS i)) (0 + 1) ∗ xrPay m c i) -∗ wp frame (wpE (defs₀ (F := F)) 𝒱₀ (c : Thread nD τ) none) Set.univ (kont ⟨⟩) Q)
          -∗ wp frame (wpE (defs₀ (F := F)) 𝒱₀ (c : Thread nD τ) none) Set.univ (waitYs (F := F) oM cc0_scratch5 c i >>= kont) Q) := by
  simp only [waitYs, Prog.lift, Prog.bind_op, Prog.bind_ret]
  have hq : 8 ≤ (ysS i).val := by rw [ysS_val]; omega
  have hw : ∀ K : PUnit → sProp 𝕄, wpE (defs₀ (F := F)) 𝒱₀ (c : Thread nD τ) none Set.univ (.waitDma2 (ysS i) (ypc oM c i) (ypc oM c i) (View.wordExact_bits rfl) (View.wordExact_bits rfl)) K
      = waitSpec (c : Thread nD τ) Set.univ (.dma (ysS i)) N K :=
    wpE_waitDma2_eq 𝒱₀ (c : Thread nD τ) none Set.univ
  exact wait_one m c (ysS i) 0 N κ O W (xrPay m c i) (duties_big m c _ hq) (expect_big m c _ hq) (payload_ys m c i)
    hw kont

/-- Chunk `k` of the block is in its slot. -/
theorem step_waitRd (c : Dev nD) (k : Fin 16) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (rdS (slotOf k))) ∗ cred (tallyAt (dmaC c (rdS (slotOf k))) () NL) ∗ owes (c : Thread nD τ) O W
        ∗ MayWait (c : Thread nD τ) (.dma (rdS (slotOf k))) () O ∗ atPos ER (dmaC c (rdS (slotOf k))) (roundOf k) ∅ 0)
      ⊢ iprop(((owes (c : Thread nD τ) O (insert (SemLoc.dma (rdS (slotOf k)), ()) W) ∗ atPos ER (dmaC c (rdS (slotOf k))) (roundOf k + 1) ∅ 0
              ∗ reached ER (dmaC c (rdS (slotOf k))) (roundOf k + 1) ∗ rdPay m c k) -∗ wp frame (wpE (defs₀ (F := F)) 𝒱₀ (c : Thread nD τ) none) Set.univ (kont ⟨⟩) Q)
          -∗ wp frame (wpE (defs₀ (F := F)) 𝒱₀ (c : Thread nD τ) none) Set.univ (waitRd (F := F) xM sM cc0_scratch1 k >>= kont) Q) := by
  simp only [waitRd, Prog.lift, Prog.bind_op, Prog.bind_ret]
  have hq : (rdS (slotOf k)).val < 8 := by rw [rdS_val]; have := (slotOf k).isLt; omega
  have hw : ∀ K : PUnit → sProp 𝕄, wpE (defs₀ (F := F)) 𝒱₀ (c : Thread nD τ) none Set.univ (.waitDma2 (rdS (slotOf k)) (lsrc xM k) (slot sM (slotOf k)) (View.wordExact_bits rfl) ((View.wordExact_bits rfl).reshape _ _)) K
      = waitSpec (c : Thread nD τ) Set.univ (.dma (rdS (slotOf k))) NL K :=
    wpE_waitDma2_eq 𝒱₀ (c : Thread nD τ) none Set.univ
  exact wait_one m c (rdS (slotOf k)) (roundOf k) NL κ O W (rdPay m c k) (duties_small m c _ _ hq (roundOf_lt k)) (expect_small m c _ _ hq (roundOf_lt k)) (payload_rd m c k)
    hw kont

/-- Chunk `k` is written: its rows of the result and the slot are the device's again. -/
theorem step_waitWr (c : Dev nD) (k : Fin 16) (κ : ℕ) (O : CellTallies nD τ sig Unit) (W : Waits sig Unit)
    {α : Type} {Q : α → sProp 𝕄} (kont : PUnit → Prog (TpuEff nD τ sig (Elt F) Λ₀ .tc) α) :
    iprop(cellInv ER (sched m) κ (dmaC c (wrS (slotOf k))) ∗ cred (tallyAt (dmaC c (wrS (slotOf k))) () NL) ∗ owes (c : Thread nD τ) O W
        ∗ MayWait (c : Thread nD τ) (.dma (wrS (slotOf k))) () O ∗ atPos ER (dmaC c (wrS (slotOf k))) (roundOf k) ∅ 0)
      ⊢ iprop(((owes (c : Thread nD τ) O (insert (SemLoc.dma (wrS (slotOf k)), ()) W) ∗ atPos ER (dmaC c (wrS (slotOf k))) (roundOf k + 1) ∅ 0
              ∗ reached ER (dmaC c (wrS (slotOf k))) (roundOf k + 1) ∗ wrPay m c k) -∗ wp frame (wpE (defs₀ (F := F)) 𝒱₀ (c : Thread nD τ) none) Set.univ (kont ⟨⟩) Q)
          -∗ wp frame (wpE (defs₀ (F := F)) 𝒱₀ (c : Thread nD τ) none) Set.univ (waitWr (F := F) oM sM cc0_scratch2 c k >>= kont) Q) := by
  simp only [waitWr, Prog.lift, Prog.bind_op, Prog.bind_ret]
  have hq : (wrS (slotOf k)).val < 8 := by rw [wrS_val]; have := (slotOf k).isLt; omega
  have hw : ∀ K : PUnit → sProp 𝕄, wpE (defs₀ (F := F)) 𝒱₀ (c : Thread nD τ) none Set.univ (.waitDma2 (wrS (slotOf k)) (slot sM (slotOf k)) (ldst oM c k) ((View.wordExact_bits rfl).reshape _ _) (View.wordExact_bits rfl)) K
      = waitSpec (c : Thread nD τ) Set.univ (.dma (wrS (slotOf k))) NL K :=
    wpE_waitDma2_eq 𝒱₀ (c : Thread nD τ) none Set.univ
  exact wait_one m c (wrS (slotOf k)) (roundOf k) NL κ O W (wrPay m c k) (duties_small m c _ _ hq (roundOf_lt k)) (expect_small m c _ _ hq (roundOf_lt k)) (payload_wr m c k)
    hw kont

/-! ## Closing a cell: its counter, at zero, is the device's again -/

theorem close_big (c : Dev nD) (q : DmaSem sig) (κ : ℕ) (hq : 8 ≤ q.val) :
    iprop(cellInv ER (sched m) κ (dmaC c q) ∗ atPos ER (dmaC c q) 1 ∅ 0) ⊢ (|={Set.univ}=> semVal (dmaC c q) 0 : sProp 𝕄) := by
  exact Rounds.cell_close ER (sched m) (Set.mem_univ κ) (fun h => h) (R := 1) (duties_later_big m c q hq)

theorem close_small (c : Dev nD) (q : DmaSem sig) (κ : ℕ) (hq : q.val < 8) :
    iprop(cellInv ER (sched m) κ (dmaC c q) ∗ atPos ER (dmaC c q) 4 ∅ 0) ⊢ (|={Set.univ}=> semVal (dmaC c q) 0 : sProp 𝕄) := by
  exact Rounds.cell_close ER (sched m) (Set.mem_univ κ) (fun h => h) (R := 4) (duties_later_small m c q hq)

end Cert.Kernel.AG

end
-- ==== Proof.Bits.Partition.lean ====
/- Cutting the three buffers along the pieces the copies use, and putting them together again.
   The result array is the disjoint union of sixteen chunks of 1024 rows (the device's own block) and
   twice sixty-four chunks of 128 rows (the other block: the half the row neighbour writes, the half
   the column neighbour writes); the staging buffer of its four slots. -/
import proofs.«900079_g7700000000000080_dist_ag_v7x_xy2x2_x_m16384_n1024_f32_1_alg».proof.Proof.Bits.Schedule
import Idealize.ShloMosaic.Lib.Pipeline.Value

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-! ## Which rows a piece holds -/

/-- The elements of the result under chunk `k` of the device's own block, and under chunk `i` of the
    rows device `d` forwards, as sets of indices of device `c`'s result. -/
abbrev oSetL (c : Dev nD) (k : Fin 16) : Finset (Idx ((c : Thread nD τ).loc main_v1)) := (ldst oM c k).view.set
abbrev oSetY (c d : Dev nD) (i : Fin 64) : Finset (Idx ((c : Thread nD τ).loc main_v1)) := (ypc oM d i).view.set

theorem mem_ldst (c : Dev nD) (k : Fin 16) (x : Idx ((c : Thread nD τ).loc main_v1)) :
    x ∈ oSetL c k ↔ 16384 * (c.val / 2) + 1024 * k.val ≤ (x 0).val ∧ (x 0).val < 16384 * (c.val / 2) + 1024 * k.val + 1024 := by
  have e : oSetL c k = (Rect.unit (s := S32768x1024) (k0_off4 c (BitVec.ofNat 32 (1024 * k.val))) S1024x1024.size (Gen.k0_off4_inb c k)).set :=
    View.set_slice_whole _ _
  rw [e]
  refine (Rect.mem_set_unit (s := S32768x1024)).trans ?_
  rw [k0_off4_eq, Fin.forall_fin_two]
  have h1 : (x 1).val < 1024 := (x 1).isLt
  simp only [Matrix.cons_val_zero, Matrix.cons_val_one]
  omega

theorem mem_ypc (c d : Dev nD) (i : Fin 64) (x : Idx ((c : Thread nD τ).loc main_v1)) :
    x ∈ oSetY c d i ↔ (8192 * (d.val % 2) + 128 * i.val + 16384) - 16384 * (d.val / 2) ≤ (x 0).val
      ∧ (x 0).val < (8192 * (d.val % 2) + 128 * i.val + 16384) - 16384 * (d.val / 2) + 128 := by
  have e : oSetY c d i = (Rect.unit (s := S32768x1024) (k0_off3 d (BitVec.ofNat 32 (128 * i.val))) S128x1024.size (Gen.k0_off3_inb d i)).set :=
    View.set_slice_whole _ _
  rw [e]
  refine (Rect.mem_set_unit (s := S32768x1024)).trans ?_
  rw [k0_off3_eq, Fin.forall_fin_two]
  have h1 : (x 1).val < 1024 := (x 1).isLt
  simp only [Matrix.cons_val_zero, Matrix.cons_val_one]
  omega

/-! ## The result array -/

theorem ldst_disjoint (c : Dev nD) (k k' : Fin 16) (h : k ≠ k') :
    Disjoint (oSetL c k) (oSetL c k') := by
  refine Finset.disjoint_left.mpr fun x hx hx' => ?_
  have h1 := (mem_ldst c k x).mp hx
  have h2 := (mem_ldst c k' x).mp hx'
  have : k.val ≠ k'.val := fun e => h (Fin.ext e)
  omega

theorem ypc_disjoint (c d : Dev nD) (i i' : Fin 64) (h : i ≠ i') :
    Disjoint (oSetY c d i) (oSetY c d i') := by
  refine Finset.disjoint_left.mpr fun x hx hx' => ?_
  have h1 := (mem_ypc c d i x).mp hx
  have h2 := (mem_ypc c d i' x).mp hx'
  have : i.val ≠ i'.val := fun e => h (Fin.ext e)
  have hd : d.val < 4 := d.isLt
  omega

theorem ldst_ypc_disjoint (c d : Dev nD) (hd : d.val / 2 = c.val / 2) (k : Fin 16) (i : Fin 64) :
    Disjoint (oSetL c k) (oSetY c d i) := by
  refine Finset.disjoint_left.mpr fun x hx hx' => ?_
  have h1 := (mem_ldst c k x).mp hx
  have h2 := (mem_ypc c d i x).mp hx'
  have hc4 : c.val < 4 := c.isLt
  have hd4 : d.val < 4 := d.isLt
  omega

theorem ypc_yn_disjoint (c : Dev nD) (i i' : Fin 64) :
    Disjoint (oSetY c c i) (oSetY c (yn c) i') := by
  refine Finset.disjoint_left.mpr fun x hx hx' => ?_
  have h1 := (mem_ypc c c i x).mp hx
  have h2 := (mem_ypc c (yn c) i' x).mp hx'
  rw [yn_row, yn_col] at h2
  have hc4 : c.val < 4 := c.isLt
  omega

/-- Every row of the result lies in a piece. -/
theorem out_cover (c : Dev nD) (x : Idx ((c : Thread nD τ).loc main_v1)) :
    (∃ k, x ∈ oSetL c k) ∨ (∃ i, x ∈ oSetY c c i) ∨ ∃ i, x ∈ oSetY c (yn c) i := by
  have hr : (x 0).val < 32768 := (x 0).isLt
  have hc : c.val < 4 := c.isLt
  by_cases h1 : (x 0).val / 16384 = c.val / 2
  · refine Or.inl ⟨⟨((x 0).val % 16384) / 1024, by omega⟩, (mem_ldst c _ x).mpr ?_⟩
    show 16384 * (c.val / 2) + 1024 * (((x 0).val % 16384) / 1024) ≤ (x 0).val ∧ (x 0).val < 16384 * (c.val / 2) + 1024 * (((x 0).val % 16384) / 1024) + 1024
    omega
  · by_cases h2 : ((x 0).val % 16384) / 8192 = c.val % 2
    · refine Or.inr (Or.inl ⟨⟨((x 0).val % 8192) / 128, by omega⟩, (mem_ypc c c _ x).mpr ?_⟩)
      show (8192 * (c.val % 2) + 128 * (((x 0).val % 8192) / 128) + 16384) - 16384 * (c.val / 2) ≤ (x 0).val
        ∧ (x 0).val < (8192 * (c.val % 2) + 128 * (((x 0).val % 8192) / 128) + 16384) - 16384 * (c.val / 2) + 128
      omega
    · refine Or.inr (Or.inr ⟨⟨((x 0).val % 8192) / 128, by omega⟩, (mem_ypc c (yn c) _ x).mpr ?_⟩)
      rw [yn_row, yn_col]
      show (8192 * (1 - c.val % 2) + 128 * (((x 0).val % 8192) / 128) + 16384) - 16384 * (c.val / 2) ≤ (x 0).val
        ∧ (x 0).val < (8192 * (1 - c.val % 2) + 128 * (((x 0).val % 8192) / 128) + 16384) - 16384 * (c.val / 2) + 128
      omega

/-- The result array held whole and its 16 + 64 + 64 pieces held one by one are the same assertion. -/
theorem out_eq (c : Dev nD) (f : Buf (Elt F) ((c : Thread nD τ).loc main_v1)) :
    ((((c : Thread nD τ).loc main_v1) ↦{fullShare} f : sProp 𝕄))
      = iprop((bigSep Finset.univ fun k : Fin 16 => held (F := F) c (ldst oM c k) f)
          ∗ (bigSep Finset.univ fun i : Fin 64 => held (F := F) c (ypc oM c i) f)
          ∗ (bigSep Finset.univ fun i : Fin 64 => held (F := F) c (ypc oM (yn c) i) f)) := by
  classical
  have hA := pointsTo_biUnion (Ix := Unit) (Name := ℕ) (U := UU) (Lvl := ℕ) (ℓ := (c : Thread nD τ).loc main_v1) (q := fullShare) (f := f)
    (Finset.univ : Finset (Fin 16)) (oSetL c) (fun k _ k' _ h => ldst_disjoint c k k' h)
  have hB := pointsTo_biUnion (Ix := Unit) (Name := ℕ) (U := UU) (Lvl := ℕ) (ℓ := (c : Thread nD τ).loc main_v1) (q := fullShare) (f := f)
    (Finset.univ : Finset (Fin 64)) (oSetY c c) (fun i _ i' _ h => ypc_disjoint c c i i' h)
  have hC := pointsTo_biUnion (Ix := Unit) (Name := ℕ) (U := UU) (Lvl := ℕ) (ℓ := (c : Thread nD τ).loc main_v1) (q := fullShare) (f := f)
    (Finset.univ : Finset (Fin 64)) (oSetY c (yn c)) (fun i _ i' _ h => ypc_disjoint c (yn c) i i' h)
  have hBC : Disjoint (Finset.univ.biUnion (oSetY c c))
      (Finset.univ.biUnion (oSetY c (yn c))) :=
    (Finset.disjoint_biUnion_left _ _ _).mpr fun i _ => (Finset.disjoint_biUnion_right _ _ _).mpr fun i' _ =>
      ypc_yn_disjoint c i i'
  have hABC : Disjoint (Finset.univ.biUnion (oSetL c))
      ((Finset.univ.biUnion (oSetY c c))
        ∪ (Finset.univ.biUnion (oSetY c (yn c)))) :=
    Finset.disjoint_union_right.mpr
      ⟨(Finset.disjoint_biUnion_left _ _ _).mpr fun k _ => (Finset.disjoint_biUnion_right _ _ _).mpr fun i _ =>
          ldst_ypc_disjoint c c rfl k i,
        (Finset.disjoint_biUnion_left _ _ _).mpr fun k _ => (Finset.disjoint_biUnion_right _ _ _).mpr fun i _ =>
          ldst_ypc_disjoint c (yn c) (yn_row c) k i⟩
  have hU : (Finset.univ.biUnion (oSetL c))
      ∪ ((Finset.univ.biUnion (oSetY c c))
        ∪ (Finset.univ.biUnion (oSetY c (yn c)))) = Finset.univ := by
    refine Finset.eq_univ_iff_forall.mpr fun x => ?_
    rcases out_cover c x with ⟨k, h⟩ | ⟨i, h⟩ | ⟨i, h⟩
    · exact Finset.mem_union_left _ (Finset.mem_biUnion.mpr ⟨k, Finset.mem_univ _, h⟩)
    · exact Finset.mem_union_right _ (Finset.mem_union_left _ (Finset.mem_biUnion.mpr ⟨i, Finset.mem_univ _, h⟩))
    · exact Finset.mem_union_right _ (Finset.mem_union_right _ (Finset.mem_biUnion.mpr ⟨i, Finset.mem_univ _, h⟩))
  have e1 := pointsTo_union (Ix := Unit) (Name := ℕ) (U := UU) (Lvl := ℕ) (ℓ := (c : Thread nD τ).loc main_v1) (q := fullShare) (f := f) hABC
  have e2 := pointsTo_union (Ix := Unit) (Name := ℕ) (U := UU) (Lvl := ℕ) (ℓ := (c : Thread nD τ).loc main_v1) (q := fullShare) (f := f) hBC
  show pointsTo _ Finset.univ fullShare f = _
  rw [← hU, BI.equiv_iff.mp ⟨e1.1, e1.2⟩, BI.equiv_iff.mp ⟨e2.1, e2.2⟩, hA, hB, hC]
  rfl

/-- The result array, whole, is its 16 + 64 + 64 pieces. -/
theorem out_split (c : Dev nD) (f : Buf (Elt F) ((c : Thread nD τ).loc main_v1)) :
    ((((c : Thread nD τ).loc main_v1) ↦{fullShare} f : sProp 𝕄))
      ⊢ iprop((bigSep Finset.univ fun k : Fin 16 => held (F := F) c (ldst oM c k) f)
          ∗ (bigSep Finset.univ fun i : Fin 64 => held (F := F) c (ypc oM c i) f)
          ∗ (bigSep Finset.univ fun i : Fin 64 => held (F := F) c (ypc oM (yn c) i) f)) :=
  Entails.of_eq (out_eq c f)

theorem out_join (c : Dev nD) (f : Buf (Elt F) ((c : Thread nD τ).loc main_v1)) :
    iprop((bigSep Finset.univ fun k : Fin 16 => held (F := F) c (ldst oM c k) f)
          ∗ (bigSep Finset.univ fun i : Fin 64 => held (F := F) c (ypc oM c i) f)
          ∗ (bigSep Finset.univ fun i : Fin 64 => held (F := F) c (ypc oM (yn c) i) f))
      ⊢ ((((c : Thread nD τ).loc main_v1) ↦{fullShare} f : sProp 𝕄)) :=
  Entails.of_eq (out_eq c f).symm

/-! ## The staging buffer -/

/-- The elements of the staging buffer under slot `b`. -/
abbrev sSet (c : Dev nD) (b : Fin 4) : Finset (Idx ((c : Thread nD τ).loc cc0_scratch0)) := (slot sM b).view.set

theorem mem_slot (c : Dev nD) (b : Fin 4) (x : Idx ((c : Thread nD τ).loc cc0_scratch0)) :
    x ∈ sSet c b ↔ (x 0).val = b.val := by
  have e : sSet c b = (Rect.unit (s := S4x1024x1024) ![b.val, 0, 0] S1x1024x1024.size (inbSlot b)).set :=
    (View.set_reshape _ _).trans (View.set_slice_whole _ _)
  rw [e]
  refine (Rect.mem_set_unit (s := S4x1024x1024)).trans ⟨fun h => ?_, fun h a => ?_⟩
  · have h0 : b.val ≤ (x 0).val ∧ (x 0).val < b.val + 1 := h 0
    omega
  · have h1 : (x 1).val < 1024 := (x 1).isLt
    have h2 : (x 2).val < 1024 := (x 2).isLt
    fin_cases a
    · show b.val ≤ (x 0).val ∧ (x 0).val < b.val + 1
      omega
    · show 0 ≤ (x 1).val ∧ (x 1).val < 0 + 1024
      omega
    · show 0 ≤ (x 2).val ∧ (x 2).val < 0 + 1024
      omega

theorem slot_disjoint (c : Dev nD) (b b' : Fin 4) (h : b ≠ b') : Disjoint (sSet c b) (sSet c b') := by
  refine Finset.disjoint_left.mpr fun x hx hx' => ?_
  have h1 := (mem_slot c b x).mp hx
  have h2 := (mem_slot c b' x).mp hx'
  exact h (Fin.ext (h1.symm.trans h2))

theorem slot_cover (c : Dev nD) : Finset.univ.biUnion (sSet c) = Finset.univ := by
  refine Finset.eq_univ_iff_forall.mpr fun x => ?_
  have h0 : (x 0).val < 4 := (x 0).isLt
  exact Finset.mem_biUnion.mpr ⟨⟨(x 0).val, h0⟩, Finset.mem_univ _, (mem_slot c _ x).mpr rfl⟩

/-- The staging buffer is its four slots. -/
theorem stage_split (c : Dev nD) (f : Buf (Elt F) ((c : Thread nD τ).loc cc0_scratch0)) :
    ((((c : Thread nD τ).loc cc0_scratch0) ↦{fullShare} f : sProp 𝕄))
      ⊢ bigSep Finset.univ fun b : Fin 4 => held (F := F) c (slot sM b) f := by
  classical
  have hS := pointsTo_biUnion (Ix := Unit) (Name := ℕ) (U := UU) (Lvl := ℕ) (ℓ := (c : Thread nD τ).loc cc0_scratch0) (q := fullShare) (f := f)
    (Finset.univ : Finset (Fin 4)) (sSet c) (fun b _ b' _ h => slot_disjoint c b b' h)
  rw [slot_cover c] at hS
  exact Entails.of_eq hS

/-- Four slots at whatever contents are the staging buffer at some contents. -/
theorem stage_join (c : Dev nD) :
    (bigSep Finset.univ fun b : Fin 4 => iprop(∃ f, held (F := F) c (slot sM b) f) : sProp 𝕄)
      ⊢ iprop(∃ f : Buf (Elt F) ((c : Thread nD τ).loc cc0_scratch0), ((c : Thread nD τ).loc cc0_scratch0) ↦{fullShare} f) := by
  classical
  have main : ∀ f₀ : Buf (Elt F) ((c : Thread nD τ).loc cc0_scratch0),
      (bigSep Finset.univ fun b : Fin 4 => iprop(∃ f, held (F := F) c (slot sM b) f) : sProp 𝕄)
        ⊢ iprop(∃ f : Buf (Elt F) ((c : Thread nD τ).loc cc0_scratch0), ((c : Thread nD τ).loc cc0_scratch0) ↦{fullShare} f) := by
    intro f₀
    haveI : Nonempty (Buf (Elt F) ((c : Thread nD τ).loc cc0_scratch0)) := ⟨f₀⟩
    refine (bigSep_exists_pi (Y := fun _ : Fin 4 => Buf (Elt F) ((c : Thread nD τ).loc cc0_scratch0)) Finset.univ
      (fun b f => held (F := F) c (slot sM b) f)).trans (exists_elim fun y => ?_)
    refine (pointsTo_biUnion_join (Ix := Unit) (Name := ℕ) (U := UU) (Lvl := ℕ) (ℓ := (c : Thread nD τ).loc cc0_scratch0) (q := fullShare)
      (Finset.univ : Finset (Fin 4)) (sSet c) y f₀ (fun b _ b' _ h => slot_disjoint c b b' h)).trans ?_
    rw [slot_cover c]
    iintro ⟨%g, -, H⟩
    iexists g
    iexact H
  have e : (bigSep Finset.univ fun b : Fin 4 => iprop(∃ f, held (F := F) c (slot sM b) f) : sProp 𝕄)
      = iprop((∃ f, held (F := F) c (slot sM 0) f)
          ∗ bigSep (Finset.univ.erase (0 : Fin 4)) fun b : Fin 4 => iprop(∃ f, held (F := F) c (slot sM b) f)) :=
    bigSep_univ_split (0 : Fin 4)
  refine (Entails.of_eq e).trans ?_
  iintro ⟨⟨%f₀, H0⟩, Hr⟩
  iapply (main f₀)
  iapply (Entails.of_eq e.symm)
  isplitl [H0]
  · iexists f₀; iexact H0
  · iexact Hr

/-! ## The device's block of the input -/

/-- The elements of the block under chunk `i` of what the first phase sends, and under chunk `k` of
    what the local copies read. -/
abbrev xSetS (c : Dev nD) (i : Fin 64) : Finset (Idx ((c : Thread nD τ).loc main_arg0)) := (xsrc xM c i).view.set
abbrev xSetL (c : Dev nD) (k : Fin 16) : Finset (Idx ((c : Thread nD τ).loc main_arg0)) := (lsrc xM k).view.set

theorem mem_xsrc (c : Dev nD) (i : Fin 64) (x : Idx ((c : Thread nD τ).loc main_arg0)) :
    x ∈ xSetS c i ↔ 8192 * (c.val % 2) + 128 * i.val ≤ (x 0).val ∧ (x 0).val < 8192 * (c.val % 2) + 128 * i.val + 128 := by
  have e : xSetS c i = (Rect.unit (s := S16384x1024) (k0_off2 c (BitVec.ofNat 32 (128 * i.val))) S128x1024.size (Gen.k0_off2_inb c i)).set :=
    View.set_slice_whole _ _
  rw [e]
  refine (Rect.mem_set_unit (s := S16384x1024)).trans ?_
  rw [k0_off2_eq, Fin.forall_fin_two]
  have h1 : (x 1).val < 1024 := (x 1).isLt
  simp only [Matrix.cons_val_zero, Matrix.cons_val_one]
  omega

theorem mem_lsrc (c : Dev nD) (k : Fin 16) (x : Idx ((c : Thread nD τ).loc main_arg0)) :
    x ∈ xSetL c k ↔ 1024 * k.val ≤ (x 0).val ∧ (x 0).val < 1024 * k.val + 1024 := by
  have e : xSetL c k = (Rect.unit (s := S16384x1024) ![1024 * k.val, 0] S1024x1024.size (inbRow k)).set :=
    View.set_slice_whole _ _
  rw [e]
  refine (Rect.mem_set_unit (s := S16384x1024)).trans ?_
  rw [Fin.forall_fin_two]
  have h1 : (x 1).val < 1024 := (x 1).isLt
  simp only [Matrix.cons_val_zero, Matrix.cons_val_one]
  omega

theorem xsrc_disjoint (c : Dev nD) (i i' : Fin 64) (h : i ≠ i') : Disjoint (xSetS c i) (xSetS c i') := by
  refine Finset.disjoint_left.mpr fun x hx hx' => ?_
  have h1 := (mem_xsrc c i x).mp hx
  have h2 := (mem_xsrc c i' x).mp hx'
  have : i.val ≠ i'.val := fun e => h (Fin.ext e)
  omega

theorem lsrc_disjoint (c : Dev nD) (k k' : Fin 16) (h : k ≠ k') : Disjoint (xSetL c k) (xSetL c k') := by
  refine Finset.disjoint_left.mpr fun x hx hx' => ?_
  have h1 := (mem_lsrc c k x).mp hx
  have h2 := (mem_lsrc c k' x).mp hx'
  have : k.val ≠ k'.val := fun e => h (Fin.ext e)
  omega

/-- The device's block, read-only: a share kept, a share of each chunk the first phase sends, a share of
    each chunk the local copies read. -/
theorem x_split (c : Dev nD) :
    ((((c : Thread nD τ).loc main_arg0) ↦{fullShare} X m c : sProp 𝕄))
      ⊢ iprop((∃ q : PosShare TreeShare, ((c : Thread nD τ).loc main_arg0) ↦{q} X m c)
          ∗ (bigSep Finset.univ fun i : Fin 64 => iprop(∃ q : PosShare TreeShare,
              (xsrc xM c i).view.loc (c : Thread nD τ) ↦[(xsrc xM c i).view.set]{q} X m c))
          ∗ (bigSep Finset.univ fun k : Fin 16 => iprop(∃ q : PosShare TreeShare,
              (lsrc xM k).view.loc (c : Thread nD τ) ↦[(lsrc xM k).view.set]{q} X m c))) := by
  classical
  have hS := pointsTo_biUnion (Ix := Unit) (Name := ℕ) (U := UU) (Lvl := ℕ) (ℓ := (c : Thread nD τ).loc main_arg0) (q := fullShare.right.left) (f := X m c)
    (Finset.univ : Finset (Fin 64)) (xSetS c) (fun i _ i' _ h => xsrc_disjoint c i i' h)
  have hL := pointsTo_biUnion (Ix := Unit) (Name := ℕ) (U := UU) (Lvl := ℕ) (ℓ := (c : Thread nD τ).loc main_arg0) (q := fullShare.right.right) (f := X m c)
    (Finset.univ : Finset (Fin 16)) (xSetL c) (fun k _ k' _ h => lsrc_disjoint c k k' h)
  have hSm : (bigSep Finset.univ fun i : Fin 64 => ((c : Thread nD τ).loc main_arg0 ↦[xSetS c i]{fullShare.right.left} X m c : sProp 𝕄))
      ⊢ bigSep Finset.univ fun i : Fin 64 => iprop(∃ q : PosShare TreeShare,
              (xsrc xM c i).view.loc (c : Thread nD τ) ↦[(xsrc xM c i).view.set]{q} X m c) :=
    bigSep_mono fun i _ => exists_intro (Φ := fun q : PosShare TreeShare =>
      ((xsrc xM c i).view.loc (c : Thread nD τ) ↦[(xsrc xM c i).view.set]{q} X m c : sProp 𝕄)) fullShare.right.left
  have hLm : (bigSep Finset.univ fun k : Fin 16 => ((c : Thread nD τ).loc main_arg0 ↦[xSetL c k]{fullShare.right.right} X m c : sProp 𝕄))
      ⊢ bigSep Finset.univ fun k : Fin 16 => iprop(∃ q : PosShare TreeShare,
              (lsrc xM k).view.loc (c : Thread nD τ) ↦[(lsrc xM k).view.set]{q} X m c) :=
    bigSep_mono fun k _ => exists_intro (Φ := fun q : PosShare TreeShare =>
      ((lsrc xM k).view.loc (c : Thread nD τ) ↦[(lsrc xM k).view.set]{q} X m c : sProp 𝕄)) fullShare.right.right
  iintro H
  ihave H := (pointsTo_share (PosShare.mem_left_op_right fullShare)).1 $$ H
  icases H with ⟨Hl, Hr⟩
  ihave Hr := (pointsTo_share (PosShare.mem_left_op_right fullShare.right)).1 $$ Hr
  icases Hr with ⟨Hrl, Hrr⟩
  ihave Hrl := (pointsTo_split_subset (Finset.subset_univ (Finset.univ.biUnion (xSetS c)))).1 $$ Hrl
  icases Hrl with ⟨HS, -⟩
  ihave Hrr := (pointsTo_split_subset (Finset.subset_univ (Finset.univ.biUnion (xSetL c)))).1 $$ Hrr
  icases Hrr with ⟨HL, -⟩
  isplitl [Hl]
  · iexists fullShare.left; iexact Hl
  isplitl [HS]
  · iapply hSm; iapply (Entails.of_eq hS); iexact HS
  · iapply hLm; iapply (Entails.of_eq hL); iexact HL

end Cert.Kernel.AG

end
-- ==== Proof.Bits.Reindex.lean ====
/- The 264 DMA semaphores of a device are its six families: the read and write semaphores of the four
   slots, and the send and receive semaphores of the sixty-four chunks of each phase. -/
import proofs.«900079_g7700000000000080_dist_ag_v7x_xy2x2_x_m16384_n1024_f32_1_alg».proof.Proof.Bits.Schedule

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {M : Type} [URA M]

/-! ## The six families enumerate the semaphores -/

/-- The six families side by side. -/
def famMap : Fin 4 ⊕ Fin 4 ⊕ Fin 64 ⊕ Fin 64 ⊕ Fin 64 ⊕ Fin 64 → DmaSem sig :=
  Sum.elim rdS (Sum.elim wrS (Sum.elim xsS (Sum.elim xrS (Sum.elim ysS yrS))))

/-- Each family is a run of consecutive numbers: from 0, 4, 8, 72, 136 and 200. -/
theorem famMap_val (x : Fin 4 ⊕ Fin 4 ⊕ Fin 64 ⊕ Fin 64 ⊕ Fin 64 ⊕ Fin 64) :
    (famMap x).val = Sum.elim (fun a => a.val) (Sum.elim (fun a => 4 + a.val) (Sum.elim (fun a => 8 + a.val)
      (Sum.elim (fun a => 72 + a.val) (Sum.elim (fun a => 136 + a.val) (fun a => 200 + a.val))))) x := by
  rcases x with a | a | a | a | a | a
  exacts [rdS_val a, wrS_val a, xsS_val a, xrS_val a, ysS_val a, yrS_val a]

/-- The runs do not overlap, -/
theorem famMap_injective : Function.Injective famMap := by
  intro x y h
  have hv := congrArg Fin.val h
  rw [famMap_val, famMap_val] at hv
  rcases x with a | a | a | a | a | a <;> rcases y with a' | a' | a' | a' | a' | a' <;>
    simp only [Sum.elim_inl, Sum.elim_inr] at hv <;>
    first
    | (exfalso; have := a.isLt; have := a'.isLt; omega)
    | (obtain rfl : a = a' := Fin.ext (by omega); rfl)

/-- and there are as many of them as semaphores. -/
theorem famMap_bijective : Function.Bijective famMap :=
  (Fintype.bijective_iff_injective_and_card famMap).mpr ⟨famMap_injective, by
    simp only [Fintype.card_sum, Fintype.card_fin]⟩

def famE : Fin 4 ⊕ Fin 4 ⊕ Fin 64 ⊕ Fin 64 ⊕ Fin 64 ⊕ Fin 64 ≃ DmaSem sig := Equiv.ofBijective famMap famMap_bijective

/-- An assertion per DMA semaphore, all of them: the six families' in turn. -/
theorem dma_family_split (Φ : DmaSem sig → sProp M) :
    bigSep Finset.univ Φ
      = iprop((bigSep Finset.univ fun b : Fin 4 => Φ (rdS b)) ∗ (bigSep Finset.univ fun b : Fin 4 => Φ (wrS b))
          ∗ (bigSep Finset.univ fun i : Fin 64 => Φ (xsS i)) ∗ (bigSep Finset.univ fun i : Fin 64 => Φ (xrS i))
          ∗ (bigSep Finset.univ fun i : Fin 64 => Φ (ysS i)) ∗ (bigSep Finset.univ fun i : Fin 64 => Φ (yrS i))) := by
  rw [bigSep_univ_equiv famE Φ, bigSep_univ_sum, bigSep_univ_sum, bigSep_univ_sum, bigSep_univ_sum, bigSep_univ_sum]
  rfl

/-! ## Chunks by slot and round -/

/-- Chunk `b + 4 r` is the one slot `b` carries in round `r`: slot `k % 4`, round `k / 4`. -/
def chunkE : Fin 4 × Fin 4 ≃ Fin 16 where
  toFun p := ⟨p.1.val + 4 * p.2.val, by omega⟩
  invFun k := (⟨k.val % 4, by omega⟩, ⟨k.val / 4, by omega⟩)
  left_inv p := by
    have := p.1.isLt; have := p.2.isLt
    exact Prod.ext (Fin.ext (by show (p.1.val + 4 * p.2.val) % 4 = p.1.val; omega))
      (Fin.ext (by show (p.1.val + 4 * p.2.val) / 4 = p.2.val; omega))
  right_inv k := Fin.ext (by show k.val % 4 + 4 * (k.val / 4) = k.val; omega)

/-- An assertion per chunk of the device's block is one per slot and round. -/
theorem chunk_family_split (Φ : Fin 16 → sProp M) :
    bigSep Finset.univ Φ
      = bigSep Finset.univ fun b : Fin 4 => bigSep Finset.univ fun r : Fin 4 => Φ ⟨b.val + 4 * r.val, by omega⟩ := by
  rw [bigSep_univ_equiv chunkE Φ, bigSep_univ_prod]
  rfl

/-- info: 'Cert.Kernel.AG.dma_family_split' depends on axioms: [propext, Classical.choice, Quot.sound] -/
#guard_msgs in #print axioms dma_family_split
/-- info: 'Cert.Kernel.AG.chunk_family_split' depends on axioms: [propext, Classical.choice, Quot.sound] -/
#guard_msgs in #print axioms chunk_family_split

end Cert.Kernel.AG

end
-- ==== Proof.Bits.Loop.lean ====
/- Two general lemmas for a body that is a sequence of like steps: a sequence of `n` steps keeps an
   invariant indexed by the step number if each step takes it to the next; and a family of assertions,
   one per index, of which a step changes only one (or two) members. -/
import proofs.«900079_g7700000000000080_dist_ag_v7x_xy2x2_x_m16384_n1024_f32_1_alg».proof.Proof.Bits.Program
import Idealize.ShloMosaic.Lib.Tactic

noncomputable section

namespace Cert.Kernel.AG

open Idealize.SL Idealize.SL.RA Idealize.SL.BI
open scoped Idealize.SL.BI
open Idealize.SL.BI.BIBase Idealize.SL.BI.Laws Idealize.SL.ProofMode Idealize.SL.Sem

section Loop

variable {Ef : Type → Type} {M : Type} [URA M] {Mask : Type}
variable (Fr : Mask → sProp M) (wpE : Mask → ∀ ⦃β : Type⦄, Ef β → sWPT M β) (E : Mask)

/-- `n` steps from step `i`: the invariant moves from `i` to `i + n`. -/
theorem wp_seqR (f : ℕ → Prog Ef PUnit) (Inv : ℕ → sProp M) (n : ℕ) :
    ∀ i, (∀ j, i ≤ j → j < i + n → Inv j ⊢ wp Fr wpE E (f j) (fun _ => Inv (j + 1))) →
      Inv i ⊢ wp Fr wpE E (seqR f i n) (fun _ => Inv (i + n)) := by
  induction n with
  | zero =>
    intro i _
    rw [seqR_zero]
    exact le_wp_ret Fr wpE E PUnit.unit (fun _ => Inv (i + 0))
  | succ n ih =>
    intro i h
    rw [seqR_succ, wp_bind]
    refine (h i le_rfl (by omega)).trans (wp_mono Fr wpE E fun _ => ?_)
    have h' := ih (i + 1) (fun j h1 h2 => h j (by omega) (by omega))
    rw [show i + (n + 1) = i + 1 + n by omega]
    exact h'

/-- The same with the rest of the program after the steps, each step given with ITS rest. -/
theorem wp_seqR_then {α : Type} (f : ℕ → Prog Ef PUnit) (Inv : ℕ → sProp M) (Q : α → sProp M) (n : ℕ) :
    ∀ (i : ℕ) (k : PUnit → Prog Ef α),
      (∀ j, i ≤ j → j < i + n → ∀ k' : PUnit → Prog Ef α,
        iprop(Inv j ∗ (Inv (j + 1) -∗ wp Fr wpE E (k' ⟨⟩) Q)) ⊢ wp Fr wpE E (f j >>= k') Q) →
      iprop(Inv i ∗ (Inv (i + n) -∗ wp Fr wpE E (k ⟨⟩) Q)) ⊢ wp Fr wpE E (seqR f i n >>= k) Q := by
  induction n with
  | zero =>
    intro i k _
    rw [seqR_zero]
    show iprop(Inv i ∗ (Inv (i + 0) -∗ wp Fr wpE E (k ⟨⟩) Q)) ⊢ wp Fr wpE E (k ⟨⟩) Q
    iintro ⟨HI, Hk⟩
    iapply Hk; iexact HI
  | succ n ih =>
    intro i k h
    rw [seqR_succ, Prog.bind_assoc]
    iintro ⟨HI, Hk⟩
    iapply (h i le_rfl (by omega) (fun _ => seqR f (i + 1) n >>= k))
    isplitl [HI]; · iexact HI
    iintro HI'
    iapply (ih (i + 1) k (fun j h1 h2 k' => h j (by omega) (by omega) k'))
    isplitl [HI']; · iexact HI'
    rw [show i + 1 + n = i + (n + 1) by omega]
    iexact Hk

end Loop

section Family

variable {M : Type} [URA M] {I : Type} [Fintype I] [DecidableEq I]

/-- One member of a family changes: take it out, put the new one in. -/
theorem bigSep_update (St St' : I → sProp M) (j : I) (h : ∀ j', j' ≠ j → St j' = St' j') :
    bigSep Finset.univ St ⊢ iprop(St j ∗ (St' j -∗ bigSep Finset.univ St')) := by
  rw [bigSep_univ_at St j, bigSep_univ_at St' j,
    bigSep_congr (s := Finset.univ.erase j) (Φ := St) (Ψ := St') fun j' hj' => h j' (Finset.ne_of_mem_erase hj')]
  iintro ⟨Hj, Hr⟩
  isplitl [Hj]; · iexact Hj
  iintro Hj'
  isplitl [Hj']; · iexact Hj'
  iexact Hr

/-- Two members change. -/
theorem bigSep_update2 (St St' : I → sProp M) (j₁ j₂ : I) (hne : j₁ ≠ j₂)
    (h : ∀ j', j' ≠ j₁ → j' ≠ j₂ → St j' = St' j') :
    bigSep Finset.univ St ⊢ iprop(St j₁ ∗ St j₂ ∗ ((St' j₁ ∗ St' j₂) -∗ bigSep Finset.univ St')) := by
  have m2 : j₂ ∈ Finset.univ.erase j₁ := Finset.mem_erase.mpr ⟨hne.symm, Finset.mem_univ _⟩
  rw [bigSep_univ_at St j₁, bigSep_univ_at St' j₁, bigSep_erase m2 (Φ := St), bigSep_erase m2 (Φ := St'),
    bigSep_congr (s := (Finset.univ.erase j₁).erase j₂) (Φ := St) (Ψ := St') fun j' hj' =>
      h j' (Finset.ne_of_mem_erase (Finset.mem_of_mem_erase hj')) (Finset.ne_of_mem_erase hj')]
  show iprop(St j₁ ∗ St j₂ ∗ bigSep ((Finset.univ.erase j₁).erase j₂) St') ⊢ iprop(St j₁ ∗ St j₂ ∗ ((St' j₁ ∗ St' j₂) -∗ (St' j₁ ∗ St' j₂ ∗ bigSep ((Finset.univ.erase j₁).erase j₂) St')))
  iintro ⟨H1, H2, Hr⟩
  isplitl [H1]; · iexact H1
  isplitl [H2]; · iexact H2
  iintro ⟨H1', H2'⟩
  isplitl [H1']; · iexact H1'
  isplitl [H2']; · iexact H2'
  iexact Hr

end Family

end Cert.Kernel.AG

end
-- ==== Proof.Bits.Owed.lean ====
/- What a device still owes its neighbours' receive cells, by how many chunks it has sent. -/
import proofs.«900079_g7700000000000080_dist_ag_v7x_xy2x2_x_m16384_n1024_f32_1_alg».proof.Proof.Bits.Schedule

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## What is still owed, by chunk number -/

/-- The first phase's chunks from `i` on, owed to the row neighbour's receive cells. -/
def OX (c : Dev nD) (i : ℕ) : CellTallies nD τ sig Unit :=
  ∑ j : Fin 64, if i ≤ j.val then tallyAt (dmaC (xn c) (xrS j)) () N else 0
/-- The second phase's, to the column neighbour's. -/
def OY (c : Dev nD) (i : ℕ) : CellTallies nD τ sig Unit :=
  ∑ j : Fin 64, if i ≤ j.val then tallyAt (dmaC (yn c) (yrS j)) () N else 0

theorem OX_succ (c : Dev nD) (i : Fin 64) : OX c i.val = OX c (i.val + 1) + tallyAt (dmaC (xn c) (xrS i)) () N := by
  unfold OX
  rw [← Finset.add_sum_erase _ _ (Finset.mem_univ i), ← Finset.add_sum_erase (a := i) _ _ (Finset.mem_univ i),
    if_pos le_rfl, if_neg (by omega), zero_add, add_comm]
  congr 1
  refine Finset.sum_congr rfl fun j hj => ?_
  have hne : j.val ≠ i.val := fun h => Finset.ne_of_mem_erase hj (Fin.ext h)
  by_cases h : i.val ≤ j.val
  · rw [if_pos h, if_pos (by omega)]
  · rw [if_neg h, if_neg (by omega)]
theorem OY_succ (c : Dev nD) (i : Fin 64) : OY c i.val = OY c (i.val + 1) + tallyAt (dmaC (yn c) (yrS i)) () N := by
  unfold OY
  rw [← Finset.add_sum_erase _ _ (Finset.mem_univ i), ← Finset.add_sum_erase (a := i) _ _ (Finset.mem_univ i),
    if_pos le_rfl, if_neg (by omega), zero_add, add_comm]
  congr 1
  refine Finset.sum_congr rfl fun j hj => ?_
  have hne : j.val ≠ i.val := fun h => Finset.ne_of_mem_erase hj (Fin.ext h)
  by_cases h : i.val ≤ j.val
  · rw [if_pos h, if_pos (by omega)]
  · rw [if_neg h, if_neg (by omega)]
theorem OX_zero (c : Dev nD) : OX c 0 = ∑ j : Fin 64, tallyAt (dmaC (xn c) (xrS j)) () N := by
  unfold OX; exact Finset.sum_congr rfl fun j _ => if_pos (Nat.zero_le _)
theorem OY_zero (c : Dev nD) : OY c 0 = ∑ j : Fin 64, tallyAt (dmaC (yn c) (yrS j)) () N := by
  unfold OY; exact Finset.sum_congr rfl fun j _ => if_pos (Nat.zero_le _)
theorem OX_end (c : Dev nD) : OX c 64 = 0 := by
  unfold OX; exact Finset.sum_eq_zero fun j _ => if_neg (by have := j.isLt; omega)
theorem OY_end (c : Dev nD) : OY c 64 = 0 := by
  unfold OY; exact Finset.sum_eq_zero fun j _ => if_neg (by have := j.isLt; omega)

end Cert.Kernel.AG

end
-- ==== Proof.Bits.Levels.lean ====
/- The levels' word at each wait: a device waits on a cell only below everything it still owes. -/
import proofs.«900079_g7700000000000080_dist_ag_v7x_xy2x2_x_m16384_n1024_f32_1_alg».proof.Proof.Bits.Steps
import proofs.«900079_g7700000000000080_dist_ag_v7x_xy2x2_x_m16384_n1024_f32_1_alg».proof.Proof.Bits.Owed

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The level of each cell -/

theorem lv_bar (c : Dev nD) : lv (barC c) () = 1 := rfl
theorem lv_rd (c : Dev nD) (b : Fin 4) : lv (dmaC c (rdS b)) () = 0 := by
  show (if 72 ≤ (rdS b).val ∧ (rdS b).val < 136 then 2 else if 200 ≤ (rdS b).val then 3 else 0) = 0
  have := rdS_val b; have := b.isLt
  rw [if_neg (by omega), if_neg (by omega)]
theorem lv_wr (c : Dev nD) (b : Fin 4) : lv (dmaC c (wrS b)) () = 0 := by
  show (if 72 ≤ (wrS b).val ∧ (wrS b).val < 136 then 2 else if 200 ≤ (wrS b).val then 3 else 0) = 0
  have := wrS_val b; have := b.isLt
  rw [if_neg (by omega), if_neg (by omega)]
theorem lv_xs (c : Dev nD) (i : Fin 64) : lv (dmaC c (xsS i)) () = 0 := by
  show (if 72 ≤ (xsS i).val ∧ (xsS i).val < 136 then 2 else if 200 ≤ (xsS i).val then 3 else 0) = 0
  have := xsS_val i; have := i.isLt
  rw [if_neg (by omega), if_neg (by omega)]
theorem lv_xr (c : Dev nD) (i : Fin 64) : lv (dmaC c (xrS i)) () = 2 := by
  show (if 72 ≤ (xrS i).val ∧ (xrS i).val < 136 then 2 else if 200 ≤ (xrS i).val then 3 else 0) = 2
  have := xrS_val i; have := i.isLt
  rw [if_pos (by omega)]
theorem lv_ys (c : Dev nD) (i : Fin 64) : lv (dmaC c (ysS i)) () = 0 := by
  show (if 72 ≤ (ysS i).val ∧ (ysS i).val < 136 then 2 else if 200 ≤ (ysS i).val then 3 else 0) = 0
  have := ysS_val i; have := i.isLt
  rw [if_neg (by omega), if_neg (by omega)]
theorem lv_yr (c : Dev nD) (i : Fin 64) : lv (dmaC c (yrS i)) () = 3 := by
  show (if 72 ≤ (yrS i).val ∧ (yrS i).val < 136 then 2 else if 200 ≤ (yrS i).val then 3 else 0) = 3
  have := yrS_val i; have := i.isLt
  rw [if_neg (by omega), if_pos (by omega)]

/-! ## Where something is owed -/

/-- A tally of one cell is positive only at that cell. -/
theorem pos_tallyAt {g g' : GSem nD τ sig} {u : Unit} {k : ℕ} (h : 0 < tallyAt g' () k g u) : g = g' := by
  rw [tallyAt_apply] at h
  by_cases hg : g = g' ∧ u = ()
  · exact hg.1
  · rw [if_neg hg] at h; exact absurd h (lt_irrefl 0)

/-- What is owed of the first phase is owed to a receive cell of the row neighbour, -/
theorem pos_OX {c : Dev nD} {i : ℕ} {g : GSem nD τ sig} {u : Unit} (h : 0 < OX c i g u) :
    ∃ j : Fin 64, g = dmaC (xn c) (xrS j) := by
  unfold OX at h
  obtain ⟨j, -, hj⟩ := Pipeline.sum_pos_exists h
  by_cases hij : i ≤ j.val
  · rw [if_pos hij] at hj; exact ⟨j, pos_tallyAt hj⟩
  · rw [if_neg hij] at hj; exact absurd hj (lt_irrefl 0)

/-- and of the second phase to one of the column neighbour. -/
theorem pos_OY {c : Dev nD} {i : ℕ} {g : GSem nD τ sig} {u : Unit} (h : 0 < OY c i g u) :
    ∃ j : Fin 64, g = dmaC (yn c) (yrS j) := by
  unfold OY at h
  obtain ⟨j, -, hj⟩ := Pipeline.sum_pos_exists h
  by_cases hij : i ≤ j.val
  · rw [if_pos hij] at hj; exact ⟨j, pos_tallyAt hj⟩
  · rw [if_neg hij] at hj; exact absurd hj (lt_irrefl 0)

/-! ## The waits -/

/-- While the second phase's chunks from `i` on are all a device owes, it may wait on any cell of its own below level 3. -/
theorem mayWait_OY (c : Dev nD) (sm : SemLoc sig) (i : ℕ) (h : lv ((c : Thread nD τ), sm) () < 3) :
    (levAts L lv : sProp 𝕄) ⊢ MayWait (c : Thread nD τ) sm () (OY c i) := by
  refine mayWait_lv (F := F) c sm (OY c i) fun g u hg => ?_
  obtain ⟨j, rfl⟩ := pos_OY hg
  exact ⟨rfl, by rw [lv_yr]; exact h⟩

/-- At its barrier wait a device owes both phases' chunks: receive cells, all above the barrier's level. -/
theorem mayWait_bar (c : Dev nD) :
    (levAts L lv : sProp 𝕄) ⊢ MayWait (c : Thread nD τ) (.reg barS) () (OX c 0 + OY c 0) := by
  refine mayWait_lv (F := F) c (.reg barS) (OX c 0 + OY c 0) fun g u hg => ?_
  rcases Pipeline.add_pos_cases hg with hg | hg
  · obtain ⟨j, rfl⟩ := pos_OX hg
    exact ⟨rfl, by rw [lv_xr]; exact (lv_bar c).trans_lt (by decide)⟩
  · obtain ⟨j, rfl⟩ := pos_OY hg
    exact ⟨rfl, by rw [lv_yr]; exact (lv_bar c).trans_lt (by decide)⟩

/-- info: 'Cert.Kernel.AG.mayWait_OY' depends on axioms: [propext, Classical.choice, Quot.sound] -/
#guard_msgs in #print axioms mayWait_OY
/-- info: 'Cert.Kernel.AG.mayWait_bar' depends on axioms: [propext, Classical.choice, Quot.sound] -/
#guard_msgs in #print axioms mayWait_bar

end Cert.Kernel.AG

end
-- ==== Proof.Bits.Families.lean ====
/- The assertions of one device's body, phase by phase. Each phase is a sequence of like steps over a family of
   assertions indexed by the chunk number: the member of a chunk not yet reached holds what its step
   will take, the member of a chunk already done what its step gave back; a step changes one member. -/
import proofs.«900079_g7700000000000080_dist_ag_v7x_xy2x2_x_m16384_n1024_f32_1_alg».proof.Proof.Bits.Steps
import proofs.«900079_g7700000000000080_dist_ag_v7x_xy2x2_x_m16384_n1024_f32_1_alg».proof.Proof.Bits.Partition
import proofs.«900079_g7700000000000080_dist_ag_v7x_xy2x2_x_m16384_n1024_f32_1_alg».proof.Proof.Bits.Reindex
import proofs.«900079_g7700000000000080_dist_ag_v7x_xy2x2_x_m16384_n1024_f32_1_alg».proof.Proof.Bits.Loop
import proofs.«900079_g7700000000000080_dist_ag_v7x_xy2x2_x_m16384_n1024_f32_1_alg».proof.Proof.Bits.Owed
import proofs.«900079_g7700000000000080_dist_ag_v7x_xy2x2_x_m16384_n1024_f32_1_alg».proof.Proof.Bits.Levels

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The records, cell by cell -/

theorem mem_allCells_dma (c : Dev nD) (q : DmaSem sig) : dmaC c q ∈ allCells :=
  Finset.mem_map.mpr ⟨(c, some q), Finset.mem_univ _, rfl⟩
theorem mem_allCells_bar (c : Dev nD) : barC c ∈ allCells :=
  Finset.mem_map.mpr ⟨(c, none), Finset.mem_univ _, rfl⟩

theorem inv_dma (K : GSem nD τ sig → ℕ) (c : Dev nD) (q : DmaSem sig) :
    records (F := F) m K ⊢ cellInv ER (sched m) (K (dmaC c q)) (dmaC c q) := by
  have h : (bigSep allCells fun g => (cellInv ER (sched (F := F) m) (K g) g : sProp 𝕄)) ⊢ cellInv ER (sched m) (K (dmaC c q)) (dmaC c q) :=
    bigSep_elim (mem_allCells_dma c q)
  unfold records; iintro ⟨H, -⟩; iapply h; iexact H
theorem inv_bar (K : GSem nD τ sig → ℕ) (c : Dev nD) :
    records (F := F) m K ⊢ cellInv ER (sched m) (K (barC c)) (barC c) := by
  have h : (bigSep allCells fun g => (cellInv ER (sched (F := F) m) (K g) g : sProp 𝕄)) ⊢ cellInv ER (sched m) (K (barC c)) (barC c) :=
    bigSep_elim (mem_allCells_bar c)
  unfold records; iintro ⟨H, -⟩; iapply h; iexact H
theorem reached_dma (K : GSem nD τ sig → ℕ) (c : Dev nD) (q : DmaSem sig) :
    records (F := F) m K ⊢ reached ER (dmaC c q) 0 := by
  have h : (bigSep allCells fun g => (reached ER g 0 : sProp 𝕄)) ⊢ reached ER (dmaC c q) 0 := bigSep_elim (mem_allCells_dma c q)
  unfold records; iintro ⟨-, H⟩; iapply h; iexact H
theorem reached_bar (K : GSem nD τ sig → ℕ) (c : Dev nD) :
    records (F := F) m K ⊢ reached ER (barC c) 0 := by
  have h : (bigSep allCells fun g => (reached ER g 0 : sProp 𝕄)) ⊢ reached ER (barC c) 0 := bigSep_elim (mem_allCells_bar c)
  unfold records; iintro ⟨-, H⟩; iapply h; iexact H

/-! ## The families -/

section Families
variable (K : GSem nD τ sig → ℕ) (c : Dev nD)

/-- What every step may use again and again: the cells' invariants and first rounds, and the levels. -/
def Rp : sProp 𝕄 := iprop(records m K ∗ levAts L lv)
instance Rp_persistent : BI.Persistent (Rp (F := F) m K) := by unfold Rp; infer_instance

/-! ### The first phase: chunk `j` goes to the row neighbour -/

/-- Chunk `j` before its copy: a share of its rows of the block, the neighbour's chunk it lands in, the two
    tokens; after: the credit for the copy's departure. -/
def XS (i : ℕ) (j : Fin 64) : sProp 𝕄 :=
  if j.val < i then cred (tallyAt (dmaC c (xsS j)) () N)
  else iprop((∃ q : PosShare TreeShare, (xsrc xM c j).view.loc (c : Thread nD τ) ↦[(xsrc xM c j).view.set]{q} X m c)
      ∗ (∃ f, held (F := F) (xn c) (ypc oM (xn c) j) f)
      ∗ dutyTok ER (dmaC c (xsS j)) 0 false ∗ dutyTok ER (dmaC (xn c) (xrS j)) 0 false)

def Inv1 (O' : CellTallies nD τ sig Unit) (i : ℕ) : sProp 𝕄 :=
  iprop(Rp m K ∗ bigSep Finset.univ (XS m c i) ∗ ∃ W, owes (c : Thread nD τ) (OX c i + O') W)

/-! ### The device's own block, chunk by chunk through the slots -/

/-- What the device's result holds at launch. -/
def f0 : Buf (Elt F) ((c : Thread nD τ).loc main_v1) := m ((c : Thread nD τ).loc main_v1)

/-- Chunk `k` not yet started: a share of its rows of the block, its two tokens, its rows of the result as
    launched; the first four chunks also hold their slot and the slot's two cells at their first round. -/
def Fresh (k : Fin 16) : sProp 𝕄 :=
  iprop((∃ q : PosShare TreeShare, (lsrc xM k).view.loc (c : Thread nD τ) ↦[(lsrc xM k).view.set]{q} X m c)
    ∗ dutyTok ER (dmaC c (rdS (slotOf k))) (roundOf k) false ∗ dutyTok ER (dmaC c (wrS (slotOf k))) (roundOf k) false
    ∗ held (F := F) c (ldst oM c k) (f0 m c)
    ∗ (if k.val < 4 then iprop((∃ f, held (F := F) c (slot sM (slotOf k)) f)
        ∗ atPos ER (dmaC c (rdS (slotOf k))) 0 ∅ 0 ∗ atPos ER (dmaC c (wrS (slotOf k))) 0 ∅ 0) else iprop(emp)))
/-- Its read in flight. -/
def InRead (k : Fin 16) : sProp 𝕄 :=
  iprop(cred (tallyAt (dmaC c (rdS (slotOf k))) () NL)
    ∗ atPos ER (dmaC c (rdS (slotOf k))) (roundOf k) ∅ 0 ∗ atPos ER (dmaC c (wrS (slotOf k))) (roundOf k) ∅ 0
    ∗ reached ER (dmaC c (wrS (slotOf k))) (roundOf k)
    ∗ dutyTok ER (dmaC c (wrS (slotOf k))) (roundOf k) false ∗ held (F := F) c (ldst oM c k) (f0 m c))
/-- Its write in flight (the last four chunks, whose slot no later chunk wants). -/
def InWrite (k : Fin 16) : sProp 𝕄 :=
  iprop(cred (tallyAt (dmaC c (wrS (slotOf k))) () NL)
    ∗ atPos ER (dmaC c (wrS (slotOf k))) (roundOf k) ∅ 0 ∗ atPos ER (dmaC c (rdS (slotOf k))) (roundOf k + 1) ∅ 0)
/-- Written, its slot passed on to a later chunk. -/
def DoneL (k : Fin 16) : sProp 𝕄 := held (F := F) c (ldst oM c k) (Gout m c)
/-- Written, its slot and the slot's cells back in hand. -/
def DoneW (k : Fin 16) : sProp 𝕄 :=
  iprop(held (F := F) c (ldst oM c k) (Gout m c) ∗ held (F := F) c (slot sM (slotOf k)) (Sat m c k)
    ∗ atPos ER (dmaC c (wrS (slotOf k))) (roundOf k + 1) ∅ 0 ∗ atPos ER (dmaC c (rdS (slotOf k))) (roundOf k + 1) ∅ 0)

/-- After the first `i` reads are started (`i ≤ 4`). -/
def LC2 (i : ℕ) (k : Fin 16) : sProp 𝕄 := if k.val < i then InRead m c k else Fresh m c k
/-- After `A` chunks have moved on: chunks below `A` are written (the last four: being written), the next four are
    being read, the rest not started. -/
def LC (A : ℕ) (k : Fin 16) : sProp 𝕄 :=
  if k.val < A then (if k.val < 12 then DoneL m c k else InWrite c k) else if k.val < A + 4 then InRead m c k else Fresh m c k
/-- After the last writes below `i` are awaited (`12 ≤ i ≤ 16`). -/
def LC4 (i : ℕ) (k : Fin 16) : sProp 𝕄 :=
  if k.val < 12 then DoneL m c k else if k.val < i then DoneW m c k else InWrite c k

def Inv2 (O : CellTallies nD τ sig Unit) (i : ℕ) : sProp 𝕄 :=
  iprop(Rp m K ∗ bigSep Finset.univ (LC2 m c i) ∗ ∃ W, owes (c : Thread nD τ) O W)
def Inv4 (i : ℕ) : sProp 𝕄 :=
  iprop(Rp m K ∗ bigSep Finset.univ (LC4 m c i) ∗ ∃ W, owes (c : Thread nD τ) 0 W)

/-! ### The second phase: chunk `j` arrives from the row neighbour and goes on to the column neighbour -/

def YS (i : ℕ) (j : Fin 64) : sProp 𝕄 :=
  if j.val < i then iprop(cred (tallyAt (dmaC c (ysS j)) () N) ∗ atPos ER (dmaC c (xrS j)) 1 ∅ 0)
  else iprop(cred (tallyAt (dmaC c (xrS j)) () N) ∗ atPos ER (dmaC c (xrS j)) 0 ∅ 0
      ∗ (∃ f, held (F := F) (yn c) (ypc oM c j) f)
      ∗ dutyTok ER (dmaC c (ysS j)) 0 false ∗ dutyTok ER (dmaC (yn c) (yrS j)) 0 false)

/-- Before step `i`: `(i + 3) / 4` chunks of the own block have moved on. -/
def Inv3 (i : ℕ) : sProp 𝕄 :=
  iprop(Rp m K ∗ bigSep Finset.univ (YS c i) ∗ bigSep Finset.univ (LC m c ((i + 3) / 4)) ∗ ∃ W, owes (c : Thread nD τ) (OY c i) W)

/-! ### The last waits -/

/-- Chunk `j` from the column neighbour: awaited, it is the device's at the expected contents. -/
def RS (i : ℕ) (j : Fin 64) : sProp 𝕄 :=
  if j.val < i then iprop(atPos ER (dmaC c (yrS j)) 1 ∅ 0 ∗ yrPay m c j)
  else iprop(cred (tallyAt (dmaC c (yrS j)) () N) ∗ atPos ER (dmaC c (yrS j)) 0 ∅ 0)
def Inv5 (i : ℕ) : sProp 𝕄 :=
  iprop(Rp m K ∗ bigSep Finset.univ (RS m c i) ∗ ∃ W, owes (c : Thread nD τ) 0 W)

/-- The two departures of chunk `j`: awaited, the forwarded chunk is the device's again. -/
def FS (i : ℕ) (j : Fin 64) : sProp 𝕄 :=
  if j.val < i then iprop(atPos ER (dmaC c (xsS j)) 1 ∅ 0 ∗ atPos ER (dmaC c (ysS j)) 1 ∅ 0 ∗ xrPay m c j)
  else iprop(cred (tallyAt (dmaC c (xsS j)) () N) ∗ atPos ER (dmaC c (xsS j)) 0 ∅ 0
      ∗ cred (tallyAt (dmaC c (ysS j)) () N) ∗ atPos ER (dmaC c (ysS j)) 0 ∅ 0)
def Inv6 (i : ℕ) : sProp 𝕄 :=
  iprop(Rp m K ∗ bigSep Finset.univ (FS m c i) ∗ ∃ W, owes (c : Thread nD τ) 0 W)

end Families

end Cert.Kernel.AG

end
-- ==== Proof.Bits.Phase0.lean ====
/- The entry handshake: a device hands each neighbour the chunks of its result that neighbour will write,
   then waits for both neighbours' chunks. -/
import proofs.«900079_g7700000000000080_dist_ag_v7x_xy2x2_x_m16384_n1024_f32_1_alg».proof.Proof.Bits.Families

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

theorem phase0 {α : Type} (Q : α → sProp 𝕄) (k : PUnit → Prog (TpuEff nD τ sig (Elt F) Λ₀ .tc) α) :
    iprop(Rp m K ∗ atPos ER (barC c) 0 ∅ 0 ∗ cred (tallyAt (barC c) () 2)
        ∗ dutyTok ER (barC (xn c)) 0 false ∗ dutyTok ER (barC (yn c)) 0 true
        ∗ barPayX (F := F) (xn c) ∗ barPayY (F := F) (yn c)
        ∗ (∃ W, owes (c : Thread nD τ) (O₀ c) W)
        ∗ ((barPayX (F := F) c ∗ barPayY (F := F) c ∗ ∃ W, owes (c : Thread nD τ) (OX c 0 + OY c 0) W) -∗ WP (k ⟨⟩) Q))
      ⊢ WP (semSignalWord (xn c) barS 1#32 Gen.hamt_1 >>= fun _ =>
              semSignalWord (yn c) barS 1#32 Gen.hamt_1 >>= fun _ => semWaitWord barS 2#32 Gen.hamt_2 >>= k) Q := by
  have hO1 : O₀ c = (OX c 0 + OY c 0 + tallyAt (barC (yn c)) () 1) + tallyAt (barC (xn c)) () 1 := by
    unfold O₀; rw [OX_zero, OY_zero]; ac_rfl
  unfold Rp
  rw [hO1]
  iintro ⟨⟨#Hrec, #Hlev⟩, Hat, Hcr, Htx, Hty, Hpx, Hpy, ⟨%W, HO⟩, Hk⟩
  iapply (step_signal_x m c (K (barC (xn c))) (OX c 0 + OY c 0 + tallyAt (barC (yn c)) () 1) W _) $$ [HO Htx Hpx]
  · isplitr; · iapply (inv_bar m K (xn c)); iexact Hrec
    isplitl [HO]; · iexact HO
    isplitl [Htx]; · iexact Htx
    isplitl [Hpx]; · iexact Hpx
    iapply (reached_bar m K (xn c)); iexact Hrec
  iintro HO
  iapply (step_signal_y m c (K (barC (yn c))) (OX c 0 + OY c 0) W _) $$ [HO Hty Hpy]
  · isplitr; · iapply (inv_bar m K (yn c)); iexact Hrec
    isplitl [HO]; · iexact HO
    isplitl [Hty]; · iexact Hty
    isplitl [Hpy]; · iexact Hpy
    iapply (reached_bar m K (yn c)); iexact Hrec
  iintro HO
  iapply (step_wait_bar m c (K (barC c)) (OX c 0 + OY c 0) W k) $$ [Hcr HO Hat]
  · isplitr; · iapply (inv_bar m K c); iexact Hrec
    isplitl [Hcr]; · iexact Hcr
    isplitl [HO]; · iexact HO
    isplitr; · iapply (mayWait_bar (F := F) c); iexact Hlev
    iexact Hat
  iintro ⟨HO, -, Hx, Hy⟩
  iapply Hk
  isplitl [Hx]; · iexact Hx
  isplitl [Hy]; · iexact Hy
  iexists _; iexact HO

end Cert.Kernel.AG

end
-- ==== Proof.Bits.Phase1.lean ====
/- The first phase: the sixty-four chunks of the device's half-block go to the row neighbour. -/
import proofs.«900079_g7700000000000080_dist_ag_v7x_xy2x2_x_m16384_n1024_f32_1_alg».proof.Proof.Bits.Families

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- Step `j`: chunk `j` leaves; what is owed shrinks by its arrival. -/
theorem step1 (O' : CellTallies nD τ sig Unit) (j : ℕ) (hj : j < 64) {α : Type} (Q : α → sProp 𝕄)
    (k' : PUnit → Prog (TpuEff nD τ sig (Elt F) Λ₀ .tc) α) :
    iprop(Inv1 m K c O' j ∗ (Inv1 m K c O' (j + 1) -∗ WP (k' ⟨⟩) Q))
      ⊢ WP (upTo 64 (xSend (F := F) xM oM cc0_scratch3 cc0_scratch4 c) j >>= k') Q := by
  unfold upTo; rw [dif_pos hj]
  have hO : OX c j + O' = OX c (j + 1) + O' + tallyAt (dmaC (xn c) (xrS ⟨j, hj⟩)) () N := by
    rw [OX_succ c ⟨j, hj⟩]; exact add_right_comm _ _ _
  unfold Inv1 Rp
  rw [hO]
  iintro ⟨⟨⟨#Hrec, #Hlev⟩, HS, ⟨%W, HO⟩⟩, Hk⟩
  have hfam : ∀ j' : Fin 64, j' ≠ ⟨j, hj⟩ → XS m c j j' = XS m c (j + 1) j' := fun j' hne => by
    have : j'.val ≠ j := fun h => hne (Fin.ext h)
    unfold XS
    by_cases h : j'.val < j
    · rw [if_pos h, if_pos (by omega)]
    · rw [if_neg h, if_neg (by omega)]
  ihave HS' := (bigSep_update (XS m c j) (XS m c (j + 1)) ⟨j, hj⟩ hfam) $$ HS
  icases HS' with ⟨Hj, Hback⟩
  ihave Hj := (Entails.of_eq (show XS m c j ⟨j, hj⟩ = _ from if_neg (Nat.lt_irrefl j))) $$ Hj
  icases Hj with ⟨⟨%q, Hsrc⟩, ⟨%fd, Hdst⟩, Ht1, Ht2⟩
  iapply (step_xSend m c ⟨j, hj⟩ (K (dmaC c (xsS ⟨j, hj⟩))) (K (dmaC (xn c) (xrS ⟨j, hj⟩))) q fd (OX c (j + 1) + O') W k')
    $$ [Hsrc Hdst HO Ht1 Ht2]
  · isplitr; · iapply (inv_dma m K c (xsS ⟨j, hj⟩)); iexact Hrec
    isplitr; · iapply (inv_dma m K (xn c) (xrS ⟨j, hj⟩)); iexact Hrec
    isplitl [Hsrc]; · iexact Hsrc
    isplitl [Hdst]; · iexact Hdst
    isplitl [HO]; · iexact HO
    isplitl [Ht1]; · iexact Ht1
    isplitr; · iapply (reached_dma m K c (xsS ⟨j, hj⟩)); iexact Hrec
    isplitl [Ht2]; · iexact Ht2
    iapply (reached_dma m K (xn c) (xrS ⟨j, hj⟩)); iexact Hrec
  iintro ⟨Hcr, HO⟩
  iapply Hk
  isplitr
  · isplitr; · iexact Hrec
    iexact Hlev
  isplitl [Hback Hcr]
  · iapply Hback
    iapply (Entails.of_eq (show cred (tallyAt (dmaC c (xsS ⟨j, hj⟩)) () N) = XS m c (j + 1) ⟨j, hj⟩ from (if_pos (Nat.lt_succ_self j)).symm))
    iexact Hcr
  iexists W; iexact HO

/-- The whole phase. -/
theorem phase1 (O' : CellTallies nD τ sig Unit) {α : Type} (Q : α → sProp 𝕄)
    (k : PUnit → Prog (TpuEff nD τ sig (Elt F) Λ₀ .tc) α) :
    iprop(Inv1 m K c O' 0 ∗ (Inv1 m K c O' 64 -∗ WP (k ⟨⟩) Q))
      ⊢ WP (seqR (upTo 64 (xSend (F := F) xM oM cc0_scratch3 cc0_scratch4 c)) 0 64 >>= k) Q :=
  wp_seqR_then frame (wpE (defs₀ (F := F)) 𝒱₀ (c : Thread nD τ) none) Set.univ _ (Inv1 m K c O') Q 64 0 k
    (fun j _ hj k' => step1 m K c O' j (by omega) Q k')

end Cert.Kernel.AG

end
-- ==== Proof.Bits.Phase2.lean ====
/- The first four reads of the own block are started. -/
import proofs.«900079_g7700000000000080_dist_ag_v7x_xy2x2_x_m16384_n1024_f32_1_alg».proof.Proof.Bits.Families

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-! ## One of the first four chunks: first round, its slot in hand since launch -/

theorem roundOf_first (k : Fin 16) (h : k.val < 4) : roundOf k = 0 := by
  show k.val / 4 = 0; omega

theorem Fresh_first (k : Fin 16) (h : k.val < 4) :
    Fresh m c k
      = iprop((∃ q : PosShare TreeShare, (lsrc xM k).view.loc (c : Thread nD τ) ↦[(lsrc xM k).view.set]{q} X m c)
        ∗ dutyTok ER (dmaC c (rdS (slotOf k))) 0 false ∗ dutyTok ER (dmaC c (wrS (slotOf k))) 0 false
        ∗ held (F := F) c (ldst oM c k) (f0 m c)
        ∗ ((∃ f, held (F := F) c (slot sM (slotOf k)) f)
          ∗ atPos ER (dmaC c (rdS (slotOf k))) 0 ∅ 0 ∗ atPos ER (dmaC c (wrS (slotOf k))) 0 ∅ 0)) := by
  unfold Fresh
  rw [roundOf_first k h, if_pos h]

theorem InRead_first (k : Fin 16) (h : k.val < 4) :
    InRead m c k
      = iprop(cred (tallyAt (dmaC c (rdS (slotOf k))) () NL)
        ∗ atPos ER (dmaC c (rdS (slotOf k))) 0 ∅ 0 ∗ atPos ER (dmaC c (wrS (slotOf k))) 0 ∅ 0
        ∗ reached ER (dmaC c (wrS (slotOf k))) 0
        ∗ dutyTok ER (dmaC c (wrS (slotOf k))) 0 false ∗ held (F := F) c (ldst oM c k) (f0 m c)) := by
  unfold InRead
  rw [roundOf_first k h]

/-- The read of one of the first four chunks, its round spelt out. -/
theorem step_enqRd_first (k : Fin 16) (h : k.val < 4) (κ : ℕ) (q : PosShare TreeShare)
    (fd : Buf (Elt F) ((slot sM (slotOf k)).view.loc (c : Thread nD τ)))
    {α : Type} {Q : α → sProp 𝕄} (kont : PUnit → Prog (TpuEff nD τ sig (Elt F) Λ₀ .tc) α) :
    iprop(cellInv ER (sched m) κ (dmaC c (rdS (slotOf k)))
        ∗ ((lsrc xM k).view.loc (c : Thread nD τ) ↦[(lsrc xM k).view.set]{q} X m c)
        ∗ held (F := F) c (slot sM (slotOf k)) fd
        ∗ dutyTok ER (dmaC c (rdS (slotOf k))) 0 false ∗ reached ER (dmaC c (rdS (slotOf k))) 0)
      ⊢ iprop((cred (tallyAt (dmaC c (rdS (slotOf k))) () NL) -∗ WP (kont ⟨⟩) Q)
          -∗ WP (enqRd (F := F) xM sM cc0_scratch1 k >>= kont) Q) := by
  have key := step_enqRd m c k κ q fd (Q := Q) kont
  rw [roundOf_first k h] at key
  exact key

/-- The read of chunk `j` (one of the first four) is started: its slot, held since launch, is lent to it. -/
theorem step2 (O : CellTallies nD τ sig Unit) (j : ℕ) (hj : j < 4) {α : Type} (Q : α → sProp 𝕄)
    (k' : PUnit → Prog (TpuEff nD τ sig (Elt F) Λ₀ .tc) α) :
    iprop(Inv2 m K c O j ∗ (Inv2 m K c O (j + 1) -∗ WP (k' ⟨⟩) Q))
      ⊢ WP (upTo 16 (enqRd (F := F) xM sM cc0_scratch1) j >>= k') Q := by
  have hj16 : j < 16 := by omega
  unfold upTo; rw [dif_pos hj16]
  unfold Inv2 Rp
  iintro ⟨⟨⟨#Hrec, #Hlev⟩, HS, ⟨%W, HO⟩⟩, Hk⟩
  have hfam : ∀ k : Fin 16, k ≠ ⟨j, hj16⟩ → LC2 m c j k = LC2 m c (j + 1) k := fun k hne => by
    have : k.val ≠ j := fun h => hne (Fin.ext h)
    unfold LC2
    by_cases h : k.val < j
    · rw [if_pos h, if_pos (by omega)]
    · rw [if_neg h, if_neg (by omega)]
  ihave HS' := (bigSep_update (LC2 m c j) (LC2 m c (j + 1)) ⟨j, hj16⟩ hfam) $$ HS
  icases HS' with ⟨Hj, Hback⟩
  ihave Hj := (Entails.of_eq (show LC2 m c j ⟨j, hj16⟩ = _ from
    (if_neg (Nat.lt_irrefl j)).trans (Fresh_first m c ⟨j, hj16⟩ hj))) $$ Hj
  icases Hj with ⟨⟨%q, Hsrc⟩, Htrd, Htwr, Hdst, ⟨%fd, Hslot⟩, Hard, Hawr⟩
  iapply (step_enqRd_first m c ⟨j, hj16⟩ hj (K (dmaC c (rdS (slotOf ⟨j, hj16⟩)))) q fd k') $$ [Hsrc Hslot Htrd]
  · isplitr; · iapply (inv_dma m K c (rdS (slotOf ⟨j, hj16⟩))); iexact Hrec
    isplitl [Hsrc]; · iexact Hsrc
    isplitl [Hslot]; · iexact Hslot
    isplitl [Htrd]; · iexact Htrd
    iapply (reached_dma m K c (rdS (slotOf ⟨j, hj16⟩))); iexact Hrec
  iintro Hcr
  iapply Hk
  isplitr
  · isplitr; · iexact Hrec
    iexact Hlev
  isplitr [HO]
  · iapply Hback
    iapply (Entails.of_eq (show _ = LC2 m c (j + 1) ⟨j, hj16⟩ from
      ((if_pos (Nat.lt_succ_self j)).trans (InRead_first m c ⟨j, hj16⟩ hj)).symm))
    isplitl [Hcr]; · iexact Hcr
    isplitl [Hard]; · iexact Hard
    isplitl [Hawr]; · iexact Hawr
    isplitr; · iapply (reached_dma m K c (wrS (slotOf ⟨j, hj16⟩))); iexact Hrec
    isplitl [Htwr]; · iexact Htwr
    iexact Hdst
  iexists W; iexact HO

theorem phase2 (O : CellTallies nD τ sig Unit) {α : Type} (Q : α → sProp 𝕄) (k : PUnit → Prog (TpuEff nD τ sig (Elt F) Λ₀ .tc) α) :
    iprop(Inv2 m K c O 0 ∗ (Inv2 m K c O 4 -∗ WP (k ⟨⟩) Q))
      ⊢ WP (seqR (upTo 16 (enqRd (F := F) xM sM cc0_scratch1)) 0 4 >>= k) Q :=
  wp_seqR_then frame (wpE (defs₀ (F := F)) 𝒱₀ (c : Thread nD τ) none) Set.univ _ (Inv2 m K c O) Q 4 0 k
    (fun j _ hj k' => step2 m K c O j (by omega) Q k')

/-- info: 'Cert.Kernel.AG.step2' depends on axioms: [propext, Classical.choice, Quot.sound] -/
#guard_msgs in #print axioms step2
/-- info: 'Cert.Kernel.AG.phase2' depends on axioms: [propext, Classical.choice, Quot.sound] -/
#guard_msgs in #print axioms phase2

end Cert.Kernel.AG

end
-- ==== Proof.Bits.Advance.lean ====
/- One chunk of the device's own block moves on: its read is awaited and its write started; while a
   later chunk wants the slot, the write is awaited and that chunk's read started. -/
import proofs.«900079_g7700000000000080_dist_ag_v7x_xy2x2_x_m16384_n1024_f32_1_alg».proof.Proof.Bits.Families

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-! ## The program, by cases -/

theorem advance_lt_prog (k : Fin 16) (hk : k.val < 12) {α : Type} (k' : PUnit → Prog (TpuEff nD τ sig (Elt F) Λ₀ .tc) α) :
    advance (F := F) xM oM sM cc0_scratch1 cc0_scratch2 c k >>= k'
      = waitRd (F := F) xM sM cc0_scratch1 k >>= fun _ => enqWr (F := F) oM sM cc0_scratch2 c k >>= fun _ =>
          waitWr (F := F) oM sM cc0_scratch2 c k >>= fun _ => enqRd (F := F) xM sM cc0_scratch1 ⟨k.val + 4, by omega⟩ >>= k' := by
  have hlt : k.val + 4 < 16 := by omega
  unfold advance
  simp only [dif_pos hlt, Prog.bind_assoc]

theorem advance_ge_prog (k : Fin 16) (hk : 12 ≤ k.val) {α : Type} (k' : PUnit → Prog (TpuEff nD τ sig (Elt F) Λ₀ .tc) α) :
    advance (F := F) xM oM sM cc0_scratch1 cc0_scratch2 c k >>= k'
      = waitRd (F := F) xM sM cc0_scratch1 k >>= fun _ => enqWr (F := F) oM sM cc0_scratch2 c k >>= fun _ => k' ⟨⟩ := by
  have hge : ¬ (k.val + 4 < 16) := by omega
  unfold advance
  simp only [dif_neg hge, Prog.bind_assoc]
  rfl

/-! ## Chunk `k + 4` has chunk `k`'s slot, one round later -/

theorem slotOf_add4 (k : Fin 16) (h : k.val + 4 < 16) : slotOf ⟨k.val + 4, h⟩ = slotOf k :=
  Fin.ext (by show (k.val + 4) % 4 = k.val % 4; omega)
theorem roundOf_add4 (k : Fin 16) (h : k.val + 4 < 16) : roundOf ⟨k.val + 4, h⟩ = roundOf k + 1 := by
  show (k.val + 4) / 4 = k.val / 4 + 1; omega

theorem Fresh_add4 (k : Fin 16) (h : k.val + 4 < 16) :
    Fresh m c ⟨k.val + 4, h⟩
      = iprop((∃ q : PosShare TreeShare, (lsrc xM ⟨k.val + 4, h⟩).view.loc (c : Thread nD τ) ↦[(lsrc xM ⟨k.val + 4, h⟩).view.set]{q} X m c)
        ∗ dutyTok ER (dmaC c (rdS (slotOf k))) (roundOf k + 1) false ∗ dutyTok ER (dmaC c (wrS (slotOf k))) (roundOf k + 1) false
        ∗ held (F := F) c (ldst oM c ⟨k.val + 4, h⟩) (f0 m c) ∗ emp) := by
  unfold Fresh
  rw [slotOf_add4 k h, roundOf_add4 k h, if_neg (by show ¬ (k.val + 4 < 4); omega)]

theorem InRead_add4 (k : Fin 16) (h : k.val + 4 < 16) :
    InRead m c ⟨k.val + 4, h⟩
      = iprop(cred (tallyAt (dmaC c (rdS (slotOf k))) () NL)
        ∗ atPos ER (dmaC c (rdS (slotOf k))) (roundOf k + 1) ∅ 0 ∗ atPos ER (dmaC c (wrS (slotOf k))) (roundOf k + 1) ∅ 0
        ∗ reached ER (dmaC c (wrS (slotOf k))) (roundOf k + 1)
        ∗ dutyTok ER (dmaC c (wrS (slotOf k))) (roundOf k + 1) false ∗ held (F := F) c (ldst oM c ⟨k.val + 4, h⟩) (f0 m c)) := by
  unfold InRead
  rw [slotOf_add4 k h, roundOf_add4 k h]

/-- The read of chunk `k + 4`, spelt through chunk `k`'s slot and round. -/
theorem step_enqRd_add4 (k : Fin 16) (h : k.val + 4 < 16) (κ : ℕ) (q : PosShare TreeShare)
    (fd : Buf (Elt F) ((slot sM (slotOf k)).view.loc (c : Thread nD τ)))
    {α : Type} {Q : α → sProp 𝕄} (kont : PUnit → Prog (TpuEff nD τ sig (Elt F) Λ₀ .tc) α) :
    iprop(cellInv ER (sched m) κ (dmaC c (rdS (slotOf k)))
        ∗ ((lsrc xM ⟨k.val + 4, h⟩).view.loc (c : Thread nD τ) ↦[(lsrc xM ⟨k.val + 4, h⟩).view.set]{q} X m c)
        ∗ held (F := F) c (slot sM (slotOf k)) fd
        ∗ dutyTok ER (dmaC c (rdS (slotOf k))) (roundOf k + 1) false ∗ reached ER (dmaC c (rdS (slotOf k))) (roundOf k + 1))
      ⊢ iprop((cred (tallyAt (dmaC c (rdS (slotOf k))) () NL) -∗ WP (kont ⟨⟩) Q)
          -∗ WP (enqRd (F := F) xM sM cc0_scratch1 ⟨k.val + 4, h⟩ >>= kont) Q) := by
  have key := step_enqRd m c ⟨k.val + 4, h⟩ κ q fd (Q := Q) kont
  rw [slotOf_add4 k h, roundOf_add4 k h] at key
  exact key

/-- Chunk `k` below twelve: it ends written, chunk `k + 4` being read into its slot. While the device owes only
    second-phase chunks, the two waits sit below them. -/
theorem advance_lt (k : Fin 16) (hk : k.val < 12) (i : ℕ) {α : Type} (Q : α → sProp 𝕄)
    (k' : PUnit → Prog (TpuEff nD τ sig (Elt F) Λ₀ .tc) α) :
    iprop(Rp m K ∗ InRead m c k ∗ Fresh m c ⟨k.val + 4, by omega⟩ ∗ (∃ W, owes (c : Thread nD τ) (OY c i) W)
        ∗ ((DoneL m c k ∗ InRead m c ⟨k.val + 4, by omega⟩ ∗ ∃ W, owes (c : Thread nD τ) (OY c i) W) -∗ WP (k' ⟨⟩) Q))
      ⊢ WP (advance (F := F) xM oM sM cc0_scratch1 cc0_scratch2 c k >>= k') Q := by
  have h4 : k.val + 4 < 16 := by omega
  rw [advance_lt_prog c k hk k', InRead_add4 m c k h4, Fresh_add4 m c k h4]
  unfold InRead DoneL Rp
  iintro ⟨⟨#Hrec, #Hlev⟩, ⟨Hcr, Hard, Hawr, Hrwr, Htwr, Hdst⟩, ⟨⟨%q, Hsrc⟩, Htrd', Htwr', Hdst', -⟩, ⟨%W, HO⟩, Hk⟩
  -- the read of chunk k is awaited: its slot holds the chunk
  iapply (step_waitRd m c k (K (dmaC c (rdS (slotOf k)))) (OY c i) W _) $$ [Hcr HO Hard]
  · isplitr; · iapply (inv_dma m K c (rdS (slotOf k))); iexact Hrec
    isplitl [Hcr]; · iexact Hcr
    isplitl [HO]; · iexact HO
    isplitr
    · iapply (mayWait_OY (F := F) c (.dma (rdS (slotOf k))) i ((lv_rd c (slotOf k)).trans_lt (by decide))); iexact Hlev
    iexact Hard
  iintro ⟨HO, Hard, Hrrd, Hslot⟩
  ihave Hslot := (Entails.of_eq (show rdPay (F := F) m c k = held (F := F) c (slot sM (slotOf k)) (Sat m c k) from rfl)) $$ Hslot
  -- its write is started
  iapply (step_enqWr m c k (K (dmaC c (wrS (slotOf k)))) (f0 m c) _) $$ [Hslot Hdst Htwr Hrwr]
  · isplitr; · iapply (inv_dma m K c (wrS (slotOf k))); iexact Hrec
    isplitl [Hslot]; · iexact Hslot
    isplitl [Hdst]; · iexact Hdst
    isplitl [Htwr]; · iexact Htwr
    iexact Hrwr
  iintro Hcw
  -- and awaited: the chunk's rows of the result are written and the slot is free again
  iapply (step_waitWr m c k (K (dmaC c (wrS (slotOf k)))) (OY c i) (insert (SemLoc.dma (rdS (slotOf k)), ()) W) _) $$ [Hcw HO Hawr]
  · isplitr; · iapply (inv_dma m K c (wrS (slotOf k))); iexact Hrec
    isplitl [Hcw]; · iexact Hcw
    isplitl [HO]; · iexact HO
    isplitr
    · iapply (mayWait_OY (F := F) c (.dma (wrS (slotOf k))) i ((lv_wr c (slotOf k)).trans_lt (by decide))); iexact Hlev
    iexact Hawr
  iintro ⟨HO, Hawr, Hrwr, Hpay⟩
  ihave Hpay := (Entails.of_eq (show wrPay (F := F) m c k
      = iprop(held (F := F) c (ldst oM c k) (Gout m c) ∗ held (F := F) c (slot sM (slotOf k)) (Sat m c k)) from rfl)) $$ Hpay
  icases Hpay with ⟨Hdone, Hslot⟩
  -- the read of chunk k + 4 into the slot is started
  iapply (step_enqRd_add4 m c k h4 (K (dmaC c (rdS (slotOf k)))) q (Sat m c k) _) $$ [Hsrc Hslot Htrd' Hrrd]
  · isplitr; · iapply (inv_dma m K c (rdS (slotOf k))); iexact Hrec
    isplitl [Hsrc]; · iexact Hsrc
    isplitl [Hslot]; · iexact Hslot
    isplitl [Htrd']; · iexact Htrd'
    iexact Hrrd
  iintro Hcr
  iapply Hk
  isplitl [Hdone]; · iexact Hdone
  isplitr [HO]
  · isplitl [Hcr]; · iexact Hcr
    isplitl [Hard]; · iexact Hard
    isplitl [Hawr]; · iexact Hawr
    isplitl [Hrwr]; · iexact Hrwr
    isplitl [Htwr']; · iexact Htwr'
    iexact Hdst'
  iexists _; iexact HO

/-- One of the last four chunks: it ends being written. -/
theorem advance_ge (k : Fin 16) (hk : 12 ≤ k.val) (i : ℕ) {α : Type} (Q : α → sProp 𝕄)
    (k' : PUnit → Prog (TpuEff nD τ sig (Elt F) Λ₀ .tc) α) :
    iprop(Rp m K ∗ InRead m c k ∗ (∃ W, owes (c : Thread nD τ) (OY c i) W)
        ∗ ((InWrite c k ∗ ∃ W, owes (c : Thread nD τ) (OY c i) W) -∗ WP (k' ⟨⟩) Q))
      ⊢ WP (advance (F := F) xM oM sM cc0_scratch1 cc0_scratch2 c k >>= k') Q := by
  rw [advance_ge_prog c k hk k']
  unfold InRead InWrite Rp
  iintro ⟨⟨#Hrec, #Hlev⟩, ⟨Hcr, Hard, Hawr, Hrwr, Htwr, Hdst⟩, ⟨%W, HO⟩, Hk⟩
  -- the read of chunk k is awaited: its slot holds the chunk
  iapply (step_waitRd m c k (K (dmaC c (rdS (slotOf k)))) (OY c i) W _) $$ [Hcr HO Hard]
  · isplitr; · iapply (inv_dma m K c (rdS (slotOf k))); iexact Hrec
    isplitl [Hcr]; · iexact Hcr
    isplitl [HO]; · iexact HO
    isplitr
    · iapply (mayWait_OY (F := F) c (.dma (rdS (slotOf k))) i ((lv_rd c (slotOf k)).trans_lt (by decide))); iexact Hlev
    iexact Hard
  iintro ⟨HO, Hard, -, Hslot⟩
  ihave Hslot := (Entails.of_eq (show rdPay (F := F) m c k = held (F := F) c (slot sM (slotOf k)) (Sat m c k) from rfl)) $$ Hslot
  -- its write is started
  iapply (step_enqWr m c k (K (dmaC c (wrS (slotOf k)))) (f0 m c) _) $$ [Hslot Hdst Htwr Hrwr]
  · isplitr; · iapply (inv_dma m K c (wrS (slotOf k))); iexact Hrec
    isplitl [Hslot]; · iexact Hslot
    isplitl [Hdst]; · iexact Hdst
    isplitl [Htwr]; · iexact Htwr
    iexact Hrwr
  iintro Hcw
  iapply Hk
  isplitr [HO]
  · isplitl [Hcw]; · iexact Hcw
    isplitl [Hawr]; · iexact Hawr
    iexact Hard
  iexists _; iexact HO

/-- info: 'Cert.Kernel.AG.advance_lt' depends on axioms: [propext, Classical.choice, Quot.sound] -/
#guard_msgs in #print axioms advance_lt
/-- info: 'Cert.Kernel.AG.advance_ge' depends on axioms: [propext, Classical.choice, Quot.sound] -/
#guard_msgs in #print axioms advance_ge

end Cert.Kernel.AG

end
-- ==== Proof.Bits.Phase3.lean ====
/- The second phase: at step `j` chunk `j` has arrived from the row neighbour and is forwarded to the
   column neighbour; every fourth step one chunk of the device's own block also moves on. -/
import proofs.«900079_g7700000000000080_dist_ag_v7x_xy2x2_x_m16384_n1024_f32_1_alg».proof.Proof.Bits.Families
import proofs.«900079_g7700000000000080_dist_ag_v7x_xy2x2_x_m16384_n1024_f32_1_alg».proof.Proof.Bits.Advance

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- A step that moves no chunk of the own block on. -/
theorem mainStep_plain (j : ℕ) (hj : j < 64) (h : j % 4 ≠ 0) :
    mainStep (F := F) xM oM sM cc0_scratch1 cc0_scratch2 cc0_scratch4 cc0_scratch5 cc0_scratch6 c ⟨j, hj⟩
      = (waitXr (F := F) xM oM cc0_scratch4 c ⟨j, hj⟩ >>= fun _ => ySend (F := F) oM cc0_scratch5 cc0_scratch6 c ⟨j, hj⟩) := by
  unfold mainStep
  have e : (fun (_ : PUnit) => ySend (F := F) oM cc0_scratch5 cc0_scratch6 c ⟨j, hj⟩ >>= fun _ =>
      if h : (⟨j, hj⟩ : Fin 64).val % 4 = 0 then advance (F := F) xM oM sM cc0_scratch1 cc0_scratch2 c ⟨(⟨j, hj⟩ : Fin 64).val / 4, by have := (⟨j, hj⟩ : Fin 64).isLt; omega⟩ else pure ⟨⟩)
      = fun _ => ySend (F := F) oM cc0_scratch5 cc0_scratch6 c ⟨j, hj⟩ := by
    funext _
    rw [show (fun (_ : PUnit) => if h : (⟨j, hj⟩ : Fin 64).val % 4 = 0 then advance (F := F) xM oM sM cc0_scratch1 cc0_scratch2 c ⟨(⟨j, hj⟩ : Fin 64).val / 4, by have := (⟨j, hj⟩ : Fin 64).isLt; omega⟩ else pure ⟨⟩)
        = fun _ => pure ⟨⟩ from funext fun _ => dif_neg h]
    exact Prog.bind_pure _
  exact congrArg (fun f => waitXr (F := F) xM oM cc0_scratch4 c ⟨j, hj⟩ >>= f) e

/-- A step that does. -/
theorem mainStep_adv (j : ℕ) (hj : j < 64) (h : j % 4 = 0) :
    mainStep (F := F) xM oM sM cc0_scratch1 cc0_scratch2 cc0_scratch4 cc0_scratch5 cc0_scratch6 c ⟨j, hj⟩
      = (waitXr (F := F) xM oM cc0_scratch4 c ⟨j, hj⟩ >>= fun _ => ySend (F := F) oM cc0_scratch5 cc0_scratch6 c ⟨j, hj⟩ >>= fun _ =>
          advance (F := F) xM oM sM cc0_scratch1 cc0_scratch2 c ⟨j / 4, by omega⟩) := by
  unfold mainStep
  have e : (fun (_ : PUnit) => if h : (⟨j, hj⟩ : Fin 64).val % 4 = 0 then advance (F := F) xM oM sM cc0_scratch1 cc0_scratch2 c ⟨(⟨j, hj⟩ : Fin 64).val / 4, by have := (⟨j, hj⟩ : Fin 64).isLt; omega⟩ else pure ⟨⟩)
      = fun _ => advance (F := F) xM oM sM cc0_scratch1 cc0_scratch2 c ⟨j / 4, by omega⟩ := funext fun _ => dif_pos h
  rw [e]

theorem YS_pre (j : ℕ) (hj : j < 64) : YS (F := F) c j ⟨j, hj⟩
    = iprop(cred (tallyAt (dmaC c (xrS ⟨j, hj⟩)) () N) ∗ atPos ER (dmaC c (xrS ⟨j, hj⟩)) 0 ∅ 0
      ∗ (∃ f, held (F := F) (yn c) (ypc oM c ⟨j, hj⟩) f)
      ∗ dutyTok ER (dmaC c (ysS ⟨j, hj⟩)) 0 false ∗ dutyTok ER (dmaC (yn c) (yrS ⟨j, hj⟩)) 0 false) := if_neg (Nat.lt_irrefl j)
theorem YS_post (j : ℕ) (hj : j < 64) : YS (F := F) c (j + 1) ⟨j, hj⟩
    = iprop(cred (tallyAt (dmaC c (ysS ⟨j, hj⟩)) () N) ∗ atPos ER (dmaC c (xrS ⟨j, hj⟩)) 1 ∅ 0) := if_pos (Nat.lt_succ_self j)
theorem YS_other (j : ℕ) (hj : j < 64) (j' : Fin 64) (hne : j' ≠ ⟨j, hj⟩) : YS (F := F) c j j' = YS (F := F) c (j + 1) j' := by
  have : j'.val ≠ j := fun h => hne (Fin.ext h)
  unfold YS
  by_cases h : j'.val < j
  · rw [if_pos h, if_pos (by omega)]
  · rw [if_neg h, if_neg (by omega)]

/-- Chunk `j`: awaited from the row neighbour, sent on to the column neighbour. -/
theorem xy_step (j : ℕ) (hj : j < 64) {α : Type} (Q : α → sProp 𝕄)
    (k' : PUnit → Prog (TpuEff nD τ sig (Elt F) Λ₀ .tc) α) :
    iprop(Rp m K ∗ YS (F := F) c j ⟨j, hj⟩ ∗ (∃ W, owes (c : Thread nD τ) (OY c j) W)
        ∗ ((YS (F := F) c (j + 1) ⟨j, hj⟩ ∗ ∃ W, owes (c : Thread nD τ) (OY c (j + 1)) W) -∗ WP (k' ⟨⟩) Q))
      ⊢ WP (waitXr (F := F) xM oM cc0_scratch4 c ⟨j, hj⟩ >>= fun _ => ySend (F := F) oM cc0_scratch5 cc0_scratch6 c ⟨j, hj⟩ >>= k') Q := by
  have hO : OY c j = OY c (j + 1) + tallyAt (dmaC (yn c) (yrS ⟨j, hj⟩)) () N := OY_succ c ⟨j, hj⟩
  rw [YS_pre c j hj, YS_post c j hj]
  unfold Rp
  iintro ⟨⟨#Hrec, #Hlev⟩, ⟨Hcr, Hat, ⟨%fd, Hdst⟩, Hts, Htr⟩, ⟨%W, HO⟩, Hk⟩
  iapply (step_waitXr m c ⟨j, hj⟩ (K (dmaC c (xrS ⟨j, hj⟩))) (OY c j) W _) $$ [Hcr HO Hat]
  · isplitr; · iapply (inv_dma m K c (xrS ⟨j, hj⟩)); iexact Hrec
    isplitl [Hcr]; · iexact Hcr
    isplitl [HO]; · iexact HO
    isplitr; · iapply (mayWait_OY (F := F) c (.dma (xrS ⟨j, hj⟩)) j (by rw [lv_xr]; decide)); iexact Hlev
    iexact Hat
  iintro ⟨HO, Hat, -, Hpay⟩
  ihave Hpay := (Entails.of_eq (show xrPay m c ⟨j, hj⟩ = held (F := F) c (ypc oM c ⟨j, hj⟩) (Gout m c) from rfl)) $$ Hpay
  ihave HO := (Entails.of_eq (congrArg (fun O => (owes (c : Thread nD τ) O (insert (SemLoc.dma (xrS ⟨j, hj⟩), ()) W) : sProp 𝕄)) hO)) $$ HO
  iapply (step_ySend m c ⟨j, hj⟩ (K (dmaC c (ysS ⟨j, hj⟩))) (K (dmaC (yn c) (yrS ⟨j, hj⟩))) fd (OY c (j + 1)) _ k') $$ [Hpay Hdst HO Hts Htr]
  · isplitr; · iapply (inv_dma m K c (ysS ⟨j, hj⟩)); iexact Hrec
    isplitr; · iapply (inv_dma m K (yn c) (yrS ⟨j, hj⟩)); iexact Hrec
    isplitl [Hpay]; · iexact Hpay
    isplitl [Hdst]; · iexact Hdst
    isplitl [HO]; · iexact HO
    isplitl [Hts]; · iexact Hts
    isplitr; · iapply (reached_dma m K c (ysS ⟨j, hj⟩)); iexact Hrec
    isplitl [Htr]; · iexact Htr
    iapply (reached_dma m K (yn c) (yrS ⟨j, hj⟩)); iexact Hrec
  iintro ⟨Hcy, HO⟩
  iapply Hk
  isplitl [Hcy Hat]
  · isplitl [Hcy]; · iexact Hcy
    iexact Hat
  iexists _; iexact HO

theorem LC_read (a : ℕ) (ha : a < 16) : LC m c a ⟨a, ha⟩ = InRead m c ⟨a, ha⟩ := by
  unfold LC; dsimp only; rw [if_neg (Nat.lt_irrefl a), if_pos (by omega)]
theorem LC_fresh (a : ℕ) (ha : a + 4 < 16) : LC m c a ⟨a + 4, ha⟩ = Fresh m c ⟨a + 4, ha⟩ := by
  unfold LC; dsimp only; rw [if_neg (by omega), if_neg (by omega)]
theorem LC_done (a : ℕ) (ha : a < 12) : LC m c (a + 1) ⟨a, by omega⟩ = DoneL m c ⟨a, by omega⟩ := by
  unfold LC; dsimp only; rw [if_pos (by omega), if_pos ha]
theorem LC_read' (a : ℕ) (ha : a + 4 < 16) : LC m c (a + 1) ⟨a + 4, ha⟩ = InRead m c ⟨a + 4, ha⟩ := by
  unfold LC; dsimp only; rw [if_neg (by omega), if_pos (by omega)]
theorem LC_write (a : ℕ) (h1 : 12 ≤ a) (ha : a < 16) : LC m c (a + 1) ⟨a, ha⟩ = InWrite c ⟨a, ha⟩ := by
  unfold LC; dsimp only; rw [if_pos (by omega), if_neg (by omega)]
theorem LC_other (a : ℕ) (k : Fin 16) (h1 : k.val ≠ a) (h2 : k.val ≠ a + 4) : LC m c a k = LC m c (a + 1) k := by
  have e1 : (k.val < a + 1) ↔ (k.val < a) := by omega
  have e2 : (k.val < a + 1 + 4) ↔ (k.val < a + 4) := by omega
  unfold LC; simp only [e1, e2]

/-- Step `j`. -/
theorem step3 (j : ℕ) (hj : j < 64) {α : Type} (Q : α → sProp 𝕄)
    (k' : PUnit → Prog (TpuEff nD τ sig (Elt F) Λ₀ .tc) α) :
    iprop(Inv3 m K c j ∗ (Inv3 m K c (j + 1) -∗ WP (k' ⟨⟩) Q))
      ⊢ WP (upTo 64 (mainStep (F := F) xM oM sM cc0_scratch1 cc0_scratch2 cc0_scratch4 cc0_scratch5 cc0_scratch6 c) j >>= k') Q := by
  unfold upTo; rw [dif_pos hj]
  by_cases h4 : j % 4 = 0
  · -- a chunk of the own block moves on
    rw [mainStep_adv c j hj h4, Prog.bind_assoc]
    have e : (fun (x : PUnit) => (ySend (F := F) oM cc0_scratch5 cc0_scratch6 c ⟨j, hj⟩ >>= fun _ =>
        advance (F := F) xM oM sM cc0_scratch1 cc0_scratch2 c ⟨j / 4, by omega⟩) >>= k')
        = fun _ => ySend (F := F) oM cc0_scratch5 cc0_scratch6 c ⟨j, hj⟩ >>= fun _ =>
            (advance (F := F) xM oM sM cc0_scratch1 cc0_scratch2 c ⟨j / 4, by omega⟩ >>= k') :=
      funext fun _ => Prog.bind_assoc _ _ _
    rw [e]
    have h1 : (j + 3) / 4 = j / 4 := by omega
    have h2 : (j + 1 + 3) / 4 = j / 4 + 1 := by omega
    unfold Inv3
    rw [h1, h2]
    by_cases ha : j / 4 < 12
    · iintro ⟨⟨#HR, HY, HL, HO⟩, Hk⟩
      ihave HY' := (bigSep_update (YS (F := F) c j) (YS (F := F) c (j + 1)) ⟨j, hj⟩ (YS_other c j hj)) $$ HY
      icases HY' with ⟨Hj, HYb⟩
      iapply (xy_step m K c j hj Q _)
      isplitr; · iexact HR
      isplitl [Hj]; · iexact Hj
      isplitl [HO]; · iexact HO
      iintro ⟨Hj', HO⟩
      ihave HL' := (bigSep_update2 (LC m c (j / 4)) (LC m c (j / 4 + 1)) ⟨j / 4, by omega⟩ ⟨j / 4 + 4, by omega⟩
        (fun h => by have := congrArg Fin.val h; simp only at this; omega)
        (fun k hk1 hk2 => LC_other m c (j / 4) k (fun h => hk1 (Fin.ext h)) (fun h => hk2 (Fin.ext h)))) $$ HL
      icases HL' with ⟨Hr, Hf, HLb⟩
      ihave Hr := (Entails.of_eq (LC_read m c (j / 4) _)) $$ Hr
      ihave Hf := (Entails.of_eq (LC_fresh m c (j / 4) _)) $$ Hf
      iapply (advance_lt m K c ⟨j / 4, _⟩ ha (j + 1) Q k')
      isplitr; · iexact HR
      isplitl [Hr]; · iexact Hr
      isplitl [Hf]; · iexact Hf
      isplitl [HO]; · iexact HO
      iintro ⟨Hd, Hr', HO⟩
      iapply Hk
      isplitr; · iexact HR
      isplitl [HYb Hj']; · iapply HYb; iexact Hj'
      isplitl [HLb Hd Hr']
      · iapply HLb
        isplitl [Hd]
        · iapply (Entails.of_eq (LC_done m c (j / 4) ha).symm); iexact Hd
        · iapply (Entails.of_eq (LC_read' m c (j / 4) _).symm); iexact Hr'
      iexact HO
    · iintro ⟨⟨#HR, HY, HL, HO⟩, Hk⟩
      ihave HY' := (bigSep_update (YS (F := F) c j) (YS (F := F) c (j + 1)) ⟨j, hj⟩ (YS_other c j hj)) $$ HY
      icases HY' with ⟨Hj, HYb⟩
      iapply (xy_step m K c j hj Q _)
      isplitr; · iexact HR
      isplitl [Hj]; · iexact Hj
      isplitl [HO]; · iexact HO
      iintro ⟨Hj', HO⟩
      ihave HL' := (bigSep_update (LC m c (j / 4)) (LC m c (j / 4 + 1)) ⟨j / 4, by omega⟩
        (fun k hk => LC_other m c (j / 4) k (fun h => hk (Fin.ext h)) (by have := k.isLt; omega))) $$ HL
      icases HL' with ⟨Hr, HLb⟩
      ihave Hr := (Entails.of_eq (LC_read m c (j / 4) _)) $$ Hr
      iapply (advance_ge m K c ⟨j / 4, _⟩ (by show 12 ≤ j / 4; omega) (j + 1) Q k')
      isplitr; · iexact HR
      isplitl [Hr]; · iexact Hr
      isplitl [HO]; · iexact HO
      iintro ⟨Hw, HO⟩
      iapply Hk
      isplitr; · iexact HR
      isplitl [HYb Hj']; · iapply HYb; iexact Hj'
      isplitl [HLb Hw]
      · iapply HLb
        iapply (Entails.of_eq (LC_write m c (j / 4) (Nat.le_of_not_lt ha) _).symm); iexact Hw
      iexact HO
  · -- no chunk of the own block moves
    rw [mainStep_plain c j hj h4, Prog.bind_assoc]
    have h1 : (j + 1 + 3) / 4 = (j + 3) / 4 := by omega
    unfold Inv3
    rw [h1]
    iintro ⟨⟨#HR, HY, HL, HO⟩, Hk⟩
    ihave HY' := (bigSep_update (YS (F := F) c j) (YS (F := F) c (j + 1)) ⟨j, hj⟩ (YS_other c j hj)) $$ HY
    icases HY' with ⟨Hj, HYb⟩
    iapply (xy_step m K c j hj Q k')
    isplitr; · iexact HR
    isplitl [Hj]; · iexact Hj
    isplitl [HO]; · iexact HO
    iintro ⟨Hj', HO⟩
    iapply Hk
    isplitr; · iexact HR
    isplitl [HYb Hj']; · iapply HYb; iexact Hj'
    isplitl [HL]; · iexact HL
    iexact HO

theorem phase3 {α : Type} (Q : α → sProp 𝕄) (k : PUnit → Prog (TpuEff nD τ sig (Elt F) Λ₀ .tc) α) :
    iprop(Inv3 m K c 0 ∗ (Inv3 m K c 64 -∗ WP (k ⟨⟩) Q))
      ⊢ WP (seqR (upTo 64 (mainStep (F := F) xM oM sM cc0_scratch1 cc0_scratch2 cc0_scratch4 cc0_scratch5 cc0_scratch6 c)) 0 64 >>= k) Q :=
  wp_seqR_then frame (wpE (defs₀ (F := F)) 𝒱₀ (c : Thread nD τ) none) Set.univ _ (Inv3 m K c) Q 64 0 k
    (fun j _ hj k' => step3 m K c j (by omega) Q k')

end Cert.Kernel.AG

end
-- ==== Proof.Bits.PhaseW.lean ====
/- The last waits: the last four writes of the own block, the sixty-four chunks from the column
   neighbour, and the departures of both phases' copies. -/
import proofs.«900079_g7700000000000080_dist_ag_v7x_xy2x2_x_m16384_n1024_f32_1_alg».proof.Proof.Bits.Families

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- Owing nothing, the device may wait on any cell. -/
theorem mayWait0 (sm : SemLoc sig) : (emp : sProp 𝕄) ⊢ MayWait (c : Thread nD τ) sm () 0 :=
  Entails.of_eq (MayWait_zero (c : Thread nD τ) sm ()).symm

/-- The write of chunk `j` (one of the last four) is awaited: its rows of the result and its slot are back. -/
theorem step4 (j : ℕ) (h1 : 12 ≤ j) (h2 : j < 16) {α : Type} (Q : α → sProp 𝕄)
    (k' : PUnit → Prog (TpuEff nD τ sig (Elt F) Λ₀ .tc) α) :
    iprop(Inv4 m K c j ∗ (Inv4 m K c (j + 1) -∗ WP (k' ⟨⟩) Q))
      ⊢ WP (upTo 16 (waitWr (F := F) oM sM cc0_scratch2 c) j >>= k') Q := by
  unfold upTo; rw [dif_pos h2]
  unfold Inv4 Rp
  iintro ⟨⟨⟨#Hrec, #Hlev⟩, HS, ⟨%W, HO⟩⟩, Hk⟩
  have hfam : ∀ k : Fin 16, k ≠ ⟨j, h2⟩ → LC4 m c j k = LC4 m c (j + 1) k := fun k hne => by
    have : k.val ≠ j := fun h => hne (Fin.ext h)
    unfold LC4
    by_cases h : k.val < 12
    · rw [if_pos h, if_pos h]
    · rw [if_neg h, if_neg h]
      by_cases h' : k.val < j
      · rw [if_pos h', if_pos (by omega)]
      · rw [if_neg h', if_neg (by omega)]
  ihave HS' := (bigSep_update (LC4 m c j) (LC4 m c (j + 1)) ⟨j, h2⟩ hfam) $$ HS
  icases HS' with ⟨Hj, Hback⟩
  ihave Hj := (Entails.of_eq (show LC4 m c j ⟨j, h2⟩
      = iprop(cred (tallyAt (dmaC c (wrS (slotOf ⟨j, h2⟩))) () NL)
        ∗ atPos ER (dmaC c (wrS (slotOf ⟨j, h2⟩))) (roundOf ⟨j, h2⟩) ∅ 0 ∗ atPos ER (dmaC c (rdS (slotOf ⟨j, h2⟩))) (roundOf ⟨j, h2⟩ + 1) ∅ 0) from by
    unfold LC4 InWrite; rw [if_neg (show ¬ j < 12 by omega), if_neg (Nat.lt_irrefl j)])) $$ Hj
  icases Hj with ⟨Hcr, Hat, Hrd⟩
  iapply (step_waitWr m c ⟨j, h2⟩ (K (dmaC c (wrS (slotOf ⟨j, h2⟩)))) 0 W k') $$ [Hcr HO Hat]
  · isplitr; · iapply (inv_dma m K c (wrS (slotOf ⟨j, h2⟩))); iexact Hrec
    isplitl [Hcr]; · iexact Hcr
    isplitl [HO]; · iexact HO
    isplitr; · iapply (mayWait0 (F := F) c (.dma (wrS (slotOf ⟨j, h2⟩)))); iempintro
    iexact Hat
  iintro ⟨HO, Hat, -, Hpay⟩
  ihave Hpay := (Entails.of_eq (show wrPay m c ⟨j, h2⟩
      = iprop(held c (ldst oM c ⟨j, h2⟩) (Gout m c) ∗ held c (slot sM (slotOf ⟨j, h2⟩)) (Sat m c ⟨j, h2⟩)) from rfl)) $$ Hpay
  icases Hpay with ⟨Hd, Hs⟩
  iapply Hk
  isplitr
  · isplitr; · iexact Hrec
    iexact Hlev
  isplitl [Hback Hat Hrd Hd Hs]
  · iapply Hback
    iapply (Entails.of_eq (show iprop(held (F := F) c (ldst oM c ⟨j, h2⟩) (Gout m c) ∗ held (F := F) c (slot sM (slotOf ⟨j, h2⟩)) (Sat m c ⟨j, h2⟩)
        ∗ atPos ER (dmaC c (wrS (slotOf ⟨j, h2⟩))) (roundOf ⟨j, h2⟩ + 1) ∅ 0 ∗ atPos ER (dmaC c (rdS (slotOf ⟨j, h2⟩))) (roundOf ⟨j, h2⟩ + 1) ∅ 0)
          = LC4 m c (j + 1) ⟨j, h2⟩ from by
      unfold LC4 DoneW; rw [if_neg (show ¬ j < 12 by omega), if_pos (Nat.lt_succ_self j)]))
    isplitl [Hd]; · iexact Hd
    isplitl [Hs]; · iexact Hs
    isplitl [Hat]; · iexact Hat
    iexact Hrd
  iexists _; iexact HO

theorem phase4 {α : Type} (Q : α → sProp 𝕄) (k : PUnit → Prog (TpuEff nD τ sig (Elt F) Λ₀ .tc) α) :
    iprop(Inv4 m K c 12 ∗ (Inv4 m K c 16 -∗ WP (k ⟨⟩) Q))
      ⊢ WP (seqR (upTo 16 (waitWr (F := F) oM sM cc0_scratch2 c)) 12 4 >>= k) Q :=
  wp_seqR_then frame (wpE (defs₀ (F := F)) 𝒱₀ (c : Thread nD τ) none) Set.univ _ (Inv4 m K c) Q 4 12 k
    (fun j h1 hj k' => step4 m K c j h1 (by omega) Q k')

/-- Chunk `j` from the column neighbour is awaited. -/
theorem step5 (j : ℕ) (hj : j < 64) {α : Type} (Q : α → sProp 𝕄)
    (k' : PUnit → Prog (TpuEff nD τ sig (Elt F) Λ₀ .tc) α) :
    iprop(Inv5 m K c j ∗ (Inv5 m K c (j + 1) -∗ WP (k' ⟨⟩) Q))
      ⊢ WP (upTo 64 (waitYr (F := F) oM cc0_scratch6 c) j >>= k') Q := by
  unfold upTo; rw [dif_pos hj]
  unfold Inv5 Rp
  iintro ⟨⟨⟨#Hrec, #Hlev⟩, HS, ⟨%W, HO⟩⟩, Hk⟩
  have hfam : ∀ j' : Fin 64, j' ≠ ⟨j, hj⟩ → RS m c j j' = RS m c (j + 1) j' := fun j' hne => by
    have : j'.val ≠ j := fun h => hne (Fin.ext h)
    unfold RS
    by_cases h : j'.val < j
    · rw [if_pos h, if_pos (by omega)]
    · rw [if_neg h, if_neg (by omega)]
  ihave HS' := (bigSep_update (RS m c j) (RS m c (j + 1)) ⟨j, hj⟩ hfam) $$ HS
  icases HS' with ⟨Hj, Hback⟩
  ihave Hj := (Entails.of_eq (show RS m c j ⟨j, hj⟩ = _ from if_neg (Nat.lt_irrefl j))) $$ Hj
  icases Hj with ⟨Hcr, Hat⟩
  iapply (step_waitYr m c ⟨j, hj⟩ (K (dmaC c (yrS ⟨j, hj⟩))) 0 W k') $$ [Hcr HO Hat]
  · isplitr; · iapply (inv_dma m K c (yrS ⟨j, hj⟩)); iexact Hrec
    isplitl [Hcr]; · iexact Hcr
    isplitl [HO]; · iexact HO
    isplitr; · iapply (mayWait0 (F := F) c (.dma (yrS ⟨j, hj⟩))); iempintro
    iexact Hat
  iintro ⟨HO, Hat, -, Hpay⟩
  iapply Hk
  isplitr
  · isplitr; · iexact Hrec
    iexact Hlev
  isplitl [Hback Hat Hpay]
  · iapply Hback
    iapply (Entails.of_eq (show iprop(atPos ER (dmaC c (yrS ⟨j, hj⟩)) 1 ∅ 0 ∗ yrPay m c ⟨j, hj⟩) = RS m c (j + 1) ⟨j, hj⟩ from
      (if_pos (Nat.lt_succ_self j)).symm))
    isplitl [Hat]; · iexact Hat
    iexact Hpay
  iexists _; iexact HO

theorem phase5 {α : Type} (Q : α → sProp 𝕄) (k : PUnit → Prog (TpuEff nD τ sig (Elt F) Λ₀ .tc) α) :
    iprop(Inv5 m K c 0 ∗ (Inv5 m K c 64 -∗ WP (k ⟨⟩) Q))
      ⊢ WP (seqR (upTo 64 (waitYr (F := F) oM cc0_scratch6 c)) 0 64 >>= k) Q :=
  wp_seqR_then frame (wpE (defs₀ (F := F)) 𝒱₀ (c : Thread nD τ) none) Set.univ _ (Inv5 m K c) Q 64 0 k
    (fun j _ hj k' => step5 m K c j (by omega) Q k')

/-- The two departures of chunk `j` are awaited. -/
theorem step6 (j : ℕ) (hj : j < 64) {α : Type} (Q : α → sProp 𝕄)
    (k' : PUnit → Prog (TpuEff nD τ sig (Elt F) Λ₀ .tc) α) :
    iprop(Inv6 m K c j ∗ (Inv6 m K c (j + 1) -∗ WP (k' ⟨⟩) Q))
      ⊢ WP (upTo 64 (fun i => waitXs (F := F) xM oM cc0_scratch3 c i >>= fun _ => waitYs (F := F) oM cc0_scratch5 c i) j >>= k') Q := by
  unfold upTo; rw [dif_pos hj, Prog.bind_assoc]
  unfold Inv6 Rp
  iintro ⟨⟨⟨#Hrec, #Hlev⟩, HS, ⟨%W, HO⟩⟩, Hk⟩
  have hfam : ∀ j' : Fin 64, j' ≠ ⟨j, hj⟩ → FS m c j j' = FS m c (j + 1) j' := fun j' hne => by
    have : j'.val ≠ j := fun h => hne (Fin.ext h)
    unfold FS
    by_cases h : j'.val < j
    · rw [if_pos h, if_pos (by omega)]
    · rw [if_neg h, if_neg (by omega)]
  ihave HS' := (bigSep_update (FS m c j) (FS m c (j + 1)) ⟨j, hj⟩ hfam) $$ HS
  icases HS' with ⟨Hj, Hback⟩
  ihave Hj := (Entails.of_eq (show FS m c j ⟨j, hj⟩ = _ from if_neg (Nat.lt_irrefl j))) $$ Hj
  icases Hj with ⟨Hcx, Hax, Hcy, Hay⟩
  iapply (step_waitXs m c ⟨j, hj⟩ (K (dmaC c (xsS ⟨j, hj⟩))) 0 W
      (fun _ => waitYs (F := F) oM cc0_scratch5 c ⟨j, hj⟩ >>= k')) $$ [Hcx HO Hax]
  · isplitr; · iapply (inv_dma m K c (xsS ⟨j, hj⟩)); iexact Hrec
    isplitl [Hcx]; · iexact Hcx
    isplitl [HO]; · iexact HO
    isplitr; · iapply (mayWait0 (F := F) c (.dma (xsS ⟨j, hj⟩))); iempintro
    iexact Hax
  iintro ⟨HO, Hax, -⟩
  iapply (step_waitYs m c ⟨j, hj⟩ (K (dmaC c (ysS ⟨j, hj⟩))) 0 (insert (SemLoc.dma (xsS ⟨j, hj⟩), ()) W) k') $$ [Hcy HO Hay]
  · isplitr; · iapply (inv_dma m K c (ysS ⟨j, hj⟩)); iexact Hrec
    isplitl [Hcy]; · iexact Hcy
    isplitl [HO]; · iexact HO
    isplitr; · iapply (mayWait0 (F := F) c (.dma (ysS ⟨j, hj⟩))); iempintro
    iexact Hay
  iintro ⟨HO, Hay, -, Hpay⟩
  iapply Hk
  isplitr
  · isplitr; · iexact Hrec
    iexact Hlev
  isplitl [Hback Hax Hay Hpay]
  · iapply Hback
    iapply (Entails.of_eq (show iprop(atPos ER (dmaC c (xsS ⟨j, hj⟩)) 1 ∅ 0 ∗ atPos ER (dmaC c (ysS ⟨j, hj⟩)) 1 ∅ 0 ∗ xrPay m c ⟨j, hj⟩)
        = FS m c (j + 1) ⟨j, hj⟩ from (if_pos (Nat.lt_succ_self j)).symm))
    isplitl [Hax]; · iexact Hax
    isplitl [Hay]; · iexact Hay
    iexact Hpay
  iexists _; iexact HO

theorem phase6 {α : Type} (Q : α → sProp 𝕄) (k : PUnit → Prog (TpuEff nD τ sig (Elt F) Λ₀ .tc) α) :
    iprop(Inv6 m K c 0 ∗ (Inv6 m K c 64 -∗ WP (k ⟨⟩) Q))
      ⊢ WP (seqR (upTo 64 (fun i => waitXs (F := F) xM oM cc0_scratch3 c i >>= fun _ => waitYs (F := F) oM cc0_scratch5 c i)) 0 64 >>= k) Q :=
  wp_seqR_then frame (wpE (defs₀ (F := F)) 𝒱₀ (c : Thread nD τ) none) Set.univ _ (Inv6 m K c) Q 64 0 k
    (fun j _ hj k' => step6 m K c j (by omega) Q k')

end Cert.Kernel.AG

end
-- ==== Proof.Bits.GlueStart.lean ====
/- Sorting what a device holds at launch into the phases' families. -/
import proofs.«900079_g7700000000000080_dist_ag_v7x_xy2x2_x_m16384_n1024_f32_1_alg».proof.Proof.Bits.Families

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- Chunk `j` of the first phase, the neighbour's landing chunk still to come. -/
def XSa (j : Fin 64) : sProp 𝕄 :=
  iprop((∃ q : PosShare TreeShare, (xsrc xM c j).view.loc (c : Thread nD τ) ↦[(xsrc xM c j).view.set]{q} X m c)
    ∗ dutyTok ER (dmaC c (xsS j)) 0 false ∗ dutyTok ER (dmaC (xn c) (xrS j)) 0 false)
/-- Chunk `j` of the second phase, the neighbour's landing chunk still to come. -/
def YSa (j : Fin 64) : sProp 𝕄 :=
  iprop(cred (tallyAt (dmaC c (xrS j)) () N) ∗ atPos ER (dmaC c (xrS j)) 0 ∅ 0
    ∗ dutyTok ER (dmaC c (ysS j)) 0 false ∗ dutyTok ER (dmaC (yn c) (yrS j)) 0 false)

/-- What the device holds at launch, sorted: the barrier's cell, credit and two tokens; the chunks of its
    result it hands its two neighbours; a share of its block; and the families of the phases. -/
def Pre0 : sProp 𝕄 :=
  iprop(Rp m K ∗ atPos ER (barC c) 0 ∅ 0 ∗ cred (tallyAt (barC c) () 2)
    ∗ dutyTok ER (barC (xn c)) 0 false ∗ dutyTok ER (barC (yn c)) 0 true
    ∗ barPayX (F := F) (xn c) ∗ barPayY (F := F) (yn c)
    ∗ (∃ q : PosShare TreeShare, ((c : Thread nD τ).loc main_arg0) ↦{q} X m c)
    ∗ bigSep Finset.univ (XSa m c) ∗ bigSep Finset.univ (LC2 m c 0) ∗ bigSep Finset.univ (YSa c)
    ∗ bigSep Finset.univ (RS m c 0)
    ∗ bigSep Finset.univ (fun j : Fin 64 => iprop(atPos ER (dmaC c (xsS j)) 0 ∅ 0 ∗ atPos ER (dmaC c (ysS j)) 0 ∅ 0)))

/-! ## Re-indexing the families -/

/-- The row neighbour's row neighbour is the device itself: the chunks it hands over are its own. -/
theorem barPayX_xn : barPayX (F := F) (xn c) = bigSep Finset.univ fun i : Fin 64 => iprop(∃ f, held (F := F) c (ypc oM c i) f) := by
  unfold barPayX; rw [xn_xn]
/-- Likewise across the other axis. -/
theorem barPayY_yn : barPayY (F := F) (yn c) = bigSep Finset.univ fun i : Fin 64 => iprop(∃ f, held (F := F) c (ypc oM (yn c) i) f) := by
  unfold barPayY; rw [yn_yn]

/-- An assertion per slot is one per chunk, nothing for the chunks past the first four. -/
theorem slot_family {M' : Type} [URA M'] (Ψ : Fin 4 → sProp M') :
    bigSep Finset.univ Ψ = bigSep Finset.univ fun k : Fin 16 => if k.val < 4 then Ψ (slotOf k) else iprop(emp) := by
  have hset : (Finset.univ.filter fun k : Fin 16 => k.val < 4) = Finset.univ.map ⟨Fin.castLE (by decide : 4 ≤ 16), Fin.castLE_injective _⟩ := by decide
  have h := bigSep_filter Finset.univ (fun k : Fin 16 => k.val < 4) (fun k => Ψ (slotOf k))
  rw [hset, bigSep_map] at h
  exact (bigSep_congr fun b _ => congrArg Ψ (Fin.ext (Nat.mod_eq_of_lt b.isLt).symm)).trans h

/-- The first phase's family before the handshake, by kind. -/
theorem XSa_family : bigSep Finset.univ (XSa m c)
    = iprop((bigSep Finset.univ fun j : Fin 64 => iprop(∃ q : PosShare TreeShare, (xsrc xM c j).view.loc (c : Thread nD τ) ↦[(xsrc xM c j).view.set]{q} X m c))
        ∗ (bigSep Finset.univ fun j : Fin 64 => dutyTok ER (dmaC c (xsS j)) 0 false)
        ∗ (bigSep Finset.univ fun j : Fin 64 => dutyTok ER (dmaC (xn c) (xrS j)) 0 false)) := by
  unfold XSa
  rw [bigSep_sep', bigSep_sep']

/-- The second phase's. -/
theorem YSa_family : bigSep Finset.univ (YSa (F := F) c)
    = iprop((bigSep Finset.univ fun j : Fin 64 => cred (tallyAt (dmaC c (xrS j)) () N))
        ∗ (bigSep Finset.univ fun j : Fin 64 => atPos ER (dmaC c (xrS j)) 0 ∅ 0)
        ∗ (bigSep Finset.univ fun j : Fin 64 => dutyTok ER (dmaC c (ysS j)) 0 false)
        ∗ (bigSep Finset.univ fun j : Fin 64 => dutyTok ER (dmaC (yn c) (yrS j)) 0 false)) := by
  unfold YSa
  rw [bigSep_sep', bigSep_sep', bigSep_sep']

/-- The last receives' family, nothing awaited. -/
theorem RS_zero_family : bigSep Finset.univ (RS m c 0)
    = iprop((bigSep Finset.univ fun j : Fin 64 => cred (tallyAt (dmaC c (yrS j)) () N))
        ∗ (bigSep Finset.univ fun j : Fin 64 => atPos ER (dmaC c (yrS j)) 0 ∅ 0)) := by
  rw [bigSep_congr (Ψ := fun j : Fin 64 => iprop(cred (tallyAt (dmaC c (yrS j)) () N) ∗ atPos ER (dmaC c (yrS j)) 0 ∅ 0))
    (fun j _ => by unfold RS; exact if_neg (Nat.not_lt_zero _)), bigSep_sep']

/-- The own block's family, no read started, by kind; the slots and their cells by slot. -/
theorem LC2_zero_family : bigSep Finset.univ (LC2 m c 0)
    = iprop((bigSep Finset.univ fun k : Fin 16 => iprop(∃ q : PosShare TreeShare, (lsrc xM k).view.loc (c : Thread nD τ) ↦[(lsrc xM k).view.set]{q} X m c))
        ∗ (bigSep Finset.univ fun k : Fin 16 => dutyTok ER (dmaC c (rdS (slotOf k))) (roundOf k) false)
        ∗ (bigSep Finset.univ fun k : Fin 16 => dutyTok ER (dmaC c (wrS (slotOf k))) (roundOf k) false)
        ∗ (bigSep Finset.univ fun k : Fin 16 => held (F := F) c (ldst oM c k) (f0 m c))
        ∗ (bigSep Finset.univ fun b : Fin 4 => iprop((∃ f, held (F := F) c (slot sM b) f)
            ∗ atPos ER (dmaC c (rdS b)) 0 ∅ 0 ∗ atPos ER (dmaC c (wrS b)) 0 ∅ 0))) := by
  rw [bigSep_congr (Ψ := Fresh m c) (fun k _ => by unfold LC2; exact if_neg (Nat.not_lt_zero _))]
  rw [slot_family (fun b : Fin 4 => iprop((∃ f, held (F := F) c (slot sM b) f) ∗ atPos ER (dmaC c (rdS b)) 0 ∅ 0 ∗ atPos ER (dmaC c (wrS b)) 0 ∅ 0))]
  unfold Fresh
  rw [bigSep_sep', bigSep_sep', bigSep_sep', bigSep_sep']

/-- Pieces held at some contents are held. -/
theorem held_some {sp : Space} {s : Shape} {e : EltTy} {I : Type} (S : Finset I) (M : I → Memref sig .tc sp s e)
    (f : (i : I) → Buf (Elt F) ((M i).view.loc (c : Thread nD τ))) :
    (bigSep S fun i => held (F := F) c (M i) (f i)) ⊢ bigSep S fun i => iprop(∃ f', held (F := F) c (M i) f') := by
  have h : ∀ i, held (F := F) c (M i) (f i) ⊢ iprop(∃ f', held (F := F) c (M i) f') := fun i => by
    iintro H; iexists (f i); iexact H
  exact bigSep_mono fun i _ => h i

theorem prep : Φ₀ m c ⊢ iprop(∃ K, Pre0 m K c) := by
  have hf0 : f0 m c = m ((c : Thread nD τ).loc main_v1) := rfl
  unfold Φ₀ start ghost positions payToks creds
  rw [← hf0]
  iintro ⟨⟨⟨%K, Hrec, ⟨HatB, Hpos⟩, HtBx, HtBy, Htxr, Htyr, Htxs, Htys, Htrd, Htwr⟩, ⟨HcB, Hcxr, Hcyr⟩, Hlev, Hx, Hout⟩, ⟨%fs, Hst⟩⟩
  ihave Hpos := (Entails.of_eq (dma_family_split (fun q : DmaSem sig => (atPos ER (dmaC c q) 0 ∅ 0 : sProp 𝕄)))) $$ Hpos
  icases Hpos with ⟨Prd, Pwr, Pxs, Pxr, Pys, Pyr⟩
  ihave Hx := (x_split m c) $$ Hx
  icases Hx with ⟨Hxk, Hxs, Hxl⟩
  ihave Hout := (out_split c (f0 m c)) $$ Hout
  icases Hout with ⟨Hol, Hox, Hoy⟩
  ihave Hst := (stage_split c fs) $$ Hst
  iexists K
  unfold Pre0 Rp
  isplitl [Hrec Hlev]
  · isplitl [Hrec]; · iexact Hrec
    iexact Hlev
  isplitl [HatB]; · iexact HatB
  isplitl [HcB]; · iexact HcB
  isplitl [HtBx]; · iexact HtBx
  isplitl [HtBy]; · iexact HtBy
  isplitl [Hox]
  · iapply (Entails.of_eq (barPayX_xn (F := F) c).symm)
    iapply (held_some c Finset.univ (fun i : Fin 64 => ypc oM c i) (fun _ => f0 m c)) $$ Hox
  isplitl [Hoy]
  · iapply (Entails.of_eq (barPayY_yn (F := F) c).symm)
    iapply (held_some c Finset.univ (fun i : Fin 64 => ypc oM (yn c) i) (fun _ => f0 m c)) $$ Hoy
  isplitl [Hxk]; · iexact Hxk
  isplitl [Hxs Htxs Htxr]
  · iapply (Entails.of_eq (XSa_family m c).symm)
    isplitl [Hxs]; · iexact Hxs
    isplitl [Htxs]; · iexact Htxs
    iexact Htxr
  isplitl [Hxl Htrd Htwr Hol Hst Prd Pwr]
  · iapply (Entails.of_eq (LC2_zero_family m c).symm)
    isplitl [Hxl]; · iexact Hxl
    isplitl [Htrd]; · iexact Htrd
    isplitl [Htwr]; · iexact Htwr
    isplitl [Hol]; · iexact Hol
    ihave Hst := (held_some c Finset.univ (fun b : Fin 4 => slot sM b) (fun _ => fs)) $$ Hst
    iapply (Entails.of_eq (bigSep_sep' Finset.univ (fun b : Fin 4 => iprop(∃ f, held (F := F) c (slot sM b) f))
      (fun b : Fin 4 => iprop(atPos ER (dmaC c (rdS b)) 0 ∅ 0 ∗ atPos ER (dmaC c (wrS b)) 0 ∅ 0))).symm)
    isplitl [Hst]; · iexact Hst
    iapply (Entails.of_eq (bigSep_sep' Finset.univ (fun b : Fin 4 => (atPos ER (dmaC c (rdS b)) 0 ∅ 0 : sProp 𝕄))
      (fun b : Fin 4 => (atPos ER (dmaC c (wrS b)) 0 ∅ 0 : sProp 𝕄))).symm)
    isplitl [Prd]; · iexact Prd
    iexact Pwr
  isplitl [Hcxr Pxr Htys Htyr]
  · iapply (Entails.of_eq (YSa_family (F := F) c).symm)
    isplitl [Hcxr]; · iexact Hcxr
    isplitl [Pxr]; · iexact Pxr
    isplitl [Htys]; · iexact Htys
    iexact Htyr
  isplitl [Hcyr Pyr]
  · iapply (Entails.of_eq (RS_zero_family m c).symm)
    isplitl [Hcyr]; · iexact Hcyr
    iexact Pyr
  iapply (Entails.of_eq (bigSep_sep' Finset.univ (fun j : Fin 64 => (atPos ER (dmaC c (xsS j)) 0 ∅ 0 : sProp 𝕄))
    (fun j : Fin 64 => (atPos ER (dmaC c (ysS j)) 0 ∅ 0 : sProp 𝕄))).symm)
  isplitl [Pxs]; · iexact Pxs
  iexact Pys

/-- The row neighbour's chunks, come with the barrier wait, complete the first phase's family. -/
theorem mergeX : iprop(bigSep Finset.univ (XSa m c) ∗ barPayX (F := F) c) ⊢ bigSep Finset.univ (XS m c 0) := by
  have perj : ∀ j : Fin 64, iprop(XSa m c j ∗ ∃ f, held (F := F) (xn c) (ypc oM (xn c) j) f) ⊢ XS m c 0 j := by
    intro j
    unfold XSa XS
    rw [if_neg (Nat.not_lt_zero _)]
    iintro ⟨⟨A, B, C⟩, D⟩
    isplitl [A]; · iexact A
    isplitl [D]; · iexact D
    isplitl [B]; · iexact B
    iexact C
  have hm : (bigSep Finset.univ fun j : Fin 64 => iprop(XSa m c j ∗ ∃ f, held (F := F) (xn c) (ypc oM (xn c) j) f))
      ⊢ bigSep Finset.univ (XS m c 0) := bigSep_mono fun j _ => perj j
  unfold barPayX
  rw [← bigSep_sep']
  exact hm

/-- The column neighbour's complete the second phase's. -/
theorem mergeY : iprop(bigSep Finset.univ (YSa (F := F) c) ∗ barPayY (F := F) c) ⊢ bigSep Finset.univ (YS (F := F) c 0) := by
  have perj : ∀ j : Fin 64, iprop(YSa (F := F) c j ∗ ∃ f, held (F := F) (yn c) (ypc oM c j) f) ⊢ YS (F := F) c 0 j := by
    intro j
    unfold YSa YS
    rw [if_neg (Nat.not_lt_zero _)]
    iintro ⟨⟨A, B, C, D⟩, E⟩
    isplitl [A]; · iexact A
    isplitl [B]; · iexact B
    isplitl [E]; · iexact E
    isplitl [C]; · iexact C
    iexact D
  have hm : (bigSep Finset.univ fun j : Fin 64 => iprop(YSa (F := F) c j ∗ ∃ f, held (F := F) (yn c) (ypc oM c j) f))
      ⊢ bigSep Finset.univ (YS (F := F) c 0) := bigSep_mono fun j _ => perj j
  unfold barPayY
  rw [← bigSep_sep']
  exact hm

theorem LC2_four : LC2 m c 4 = LC m c 0 := by
  funext k
  unfold LC2 LC
  rw [if_neg (Nat.not_lt_zero _), Nat.zero_add]

theorem LC_sixteen : LC m c 16 = LC4 m c 12 := by
  funext k
  unfold LC LC4
  rw [if_pos k.isLt]
  by_cases h : k.val < 12
  · rw [if_pos h, if_pos h]
  · rw [if_neg h, if_neg h, if_neg h]

end Cert.Kernel.AG

end
-- ==== Proof.Bits.GlueEnd.lean ====
/- Putting together what a device holds when its last wait has returned. -/
import proofs.«900079_g7700000000000080_dist_ag_v7x_xy2x2_x_m16384_n1024_f32_1_alg».proof.Proof.Bits.Families

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- After the first phase every chunk's member is the credit for its departure. -/
theorem XS_end : bigSep Finset.univ (XS m c 64) = bigSep Finset.univ fun j : Fin 64 => (cred (tallyAt (dmaC c (xsS j)) () N) : sProp 𝕄) := by
  refine bigSep_congr fun j _ => ?_
  unfold XS
  exact if_pos j.isLt

/-- The departures' family at its start: the first phase's credits, the second's, and the send cells' positions;
    the receive cells of the first phase, all awaited, stay aside. -/
theorem FS_start :
    iprop(bigSep Finset.univ (XS m c 64) ∗ bigSep Finset.univ (YS (F := F) c 64)
        ∗ bigSep Finset.univ (fun j : Fin 64 => iprop(atPos ER (dmaC c (xsS j)) 0 ∅ 0 ∗ atPos ER (dmaC c (ysS j)) 0 ∅ 0)))
      ⊢ iprop(bigSep Finset.univ (FS m c 0) ∗ bigSep Finset.univ fun j : Fin 64 => (atPos ER (dmaC c (xrS j)) 1 ∅ 0 : sProp 𝕄)) := by
  have e1 : iprop(bigSep Finset.univ (XS m c 64) ∗ bigSep Finset.univ (YS (F := F) c 64)
        ∗ bigSep Finset.univ (fun j : Fin 64 => iprop(atPos ER (dmaC c (xsS j)) 0 ∅ 0 ∗ atPos ER (dmaC c (ysS j)) 0 ∅ 0)))
      = bigSep Finset.univ fun j : Fin 64 => iprop(XS m c 64 j ∗ YS (F := F) c 64 j
          ∗ (atPos ER (dmaC c (xsS j)) 0 ∅ 0 ∗ atPos ER (dmaC c (ysS j)) 0 ∅ 0)) := by
    rw [bigSep_sep' Finset.univ (XS m c 64) (fun j : Fin 64 => iprop(YS (F := F) c 64 j
          ∗ (atPos ER (dmaC c (xsS j)) 0 ∅ 0 ∗ atPos ER (dmaC c (ysS j)) 0 ∅ 0))),
      bigSep_sep' Finset.univ (YS (F := F) c 64) (fun j : Fin 64 => iprop(atPos ER (dmaC c (xsS j)) 0 ∅ 0 ∗ atPos ER (dmaC c (ysS j)) 0 ∅ 0))]
  have perj : ∀ j : Fin 64, iprop(XS m c 64 j ∗ YS (F := F) c 64 j
          ∗ (atPos ER (dmaC c (xsS j)) 0 ∅ 0 ∗ atPos ER (dmaC c (ysS j)) 0 ∅ 0))
        ⊢ iprop(FS m c 0 j ∗ (atPos ER (dmaC c (xrS j)) 1 ∅ 0 : sProp 𝕄)) := by
    intro j
    have hx : XS m c 64 j = (cred (tallyAt (dmaC c (xsS j)) () N) : sProp 𝕄) := by unfold XS; exact if_pos j.isLt
    have hy : YS (F := F) c 64 j = iprop(cred (tallyAt (dmaC c (ysS j)) () N) ∗ atPos ER (dmaC c (xrS j)) 1 ∅ 0) := by
      unfold YS; exact if_pos j.isLt
    have hf : FS m c 0 j = iprop(cred (tallyAt (dmaC c (xsS j)) () N) ∗ atPos ER (dmaC c (xsS j)) 0 ∅ 0
        ∗ cred (tallyAt (dmaC c (ysS j)) () N) ∗ atPos ER (dmaC c (ysS j)) 0 ∅ 0) := by
      unfold FS; exact if_neg (Nat.not_lt_zero _)
    rw [hx, hy, hf]
    iintro ⟨Hcx, ⟨Hcy, Hxr⟩, Hax, Hay⟩
    isplitr [Hxr]
    · isplitl [Hcx]; · iexact Hcx
      isplitl [Hax]; · iexact Hax
      isplitl [Hcy]; · iexact Hcy
      iexact Hay
    · iexact Hxr
  have e2 : (bigSep Finset.univ fun j : Fin 64 => iprop(FS m c 0 j ∗ (atPos ER (dmaC c (xrS j)) 1 ∅ 0 : sProp 𝕄)))
      = iprop(bigSep Finset.univ (FS m c 0) ∗ bigSep Finset.univ fun j : Fin 64 => (atPos ER (dmaC c (xrS j)) 1 ∅ 0 : sProp 𝕄)) :=
    bigSep_sep' _ _ _
  exact (Entails.of_eq e1).trans ((bigSep_mono fun j _ => perj j).trans (Entails.of_eq e2))

/-! ## The end -/

/-- Of a family over the sixteen chunks, the last four members, by slot; the others are let go. -/
theorem bigSep_last_four (Φ : Fin 16 → sProp 𝕄) :
    bigSep Finset.univ Φ ⊢ bigSep Finset.univ fun b : Fin 4 => Φ ⟨b.val + 12, by omega⟩ := by
  classical
  let e : Fin 4 ↪ Fin 16 := ⟨fun b => ⟨b.val + 12, by omega⟩, fun a b h => Fin.ext (by
    have h' : a.val + 12 = b.val + 12 := congrArg Fin.val h
    omega)⟩
  exact (bigSep_subset (Finset.subset_univ (Finset.univ.map e))).trans (Entails.of_eq (bigSep_map e))

/-- What chunk `k`'s slot gives back at the end: the slot and its two cells' positions from the last four
    chunks, nothing from the others. -/
def SlotBack (k : Fin 16) : sProp 𝕄 :=
  if 12 ≤ k.val then iprop(held (F := F) c (slot sM (slotOf k)) (Sat m c k)
    ∗ atPos ER (dmaC c (wrS (slotOf k))) (roundOf k + 1) ∅ 0 ∗ atPos ER (dmaC c (rdS (slotOf k))) (roundOf k + 1) ∅ 0)
  else iprop(emp)

theorem LC4_end_one (k : Fin 16) :
    LC4 m c 16 k ⊢ iprop(held (F := F) c (ldst oM c k) (Gout m c) ∗ SlotBack m c k) := by
  unfold LC4 SlotBack
  by_cases h : k.val < 12
  · rw [if_pos h, if_neg (by omega)]
    unfold DoneL
    iintro H
    isplitl [H]; · iexact H
    iempintro
  · rw [if_neg h, if_pos k.isLt, if_pos (by omega)]
    unfold DoneW
    exact .rfl

theorem SlotBack_last (b : Fin 4) :
    SlotBack m c ⟨b.val + 12, by omega⟩ ⊢ iprop((∃ f, held (F := F) c (slot sM b) f)
      ∗ atPos ER (dmaC c (wrS b)) 4 ∅ 0 ∗ atPos ER (dmaC c (rdS b)) 4 ∅ 0) := by
  have hs : slotOf ⟨b.val + 12, by omega⟩ = b := Fin.ext (by show (b.val + 12) % 4 = b.val; omega)
  have hr : roundOf ⟨b.val + 12, by omega⟩ + 1 = 4 := by show (b.val + 12) / 4 + 1 = 4; omega
  unfold SlotBack
  rw [if_pos (show 12 ≤ b.val + 12 by omega), hr, hs]
  iintro ⟨H, Hw, Hr⟩
  isplitl [H]; · iexists _; iexact H
  isplitl [Hw] <;> iassumption

/-- The sixteen chunks of the device's own block at the end: their rows of the result at the expected contents,
    the four slots, and the slots' cells with all four rounds consumed. -/
theorem LC4_end :
    bigSep Finset.univ (LC4 m c 16)
      ⊢ iprop((bigSep Finset.univ fun k : Fin 16 => held (F := F) c (ldst oM c k) (Gout m c))
          ∗ (bigSep Finset.univ fun b : Fin 4 => iprop(∃ f, held (F := F) c (slot sM b) f))
          ∗ (bigSep Finset.univ fun b : Fin 4 => (atPos ER (dmaC c (wrS b)) 4 ∅ 0 : sProp 𝕄))
          ∗ (bigSep Finset.univ fun b : Fin 4 => (atPos ER (dmaC c (rdS b)) 4 ∅ 0 : sProp 𝕄))) := by
  have e1 : (bigSep Finset.univ fun k : Fin 16 => iprop(held (F := F) c (ldst oM c k) (Gout m c) ∗ SlotBack m c k))
      = iprop((bigSep Finset.univ fun k : Fin 16 => held (F := F) c (ldst oM c k) (Gout m c)) ∗ bigSep Finset.univ (SlotBack m c)) :=
    bigSep_sep' _ _ _
  have e2 : (bigSep Finset.univ fun b : Fin 4 => iprop((∃ f, held (F := F) c (slot sM b) f)
        ∗ atPos ER (dmaC c (wrS b)) 4 ∅ 0 ∗ atPos ER (dmaC c (rdS b)) 4 ∅ 0))
      = iprop((bigSep Finset.univ fun b : Fin 4 => iprop(∃ f, held (F := F) c (slot sM b) f))
          ∗ bigSep Finset.univ fun b : Fin 4 => iprop(atPos ER (dmaC c (wrS b)) 4 ∅ 0 ∗ (atPos ER (dmaC c (rdS b)) 4 ∅ 0 : sProp 𝕄))) :=
    bigSep_sep' _ _ _
  have e3 : (bigSep Finset.univ fun b : Fin 4 => iprop(atPos ER (dmaC c (wrS b)) 4 ∅ 0 ∗ (atPos ER (dmaC c (rdS b)) 4 ∅ 0 : sProp 𝕄)))
      = iprop((bigSep Finset.univ fun b : Fin 4 => (atPos ER (dmaC c (wrS b)) 4 ∅ 0 : sProp 𝕄))
          ∗ (bigSep Finset.univ fun b : Fin 4 => (atPos ER (dmaC c (rdS b)) 4 ∅ 0 : sProp 𝕄))) :=
    bigSep_sep' _ _ _
  have hm : (bigSep Finset.univ fun b : Fin 4 => SlotBack m c ⟨b.val + 12, by omega⟩)
      ⊢ bigSep Finset.univ fun b : Fin 4 => iprop((∃ f, held (F := F) c (slot sM b) f)
        ∗ atPos ER (dmaC c (wrS b)) 4 ∅ 0 ∗ atPos ER (dmaC c (rdS b)) 4 ∅ 0) :=
    bigSep_mono fun b _ => SlotBack_last m c b
  refine BIBase.Entails.trans ((bigSep_mono fun k _ => LC4_end_one m c k).trans (Entails.of_eq e1)) ?_
  iintro ⟨H1, H2⟩
  isplitl [H1]; · iexact H1
  ihave H2 := (bigSep_last_four (SlotBack m c)) $$ H2
  ihave H2 := (hm) $$ H2
  ihave H2 := (Entails.of_eq e2) $$ H2
  icases H2 with ⟨H2, H3⟩
  isplitl [H2]; · iexact H2
  iapply (Entails.of_eq e3)
  iexact H3

/-- The chunks from the column neighbour at the end: their cells' positions, and their rows of the result. -/
theorem RS_end :
    bigSep Finset.univ (RS m c 64)
      = iprop((bigSep Finset.univ fun j : Fin 64 => (atPos ER (dmaC c (yrS j)) 1 ∅ 0 : sProp 𝕄))
          ∗ (bigSep Finset.univ fun j : Fin 64 => held (F := F) c (ypc oM (yn c) j) (Gout m c))) := by
  rw [← bigSep_sep']
  refine bigSep_congr fun j _ => ?_
  unfold RS yrPay
  exact if_pos j.isLt

/-- The departures at the end: the send cells' positions, and the forwarded rows of the result. -/
theorem FS_end :
    bigSep Finset.univ (FS m c 64)
      = iprop((bigSep Finset.univ fun j : Fin 64 => (atPos ER (dmaC c (xsS j)) 1 ∅ 0 : sProp 𝕄))
          ∗ (bigSep Finset.univ fun j : Fin 64 => (atPos ER (dmaC c (ysS j)) 1 ∅ 0 : sProp 𝕄))
          ∗ (bigSep Finset.univ fun j : Fin 64 => held (F := F) c (ypc oM c j) (Gout m c))) := by
  rw [← bigSep_sep', ← bigSep_sep']
  refine bigSep_congr fun j _ => ?_
  unfold FS xrPay
  exact if_pos j.isLt

/-- A family of the device's cells of one round each, every one with its round consumed, closes. -/
theorem close_fam_big {J : Type} [Fintype J] (qf : J → DmaSem sig) (h : ∀ j, 8 ≤ (qf j).val) :
    iprop(records (F := F) m K ∗ bigSep Finset.univ fun j : J => (atPos ER (dmaC c (qf j)) 1 ∅ 0 : sProp 𝕄))
      ⊢ (|={Set.univ}=> bigSep Finset.univ fun j : J => (semVal (dmaC c (qf j)) 0 : sProp 𝕄) : sProp 𝕄) := by
  classical
  refine (bigSep_with_persistent (Ψ := fun j : J => iprop(|={Set.univ}=> (semVal (dmaC c (qf j)) 0 : sProp 𝕄)))
    fun j _ => ?_).trans (bigSep_fupd _ _)
  iintro ⟨#Hrec, Hp⟩
  iapply (close_big m c (qf j) (K (dmaC c (qf j))) (h j))
  isplitr
  · iapply (inv_dma m K c (qf j)); iexact Hrec
  · iexact Hp

/-- The same for the slots' cells, of four rounds each. -/
theorem close_fam_small {J : Type} [Fintype J] (qf : J → DmaSem sig) (h : ∀ j, (qf j).val < 8) :
    iprop(records (F := F) m K ∗ bigSep Finset.univ fun j : J => (atPos ER (dmaC c (qf j)) 4 ∅ 0 : sProp 𝕄))
      ⊢ (|={Set.univ}=> bigSep Finset.univ fun j : J => (semVal (dmaC c (qf j)) 0 : sProp 𝕄) : sProp 𝕄) := by
  classical
  refine (bigSep_with_persistent (Ψ := fun j : J => iprop(|={Set.univ}=> (semVal (dmaC c (qf j)) 0 : sProp 𝕄)))
    fun j _ => ?_).trans (bigSep_fupd _ _)
  iintro ⟨#Hrec, Hp⟩
  iapply (close_small m c (qf j) (K (dmaC c (qf j))) (h j))
  isplitr
  · iapply (inv_dma m K c (qf j)); iexact Hrec
  · iexact Hp

/-- The end: the result's 144 pieces, all at the expected contents, are the result; the four slots the staging
    buffer; every DMA cell, all its rounds consumed, closes and gives its counter back at zero. -/
theorem final :
    iprop(Rp m K ∗ (∃ q : PosShare TreeShare, ((c : Thread nD τ).loc main_arg0) ↦{q} X m c)
        ∗ bigSep Finset.univ (LC4 m c 16) ∗ bigSep Finset.univ (RS m c 64) ∗ bigSep Finset.univ (FS m c 64)
        ∗ bigSep Finset.univ (fun j : Fin 64 => (atPos ER (dmaC c (xrS j)) 1 ∅ 0 : sProp 𝕄)))
      ⊢ (|={Set.univ}=> Φ₁ m c : sProp 𝕄) := by
  classical
  unfold Rp Φ₁
  iintro ⟨⟨#Hrec, #Hlev⟩, Hx, HL, HR, HF, HXR⟩
  ihave HL := (LC4_end m c) $$ HL
  icases HL with ⟨HLd, HSl, HW, HRd⟩
  ihave HR := (Entails.of_eq (RS_end m c)) $$ HR
  icases HR with ⟨HYR, HYd⟩
  ihave HF := (Entails.of_eq (FS_end m c)) $$ HF
  icases HF with ⟨HXS, HYS, HXd⟩
  ihave Hout := (out_join (F := F) c (Gout m c)) $$ [HLd HXd HYd]
  · isplitl [HLd]; · iexact HLd
    isplitl [HXd]; · iexact HXd
    iexact HYd
  ihave Hst := (stage_join (F := F) c) $$ HSl
  imod (close_fam_small m K c rdS (fun b => by rw [rdS_val]; omega)) $$ [HRd] with Hrd
  · isplitr; · iexact Hrec
    iexact HRd
  imod (close_fam_small m K c wrS (fun b => by rw [wrS_val]; omega)) $$ [HW] with Hwr
  · isplitr; · iexact Hrec
    iexact HW
  imod (close_fam_big m K c xsS (fun j => by rw [xsS_val]; omega)) $$ [HXS] with Hxs
  · isplitr; · iexact Hrec
    iexact HXS
  imod (close_fam_big m K c xrS (fun j => by rw [xrS_val]; omega)) $$ [HXR] with Hxr
  · isplitr; · iexact Hrec
    iexact HXR
  imod (close_fam_big m K c ysS (fun j => by rw [ysS_val]; omega)) $$ [HYS] with Hys
  · isplitr; · iexact Hrec
    iexact HYS
  imod (close_fam_big m K c yrS (fun j => by rw [yrS_val]; omega)) $$ [HYR] with Hyr
  · isplitr; · iexact Hrec
    iexact HYR
  imodintro
  isplitl [Hout]; · iexact Hout
  isplitl [Hx]; · iexact Hx
  isplitl [Hst]; · iexact Hst
  iapply (Entails.of_eq (dma_family_split (fun q : DmaSem sig => (semVal (dmaC c q) 0 : sProp 𝕄))).symm)
  isplitl [Hrd]; · iexact Hrd
  isplitl [Hwr]; · iexact Hwr
  isplitl [Hxs]; · iexact Hxs
  isplitl [Hxr]; · iexact Hxr
  isplitl [Hys]; · iexact Hys
  iexact Hyr

end Cert.Kernel.AG

end
-- ==== Proof.Bits.Sound.lean ====
/- The whole body of one device, from what it holds at launch to what it must give back. -/
import proofs.«900079_g7700000000000080_dist_ag_v7x_xy2x2_x_m16384_n1024_f32_1_alg».proof.Proof.Bits.Families
import proofs.«900079_g7700000000000080_dist_ag_v7x_xy2x2_x_m16384_n1024_f32_1_alg».proof.Proof.Bits.Phase0
import proofs.«900079_g7700000000000080_dist_ag_v7x_xy2x2_x_m16384_n1024_f32_1_alg».proof.Proof.Bits.Phase1
import proofs.«900079_g7700000000000080_dist_ag_v7x_xy2x2_x_m16384_n1024_f32_1_alg».proof.Proof.Bits.Phase2
import proofs.«900079_g7700000000000080_dist_ag_v7x_xy2x2_x_m16384_n1024_f32_1_alg».proof.Proof.Bits.Phase3
import proofs.«900079_g7700000000000080_dist_ag_v7x_xy2x2_x_m16384_n1024_f32_1_alg».proof.Proof.Bits.PhaseW
import proofs.«900079_g7700000000000080_dist_ag_v7x_xy2x2_x_m16384_n1024_f32_1_alg».proof.Proof.Bits.GlueStart
import proofs.«900079_g7700000000000080_dist_ag_v7x_xy2x2_x_m16384_n1024_f32_1_alg».proof.Proof.Bits.GlueEnd

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

theorem sound_body (Kt : PUnit → sProp 𝕄) :
    iprop(Φ₀ m c ∗ (∃ W, owes (c : Thread nD τ) (O₀ c) W) ∗ ((Φ₁ m c ∗ ∃ W, owes (c : Thread nD τ) 0 W) -∗ Kt ⟨⟩))
      ⊢ WP (kbody (F := F) xM oM sM cc0_scratch1 cc0_scratch2 cc0_scratch3 cc0_scratch4 cc0_scratch5 cc0_scratch6) Kt := by
  unfold kbody
  simp only [Prog.bind_lift, wp_deviceId, dev1_eq, dev2_eq]
  have hprep := prep m c
  unfold Pre0 at hprep
  iintro ⟨HΦ, HO, Hk⟩
  ihave HP := hprep $$ HΦ
  icases HP with ⟨%K, #HR, Hatb, Hcrb, Htx, Hty, Hpx, Hpy, Hx, HXa, HL2, HYa, HRS, Hsend⟩
  have h0 := @phase0 F _ m K c
  have h1 := @phase1 F _ m K c (OY c 0)
  have h2 := @phase2 F _ m K c (OY c 0)
  have h3 := @phase3 F _ m K c
  have h4 := @phase4 F _ m K c
  have h5 := @phase5 F _ m K c
  have h6 := @phase6 F _ m K c
  unfold Inv1 at h1; unfold Inv2 at h2; unfold Inv3 at h3; unfold Inv4 at h4; unfold Inv5 at h5; unfold Inv6 at h6
  -- the handshake
  iapply (h0 Kt _)
  isplitr; · iexact HR
  isplitl [Hatb]; · iexact Hatb
  isplitl [Hcrb]; · iexact Hcrb
  isplitl [Htx]; · iexact Htx
  isplitl [Hty]; · iexact Hty
  isplitl [Hpx]; · iexact Hpx
  isplitl [Hpy]; · iexact Hpy
  isplitl [HO]; · iexact HO
  iintro ⟨Hbx, Hby, HO⟩
  ihave HX := (mergeX m c) $$ [HXa Hbx]
  · isplitl [HXa]; · iexact HXa
    iexact Hbx
  ihave HY := (mergeY (F := F) c) $$ [HYa Hby]
  · isplitl [HYa]; · iexact HYa
    iexact Hby
  -- the first phase
  iapply (h1 Kt _)
  isplitl [HX HO]
  · isplitr; · iexact HR
    isplitl [HX]; · iexact HX
    iexact HO
  iintro ⟨-, HX, ⟨%W1, HO⟩⟩
  ihave HO := (Entails.of_eq (congrArg (fun O => (owes (c : Thread nD τ) O W1 : sProp 𝕄)) (show OX c (0 + 64) + OY c 0 = OY c 0 by rw [show (0 + 64) = 64 from rfl, OX_end, zero_add]))) $$ HO
  -- the first four reads
  iapply (h2 Kt _)
  isplitl [HL2 HO]
  · isplitr; · iexact HR
    isplitl [HL2]; · iexact HL2
    iexists W1; iexact HO
  iintro ⟨-, HL, HO⟩
  ihave HL := (Entails.of_eq (congrArg (fun f => (bigSep Finset.univ f : sProp 𝕄)) (LC2_four m c))) $$ HL
  -- the second phase
  iapply (h3 Kt _)
  isplitl [HY HL HO]
  · isplitr; · iexact HR
    isplitl [HY]; · iexact HY
    isplitl [HL]; · iexact HL
    iexact HO
  iintro ⟨-, HY, HL, ⟨%W3, HO⟩⟩
  ihave HO := (Entails.of_eq (congrArg (fun O => (owes (c : Thread nD τ) O W3 : sProp 𝕄)) (OY_end c))) $$ HO
  ihave HL := (Entails.of_eq (congrArg (fun f => (bigSep Finset.univ f : sProp 𝕄)) (LC_sixteen m c))) $$ HL
  -- the last writes
  iapply (h4 Kt _)
  isplitl [HL HO]
  · isplitr; · iexact HR
    isplitl [HL]; · iexact HL
    iexists W3; iexact HO
  iintro ⟨-, HL, HO⟩
  -- the chunks from the column neighbour
  iapply (h5 Kt _)
  isplitl [HRS HO]
  · isplitr; · iexact HR
    isplitl [HRS]; · iexact HRS
    iexact HO
  iintro ⟨-, HRS, HO⟩
  -- the departures
  ihave HF := (FS_start m c) $$ [HX HY Hsend]
  · isplitl [HX]; · iexact HX
    isplitl [HY]; · iexact HY
    iexact Hsend
  icases HF with ⟨HF, Hxr⟩
  iapply (Entails.of_eq (congrArg (fun p => WP p Kt) (Prog.bind_pure _)))
  iapply (h6 Kt pure)
  isplitl [HF HO]
  · isplitr; · iexact HR
    isplitl [HF]; · iexact HF
    iexact HO
  iintro ⟨-, HF, HO⟩
  -- the end
  imod (final m K c) $$ [Hx HL HRS HF Hxr] with HΦ1
  · isplitr; · iexact HR
    isplitl [Hx]; · iexact Hx
    isplitl [HL]; · iexact HL
    isplitl [HRS]; · iexact HRS
    isplitl [HF]; · iexact HF
    iexact Hxr
  iapply (le_wp_ret frame (wpE (defs₀ (F := F)) 𝒱₀ (c : Thread nD τ) none) Set.univ PUnit.unit Kt)
  iapply Hk
  isplitl [HΦ1]; · iexact HΦ1
  iexact HO

end Cert.Kernel.AG

end
-- ==== Proof.Bits.Body.lean ====
/- The library's body obligation on each device: the printed body is the short program, whose run is proved. -/
import proofs.«900079_g7700000000000080_dist_ag_v7x_xy2x2_x_m16384_n1024_f32_1_alg».proof.Proof.Bits.Families
import proofs.«900079_g7700000000000080_dist_ag_v7x_xy2x2_x_m16384_n1024_f32_1_alg».proof.Proof.Bits.Sound
import proofs.«900079_g7700000000000080_dist_ag_v7x_xy2x2_x_m16384_n1024_f32_1_alg».proof.Proof.Gen.Kernel.Launch

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
variable (K : GSem nD τ sig → ℕ) (c : Dev nD)

set_option quotPrecheck false in
local notation "WP" => wp frame (wpE (defs₀ (F := F)) 𝒱₀ (c : Thread nD τ) none) Set.univ

/-- The pipeline of this kernel stages no window: a product over its windows is empty. -/
theorem bigSep_noWindow (Φ : Fin cfg0.W → sProp 𝕄) : bigSep Finset.univ Φ = (iprop(emp) : sProp 𝕄) := by
  rw [show (Finset.univ : Finset (Fin cfg0.W)) = ∅ from Finset.eq_empty_of_forall_notMem fun w => w.elim0]
  exact bigSep_empty

/-- At the one grid point the pipeline calls the printed body on the whole arrays, and that call is the short program. -/
theorem body_call : defs₀ (F := F) .tc cfg0.body (cfg0.bodyArgs t0_0 (cfg0.slots t0_0))
    = kbody (F := F) xM oM sM cc0_scratch1 cc0_scratch2 cc0_scratch3 cc0_scratch4 cc0_scratch5 cc0_scratch6 := by
  unfold defs₀; rw [Defs.onTc_tc]
  exact body_eq _ _ _ _ _ _ _ _ _ _ _ _

/-- The invariant and the dues before and after the one grid point. -/
theorem dats_Φ_first : (dats (F := F) m 0 c).Φ t0_0.castSucc = Φ₀ m c := rfl
theorem dats_Φ_last : (dats (F := F) m 0 c).Φ t0_0.succ = Φ₁ m c := rfl
theorem dats_owed_first : (dats (F := F) m 0 c).owed t0_0.castSucc = O₀ c := rfl
theorem dats_owed_last : (dats (F := F) m 0 c).owed t0_0.succ = 0 := rfl

/-- The library's body obligation on device `c`: the short program runs from what the device holds at launch,
    owing `O₀ c`, to what it must give back, owing nothing. -/
theorem body_obligation : BodyObligation (dats (F := F) m 0 c) (defs₀ (F := F)) 𝒱₀ () Set.univ := fun t => by
  rw [fin_N0 t, bigSep_noWindow, bigSep_noWindow, body_call]
  unfold Dat.owesAt Pipeline.owesWithin
  rw [dats_Φ_first, dats_Φ_last, dats_owed_first, dats_owed_last]
  iintro ⟨HΦ, ⟨%W, -, HO⟩, -⟩
  iapply (sound_body m c)
  isplitl [HΦ]; · iexact HΦ
  isplitl [HO]; · iexists W; iexact HO
  iintro ⟨HΦ, ⟨%W', HO⟩⟩
  isplitl [HΦ]; · iexact HΦ
  isplitl [HO]
  · iexists W'
    isplitr; · ipureintro; exact fun _ _ => Or.inl trivial
    iexact HO
  iempintro

end Cert.Kernel.AG

end
-- ==== Proof.lean ====
/- The claim assembled. On the 2 × 2 mesh the all-gather kernel runs, leaves every device's block of the input unchanged
   and every device's result holding the whole array whose blocks the devices started with; the reference returns that array. -/
import proofs.«900079_g7700000000000080_dist_ag_v7x_xy2x2_x_m16384_n1024_f32_1_alg».proof.Defs
import proofs.«900079_g7700000000000080_dist_ag_v7x_xy2x2_x_m16384_n1024_f32_1_alg».proof.Proof.Gen.Kernel
import proofs.«900079_g7700000000000080_dist_ag_v7x_xy2x2_x_m16384_n1024_f32_1_alg».proof.Proof.Gen.Kernel.Skeleton
import proofs.«900079_g7700000000000080_dist_ag_v7x_xy2x2_x_m16384_n1024_f32_1_alg».proof.Proof.Gen.Kernel.Launch
import proofs.«900079_g7700000000000080_dist_ag_v7x_xy2x2_x_m16384_n1024_f32_1_alg».proof.Proof.Gen.Kernel.Points
import proofs.«900079_g7700000000000080_dist_ag_v7x_xy2x2_x_m16384_n1024_f32_1_alg».proof.Proof.Gen.Kernel.Frame
import proofs.«900079_g7700000000000080_dist_ag_v7x_xy2x2_x_m16384_n1024_f32_1_alg».proof.Proof.Gen.KernelIdeal
import proofs.«900079_g7700000000000080_dist_ag_v7x_xy2x2_x_m16384_n1024_f32_1_alg».proof.Proof.Gen.KernelIdeal.Skeleton
import proofs.«900079_g7700000000000080_dist_ag_v7x_xy2x2_x_m16384_n1024_f32_1_alg».proof.Proof.Gen.KernelIdeal.Launch
import proofs.«900079_g7700000000000080_dist_ag_v7x_xy2x2_x_m16384_n1024_f32_1_alg».proof.Proof.Gen.KernelIdeal.Points
import proofs.«900079_g7700000000000080_dist_ag_v7x_xy2x2_x_m16384_n1024_f32_1_alg».proof.Proof.Gen.KernelIdeal.Frame
import proofs.«900079_g7700000000000080_dist_ag_v7x_xy2x2_x_m16384_n1024_f32_1_alg».proof.Proof.Gen.ReferenceIdeal
import proofs.«900079_g7700000000000080_dist_ag_v7x_xy2x2_x_m16384_n1024_f32_1_alg».proof.Proof.Gen.Pre_finite_inputs_Kernel
import proofs.«900079_g7700000000000080_dist_ag_v7x_xy2x2_x_m16384_n1024_f32_1_alg».proof.Proof.Gen.Pre_finite_inputs_ReferenceIdeal
import Idealize.ShloMosaic.Adequacy
import Idealize.ShloMosaic.Init
import proofs.«900079_g7700000000000080_dist_ag_v7x_xy2x2_x_m16384_n1024_f32_1_alg».proof.Proof.Launch
import proofs.«900079_g7700000000000080_dist_ag_v7x_xy2x2_x_m16384_n1024_f32_1_alg».proof.Proof.Value
import proofs.«900079_g7700000000000080_dist_ag_v7x_xy2x2_x_m16384_n1024_f32_1_alg».proof.Proof.Body
import proofs.«900079_g7700000000000080_dist_ag_v7x_xy2x2_x_m16384_n1024_f32_1_alg».proof.Proof.Bits.Launch
import proofs.«900079_g7700000000000080_dist_ag_v7x_xy2x2_x_m16384_n1024_f32_1_alg».proof.Proof.Bits.Body

noncomputable section

namespace Cert.Proof

open Idealize.ShloMosaic Idealize.SL.Sem
open Idealize.ShloMosaic.Pipeline (BodyObligation)

/-- The five conjuncts, from each device's body at the ideal instance and the kernel's frame at the word-level
    instance: the two frames of the ideal programs and the value claim are the ideal run with its post weakened,
    the gathered array being the whole array when every block is its part of it. -/
theorem claim_of
    (hI : ∀ (m : (ℓ : Loc Cert.KernelIdeal.nD Cert.KernelIdeal.τ Cert.KernelIdeal.sig) → Buf (Elt Ideal) ℓ) (c : Dev Cert.KernelIdeal.nD),
      BodyObligation (Cert.KernelIdeal.AG.dats (F := Ideal) m 0 c) (Cert.KernelIdeal.defs₀ (F := Ideal)) Cert.KernelIdeal.AG.𝒱₀ () Set.univ)
    (hB : Cert.frame_Kernel (hKernel := Cert.Kernel.Gen.facts) (hPre_finite_inputs_Kernel := Cert.Pre_finite_inputs_Kernel.Gen.facts)) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    hB,
    fun m g _ => (θ_run _ _ _).mono (fun _ h c => (h c).2) (Cert.KernelIdeal.AG.run_main m g (hI m)),
    fun m g _ => Cert.ReferenceIdeal.AG.run_main m g,
    trivial,
    fun m g m' g' _ hagree =>
      ⟨m' (((0 : Dev Cert.ReferenceIdeal.nD).tc : Thread Cert.ReferenceIdeal.nD Cert.ReferenceIdeal.τ).loc Cert.ReferenceIdeal.main_arg0),
        (θ_run _ _ _).mono (fun _ h c => ⟨(h c).1.trans (Cert.KernelIdeal.AG.Gout_whole m _ hagree c), (h c).2⟩)
          (Cert.KernelIdeal.AG.run_main m g (hI m)),
        (θ_run _ _ _).mono (fun _ h => ⟨h 0, h 0⟩) (Cert.ReferenceIdeal.AG.run_main m' g')⟩⟩

theorem claim : Cert.Claim :=
  claim_of (fun m c => Cert.KernelIdeal.AG.body_obligation m c)
    (fun m g _ => (θ_run _ _ _).mono (fun _ h c => (h c).2) (Cert.Kernel.AG.run_main m g (Cert.Kernel.AG.body_obligation m)))

end Cert.Proof

end
